-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102_1)) (v1 : (c : Dev Cert.KernelIdeal.nD) → Buf (Elt Ideal) ((c.tc : Thread Cert.KernelIdeal.nD Cert.KernelIdeal.τ).loc Cert.KernelIdeal.main_v102_0)) (v2 : (c : Dev Cert.KernelIdeal.nD) → Buf (Elt Ideal) ((c.tc : Thread Cert.KernelIdeal.nD Cert.KernelIdeal.τ).loc Cert.KernelIdeal.main_v124)) (v3 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102_1) = v0 c
          ∧ r.2.mem ((c.tc : Thread Cert.KernelIdeal.nD Cert.KernelIdeal.τ).loc Cert.KernelIdeal.main_v102_0) = v1 c
          ∧ r.2.mem ((c.tc : Thread Cert.KernelIdeal.nD Cert.KernelIdeal.τ).loc Cert.KernelIdeal.main_v124) = v2 c
          ∧ r.2.mem ((c.tc : Thread Cert.KernelIdeal.nD Cert.KernelIdeal.τ).loc Cert.KernelIdeal.main_v139) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S12288x128 .f32) (main_arg1 : IVec S2x196608 32) (main_arg2 : IVec S12288 32) (main_arg3 : FVec F S256x128 .f32) (main_arg4 : FVec F S128 .f32) (main_arg5 : FVec F S256x256 .f32) (main_arg6 : FVec F S256 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S1x196608 : Shape := ⟨2, ![1, 196608]⟩
abbrev S196608 : Shape := ⟨1, ![196608]⟩
abbrev S_ : Shape := ⟨0, ![]⟩
abbrev S196608x1 : Shape := ⟨2, ![196608, 1]⟩
abbrev S196608x128 : Shape := ⟨2, ![196608, 128]⟩
abbrev S12288x1 : Shape := ⟨2, ![12288, 1]⟩
abbrev S12288x256 : Shape := ⟨2, ![12288, 256]⟩
abbrev S1x128 : Shape := ⟨2, ![1, 128]⟩
abbrev S1x256 : Shape := ⟨2, ![1, 256]⟩
abbrev S196608x256 : Shape := ⟨2, ![196608, 256]⟩
abbrev S2048x256 : Shape := ⟨2, ![2048, 256]⟩
abbrev S2048x128 : Shape := ⟨2, ![2048, 128]⟩
abbrev S256x2048 : Shape := ⟨2, ![256, 2048]⟩
abbrev S12288x12288 : Shape := ⟨2, ![12288, 12288]⟩
abbrev S196608x2 : Shape := ⟨2, ![196608, 2]⟩
abbrev S1024x1024 : Shape := ⟨2, ![1024, 1024]⟩
abbrev S1024x256 : Shape := ⟨2, ![1024, 256]⟩
abbrev S1024x128 : Shape := ⟨2, ![1024, 128]⟩
abbrev S256x1024 : Shape := ⟨2, ![256, 1024]⟩
abbrev S1024 : Shape := ⟨1, ![1024]⟩
abbrev S1024x1 : Shape := ⟨2, ![1024, 1]⟩

abbrev nBuf : Space → Nat
  | .hbm => 214
  | .vmem => 16
  | .smem => 0
  | _ => 0

abbrev hbmTy0_0 (i : Nat) : BufTy := match i % 128 with
  | 0 => ⟨S12288x128, .f32⟩
  | 1 => ⟨S2x196608, .i32⟩
  | 2 => ⟨S12288, .i32⟩
  | 3 => ⟨S256x128, .f32⟩
  | 4 => ⟨S128, .f32⟩
  | 5 => ⟨S256x256, .f32⟩
  | 6 => ⟨S256, .f32⟩
  | 7 => ⟨S1x196608, .i32⟩
  | 8 => ⟨S196608, .i32⟩
  | 9 => ⟨S1x196608, .i32⟩
  | 10 => ⟨S196608, .i32⟩
  | 11 => ⟨S_, .i32⟩
  | 12 => ⟨S196608, .i32⟩
  | 13 => ⟨S196608, .i1⟩
  | 14 => ⟨S_, .i32⟩
  | 15 => ⟨S196608, .i32⟩
  | 16 => ⟨S196608, .i32⟩
  | 17 => ⟨S196608, .i32⟩
  | 18 => ⟨S196608x1, .i32⟩
  | 19 => ⟨S196608x128, .f32⟩
  | 20 => ⟨S_, .f32⟩
  | 21 => ⟨S12288x128, .f32⟩
  | 22 => ⟨S196608x1, .i32⟩
  | 23 => ⟨S12288x128, .f32⟩
  | 24 => ⟨S_, .f32⟩
  | 25 => ⟨S196608, .f32⟩
  | 26 => ⟨S_, .f32⟩
  | 27 => ⟨S12288, .f32⟩
  | 28 => ⟨S196608x1, .i32⟩
  | 29 => ⟨S12288, .f32⟩
  | 30 => ⟨S_, .f32⟩
  | 31 => ⟨S12288, .f32⟩
  | 32 => ⟨S12288, .f32⟩
  | 33 => ⟨S12288x1, .f32⟩
  | 34 => ⟨S12288x128, .f32⟩
  | 35 => ⟨S12288x128, .f32⟩
  | 36 => ⟨S12288x256, .f32⟩
  | 37 => ⟨S12288x128, .f32⟩
  | 38 => ⟨S1x128, .f32⟩
  | 39 => ⟨S12288x128, .f32⟩
  | 40 => ⟨S12288x128, .f32⟩
  | 41 => ⟨S12288x128, .f32⟩
  | 42 => ⟨S_, .f32⟩
  | 43 => ⟨S12288, .f32⟩
  | 44 => ⟨S12288x1, .f32⟩
  | 45 => ⟨S12288x1, .f32⟩
  | 46 => ⟨S_, .f32⟩
  | 47 => ⟨S12288x1, .f32⟩
  | 48 => ⟨S12288x1, .f32⟩
  | 49 => ⟨S12288x128, .f32⟩
  | 50 => ⟨S12288x128, .f32⟩
  | 51 => ⟨S_, .i32⟩
  | 52 => ⟨S196608, .i32⟩
  | 53 => ⟨S196608, .i1⟩
  | 54 => ⟨S_, .i32⟩
  | 55 => ⟨S196608, .i32⟩
  | 56 => ⟨S196608, .i32⟩
  | 57 => ⟨S196608, .i32⟩
  | 58 => ⟨S196608x1, .i32⟩
  | 59 => ⟨S196608x128, .f32⟩
  | 60 => ⟨S_, .f32⟩
  | 61 => ⟨S12288x128, .f32⟩
  | 62 => ⟨S196608x1, .i32⟩
  | 63 => ⟨S12288x128, .f32⟩
  | 64 => ⟨S_, .f32⟩
  | 65 => ⟨S196608, .f32⟩
  | 66 => ⟨S_, .f32⟩
  | 67 => ⟨S12288, .f32⟩
  | 68 => ⟨S196608x1, .i32⟩
  | 69 => ⟨S12288, .f32⟩
  | 70 => ⟨S_, .f32⟩
  | 71 => ⟨S12288, .f32⟩
  | 72 => ⟨S12288, .f32⟩
  | 73 => ⟨S12288x1, .f32⟩
  | 74 => ⟨S12288x128, .f32⟩
  | 75 => ⟨S12288x128, .f32⟩
  | 76 => ⟨S12288x256, .f32⟩
  | 77 => ⟨S12288x256, .f32⟩
  | 78 => ⟨S1x256, .f32⟩
  | 79 => ⟨S12288x256, .f32⟩
  | 80 => ⟨S12288x256, .f32⟩
  | 81 => ⟨S12288x256, .f32⟩
  | 82 => ⟨S_, .f32⟩
  | 83 => ⟨S12288, .f32⟩
  | 84 => ⟨S12288x1, .f32⟩
  | 85 => ⟨S12288x1, .f32⟩
  | 86 => ⟨S_, .f32⟩
  | 87 => ⟨S12288x1, .f32⟩
  | 88 => ⟨S12288x1, .f32⟩
  | 89 => ⟨S12288x256, .f32⟩
  | 90 => ⟨S12288x256, .f32⟩
  | 91 => ⟨S256, .i32⟩
  | 92 => ⟨S_, .i32⟩
  | 93 => ⟨S_, .i32⟩
  | 94 => ⟨S256, .i32⟩
  | 95 => ⟨S256, .i32⟩
  | 96 => ⟨S256, .i32⟩
  | 97 => ⟨S_, .i32⟩
  | 98 => ⟨S256, .i32⟩
  | 99 => ⟨S256, .i1⟩
  | 100 => ⟨S256, .i32⟩
  | 101 => ⟨S256, .i32⟩
  | 102 => ⟨S_, .i32⟩
  | 103 => ⟨S256, .i32⟩
  | 104 => ⟨S256, .i1⟩
  | 105 => ⟨S256, .i1⟩
  | 106 => ⟨S_, .i32⟩
  | 107 => ⟨S256, .i32⟩
  | 108 => ⟨S256, .i32⟩
  | 109 => ⟨S256, .i32⟩
  | 110 => ⟨S12288x1, .i32⟩
  | 111 => ⟨S1x256, .i32⟩
  | 112 => ⟨S12288x256, .i32⟩
  | 113 => ⟨S12288x256, .i32⟩
  | 114 => ⟨S12288x256, .i1⟩
  | 115 => ⟨S12288x256, .f32⟩
  | 116 => ⟨S12288x256, .f32⟩
  | 117 => ⟨S_, .f32⟩
  | 118 => ⟨S12288, .f32⟩
  | 119 => ⟨S_, .f32⟩
  | 120 => ⟨S12288, .f32⟩
  | 121 => ⟨S12288, .f32⟩
  | 122 => ⟨S12288x1, .f32⟩
  | 123 => ⟨S12288x256, .f32⟩
  | 124 => ⟨S12288x256, .f32⟩
  | 125 => ⟨S12288x256, .f32⟩
  | 126 => ⟨S_, .f32⟩
  | 127 => ⟨S12288, .f32⟩
  | _ => ⟨S12288x128, .f32⟩

abbrev hbmTy0_1 (i : Nat) : BufTy := match i % 128 with
  | 0 => ⟨S12288x1, .f32⟩
  | 1 => ⟨S12288x256, .f32⟩
  | 2 => ⟨S12288x256, .f32⟩
  | 3 => ⟨S12288x256, .f32⟩
  | 4 => ⟨S_, .f32⟩
  | 5 => ⟨S12288, .f32⟩
  | 6 => ⟨S12288x1, .f32⟩
  | 7 => ⟨S_, .f32⟩
  | 8 => ⟨S12288x1, .f32⟩
  | 9 => ⟨S12288x1, .f32⟩
  | 10 => ⟨S12288x256, .f32⟩
  | 11 => ⟨S12288x256, .f32⟩
  | 12 => ⟨S_, .i32⟩
  | 13 => ⟨S196608, .i32⟩
  | 14 => ⟨S196608, .i1⟩
  | 15 => ⟨S_, .i32⟩
  | 16 => ⟨S196608, .i32⟩
  | 17 => ⟨S196608, .i32⟩
  | 18 => ⟨S196608, .i32⟩
  | 19 => ⟨S196608x1, .i32⟩
  | 20 => ⟨S196608x256, .f32⟩
  | 21 => ⟨S_, .f32⟩
  | 22 => ⟨S12288x256, .f32⟩
  | 23 => ⟨S196608x1, .i32⟩
  | 24 => ⟨S12288x256, .f32⟩
  | 25 => ⟨S12288x256, .bf16⟩
  | 26 => ⟨S12288x128, .bf16⟩
  | 27 => ⟨S12288x256, .bf16⟩
  | 28 => ⟨S256x128, .f32⟩
  | 29 => ⟨S256x256, .f32⟩
  | 30 => ⟨S_, .f32⟩
  | 31 => ⟨S12288x12288, .f32⟩
  | 32 => ⟨S_, .i32⟩
  | 33 => ⟨S196608, .i32⟩
  | 34 => ⟨S196608, .i1⟩
  | 35 => ⟨S_, .i32⟩
  | 36 => ⟨S196608, .i32⟩
  | 37 => ⟨S196608, .i32⟩
  | 38 => ⟨S196608, .i32⟩
  | 39 => ⟨S_, .i32⟩
  | 40 => ⟨S196608, .i32⟩
  | 41 => ⟨S196608, .i1⟩
  | 42 => ⟨S_, .i32⟩
  | 43 => ⟨S196608, .i32⟩
  | 44 => ⟨S196608, .i32⟩
  | 45 => ⟨S196608, .i32⟩
  | 46 => ⟨S196608x1, .i32⟩
  | 47 => ⟨S196608x1, .i32⟩
  | 48 => ⟨S196608x2, .i32⟩
  | 49 => ⟨S_, .f32⟩
  | 50 => ⟨S196608, .f32⟩
  | 51 => ⟨S12288x12288, .f32⟩
  | 52 => ⟨S12288x128, .f32⟩
  | 53 => ⟨S12288x1, .f32⟩
  | 54 => ⟨S12288, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S12288, .f32⟩
  | 62 => ⟨S12288x1, .f32⟩
  | 63 => ⟨S12288x256, .f32⟩
  | 64 => ⟨S12288x256, .f32⟩
  | 65 => ⟨S_, .f32⟩
  | 66 => ⟨S12288x256, .f32⟩
  | 67 => ⟨S12288x256, .i1⟩
  | 68 => ⟨S_, .f32⟩
  | 69 => ⟨S12288x256, .f32⟩
  | 70 => ⟨S12288x256, .i1⟩
  | 71 => ⟨S_, .f32⟩
  | 72 => ⟨S_, .f32⟩
  | 73 => ⟨S12288x256, .f32⟩
  | 74 => ⟨S12288x256, .f32⟩
  | 75 => ⟨S12288x256, .f32⟩
  | 76 => ⟨S12288x256, .f32⟩
  | 77 => ⟨S_, .f32⟩
  | 78 => ⟨S_, .f32⟩
  | 79 => ⟨S12288x256, .f32⟩
  | 80 => ⟨S12288x256, .f32⟩
  | 81 => ⟨S_, .f32⟩
  | 82 => ⟨S12288, .f32⟩
  | 83 => ⟨S12288, .f32⟩
  | 84 => ⟨S_, .f32⟩
  | 85 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S256x128, .f32⟩
  | .local _ .vmem, ⟨7, _⟩ => ⟨S256x256, .f32⟩
  | .local _ .vmem, ⟨8, _⟩ => ⟨S1024x1024, .f32⟩
  | .local _ .vmem, ⟨9, _⟩ => ⟨S1024x1024, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x128, .f32⟩
  | .local _ .vmem, ⟨15, _⟩ => ⟨S1024x128, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_13 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_15 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_16 : Ref sig .tc := ⟨.hbm, 132, rfl⟩
abbrev main_v83 : Ref sig .tc := ⟨.hbm, 133, rfl⟩
abbrev main_v84 : Ref sig .tc := ⟨.hbm, 134, rfl⟩
abbrev main_cst_17 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_18 : Ref sig .tc := ⟨.hbm, 140, rfl⟩
abbrev main_v89 : Ref sig .tc := ⟨.hbm, 141, rfl⟩
abbrev main_v90 : Ref sig .tc := ⟨.hbm, 142, rfl⟩
abbrev main_c_19 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_20 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102_0 : Ref sig .tc := ⟨.hbm, 156, rfl⟩
abbrev main_v102_1 : Ref sig .tc := ⟨.hbm, 157, rfl⟩
abbrev main_cst_21 : Ref sig .tc := ⟨.hbm, 158, rfl⟩
abbrev main_v103 : Ref sig .tc := ⟨.hbm, 159, rfl⟩
abbrev main_c_22 : Ref sig .tc := ⟨.hbm, 160, rfl⟩
abbrev main_v104 : Ref sig .tc := ⟨.hbm, 161, rfl⟩
abbrev main_v105 : Ref sig .tc := ⟨.hbm, 162, rfl⟩
abbrev main_c_23 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_c_24 : Ref sig .tc := ⟨.hbm, 167, rfl⟩
abbrev main_v109 : Ref sig .tc := ⟨.hbm, 168, rfl⟩
abbrev main_v110 : Ref sig .tc := ⟨.hbm, 169, rfl⟩
abbrev main_c_25 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_26 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_27 : Ref sig .tc := ⟨.hbm, 183, rfl⟩
abbrev main_v122 : Ref sig .tc := ⟨.hbm, 184, rfl⟩
abbrev main_v123 : Ref sig .tc := ⟨.hbm, 185, rfl⟩
abbrev main_cst_28 : Ref sig .tc := ⟨.hbm, 186, rfl⟩
abbrev main_v124 : Ref sig .tc := ⟨.hbm, 187, rfl⟩
abbrev main_cst_29 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_30 : Ref sig .tc := ⟨.hbm, 193, rfl⟩
abbrev main_v129 : Ref sig .tc := ⟨.hbm, 194, rfl⟩
abbrev main_v130 : Ref sig .tc := ⟨.hbm, 195, rfl⟩
abbrev main_cst_31 : Ref sig .tc := ⟨.hbm, 196, rfl⟩
abbrev main_v131 : Ref sig .tc := ⟨.hbm, 197, rfl⟩
abbrev main_v132 : Ref sig .tc := ⟨.hbm, 198, rfl⟩
abbrev main_cst_32 : Ref sig .tc := ⟨.hbm, 199, rfl⟩
abbrev main_call3_v0 : Ref sig .tc := ⟨.hbm, 200, rfl⟩
abbrev main_call3_v1 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_33 : Ref sig .tc := ⟨.hbm, 205, rfl⟩
abbrev main_call4_v0 : Ref sig .tc := ⟨.hbm, 206, rfl⟩
abbrev main_call4_v1 : Ref sig .tc := ⟨.hbm, 207, rfl⟩
abbrev main_v136 : Ref sig .tc := ⟨.hbm, 208, rfl⟩
abbrev main_cst_34 : Ref sig .tc := ⟨.hbm, 209, rfl⟩
abbrev main_v137 : Ref sig .tc := ⟨.hbm, 210, rfl⟩
abbrev main_v138 : Ref sig .tc := ⟨.hbm, 211, rfl⟩
abbrev main_cst_35 : Ref sig .tc := ⟨.hbm, 212, rfl⟩
abbrev main_v139 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  bcast_S_S12288x128 : S_.BroadcastsInDim S12288x128 (![] : Fin 0 → Fin S12288x128.rank)
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  concatenates_S12288x128_S12288x128_S12288x256_d1 : Shape.Concatenates [S12288x128, S12288x128] S12288x256 1
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S12288_d1 : S12288x128.ReducesTo [1] S12288
  h_S_ : 0 < S_.numel
  bcast_S_S12288x1 : S_.BroadcastsInDim S12288x1 (![] : Fin 0 → Fin S12288x1.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  reducesTo_S12288x256_S12288_d1 : S12288x256.ReducesTo [1] S12288
  bcast_S12288x1_S12288x256_0_1 : S12288x1.BroadcastsInDim S12288x256 (![0, 1] : Fin 2 → Fin S12288x256.rank)
  bcast_S_S256 : S_.BroadcastsInDim S256 (![] : Fin 0 → Fin S256.rank)
  bcast_S_S12288x256 : S_.BroadcastsInDim S12288x256 (![] : Fin 0 → Fin S12288x256.rank)
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S256x256_S256x256 : S256x256.ShapeCasts S256x256
  bcast_S_S12288x12288 : S_.BroadcastsInDim S12288x12288 (![] : Fin 0 → Fin S12288x12288.rank)
  concatenates_S196608x1_S196608x1_S196608x2_d1 : Shape.Concatenates [S196608x1, S196608x1] S196608x2 1
  inb_S1024x128_S1024x128_0_0 : ∀ a, (![0, 0] : Fin 2 → Nat) a + S1024x128.size a ≤ S1024x128.size a
  h_S1024x128 : 0 < S1024x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  shapeCasts_S1024x128_S1024x128 : S1024x128.ShapeCasts S1024x128
  shapeCasts_S1024x1_S1024x1 : S1024x1.ShapeCasts S1024x1
  broadcasts_S1024x1_S1024x128 : S1024x1.Broadcasts S1024x128
  slices_S12288x128_S12288x1_0_0 : S12288x128.Slices ![0, 0] S12288x1
  shapeCasts_S12288x1_S12288 : S12288x1.ShapeCasts S12288
  reducesTo_S12288_S_d0 : S12288.ReducesTo [0] S_
  gather_S12288x128_S196608x1_S196608x128_1_0_n_n_0_1_1128_wf : GatherDims.WF S12288x128 S196608x1 S196608x128 [1] [0] [] [0] [] 1 ![1, 128]
  scatter_S12288x128_S196608x1_S196608x128_1_0_0_1_wf : ScatterDims.WF S12288x128 S196608x1 S196608x128 [1] [0] [0] 1
  scatter_S12288_S196608x1_S196608_n_0_0_1_wf : ScatterDims.WF S12288 S196608x1 S196608 [] [0] [0] 1
  dot_S12288x256_S256x128_S12288x128_1_0_0_1_n_n_wf : DotDims.WF S12288x256 S256x128 S12288x128 [1] [0] [0] [1] [] []
  dot_S12288x256_S256x256_S12288x256_1_0_0_1_n_n_wf : DotDims.WF S12288x256 S256x256 S12288x256 [1] [0] [0] [1] [] []
  gather_S12288x256_S196608x1_S196608x256_1_0_n_n_0_1_1256_wf : GatherDims.WF S12288x256 S196608x1 S196608x256 [1] [0] [] [0] [] 1 ![1, 256]
  scatter_S12288x256_S196608x1_S196608x256_1_0_0_1_wf : ScatterDims.WF S12288x256 S196608x1 S196608x256 [1] [0] [0] 1
  dot_S256x2048_S2048x128_S256x128_1_0_0_1_n_n_wf : DotDims.WF S256x2048 S2048x128 S256x128 [1] [0] [0] [1] [] []
  dot_S256x2048_S2048x256_S256x256_1_0_0_1_n_n_wf : DotDims.WF S256x2048 S2048x256 S256x256 [1] [0] [0] [1] [] []
  scatter_S12288x12288_S196608x2_S196608_n_01_01_1_wf : ScatterDims.WF S12288x12288 S196608x2 S196608 [] [0, 1] [0, 1] 1
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S12288x256.size a
  hwx0_0 : ∀ i : grid0.Coords, EltTy.bits .bf16 = 32 ∨ (Rect.block (s := S12288x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S12288x128.size a
  hwx0_1 : ∀ i : grid0.Coords, EltTy.bits .bf16 = 32 ∨ (Rect.block (s := S12288x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S12288x256.size a
  hwx0_2 : ∀ i : grid0.Coords, EltTy.bits .bf16 = 32 ∨ (Rect.block (s := S12288x256) S2048x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S12288x12288.size a
  hwx1_0 : ∀ i : grid1.Coords, EltTy.bits .f32 = 32 ∨ (Rect.block (s := S12288x12288) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S12288x256.size a
  hwx1_1 : ∀ i : grid1.Coords, EltTy.bits .bf16 = 32 ∨ (Rect.block (s := S12288x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S12288x256.size a
  hwx1_2 : ∀ i : grid1.Coords, EltTy.bits .bf16 = 32 ∨ (Rect.block (s := S12288x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S12288x128.size a
  hwx1_3 : ∀ i : grid1.Coords, EltTy.bits .f32 = 32 ∨ (Rect.block (s := S12288x128) S1024x128.size (cc1_transform_3 i) (hinb1_3 i)).WholeWords (EltTy.packing .f32)

variable [Facts₀]

def gather_S12288x128_S196608x1_S196608x128_1_0_n_n_0_1_1128 : GatherDims S12288x128 S196608x1 S196608x128 where
  offsetDims := [1]
  collapsedSliceDims := [0]
  operandBatchingDims := []
  startIndicesBatchingDims := []
  startIndexMap := [0]
  indexVectorDim := 1
  sliceSizes := ![1, 128]
  wf := gather_S12288x128_S196608x1_S196608x128_1_0_n_n_0_1_1128_wf
def scatter_S12288x128_S196608x1_S196608x128_1_0_0_1 : ScatterDims S12288x128 S196608x1 S196608x128 where
  updateWindowDims := [1]
  insertedWindowDims := [0]
  scatterDimsToOperandDims := [0]
  indexVectorDim := 1
  wf := scatter_S12288x128_S196608x1_S196608x128_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S12288x256_S196608x1_S196608x256_1_0_n_n_0_1_1256 : GatherDims S12288x256 S196608x1 S196608x256 where
  offsetDims := [1]
  collapsedSliceDims := [0]
  operandBatchingDims := []
  startIndicesBatchingDims := []
  startIndexMap := [0]
  indexVectorDim := 1
  sliceSizes := ![1, 256]
  wf := gather_S12288x256_S196608x1_S196608x256_1_0_n_n_0_1_1256_wf
def scatter_S12288x256_S196608x1_S196608x256_1_0_0_1 : ScatterDims S12288x256 S196608x1 S196608x256 where
  updateWindowDims := [1]
  insertedWindowDims := [0]
  scatterDimsToOperandDims := [0]
  indexVectorDim := 1
  wf := scatter_S12288x256_S196608x1_S196608x256_1_0_0_1_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def scatter_S12288x12288_S196608x2_S196608_n_01_01_1 : ScatterDims S12288x12288 S196608x2 S196608 where
  updateWindowDims := []
  insertedWindowDims := [0, 1]
  scatterDimsToOperandDims := [0, 1]
  indexVectorDim := 1
  wf := scatter_S12288x12288_S196608x2_S196608_n_01_01_1_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v99) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v101) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v102_0) S256x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v102_1) S256x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v118) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v119) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S1x196608 : Shape := ⟨2, ![1, 196608]⟩
abbrev S196608 : Shape := ⟨1, ![196608]⟩
abbrev S_ : Shape := ⟨0, ![]⟩
abbrev S196608x1 : Shape := ⟨2, ![196608, 1]⟩
abbrev S196608x128 : Shape := ⟨2, ![196608, 128]⟩
abbrev S12288x1 : Shape := ⟨2, ![12288, 1]⟩
abbrev S12288x256 : Shape := ⟨2, ![12288, 256]⟩
abbrev S1x128 : Shape := ⟨2, ![1, 128]⟩
abbrev S1x256 : Shape := ⟨2, ![1, 256]⟩
abbrev S256x12288 : Shape := ⟨2, ![256, 12288]⟩
abbrev S196608x256 : Shape := ⟨2, ![196608, 256]⟩
abbrev S12288x12288 : Shape := ⟨2, ![12288, 12288]⟩
abbrev S196608x2 : Shape := ⟨2, ![196608, 2]⟩

abbrev nBuf : Space → Nat
  | .hbm => 214
  | .vmem => 0
  | .smem => 0
  | _ => 0

abbrev hbmTy0_0 (i : Nat) : BufTy := match i % 128 with
  | 0 => ⟨S12288x128, .f32⟩
  | 1 => ⟨S2x196608, .i32⟩
  | 2 => ⟨S12288, .i32⟩
  | 3 => ⟨S256x128, .f32⟩
  | 4 => ⟨S128, .f32⟩
  | 5 => ⟨S256x256, .f32⟩
  | 6 => ⟨S256, .f32⟩
  | 7 => ⟨S1x196608, .i32⟩
  | 8 => ⟨S196608, .i32⟩
  | 9 => ⟨S1x196608, .i32⟩
  | 10 => ⟨S196608, .i32⟩
  | 11 => ⟨S_, .i32⟩
  | 12 => ⟨S196608, .i32⟩
  | 13 => ⟨S196608, .i1⟩
  | 14 => ⟨S_, .i32⟩
  | 15 => ⟨S196608, .i32⟩
  | 16 => ⟨S196608, .i32⟩
  | 17 => ⟨S196608, .i32⟩
  | 18 => ⟨S196608x1, .i32⟩
  | 19 => ⟨S196608x128, .f32⟩
  | 20 => ⟨S_, .f32⟩
  | 21 => ⟨S12288x128, .f32⟩
  | 22 => ⟨S196608x1, .i32⟩
  | 23 => ⟨S12288x128, .f32⟩
  | 24 => ⟨S_, .f32⟩
  | 25 => ⟨S196608, .f32⟩
  | 26 => ⟨S_, .f32⟩
  | 27 => ⟨S12288, .f32⟩
  | 28 => ⟨S196608x1, .i32⟩
  | 29 => ⟨S12288, .f32⟩
  | 30 => ⟨S_, .f32⟩
  | 31 => ⟨S12288, .f32⟩
  | 32 => ⟨S12288, .f32⟩
  | 33 => ⟨S12288x1, .f32⟩
  | 34 => ⟨S12288x128, .f32⟩
  | 35 => ⟨S12288x128, .f32⟩
  | 36 => ⟨S12288x256, .f32⟩
  | 37 => ⟨S12288x128, .f32⟩
  | 38 => ⟨S1x128, .f32⟩
  | 39 => ⟨S12288x128, .f32⟩
  | 40 => ⟨S12288x128, .f32⟩
  | 41 => ⟨S12288x128, .f32⟩
  | 42 => ⟨S_, .f32⟩
  | 43 => ⟨S12288, .f32⟩
  | 44 => ⟨S12288x1, .f32⟩
  | 45 => ⟨S12288x1, .f32⟩
  | 46 => ⟨S_, .f32⟩
  | 47 => ⟨S12288x1, .f32⟩
  | 48 => ⟨S12288x1, .f32⟩
  | 49 => ⟨S12288x128, .f32⟩
  | 50 => ⟨S12288x128, .f32⟩
  | 51 => ⟨S_, .i32⟩
  | 52 => ⟨S196608, .i32⟩
  | 53 => ⟨S196608, .i1⟩
  | 54 => ⟨S_, .i32⟩
  | 55 => ⟨S196608, .i32⟩
  | 56 => ⟨S196608, .i32⟩
  | 57 => ⟨S196608, .i32⟩
  | 58 => ⟨S196608x1, .i32⟩
  | 59 => ⟨S196608x128, .f32⟩
  | 60 => ⟨S_, .f32⟩
  | 61 => ⟨S12288x128, .f32⟩
  | 62 => ⟨S196608x1, .i32⟩
  | 63 => ⟨S12288x128, .f32⟩
  | 64 => ⟨S_, .f32⟩
  | 65 => ⟨S196608, .f32⟩
  | 66 => ⟨S_, .f32⟩
  | 67 => ⟨S12288, .f32⟩
  | 68 => ⟨S196608x1, .i32⟩
  | 69 => ⟨S12288, .f32⟩
  | 70 => ⟨S_, .f32⟩
  | 71 => ⟨S12288, .f32⟩
  | 72 => ⟨S12288, .f32⟩
  | 73 => ⟨S12288x1, .f32⟩
  | 74 => ⟨S12288x128, .f32⟩
  | 75 => ⟨S12288x128, .f32⟩
  | 76 => ⟨S12288x256, .f32⟩
  | 77 => ⟨S12288x256, .f32⟩
  | 78 => ⟨S1x256, .f32⟩
  | 79 => ⟨S12288x256, .f32⟩
  | 80 => ⟨S12288x256, .f32⟩
  | 81 => ⟨S12288x256, .f32⟩
  | 82 => ⟨S_, .f32⟩
  | 83 => ⟨S12288, .f32⟩
  | 84 => ⟨S12288x1, .f32⟩
  | 85 => ⟨S12288x1, .f32⟩
  | 86 => ⟨S_, .f32⟩
  | 87 => ⟨S12288x1, .f32⟩
  | 88 => ⟨S12288x1, .f32⟩
  | 89 => ⟨S12288x256, .f32⟩
  | 90 => ⟨S12288x256, .f32⟩
  | 91 => ⟨S256, .i32⟩
  | 92 => ⟨S_, .i32⟩
  | 93 => ⟨S_, .i32⟩
  | 94 => ⟨S256, .i32⟩
  | 95 => ⟨S256, .i32⟩
  | 96 => ⟨S256, .i32⟩
  | 97 => ⟨S_, .i32⟩
  | 98 => ⟨S256, .i32⟩
  | 99 => ⟨S256, .i1⟩
  | 100 => ⟨S256, .i32⟩
  | 101 => ⟨S256, .i32⟩
  | 102 => ⟨S_, .i32⟩
  | 103 => ⟨S256, .i32⟩
  | 104 => ⟨S256, .i1⟩
  | 105 => ⟨S256, .i1⟩
  | 106 => ⟨S_, .i32⟩
  | 107 => ⟨S256, .i32⟩
  | 108 => ⟨S256, .i32⟩
  | 109 => ⟨S256, .i32⟩
  | 110 => ⟨S12288x1, .i32⟩
  | 111 => ⟨S1x256, .i32⟩
  | 112 => ⟨S12288x256, .i32⟩
  | 113 => ⟨S12288x256, .i32⟩
  | 114 => ⟨S12288x256, .i1⟩
  | 115 => ⟨S12288x256, .f32⟩
  | 116 => ⟨S12288x256, .f32⟩
  | 117 => ⟨S_, .f32⟩
  | 118 => ⟨S12288, .f32⟩
  | 119 => ⟨S_, .f32⟩
  | 120 => ⟨S12288, .f32⟩
  | 121 => ⟨S12288, .f32⟩
  | 122 => ⟨S12288x1, .f32⟩
  | 123 => ⟨S12288x256, .f32⟩
  | 124 => ⟨S12288x256, .f32⟩
  | 125 => ⟨S12288x256, .f32⟩
  | 126 => ⟨S_, .f32⟩
  | 127 => ⟨S12288, .f32⟩
  | _ => ⟨S12288x128, .f32⟩

abbrev hbmTy0_1 (i : Nat) : BufTy := match i % 128 with
  | 0 => ⟨S12288x1, .f32⟩
  | 1 => ⟨S12288x256, .f32⟩
  | 2 => ⟨S12288x256, .f32⟩
  | 3 => ⟨S12288x256, .f32⟩
  | 4 => ⟨S_, .f32⟩
  | 5 => ⟨S12288, .f32⟩
  | 6 => ⟨S12288x1, .f32⟩
  | 7 => ⟨S_, .f32⟩
  | 8 => ⟨S12288x1, .f32⟩
  | 9 => ⟨S12288x1, .f32⟩
  | 10 => ⟨S12288x256, .f32⟩
  | 11 => ⟨S12288x256, .f32⟩
  | 12 => ⟨S256x12288, .f32⟩
  | 13 => ⟨S256x128, .f32⟩
  | 14 => ⟨S_, .i32⟩
  | 15 => ⟨S196608, .i32⟩
  | 16 => ⟨S196608, .i1⟩
  | 17 => ⟨S_, .i32⟩
  | 18 => ⟨S196608, .i32⟩
  | 19 => ⟨S196608, .i32⟩
  | 20 => ⟨S196608, .i32⟩
  | 21 => ⟨S196608x1, .i32⟩
  | 22 => ⟨S196608x256, .f32⟩
  | 23 => ⟨S_, .f32⟩
  | 24 => ⟨S12288x256, .f32⟩
  | 25 => ⟨S196608x1, .i32⟩
  | 26 => ⟨S12288x256, .f32⟩
  | 27 => ⟨S256x12288, .f32⟩
  | 28 => ⟨S256x256, .f32⟩
  | 29 => ⟨S_, .f32⟩
  | 30 => ⟨S12288x12288, .f32⟩
  | 31 => ⟨S_, .i32⟩
  | 32 => ⟨S196608, .i32⟩
  | 33 => ⟨S196608, .i1⟩
  | 34 => ⟨S_, .i32⟩
  | 35 => ⟨S196608, .i32⟩
  | 36 => ⟨S196608, .i32⟩
  | 37 => ⟨S196608, .i32⟩
  | 38 => ⟨S_, .i32⟩
  | 39 => ⟨S196608, .i32⟩
  | 40 => ⟨S196608, .i1⟩
  | 41 => ⟨S_, .i32⟩
  | 42 => ⟨S196608, .i32⟩
  | 43 => ⟨S196608, .i32⟩
  | 44 => ⟨S196608, .i32⟩
  | 45 => ⟨S196608x1, .i32⟩
  | 46 => ⟨S196608x1, .i32⟩
  | 47 => ⟨S196608x2, .i32⟩
  | 48 => ⟨S_, .f32⟩
  | 49 => ⟨S196608, .f32⟩
  | 50 => ⟨S12288x12288, .f32⟩
  | 51 => ⟨S256x12288, .f32⟩
  | 52 => ⟨S12288x12288, .f32⟩
  | 53 => ⟨S12288x12288, .f32⟩
  | 54 => ⟨S12288x12288, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S12288, .f32⟩
  | 62 => ⟨S12288x1, .f32⟩
  | 63 => ⟨S12288x256, .f32⟩
  | 64 => ⟨S12288x256, .f32⟩
  | 65 => ⟨S_, .f32⟩
  | 66 => ⟨S12288x256, .f32⟩
  | 67 => ⟨S12288x256, .i1⟩
  | 68 => ⟨S_, .f32⟩
  | 69 => ⟨S12288x256, .f32⟩
  | 70 => ⟨S12288x256, .i1⟩
  | 71 => ⟨S_, .f32⟩
  | 72 => ⟨S_, .f32⟩
  | 73 => ⟨S12288x256, .f32⟩
  | 74 => ⟨S12288x256, .f32⟩
  | 75 => ⟨S12288x256, .f32⟩
  | 76 => ⟨S12288x256, .f32⟩
  | 77 => ⟨S_, .f32⟩
  | 78 => ⟨S_, .f32⟩
  | 79 => ⟨S12288x256, .f32⟩
  | 80 => ⟨S12288x256, .f32⟩
  | 81 => ⟨S_, .f32⟩
  | 82 => ⟨S12288, .f32⟩
  | 83 => ⟨S12288, .f32⟩
  | 84 => ⟨S_, .f32⟩
  | 85 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_13 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_15 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_16 : Ref sig .tc := ⟨.hbm, 132, rfl⟩
abbrev main_v83 : Ref sig .tc := ⟨.hbm, 133, rfl⟩
abbrev main_v84 : Ref sig .tc := ⟨.hbm, 134, rfl⟩
abbrev main_cst_17 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_18 : Ref sig .tc := ⟨.hbm, 142, rfl⟩
abbrev main_v91 : Ref sig .tc := ⟨.hbm, 143, rfl⟩
abbrev main_v92 : Ref sig .tc := ⟨.hbm, 144, rfl⟩
abbrev main_c_19 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_20 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_21 : Ref sig .tc := ⟨.hbm, 157, rfl⟩
abbrev main_v103 : Ref sig .tc := ⟨.hbm, 158, rfl⟩
abbrev main_c_22 : Ref sig .tc := ⟨.hbm, 159, rfl⟩
abbrev main_v104 : Ref sig .tc := ⟨.hbm, 160, rfl⟩
abbrev main_v105 : Ref sig .tc := ⟨.hbm, 161, rfl⟩
abbrev main_c_23 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_24 : Ref sig .tc := ⟨.hbm, 166, rfl⟩
abbrev main_v109 : Ref sig .tc := ⟨.hbm, 167, rfl⟩
abbrev main_v110 : Ref sig .tc := ⟨.hbm, 168, rfl⟩
abbrev main_c_25 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_26 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_call3_v0 : Ref sig .tc := ⟨.hbm, 182, rfl⟩
abbrev main_call3_cst : Ref sig .tc := ⟨.hbm, 183, rfl⟩
abbrev main_call3_v1 : Ref sig .tc := ⟨.hbm, 184, rfl⟩
abbrev main_v122 : Ref sig .tc := ⟨.hbm, 185, rfl⟩
abbrev main_cst_27 : Ref sig .tc := ⟨.hbm, 186, rfl⟩
abbrev main_v123 : Ref sig .tc := ⟨.hbm, 187, rfl⟩
abbrev main_cst_28 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_29 : Ref sig .tc := ⟨.hbm, 193, rfl⟩
abbrev main_v128 : Ref sig .tc := ⟨.hbm, 194, rfl⟩
abbrev main_v129 : Ref sig .tc := ⟨.hbm, 195, rfl⟩
abbrev main_cst_30 : Ref sig .tc := ⟨.hbm, 196, rfl⟩
abbrev main_v130 : Ref sig .tc := ⟨.hbm, 197, rfl⟩
abbrev main_v131 : Ref sig .tc := ⟨.hbm, 198, rfl⟩
abbrev main_cst_31 : Ref sig .tc := ⟨.hbm, 199, rfl⟩
abbrev main_call4_v0 : Ref sig .tc := ⟨.hbm, 200, rfl⟩
abbrev main_call4_v1 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_cst_32 : Ref sig .tc := ⟨.hbm, 205, rfl⟩
abbrev main_call5_v0 : Ref sig .tc := ⟨.hbm, 206, rfl⟩
abbrev main_call5_v1 : Ref sig .tc := ⟨.hbm, 207, rfl⟩
abbrev main_v135 : Ref sig .tc := ⟨.hbm, 208, rfl⟩
abbrev main_cst_33 : Ref sig .tc := ⟨.hbm, 209, rfl⟩
abbrev main_v136 : Ref sig .tc := ⟨.hbm, 210, rfl⟩
abbrev main_v137 : Ref sig .tc := ⟨.hbm, 211, rfl⟩
abbrev main_cst_34 : Ref sig .tc := ⟨.hbm, 212, rfl⟩
abbrev main_v138 : Ref sig .tc := ⟨.hbm, 213, rfl⟩

abbrev nD : Nat := 1
abbrev τ : Topo := Topo.v7x

variable {F : FTy → Type} [FloatOps F]

class Facts₀ : Prop where
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  bcast_S_S12288x128 : S_.BroadcastsInDim S12288x128 (![] : Fin 0 → Fin S12288x128.rank)
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  concatenates_S12288x128_S12288x128_S12288x256_d1 : Shape.Concatenates [S12288x128, S12288x128] S12288x256 1
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S12288_d1 : S12288x128.ReducesTo [1] S12288
  h_S_ : 0 < S_.numel
  bcast_S_S12288x1 : S_.BroadcastsInDim S12288x1 (![] : Fin 0 → Fin S12288x1.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  reducesTo_S12288x256_S12288_d1 : S12288x256.ReducesTo [1] S12288
  bcast_S12288x1_S12288x256_0_1 : S12288x1.BroadcastsInDim S12288x256 (![0, 1] : Fin 2 → Fin S12288x256.rank)
  bcast_S_S256 : S_.BroadcastsInDim S256 (![] : Fin 0 → Fin S256.rank)
  transposes_S12288x256_S256x12288_1_0 : S12288x256.Transposes [1, 0] S256x12288
  bcast_S_S12288x256 : S_.BroadcastsInDim S12288x256 (![] : Fin 0 → Fin S12288x256.rank)
  bcast_S_S12288x12288 : S_.BroadcastsInDim S12288x12288 (![] : Fin 0 → Fin S12288x12288.rank)
  concatenates_S196608x1_S196608x1_S196608x2_d1 : Shape.Concatenates [S196608x1, S196608x1] S196608x2 1
  reducesTo_S12288x12288_S_d0_1 : S12288x12288.ReducesTo [0, 1] S_
  reducesTo_S12288_S_d0 : S12288.ReducesTo [0] S_
  gather_S12288x128_S196608x1_S196608x128_1_0_n_n_0_1_1128_wf : GatherDims.WF S12288x128 S196608x1 S196608x128 [1] [0] [] [0] [] 1 ![1, 128]
  scatter_S12288x128_S196608x1_S196608x128_1_0_0_1_wf : ScatterDims.WF S12288x128 S196608x1 S196608x128 [1] [0] [0] 1
  scatter_S12288_S196608x1_S196608_n_0_0_1_wf : ScatterDims.WF S12288 S196608x1 S196608 [] [0] [0] 1
  dot_S12288x256_S256x128_S12288x128_1_0_0_1_n_n_wf : DotDims.WF S12288x256 S256x128 S12288x128 [1] [0] [0] [1] [] []
  dot_S12288x256_S256x256_S12288x256_1_0_0_1_n_n_wf : DotDims.WF S12288x256 S256x256 S12288x256 [1] [0] [0] [1] [] []
  dot_S256x12288_S12288x128_S256x128_1_0_0_1_n_n_wf : DotDims.WF S256x12288 S12288x128 S256x128 [1] [0] [0] [1] [] []
  gather_S12288x256_S196608x1_S196608x256_1_0_n_n_0_1_1256_wf : GatherDims.WF S12288x256 S196608x1 S196608x256 [1] [0] [] [0] [] 1 ![1, 256]
  scatter_S12288x256_S196608x1_S196608x256_1_0_0_1_wf : ScatterDims.WF S12288x256 S196608x1 S196608x256 [1] [0] [0] 1
  dot_S256x12288_S12288x256_S256x256_1_0_0_1_n_n_wf : DotDims.WF S256x12288 S12288x256 S256x256 [1] [0] [0] [1] [] []
  scatter_S12288x12288_S196608x2_S196608_n_01_01_1_wf : ScatterDims.WF S12288x12288 S196608x2 S196608 [] [0, 1] [0, 1] 1
  dot_S12288x256_S256x12288_S12288x12288_1_0_0_1_n_n_wf : DotDims.WF S12288x256 S256x12288 S12288x12288 [1] [0] [0] [1] [] []

variable [Facts₀]

def gather_S12288x128_S196608x1_S196608x128_1_0_n_n_0_1_1128 : GatherDims S12288x128 S196608x1 S196608x128 where
  offsetDims := [1]
  collapsedSliceDims := [0]
  operandBatchingDims := []
  startIndicesBatchingDims := []
  startIndexMap := [0]
  indexVectorDim := 1
  sliceSizes := ![1, 128]
  wf := gather_S12288x128_S196608x1_S196608x128_1_0_n_n_0_1_1128_wf
def scatter_S12288x128_S196608x1_S196608x128_1_0_0_1 : ScatterDims S12288x128 S196608x1 S196608x128 where
  updateWindowDims := [1]
  insertedWindowDims := [0]
  scatterDimsToOperandDims := [0]
  indexVectorDim := 1
  wf := scatter_S12288x128_S196608x1_S196608x128_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S256x12288_S12288x128_S256x128_1_0_0_1_n_n : DotDims S256x12288 S12288x128 S256x128 where
  lhsContracting := [1]
  rhsContracting := [0]
  lhsNonContracting := [0]
  rhsNonContracting := [1]
  lhsBatch := []
  rhsBatch := []
  wf := dot_S256x12288_S12288x128_S256x128_1_0_0_1_n_n_wf
def gather_S12288x256_S196608x1_S196608x256_1_0_n_n_0_1_1256 : GatherDims S12288x256 S196608x1 S196608x256 where
  offsetDims := [1]
  collapsedSliceDims := [0]
  operandBatchingDims := []
  startIndicesBatchingDims := []
  startIndexMap := [0]
  indexVectorDim := 1
  sliceSizes := ![1, 256]
  wf := gather_S12288x256_S196608x1_S196608x256_1_0_n_n_0_1_1256_wf
def scatter_S12288x256_S196608x1_S196608x256_1_0_0_1 : ScatterDims S12288x256 S196608x1 S196608x256 where
  updateWindowDims := [1]
  insertedWindowDims := [0]
  scatterDimsToOperandDims := [0]
  indexVectorDim := 1
  wf := scatter_S12288x256_S196608x1_S196608x256_1_0_0_1_wf
def dot_S256x12288_S12288x256_S256x256_1_0_0_1_n_n : DotDims S256x12288 S12288x256 S256x256 where
  lhsContracting := [1]
  rhsContracting := [0]
  lhsNonContracting := [0]
  rhsNonContracting := [1]
  lhsBatch := []
  rhsBatch := []
  wf := dot_S256x12288_S12288x256_S256x256_1_0_0_1_n_n_wf
def scatter_S12288x12288_S196608x2_S196608_n_01_01_1 : ScatterDims S12288x12288 S196608x2 S196608 where
  updateWindowDims := []
  insertedWindowDims := [0, 1]
  scatterDimsToOperandDims := [0, 1]
  indexVectorDim := 1
  wf := scatter_S12288x12288_S196608x2_S196608_n_01_01_1_wf
def dot_S12288x256_S256x12288_S12288x12288_1_0_0_1_n_n : DotDims S12288x256 S256x12288 S12288x12288 where
  lhsContracting := [1]
  rhsContracting := [0]
  lhsNonContracting := [0]
  rhsNonContracting := [1]
  lhsBatch := []
  rhsBatch := []
  wf := dot_S12288x256_S256x12288_S12288x12288_1_0_0_1_n_n_wf

class Facts : Prop extends Facts₀ where

variable [Facts]
-- ==== Proof.KIBody0.lean ====
import proofs.«172850_j70214125355087_1_alg».proof.Proof.Gen.KernelIdeal.Skeleton
import proofs.«172850_j70214125355087_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0 (the pooling kernel) at the contents the region is entered with

The pooling kernel runs over a grid of six points. At point `k` it receives the `k`-th row block of
three arrays — `r` (2048×256), `e` (2048×128) and `a` (2048×256) — and two output blocks `h`
(256×128) and `adj` (256×256) that are the SAME block at every point and are written back only
after the last one. At `k = 0` it first stores zeros into both outputs; then, at every point,
`h ← h + rᵀ·e` and `adj ← adj + rᵀ·a`. So what the output buffers hold after point `n` is a
running sum over the row blocks `0..n`, defined here by recursion on `n` through the kernel's
named payloads. This module states that running sum, packs it into the pipeline's proof data at an
arbitrary entry memory `V`, and proves the body's Hoare triple at every grid point: the point
`0` (the reset is taken) and the points `1..5` (the outputs hold what the point before left).
Everything is generic in the float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Two facts about the grid and the windows -/

/-- The grid of region 0 has six points. -/
theorem points0 : cfg0.N = 6 := by decide

/-- A separating conjunction over the five windows, written out window by window. -/
theorem sepWindows0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

section Region0Data
-- the TensorCore's buffer contents when region 0 is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t` at their literal shapes: the `t`-th 2048-row block of `r`, -/
abbrev rblk0 (c : Dev nD) (t : Fin cfg0.N) : Vec F S2048x256 .bf16 := iblk0 V c 0 t
/-- of `e`, -/
abbrev eblk0 (c : Dev nD) (t : Fin cfg0.N) : Vec F S2048x128 .bf16 := iblk0 V c 1 t
/-- and of `a`. -/
abbrev ablk0 (c : Dev nD) (t : Fin cfg0.N) : Vec F S2048x256 .bf16 := iblk0 V c 2 t

/-! ## What the two outputs hold after each point -/

/-- THE RUNNING SUMS. After the body at point `n` the two output buffers hold: at `n = 0` the
    zero blocks plus the first products `r₀ᵀ·e₀`, `r₀ᵀ·a₀`; at `n + 1` what point `n` left
    plus `rₙ₊₁ᵀ·eₙ₊₁`, `rₙ₊₁ᵀ·aₙ₊₁` — spelled through the kernel's payloads. -/
def outsAt0 (c : Dev nD) : (n : ℕ) → n < cfg0.N → Vec F S256x128 .f32 × Vec F S256x256 .f32
  | 0, hn =>
    (k0_pay4 (rblk0 V c ⟨0, hn⟩) (k0_pay1 (F := F)) (eblk0 V c ⟨0, hn⟩),
     k0_pay5 (rblk0 V c ⟨0, hn⟩) (k0_pay2 (F := F)) (ablk0 V c ⟨0, hn⟩))
  | n + 1, hn =>
    (k0_pay4 (rblk0 V c ⟨n + 1, hn⟩) (outsAt0 c n (Nat.lt_of_succ_lt hn)).1 (eblk0 V c ⟨n + 1, hn⟩),
     k0_pay5 (rblk0 V c ⟨n + 1, hn⟩) (outsAt0 c n (Nat.lt_of_succ_lt hn)).2 (ablk0 V c ⟨n + 1, hn⟩))

/-- The running sums at the first point. -/
theorem outsAt0_zero (c : Dev nD) (hn : 0 < cfg0.N) :
    outsAt0 V c 0 hn
      = (k0_pay4 (rblk0 V c ⟨0, hn⟩) (k0_pay1 (F := F)) (eblk0 V c ⟨0, hn⟩),
         k0_pay5 (rblk0 V c ⟨0, hn⟩) (k0_pay2 (F := F)) (ablk0 V c ⟨0, hn⟩)) := rfl

/-- The running sums at a later point, from the point before. -/
theorem outsAt0_succ (c : Dev nD) (n : ℕ) (hn : n + 1 < cfg0.N) :
    outsAt0 V c (n + 1) hn
      = (k0_pay4 (rblk0 V c ⟨n + 1, hn⟩) (outsAt0 V c n (Nat.lt_of_succ_lt hn)).1 (eblk0 V c ⟨n + 1, hn⟩),
         k0_pay5 (rblk0 V c ⟨n + 1, hn⟩) (outsAt0 V c n (Nat.lt_of_succ_lt hn)).2 (ablk0 V c ⟨n + 1, hn⟩)) := rfl

/-- The running sums at a grid point that is the first. -/
theorem outsAt0_A (c : Dev nD) (t : Fin cfg0.N) (h0 : t.val = 0) :
    outsAt0 V c t.val t.isLt
      = (k0_pay4 (rblk0 V c t) (k0_pay1 (F := F)) (eblk0 V c t),
         k0_pay5 (rblk0 V c t) (k0_pay2 (F := F)) (ablk0 V c t)) := by
  obtain ⟨n, hn⟩ := t
  cases n with
  | zero => rfl
  | succ n => exact absurd h0 (Nat.succ_ne_zero n)

/-- The running sums at a grid point that is not the first, over what the point before left. -/
theorem outsAt0_B (c : Dev nD) (t : Fin cfg0.N) (h0 : t.val ≠ 0) :
    outsAt0 V c t.val t.isLt
      = (k0_pay4 (rblk0 V c t) (outsAt0 V c (t.val - 1) (Nat.lt_of_le_of_lt (Nat.sub_le _ _) t.isLt)).1 (eblk0 V c t),
         k0_pay5 (rblk0 V c t) (outsAt0 V c (t.val - 1) (Nat.lt_of_le_of_lt (Nat.sub_le _ _) t.isLt)).2 (ablk0 V c t)) := by
  obtain ⟨n, hn⟩ := t
  cases n with
  | zero => exact absurd rfl h0
  | succ n => rfl

/-! ## The pipeline's proof data -/

/-- The proof data of pipeline 0 on core `c`: the arrays as the region finds them; after the body at
    point `t` each input's buffer at its block and the two outputs' at the running sums; the
    invariant is the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not, for ANY
    proof data whose array is the entry contents (`hA`) and whose body leaves the block in place
    (`hafter`): the window is uncut and never idle, and where it is not fetched its block index has
    not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0Data

/-! ## The body's branch condition -/

/-- The condition of the body's one `scf.if`, from the grid coordinate: "this is point 0". -/
abbrev cond0_0 (i : grid0.Coords) : Prop := (Scalar.cmpi .ne (Scalar.extui (Scalar.cmpi .eq (BitVec.ofNat 32 (i 0).val) 0#32)) 0#32) = 1#1
/-- It holds at the first of the six points and at no other — decided over the grid. -/
theorem hcond0_0 : ∀ t : Fin cfg0.N, cond0_0 (grid0.coords t) ↔ t.val = 0 :=
  (by decide +kernel : ∀ t : Fin grid0.N, cond0_0 (grid0.coords t) ↔ t.val = 0)

/-! ## The kernel body on any staging memrefs -/

/-- One staging buffer of each output window, through which its contents are stated (the choice does not matter). -/
abbrev VO0_3 : View sig .tc .vmem S256x128 .f32 := (Memref.whole cc0_stg3_0 : Memref sig .tc .vmem S256x128 .f32).view
abbrev VO0_4 : View sig .tc .vmem S256x256 .f32 := (Memref.whole cc0_stg4_0 : Memref sig .tc .vmem S256x256 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)

set_option maxHeartbeats 1000000 in
/-- THE FIRST POINT (the reset is taken). What the body's stores leave in the two outputs' staging memrefs, as
    pieces (last first), with the proof that on whole staging memrefs — the inputs' at their blocks
    `x0`, `x1`, `x2`, the outputs' at anything — the body runs to the continuation holding the
    inputs' as they were and each output's buffer with its pieces written: the zero block first, then
    the zero block read back plus the product. -/
noncomputable def kernelRun0_A (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    Σ' (L3 : List (View.Piece (Elt F) S256x128 .f32)), { L4 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pool_kernel i arg1 harg1 arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- A LATER POINT (the reset is not taken). The same on whole staging memrefs whose two output buffers
    hold the running contents `xo3`, `xo4`: each output ends with one piece, its contents read
    plus the product. -/
noncomputable def kernelRun0_B (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    Σ' (L3 : List (View.Piece (Elt F) S256x128 .f32)), { L4 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pool_kernel i arg1 harg1 arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the two outputs -/

/-- The first point's pieces for each output tile its block (two whole-block stores), so they cover it. -/
theorem cover0_A_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) (y : S256x128.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S256x128.size (by sl_kernel_rfl) y
theorem cover0_A_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) (y : S256x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S256x256.size (by sl_kernel_rfl) y

/-- What the first point leaves in each output's staging buffer: its pieces read back over junk. -/
def out0_A_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) : Vec F S256x128 .f32 :=
  VO0_3.read (Elt F) (VO0_3.writes (Elt F) VO0_3.junk (kernelRun0_A c i arg1 harg1 arg2 harg2 arg3 harg3 arg4 harg4 arg5 harg5 hc0 x0 x1 x2).1)
def out0_A_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) : Vec F S256x256 .f32 :=
  VO0_4.read (Elt F) (VO0_4.writes (Elt F) VO0_4.junk (kernelRun0_A c i arg1 harg1 arg2 harg2 arg3 harg3 arg4 harg4 arg5 harg5 hc0 x0 x1 x2).2.1)

/-- A later point's pieces for each output (one whole-block store) cover its block. -/
theorem cover0_B_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) (y : S256x128.Idx) :
    ∃ pc ∈ (kernelRun0_B c i arg1 harg1 arg2 harg2 arg3 harg3 arg4 harg4 arg5 harg5 hc0 x0 x1 x2 xo3 xo4).1, y ∈ pc.1.set :=
  View.cover_of_tiledL (kernelRun0_B c i arg1 harg1 arg2 harg2 arg3 harg3 arg4 harg4 arg5 harg5 hc0 x0 x1 x2 xo3 xo4).1 S256x128.size (by sl_kernel_rfl) y
theorem cover0_B_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) (y : S256x256.Idx) :
    ∃ pc ∈ (kernelRun0_B c i arg1 harg1 arg2 harg2 arg3 harg3 arg4 harg4 arg5 harg5 hc0 x0 x1 x2 xo3 xo4).2.1, y ∈ pc.1.set :=
  View.cover_of_tiledL (kernelRun0_B c i arg1 harg1 arg2 harg2 arg3 harg3 arg4 harg4 arg5 harg5 hc0 x0 x1 x2 xo3 xo4).2.1 S256x256.size (by sl_kernel_rfl) y

/-- What a later point leaves in each output's staging buffer: its pieces read back over junk. -/
def out0_B_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) : Vec F S256x128 .f32 :=
  VO0_3.read (Elt F) (VO0_3.writes (Elt F) VO0_3.junk (kernelRun0_B c i arg1 harg1 arg2 harg2 arg3 harg3 arg4 harg4 arg5 harg5 hc0 x0 x1 x2 xo3 xo4).1)
def out0_B_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) : Vec F S256x256 .f32 :=
  VO0_4.read (Elt F) (VO0_4.writes (Elt F) VO0_4.junk (kernelRun0_B c i arg1 harg1 arg2 harg2 arg3 harg3 arg4 harg4 arg5 harg5 hc0 x0 x1 x2 xo3 xo4).2.1)

/-- The whole-block rectangle's offsets are zero. -/
theorem offsets0_zero : (![0, 0] : Fin 2 → Nat) = fun _ => 0 := funext fun a => by fin_cases a <;> rfl

/-- THE FIRST POINT'S VALUES. The last store covers the block, so the buffer reads as its payload; the
    payload's accumulator operand is the read-back of the zero block just stored; its other
    operands are the input blocks, read whole. -/
theorem out0_A_3_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    out0_A_3 c i arg1 harg1 arg2 harg2 arg3 harg3 arg4 harg4 arg5 harg5 hc0 x0 x1 x2 = k0_pay4 x0 (k0_pay1 (F := F)) x1 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero (S := S256x128) offsets0_zero, View.readCov_unit_zero (S := S256x128) _ offsets0_zero]
  simp only [View.readAt_eq_ld, harg1.read_unread, harg2.read_unread, harg3.read_unread, View.ld_unit_zero (S := S2048x256) offsets0_zero, View.ld_unit_zero (S := S2048x128) offsets0_zero]
theorem out0_A_4_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    out0_A_4 c i arg1 harg1 arg2 harg2 arg3 harg3 arg4 harg4 arg5 harg5 hc0 x0 x1 x2 = k0_pay5 x0 (k0_pay2 (F := F)) x2 := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S256x256) offsets0_zero, View.readCov_unit_zero (S := S256x256) _ offsets0_zero]
  simp only [View.readAt_eq_ld, harg1.read_unread, harg2.read_unread, harg3.read_unread, View.ld_unit_zero (S := S2048x256) offsets0_zero, View.ld_unit_zero (S := S2048x128) offsets0_zero]

/-- A LATER POINT'S VALUES. The one store covers the block; its payload's accumulator operand is the
    buffer's running contents, read whole. -/
theorem out0_B_3_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    out0_B_3 c i arg1 harg1 arg2 harg2 arg3 harg3 arg4 harg4 arg5 harg5 hc0 x0 x1 x2 xo3 xo4 = k0_pay4 x0 xo3 x1 := by
  unfold out0_B_3
  rw [View.read_writes_eq_canon _ _ _ (cover0_B_3 c i arg1 harg1 arg2 harg2 arg3 harg3 arg4 harg4 arg5 harg5 hc0 x0 x1 x2 xo3 xo4)]
  unfold kernelRun0_B
  dsimp only
  sl_unfold_words
  rw [View.canon_unit_zero offsets0_zero]
  simp only [View.readAt_eq_ld, harg1.read_unread, harg2.read_unread, harg3.read_unread, harg4.read_unread, harg5.read_unread, View.ld_unit_zero (S := S2048x256) offsets0_zero, View.ld_unit_zero (S := S2048x128) offsets0_zero, View.ld_unit_zero (S := S256x128) offsets0_zero, View.ld_unit_zero (S := S256x256) offsets0_zero]
theorem out0_B_4_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    out0_B_4 c i arg1 harg1 arg2 harg2 arg3 harg3 arg4 harg4 arg5 harg5 hc0 x0 x1 x2 xo3 xo4 = k0_pay5 x0 xo4 x2 := by
  unfold out0_B_4
  rw [View.read_writes_eq_canon _ _ _ (cover0_B_4 c i arg1 harg1 arg2 harg2 arg3 harg3 arg4 harg4 arg5 harg5 hc0 x0 x1 x2 xo3 xo4)]
  unfold kernelRun0_B
  dsimp only
  sl_unfold_words
  rw [View.canon_unit_zero offsets0_zero]
  simp only [View.readAt_eq_ld, harg1.read_unread, harg2.read_unread, harg3.read_unread, harg4.read_unread, harg5.read_unread, View.ld_unit_zero (S := S2048x256) offsets0_zero, View.ld_unit_zero (S := S2048x128) offsets0_zero, View.ld_unit_zero (S := S256x128) offsets0_zero, View.ld_unit_zero (S := S256x256) offsets0_zero]

section Region0Body
variable (V : (c : Dev nD) → (b : Ref sig .tc) → Buf (Elt F) ((c : Thread nD τ).loc b))

/-! ## What the outputs' buffers hold when a later point begins -/

/-- At a point that is not the first, output 3's staging buffer holds what the body left at the point
    before: an output is never fetched, the buffer was not written back between (only the last point
    writes back), the window is live and uncut. -/
theorem before0_3_B (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 6 := lt_of_lt_of_eq t.isLt points0
  rw [Dat.before_out_kept _ 3 rfl t h0 (Bool.eq_false_iff.mpr fun h => by have := (flush0_3 _).mp h; dsimp only at this; omega)
    (fun _ => rfl) (fun _ _ => rfl)]
  dsimp only [dat0]
/-- The same for output 4. -/
theorem before0_4_B (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 6 := lt_of_lt_of_eq t.isLt points0
  rw [Dat.before_out_kept _ 4 rfl t h0 (Bool.eq_false_iff.mpr fun h => by have := (flush0_4 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form of the condition says
    whether the point is the first; at a later point each output's buffer holds what the point before
    left; so the case's run applies, and what it leaves reads as the running sums' next step. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    dsimp only
    rw [← out0_A_3_eq c (grid0.coords t) (ms0_0 t) (hs0_0 t) (ms0_1 t) (hs0_1 t) (ms0_2 t) (hs0_2 t) (ms0_3 t) (hs0_3 t) (ms0_4 t) (hs0_4 t) ((hcond0_0 t).mpr h0) (rblk0 V c t) (eblk0 V c t) (ablk0 V c t),
      ← out0_A_4_eq c (grid0.coords t) (ms0_0 t) (hs0_0 t) (ms0_1 t) (hs0_1 t) (ms0_2 t) (hs0_2 t) (ms0_3 t) (hs0_3 t) (ms0_4 t) (hs0_4 t) ((hcond0_0 t).mpr h0) (rblk0 V c t) (eblk0 V c t) (ablk0 V c t)]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (rblk0 V c t) (eblk0 V c t) (ablk0 V c t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0]
    simp only [before0_3_B V c t h0, before0_4_B V c t h0]
    rw [← out0_B_3_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (rblk0 V c t) (eblk0 V c t) (ablk0 V c t) _ (outsAt0 V c (t.val - 1) (Nat.lt_of_le_of_lt (Nat.sub_le _ _) t.isLt)).2,
      ← out0_B_4_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (rblk0 V c t) (eblk0 V c t) (ablk0 V c t) (outsAt0 V c (t.val - 1) (Nat.lt_of_le_of_lt (Nat.sub_le _ _) t.isLt)).1 _]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (rblk0 V c t) (eblk0 V c t) (ablk0 V c t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [sepWindows0, sepWindows0]
  exact sound_body0 V c t

end Region0Body

end Cert.KernelIdeal.Hand

end
-- ==== Proof.KIBody1.lean ====
import proofs.«172850_j70214125355087_1_alg».proof.Proof.Gen.KernelIdeal.Skeleton
import proofs.«172850_j70214125355087_1_alg».proof.Proof.Gen.KernelIdeal.Points
import Idealize.ShloMosaic.Lib.Pipeline.FrameBody
import Idealize.ShloMosaic.Lib.Pipeline.Launch
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pallas_call is entered
variable (V : (c : Dev nD) → (b : Ref sig .tc) → Buf (Elt F) ((c : Thread nD τ).loc b))

/-! # The pairwise-loss kernel (grid 12 × 12) at the entry contents V

Point t of the row-major grid is the pair (i, j) = (t / 12, t % 12). The kernel reads the
(i, j) block of the dense adjacency, the i-th and the j-th row block of ONE assignment matrix
(two windows on the same array), and accumulates into the i-th row block of the output the row
sums of the squared residual a - sᵢ sⱼᵀ, the accumulator being zeroed when j = 0. -/

/-- The grid has 144 points. -/
theorem points1 : cfg1.N = 144 := by decide

/-- The four windows conjoined one by one. -/
theorem sepWindows1 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-! ## The windows' blocks -/

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block (i, j) at point t. -/
abbrev ablk1 (c : Dev nD) (t : Fin cfg1.N) : Vec F S1024x1024 .f32 := iblk1 V c 0 t
/-- The assignment rows of block i (window 1) at point t. -/
abbrev siblk1 (c : Dev nD) (t : Fin cfg1.N) : Vec F S1024x256 .bf16 := iblk1 V c 1 t
/-- The assignment rows of block j (window 2, the same array) at point t. -/
abbrev sjblk1 (c : Dev nD) (t : Fin cfg1.N) : Vec F S1024x256 .bf16 := iblk1 V c 2 t

/-! ## The accumulator after each point -/

/-- What the output's staging buffer holds after the body at point n: when j = n % 12 = 0 the
    accumulator restarts from zero, otherwise it continues from what point n - 1 left (the same
    output block: i has not changed). -/
def outsAt1 (c : Dev nD) : (n : ℕ) → n < cfg1.N → Vec F S1024x128 .f32
  | 0, hn => k1_pay2 (siblk1 V c ⟨0, hn⟩) (sjblk1 V c ⟨0, hn⟩) (ablk1 V c ⟨0, hn⟩) (k1_pay1 (F := F))
  | n + 1, hn =>
    if (n + 1) % 12 = 0 then
      k1_pay2 (siblk1 V c ⟨n + 1, hn⟩) (sjblk1 V c ⟨n + 1, hn⟩) (ablk1 V c ⟨n + 1, hn⟩) (k1_pay1 (F := F))
    else
      k1_pay2 (siblk1 V c ⟨n + 1, hn⟩) (sjblk1 V c ⟨n + 1, hn⟩) (ablk1 V c ⟨n + 1, hn⟩) (outsAt1 c n (Nat.lt_of_succ_lt hn))

/-- At a point with j = 0 the accumulator is the point's term over zero. -/
theorem outsAt1_reset (c : Dev nD) (t : Fin cfg1.N) (h : t.val % 12 = 0) :
    outsAt1 V c t.val t.isLt = k1_pay2 (siblk1 V c t) (sjblk1 V c t) (ablk1 V c t) (k1_pay1 (F := F)) := by
  obtain ⟨n, hn⟩ := t
  cases n with
  | zero => rfl
  | succ n => exact if_pos h

/-- At a point with j ≠ 0 the accumulator is the point's term over what the point before left. -/
theorem outsAt1_step (c : Dev nD) (t : Fin cfg1.N) (h : t.val % 12 ≠ 0) :
    outsAt1 V c t.val t.isLt = k1_pay2 (siblk1 V c t) (sjblk1 V c t) (ablk1 V c t)
      (outsAt1 V c (t.val - 1) (Nat.lt_of_le_of_lt (Nat.sub_le _ _) t.isLt)) := by
  obtain ⟨n, hn⟩ := t
  cases n with
  | zero => exact absurd (Nat.zero_mod _) h
  | succ n => exact if_neg h

/-! ## The proof data -/

/-- The proof data of the kernel's pipeline on core c: the arrays as the kernel finds them; after the
    body at point t each input's buffer at its block and the output's at the accumulator; the invariant
    the scoped buffers no window stages and the random-number register, untouched; nothing owed. The adjacency and the output
    are held whole; the assignment matrix, read through windows 1 and 2, is held by window 1 at the
    left half of the full share and by window 2 at the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨1, _⟩ => fullShare.left
    | ⟨2, _⟩ => fullShare.right
    | _ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

/-- The share each window holds its array at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-- Each input's current staging buffer holds its block at every point, fetched there or not: unfetched,
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- At a point with j ≠ 0 the output's current staging buffer holds what the body left at the point
    before: the point is not the first, the block (i, 0) was not written back between (it is written
    back only after j = 11), the window is live and uncut. -/
theorem before1_3_B (c : Dev nD) (t : Fin cfg1.N) (h : t.val % 12 ≠ 0) (d) :
    (dat1 V c).before 3 t d = outsAt1 V c (t.val - 1) (Nat.lt_of_le_of_lt (Nat.sub_le _ _) t.isLt) := by
  have hN : t.val < 144 := lt_of_lt_of_eq t.isLt points1
  rw [Dat.before_out_kept _ 3 rfl t (fun h0 => h (by rw [h0]))
    (Bool.eq_false_iff.mpr fun hf => by have := (flush1_3 _).mp hf; dsimp only at this; omega)
    (fun _ => rfl) (fun _ _ => rfl)]
  dsimp only [dat1]

/-! ## The body on any staging memrefs -/

theorem zeroOffsets2 : (![0, 0] : Fin 2 → Nat) = fun _ => 0 := by funext a; fin_cases a <;> rfl

/-- The body's one branch condition, from the grid coordinates: j = 0. -/
abbrev cond1 (i : grid1.Coords) : Prop :=
  (Scalar.cmpi .ne (Scalar.extui (Scalar.cmpi .eq (BitVec.ofNat 32 (i 1).val) 0#32)) 0#32) = 1#1

/-- It holds at the points ≡ 0 (mod 12): decided over the grid. -/
theorem hcond1 : ∀ t : Fin cfg1.N, cond1 (grid1.coords t) ↔ t.val % 12 = 0 :=
  (by decide +kernel : ∀ t : Fin grid1.N, cond1 (grid1.coords t) ↔ t.val % 12 = 0)

set_option maxHeartbeats 1000000 in
/-- j = 0: on whole staging memrefs, the inputs' at contents a, sᵢ, sⱼ and the output's at anything, the body
    zeroes the accumulator and leaves in it the point's term over zero; the inputs stay as they were. -/
theorem sound_kernel1_reset (c : Dev nD) (E : Set ℕ) (i : grid1.Coords)
    (arg2 : Memref sig .tc .vmem S1024x1024 .f32) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x128 .f32) (harg5 : arg5.IsWhole) (hc : cond1 i)
    (a : Vec F S1024x1024 .f32) (si sj : Vec F S1024x256 .bf16) (K : PUnit → sProp 𝕄) :
    iprop(owns (c : Thread nD τ) arg2 fullShare a ∗ owns (c : Thread nD τ) arg3 fullShare si ∗ owns (c : Thread nD τ) arg4 fullShare sj
        ∗ (∃ d, owns (c : Thread nD τ) arg5 fullShare d)
        ∗ (iprop(owns (c : Thread nD τ) arg2 fullShare a ∗ owns (c : Thread nD τ) arg3 fullShare si ∗ owns (c : Thread nD τ) arg4 fullShare sj
            ∗ owns (c : Thread nD τ) arg5 fullShare (k1_pay2 si sj a (k1_pay1 (F := F)))) -∗ K ⟨⟩))
      ⊢ wp frame (wpE (defs₀ (F := F)) Variants.none c none) E (cc1__adjloss_kernel i arg2 harg2 arg3 harg3 arg4 harg4 arg5 harg5) K := by
  simp only [cc1__adjloss_kernel_eq_skeleton]; unfold cc1__adjloss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeroOffsets2 inb_S1024x128_S1024x128_0_0 y⟩)]
  rw [View.canon_cons_unit_zero zeroOffsets2 inb_S1024x128_S1024x128_0_0]
  rw [View.readCov_unit_zero _ zeroOffsets2 inb_S1024x128_S1024x128_0_0]
  simp only [View.readAt_eq_ld]
  rw [View.ld_unit_zero zeroOffsets2 inb_S1024x256_S1024x256_0_0, View.ld_unit_zero zeroOffsets2 inb_S1024x256_S1024x256_0_0,
    View.ld_unit_zero zeroOffsets2 inb_S1024x1024_S1024x1024_0_0]

set_option maxHeartbeats 1000000 in
/-- j ≠ 0: on whole staging memrefs, the inputs' at contents a, sᵢ, sⱼ and the output's at the running
    accumulator xo, the body leaves in the output the point's term over xo; the inputs stay as they were. -/
theorem sound_kernel1_step (c : Dev nD) (E : Set ℕ) (i : grid1.Coords)
    (arg2 : Memref sig .tc .vmem S1024x1024 .f32) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x128 .f32) (harg5 : arg5.IsWhole) (hc : ¬cond1 i)
    (a : Vec F S1024x1024 .f32) (si sj : Vec F S1024x256 .bf16) (xo : Vec F S1024x128 .f32) (K : PUnit → sProp 𝕄) :
    iprop(owns (c : Thread nD τ) arg2 fullShare a ∗ owns (c : Thread nD τ) arg3 fullShare si ∗ owns (c : Thread nD τ) arg4 fullShare sj
        ∗ owns (c : Thread nD τ) arg5 fullShare xo
        ∗ (iprop(owns (c : Thread nD τ) arg2 fullShare a ∗ owns (c : Thread nD τ) arg3 fullShare si ∗ owns (c : Thread nD τ) arg4 fullShare sj
            ∗ owns (c : Thread nD τ) arg5 fullShare (k1_pay2 si sj a xo)) -∗ K ⟨⟩))
      ⊢ wp frame (wpE (defs₀ (F := F)) Variants.none c none) E (cc1__adjloss_kernel i arg2 harg2 arg3 harg3 arg4 harg4 arg5 harg5) K := by
  simp only [cc1__adjloss_kernel_eq_skeleton]; unfold cc1__adjloss_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeroOffsets2 inb_S1024x128_S1024x128_0_0 y⟩)]
  rw [View.canon_cons_unit_zero zeroOffsets2 inb_S1024x128_S1024x128_0_0]
  simp only [View.readAt_eq_ld]
  rw [View.ld_unit_zero zeroOffsets2 inb_S1024x256_S1024x256_0_0, View.ld_unit_zero zeroOffsets2 inb_S1024x256_S1024x256_0_0,
    View.ld_unit_zero zeroOffsets2 inb_S1024x1024_S1024x1024_0_0, View.ld_unit_zero zeroOffsets2 inb_S1024x128_S1024x128_0_0]

/-! ## The body obligation, at a generic point -/

/-- Each window's current staging memref at point t, as the pipeline passes it to the body. -/
abbrev ms1_0 (t : Fin cfg1.N) : Memref sig .tc .vmem S1024x1024 .f32 := win1_0.stage (cfg1.slots t 0)
abbrev ms1_1 (t : Fin cfg1.N) : Memref sig .tc .vmem S1024x256 .bf16 := win1_1.stage (cfg1.slots t 1)
abbrev ms1_2 (t : Fin cfg1.N) : Memref sig .tc .vmem S1024x256 .bf16 := win1_2.stage (cfg1.slots t 2)
abbrev ms1_3 (t : Fin cfg1.N) : Memref sig .tc .vmem S1024x128 .f32 := win1_3.stage (cfg1.slots t 3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; when j = 0 the accumulator's buffer may hold
    anything and is restarted, otherwise it holds what the point before left; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 12 = 0
  · rw [outsAt1_reset V c t h0]
    iintro ⟨HΦ, Ho, ⟨%d0, H0⟩, ⟨%d1, H1⟩, ⟨%d2, H2⟩, ⟨%d3, H3⟩⟩
    iapply (sound_kernel1_reset c Set.univ (grid1.coords t) _ _ _ _ _ _ _ _ ((hcond1 t).mpr h0)
      (ablk1 V c t) (siblk1 V c t) (sjblk1 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_step V c t h0]
    simp only [before1_3_B V c t h0]
    iintro ⟨HΦ, Ho, ⟨%d0, H0⟩, ⟨%d1, H1⟩, ⟨%d2, H2⟩, ⟨%d3, H3⟩⟩
    iapply (sound_kernel1_step c Set.univ (grid1.coords t) _ _ _ _ _ _ _ _ (fun h => h0 ((hcond1 t).mp h))
      (ablk1 V c t) (siblk1 V c t) (sjblk1 V c t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [sepWindows1, sepWindows1]
  exact sound_body1 V c t

/-! ## The arrays dealt to the windows, and back

The four windows stand on three buffers: the adjacency, the assignment matrix (windows 1 and 2) and
the output. At entry each buffer is held whole; the assignment matrix's full share is cut into its
left and right halves, one per window, and at exit the halves are put together again. -/

/-- The windows' arrays are whole buffers. -/
theorem arrWhole1 : ∀ w : Fin cfg1.W, (cfg1.win w).arr.IsWhole := fun
  | 0 => Memref.isWhole_whole _ | 1 => Memref.isWhole_whole _ | 2 => Memref.isWhole_whole _ | 3 => Memref.isWhole_whole _
  | ⟨_ + 4, h⟩ => absurd h (Nat.not_lt.2 (Nat.le_add_left _ _))

/-- The distinct buffers behind the windows' arrays, listed: adjacency, assignment matrix, output. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v118) ↦{fullShare} W main_v118)
          ∗ (((c : Thread nD τ).loc main_v99) ↦{fullShare} W main_v99)
          ∗ (((c : Thread nD τ).loc main_v119) ↦{fullShare} W main_v119)) := by
  unfold Pipeline.arrBufs
  rw [BI.bigSep_eq_bigSepL_of_eq [main_v118, main_v99, main_v119] (by decide) (by decide)]; rfl

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v118) ↦{fullShare} G 0)
          ∗ (((c : Thread nD τ).loc main_v99) ↦{fullShare.left} G 1)
          ∗ (((c : Thread nD τ).loc main_v99) ↦{fullShare.right} G 2)
          ∗ (((c : Thread nD τ).loc main_v119) ↦{fullShare} G 3)) := by
  unfold Dat.arrays
  rw [bigSep_congr (fun w _ => by rw [(arrWhole1 w).set_eq_univ] :
    ∀ w ∈ (Finset.univ : Finset (Fin cfg1.W)), ((cfg1.win w).arr.view.loc (c : Thread nD τ) ↦[(cfg1.win w).arr.view.set]{(dat1 V c).share w} G w : sProp 𝕄)
      = ((cfg1.win w).arr.view.loc (c : Thread nD τ) ↦{(dat1 V c).share w} G w))]
  rw [sepWindows1]; rfl

/-- ENTRY: the three buffers, each whole at the entry contents, make the four windows' arrays. -/
theorem hsplit1 (c : Dev nD) : Pipeline.arrBufs spec1 c (V c) ⊢ (dat1 V c).arrays ((dat1 V c).arrAt · 0) := by
  rw [arrBufs1_eq, arrays1_eq]
  iintro ⟨HA, HS, HO⟩
  ihave HS' := (pointsTo_share (PosShare.mem_left_op_right fullShare)).1 $$ HS
  icases HS' with ⟨HS1, HS2⟩
  isplitl [HA]; · iexact HA
  isplitl [HS1]; · iexact HS1
  isplitl [HS2]; · iexact HS2
  iexact HO

/-- EXIT: the four windows' arrays at their final contents make the three buffers at any valuation that
    has the output at its final contents and everything else as at entry: the inputs are never written,
    and the two halves of the assignment matrix's share are joined. -/
theorem hjoin1 (c : Dev nD) (V' : (b : Ref sig .tc) → Buf (Elt F) ((c : Thread nD τ).loc b))
    (hout : V' main_v119 = (dat1 V c).arrAt 3 cfg1.N) (hrest : ∀ b, b ≠ main_v119 → V' b = V c b) :
    (dat1 V c).arrays ((dat1 V c).arrAt · cfg1.N) ⊢ Pipeline.arrBufs spec1 c V' := by
  rw [arrBufs1_eq, arrays1_eq]
  rw [(dat1 V c).arrAt_in 0 rfl, (dat1 V c).arrAt_in 1 rfl, (dat1 V c).arrAt_in 2 rfl]
  rw [hout, hrest main_v118 (by decide), hrest main_v99 (by decide)]
  iintro ⟨HA, HS1, HS2, HO⟩
  isplitl [HA]; · iexact HA
  isplitl [HS1 HS2]
  · iapply (pointsTo_share (PosShare.mem_left_op_right fullShare)).2
    isplitl [HS1]; · iexact HS1
    iexact HS2
  iexact HO

end Cert.KernelIdeal.Hand

end
-- ==== Proof.KIRegs.lean ====
import proofs.«172850_j70214125355087_1_alg».proof.Proof.RegionsKI
import proofs.«172850_j70214125355087_1_alg».proof.Proof.KIBody0
import proofs.«172850_j70214125355087_1_alg».proof.Proof.KIBody1
import Idealize.ShloMosaic.Lib.Pipeline.Frame
import Idealize.ShloMosaic.Lib.Pipeline.Launch
import Idealize.ShloMosaic.Lib.Pipeline.Regions
import Idealize.ShloMosaic.Lib.Pipeline.RegionsLoop

/-! # The two kernels as segments of the program's run

The program is fifteen items: host stretches, the pooling kernel (item 7), one more host stretch,
the adjacency-loss kernel (item 9), and five closing host stretches. Between items the TensorCore's
unscoped buffers hold a valuation; the host stretches move it by their own semantics, and a kernel
moves it only at its output arrays. This module names what the kernels leave there:

* the pooling kernel leaves in its two output arrays the last running sums over the six row blocks
  (the proof data's array contents after the last grid point), everything else as it was entered;
* the adjacency-loss kernel leaves in its one output array the contents after its 144th point, and
  everything else as entered — in particular the array it reads through two windows.

With those contents fixed, each kernel becomes a segment: entered with every unscoped buffer at the
valuation before it, left with every unscoped buffer at the valuation after it, the core's
generator register and its (empty) debts riding along. For the pooling kernel the five arrays are
five distinct buffers, so they are cut out of the unscoped buffers and put back one by one. For the
adjacency-loss kernel two windows look at the same buffer: the distinct buffers behind the windows
are cut out whole, and dealing that buffer's share between the two windows (and collecting it
again) is the region's own lemma. Everything is generic in the float interpretation `F`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the kernels leave -/

/-- The contents the pooling kernel is entered with, read at the TensorCore's references. -/
abbrev V7r : (c : Dev nD) → (b : Ref sig .tc) → Buf (Elt F) ((c : Thread nD τ).loc b) := fun c b => V7 m c b

/-- The valuation after the pooling kernel: its two output arrays at the last running sums, every
    other buffer as entered. -/
def W8 (c : Dev nD) : Valuation τ sig (Elt F) :=
  Function.update (Function.update (V7 m c) main_v102_0 ((dat0 (V7r m) c).arrAt 3 cfg0.N))
    main_v102_1 ((dat0 (V7r m) c).arrAt 4 cfg0.N)

/-- The unknowns at the pooling kernel's exit only: every reference read off `W8`. -/
def outs8 : Outs (F := F) := fun _ r c => W8 m c (Proc.devRef .tc r)

/-- The contents the adjacency-loss kernel is entered with (they mention the unknowns only at the
    pooling kernel's exit), read at the TensorCore's references. -/
abbrev V9s : (c : Dev nD) → (b : Ref sig .tc) → Buf (Elt F) ((c : Thread nD τ).loc b) := fun c b => V9 m (outs8 m) c b

/-- The valuation after the adjacency-loss kernel: its output array at the contents after the last
    grid point, every other buffer as entered. -/
def W10 (c : Dev nD) : Valuation τ sig (Elt F) :=
  Function.update (V9 m (outs8 m) c) main_v119 ((dat1 (V9s m) c).arrAt 3 cfg1.N)

/-- WHAT THE KERNELS LEAVE: after item 9 every reference read off `W10`, before it off `W8`. -/
def outs : Outs (F := F) := fun J r c => if J = 10 then W10 m c (Proc.devRef .tc r) else W8 m c (Proc.devRef .tc r)

/-- At the pooling kernel's exit the unknowns are `W8`'s. -/
theorem outs_eight (r : Ref sig .tc) (c : Dev nD) : outs m 8 r c = W8 m c (Proc.devRef .tc r) := by
  unfold outs; exact if_neg (by decide)

/-- At the adjacency-loss kernel's exit they are `W10`'s. -/
theorem outs_ten (r : Ref sig .tc) (c : Dev nD) : outs m 10 r c = W10 m c (Proc.devRef .tc r) := by
  unfold outs; exact if_pos rfl

/-- The first output array of the pooling kernel ends at the last running sum. -/
theorem outs_h (c : Dev nD) : outs m 8 main_v102_0 c = (dat0 (V7r m) c).arrAt 3 cfg0.N := by
  rw [outs_eight]; unfold W8
  rw [Function.update_of_ne (StableHlo.devRef_ne_of_ne (by decide)), Function.update_self]

/-- The second output array of the pooling kernel ends at the last running sum. -/
theorem outs_adj (c : Dev nD) : outs m 8 main_v102_1 c = (dat0 (V7r m) c).arrAt 4 cfg0.N := by
  rw [outs_eight]; unfold W8
  rw [Function.update_self]

/-- After the pooling kernel the valuation is `W8`. -/
theorem V8_outs (c : Dev nD) : V8 m (outs m) c = W8 m c := by
  unfold W8; rw [V8, outs_h, outs_adj]

/-- The same with the unknowns cut down to the pooling kernel's exit. -/
theorem V8_outs8 (c : Dev nD) : V8 m (outs8 m) c = W8 m c := by
  have h0 : outs8 m 8 main_v102_0 c = (dat0 (V7r m) c).arrAt 3 cfg0.N := by
    unfold outs8 W8
    rw [Function.update_of_ne (StableHlo.devRef_ne_of_ne (by decide)), Function.update_self]
  have h1 : outs8 m 8 main_v102_1 c = (dat0 (V7r m) c).arrAt 4 cfg0.N := by
    unfold outs8 W8
    rw [Function.update_self]
  unfold W8; rw [V8, h0, h1]

/-- The adjacency-loss kernel's entry contents do not depend on what it leaves itself. -/
theorem V9_outs (c : Dev nD) : V9 m (outs m) c = V9 m (outs8 m) c := by
  rw [V9, V9, V8_outs, V8_outs8]

/-- The contents the adjacency-loss kernel is entered with, read at the TensorCore's references. -/
abbrev V9r : (c : Dev nD) → (b : Ref sig .tc) → Buf (Elt F) ((c : Thread nD τ).loc b) := fun c b => V9 m (outs m) c b

theorem V9r_eq : V9r m = V9s m := by
  funext c b; exact congrFun (V9_outs m c) (Proc.devRef .tc b)

/-- The output array of the adjacency-loss kernel ends at the contents after its last point. -/
theorem outs_loss (c : Dev nD) : outs m 10 main_v119 c = (dat1 (V9r m) c).arrAt 3 cfg1.N := by
  rw [outs_ten, V9r_eq]; unfold W10
  rw [Function.update_self]

/-- The valuations after the kernels, read at the TensorCore's references. -/
abbrev V8r : (c : Dev nD) → (b : Ref sig .tc) → Buf (Elt F) ((c : Thread nD τ).loc b) := fun c b => V8 m (outs m) c b
abbrev V10r : (c : Dev nD) → (b : Ref sig .tc) → Buf (Elt F) ((c : Thread nD τ).loc b) := fun c b => V10 m (outs m) c b

/-! ## The proof data family and what rides along -/

/-- Each kernel's proof data at the contents it is entered with. -/
def pdats : (p : Fin 2) → (c : Dev nD) → Dat τ (Elt F) Unit ℕ (UR sig nD τ) ℕ (cfgs p) c
  | ⟨0, _⟩ => fun c => dat0 (V7r m) c
  | ⟨1, _⟩ => fun c => dat1 (V9r m) c

/-- No core owes another anything: no level is assigned. -/
abbrev L₀ : GSem nD τ sig → Finset Unit := fun _ => ∅
abbrev lv₀ : GSem nD τ sig → Unit → ℕ := fun _ _ => 0

/-- Beside the buffers, through every item: the core's generator register at some state, and its
    debts, which are none. -/
abbrev R (c : Dev nD) : sProp 𝕄 := iprop((∃ r, prngReg c r) ∗ ∃ W, owes (c : Thread nD τ) (0 : CellTallies nD τ sig Unit) W)

/-- The same at each of the three stretches between the kernels. -/
abbrev E₀ : Fin 3 → Dev nD → sProp 𝕄 := fun _ c => R c

/-! ## The pooling kernel's exit valuation against its proof data -/

/-- The exit valuation at the first output array is the unknown there. -/
theorem V8r_h (c : Dev nD) : V8r m c main_v102_0 = outs m 8 main_v102_0 c := by
  show V8 m (outs m) c (Proc.devRef .tc main_v102_0) = _
  rw [V8, Function.update_of_ne (StableHlo.devRef_ne_of_ne (by decide)), Function.update_self]

/-- The exit valuation at the second output array is the unknown there. -/
theorem V8r_adj (c : Dev nD) : V8r m c main_v102_1 = outs m 8 main_v102_1 c := by
  show V8 m (outs m) c (Proc.devRef .tc main_v102_1) = _
  rw [V8, Function.update_self]

/-- Each of the pooling kernel's five arrays holds at the exit valuation what the pipeline leaves:
    the three inputs what they were entered with, the two outputs the last running sums. -/
theorem hF0 (c : Dev nD) (w : Fin cfg0.W) : (dat0 (V7r m) c).arrAt w cfg0.N = V8r m c (Pipeline.arrRef spec0 w) := by
  match w with
  | ⟨0, _⟩ => exact ((dat0 (V7r m) c).arrAt_in 0 rfl _).trans (((A_eq0 (V7r m) c 0)).trans (V8_of m (outs m) c main_v99 (by decide)).symm)
  | ⟨1, _⟩ => exact ((dat0 (V7r m) c).arrAt_in 1 rfl _).trans (((A_eq0 (V7r m) c 1)).trans (V8_of m (outs m) c main_v100 (by decide)).symm)
  | ⟨2, _⟩ => exact ((dat0 (V7r m) c).arrAt_in 2 rfl _).trans (((A_eq0 (V7r m) c 2)).trans (V8_of m (outs m) c main_v101 (by decide)).symm)
  | ⟨3, _⟩ => exact (outs_h m c).symm.trans (V8r_h m c).symm
  | ⟨4, _⟩ => exact (outs_adj m c).symm.trans (V8r_adj m c).symm

/-- Off those five arrays the exit valuation is the entry valuation. -/
theorem hrest0 (c : Dev nD) : ∀ b, b ∉ Finset.univ.image (Pipeline.arrRef spec0) → V8r m c b = V7r m c b := fun b hb =>
  V8_of m (outs m) c b (by
    intro h
    rcases List.mem_cons.mp h with h | h
    · exact hb (Finset.mem_image.mpr ⟨3, Finset.mem_univ _, h.symm⟩)
    · rcases List.mem_cons.mp h with h | h
      · exact hb (Finset.mem_image.mpr ⟨4, Finset.mem_univ _, h.symm⟩)
      · cases h)

/-! ## The adjacency-loss kernel's exit valuation against its proof data -/

/-- The output array holds at the exit valuation what the pipeline leaves. -/
theorem hout1 (c : Dev nD) : V10r m c main_v119 = (dat1 (V9r m) c).arrAt 3 cfg1.N := by
  show V10 m (outs m) c (Proc.devRef .tc main_v119) = _
  rw [V10, Function.update_self, outs_loss]

/-- Off the output array the exit valuation is the entry valuation. -/
theorem hrest1 (c : Dev nD) : ∀ b, b ≠ main_v119 → V10r m c b = V9r m c b := fun b hb =>
  V10_of m (outs m) c b (by
    intro h
    rcases List.mem_cons.mp h with h | h
    · exact hb h
    · cases h)

/-! ## The kernels as segments -/

set_option backward.isDefEq.respectTransparency.types false in
/-- THE POOLING KERNEL over the thread state: entered from every unscoped buffer at the valuation
    before it, left at the valuation after it. Its five arrays are distinct buffers, cut out of the
    unscoped buffers at entry and put back at the exit valuation; the generator register goes into
    the invariant and comes out; nothing is owed; the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (V7r m) c).loose
  hwaits := Pipeline.hwaits_of_owed_zero _ _ _ _ L₀ lv₀ 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V7r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7r m c) (V8r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ADJACENCY-LOSS KERNEL over the thread state: entered from every unscoped buffer at the
    valuation before it, left at the valuation after it. Two of its windows look at one buffer, so
    the DISTINCT buffers behind its windows are cut out of the unscoped buffers whole; dealing them
    to the four windows at entry, and collecting them at exit with the output array at its final
    contents and every other at its entry contents, is the region's own pair of lemmas. -/
def reg1 : Pipeline.RegionSeg (pcfgs (F := F)) adm (pdats m) () defs₀ Variants.none L₀ lv₀ 1 where
  win := winFacts₀1
  block_pos := block_pos1
  stage_whole := stage_whole1
  K := PEmpty
  osem k := k.elim
  ho := Pipeline.OwnSemFacts.none _
  hbody c := (body_obligation1 (V9r m) c).loose
  hwaits := Pipeline.hwaits_of_owed_zero _ _ _ _ L₀ lv₀ 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V9r m c)
  hentry c := by
    rw [Pipeline.ownSems0_none]
    have hsplit : (unscopedBufs (Ix := Unit) (Name := ℕ) (U := UR sig nD τ) (Lvl := ℕ) c (V9r m c) : sProp 𝕄)
        ⊢ iprop((pdats m 1 c).arrays ((pdats m 1 c).arrAt · 0) ∗ Pipeline.unscopedRest spec1 c (V9r m c)) := by
      rw [Pipeline.unscopedBufs_split₀ cfgs 1 winFacts₀1.arr_unscoped c (V9r m c)]
      exact sep_mono (hsplit1 (V9r m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    -- off the windows' arrays the exit valuation is the entry valuation
    have hrest : (Pipeline.unscopedRest (Ix := Unit) (Name := ℕ) (U := UR sig nD τ) (Lvl := ℕ) spec1 c (V9r m c) : sProp 𝕄)
        = Pipeline.unscopedRest spec1 c (V10r m c) := by
      unfold Pipeline.unscopedRest
      refine bigSep_congr fun b hb => ?_
      rw [hrest1 m c b fun h => (Finset.mem_sdiff.mp hb).2 (Finset.mem_image.mpr ⟨3, Finset.mem_univ _, h.symm⟩)]
    have hjoin : iprop((pdats m 1 c).arrays ((pdats m 1 c).arrAt · cfg1.N) ∗ Pipeline.unscopedRest (Ix := Unit) (Name := ℕ) (U := UR sig nD τ) (Lvl := ℕ) spec1 c (V9r m c))
        ⊢ (unscopedBufs (Ix := Unit) (Name := ℕ) (U := UR sig nD τ) (Lvl := ℕ) c (V10r m c) : sProp 𝕄) := by
      rw [Pipeline.unscopedBufs_split₀ cfgs 1 winFacts₀1.arr_unscoped c (V10r m c), hrest]
      exact sep_mono (hjoin1 (V9r m) c (V10r m c) (hout1 m c) (hrest1 m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments against the thread states between the items -/

/-- The pooling kernel is entered from the thread state before it. -/
theorem hpre0 (c : Dev nD) : iprop(StableHlo.held (c : Thread nD τ) (Pipeline.ucRefs τ sig) (V7 m c) ∗ E₀ (F := F) 0 c) ⊢ (reg0 m).pre c := .rfl
/-- It leaves the thread state after it. -/
theorem hpost0 (c : Dev nD) : (reg0 m).post c ⊢ iprop(StableHlo.held (c : Thread nD τ) (Pipeline.ucRefs τ sig) (V8 m (outs m) c) ∗ E₀ (F := F) 1 c) := .rfl
/-- The adjacency-loss kernel is entered from the thread state before it. -/
theorem hpre1 (c : Dev nD) : iprop(StableHlo.held (c : Thread nD τ) (Pipeline.ucRefs τ sig) (V9 m (outs m) c) ∗ E₀ (F := F) 1 c) ⊢ (reg1 m).pre c := .rfl
/-- It leaves the thread state after it. -/
theorem hpost1 (c : Dev nD) : (reg1 m).post c ⊢ iprop(StableHlo.held (c : Thread nD τ) (Pipeline.ucRefs τ sig) (V10 m (outs m) c) ∗ E₀ (F := F) 2 c) := .rfl

end Cert.KernelIdeal.Hand

end
-- ==== Proof.KBody0.lean ====
import proofs.«172850_j70214125355087_1_alg».proof.Proof.Gen.Kernel.Skeleton
import proofs.«172850_j70214125355087_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0 (the pooling kernel) at the contents the region is entered with

The pooling kernel runs over a grid of six points. At point `k` it receives the `k`-th row block of
three arrays — `r` (2048×256), `e` (2048×128) and `a` (2048×256) — and two output blocks `h`
(256×128) and `adj` (256×256) that are the SAME block at every point and are written back only
after the last one. At `k = 0` it first stores zeros into both outputs; then, at every point,
`h ← h + rᵀ·e` and `adj ← adj + rᵀ·a`. So what the output buffers hold after point `n` is a
running sum over the row blocks `0..n`, defined here by recursion on `n` through the kernel's
named payloads. This module states that running sum, packs it into the pipeline's proof data at an
arbitrary entry memory `V`, and proves the body's Hoare triple at every grid point: the point
`0` (the reset is taken) and the points `1..5` (the outputs hold what the point before left).
Everything is generic in the float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Two facts about the grid and the windows -/

/-- The grid of region 0 has six points. -/
theorem points0 : cfg0.N = 6 := by decide

/-- A separating conjunction over the five windows, written out window by window. -/
theorem sepWindows0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

section Region0Data
-- the TensorCore's buffer contents when region 0 is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t` at their literal shapes: the `t`-th 2048-row block of `r`, -/
abbrev rblk0 (c : Dev nD) (t : Fin cfg0.N) : Vec F S2048x256 .bf16 := iblk0 V c 0 t
/-- of `e`, -/
abbrev eblk0 (c : Dev nD) (t : Fin cfg0.N) : Vec F S2048x128 .bf16 := iblk0 V c 1 t
/-- and of `a`. -/
abbrev ablk0 (c : Dev nD) (t : Fin cfg0.N) : Vec F S2048x256 .bf16 := iblk0 V c 2 t

/-! ## What the two outputs hold after each point -/

/-- THE RUNNING SUMS. After the body at point `n` the two output buffers hold: at `n = 0` the
    zero blocks plus the first products `r₀ᵀ·e₀`, `r₀ᵀ·a₀`; at `n + 1` what point `n` left
    plus `rₙ₊₁ᵀ·eₙ₊₁`, `rₙ₊₁ᵀ·aₙ₊₁` — spelled through the kernel's payloads. -/
def outsAt0 (c : Dev nD) : (n : ℕ) → n < cfg0.N → Vec F S256x128 .f32 × Vec F S256x256 .f32
  | 0, hn =>
    (k0_pay4 (rblk0 V c ⟨0, hn⟩) (k0_pay1 (F := F)) (eblk0 V c ⟨0, hn⟩),
     k0_pay5 (rblk0 V c ⟨0, hn⟩) (k0_pay2 (F := F)) (ablk0 V c ⟨0, hn⟩))
  | n + 1, hn =>
    (k0_pay4 (rblk0 V c ⟨n + 1, hn⟩) (outsAt0 c n (Nat.lt_of_succ_lt hn)).1 (eblk0 V c ⟨n + 1, hn⟩),
     k0_pay5 (rblk0 V c ⟨n + 1, hn⟩) (outsAt0 c n (Nat.lt_of_succ_lt hn)).2 (ablk0 V c ⟨n + 1, hn⟩))

/-- The running sums at the first point. -/
theorem outsAt0_zero (c : Dev nD) (hn : 0 < cfg0.N) :
    outsAt0 V c 0 hn
      = (k0_pay4 (rblk0 V c ⟨0, hn⟩) (k0_pay1 (F := F)) (eblk0 V c ⟨0, hn⟩),
         k0_pay5 (rblk0 V c ⟨0, hn⟩) (k0_pay2 (F := F)) (ablk0 V c ⟨0, hn⟩)) := rfl

/-- The running sums at a later point, from the point before. -/
theorem outsAt0_succ (c : Dev nD) (n : ℕ) (hn : n + 1 < cfg0.N) :
    outsAt0 V c (n + 1) hn
      = (k0_pay4 (rblk0 V c ⟨n + 1, hn⟩) (outsAt0 V c n (Nat.lt_of_succ_lt hn)).1 (eblk0 V c ⟨n + 1, hn⟩),
         k0_pay5 (rblk0 V c ⟨n + 1, hn⟩) (outsAt0 V c n (Nat.lt_of_succ_lt hn)).2 (ablk0 V c ⟨n + 1, hn⟩)) := rfl

/-- The running sums at a grid point that is the first. -/
theorem outsAt0_A (c : Dev nD) (t : Fin cfg0.N) (h0 : t.val = 0) :
    outsAt0 V c t.val t.isLt
      = (k0_pay4 (rblk0 V c t) (k0_pay1 (F := F)) (eblk0 V c t),
         k0_pay5 (rblk0 V c t) (k0_pay2 (F := F)) (ablk0 V c t)) := by
  obtain ⟨n, hn⟩ := t
  cases n with
  | zero => rfl
  | succ n => exact absurd h0 (Nat.succ_ne_zero n)

/-- The running sums at a grid point that is not the first, over what the point before left. -/
theorem outsAt0_B (c : Dev nD) (t : Fin cfg0.N) (h0 : t.val ≠ 0) :
    outsAt0 V c t.val t.isLt
      = (k0_pay4 (rblk0 V c t) (outsAt0 V c (t.val - 1) (Nat.lt_of_le_of_lt (Nat.sub_le _ _) t.isLt)).1 (eblk0 V c t),
         k0_pay5 (rblk0 V c t) (outsAt0 V c (t.val - 1) (Nat.lt_of_le_of_lt (Nat.sub_le _ _) t.isLt)).2 (ablk0 V c t)) := by
  obtain ⟨n, hn⟩ := t
  cases n with
  | zero => exact absurd rfl h0
  | succ n => rfl

/-! ## The pipeline's proof data -/

/-- The proof data of pipeline 0 on core `c`: the arrays as the region finds them; after the body at
    point `t` each input's buffer at its block and the two outputs' at the running sums; the
    invariant is the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not, for ANY
    proof data whose array is the entry contents (`hA`) and whose body leaves the block in place
    (`hafter`): the window is uncut and never idle, and where it is not fetched its block index has
    not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0Data

/-! ## The body's branch condition -/

/-- The condition of the body's one `scf.if`, from the grid coordinate: "this is point 0". -/
abbrev cond0_0 (i : grid0.Coords) : Prop := (Scalar.cmpi .ne (Scalar.extui (Scalar.cmpi .eq (BitVec.ofNat 32 (i 0).val) 0#32)) 0#32) = 1#1
/-- It holds at the first of the six points and at no other — decided over the grid. -/
theorem hcond0_0 : ∀ t : Fin cfg0.N, cond0_0 (grid0.coords t) ↔ t.val = 0 :=
  (by decide +kernel : ∀ t : Fin grid0.N, cond0_0 (grid0.coords t) ↔ t.val = 0)

/-! ## The kernel body on any staging memrefs -/

/-- One staging buffer of each output window, through which its contents are stated (the choice does not matter). -/
abbrev VO0_3 : View sig .tc .vmem S256x128 .f32 := (Memref.whole cc0_stg3_0 : Memref sig .tc .vmem S256x128 .f32).view
abbrev VO0_4 : View sig .tc .vmem S256x256 .f32 := (Memref.whole cc0_stg4_0 : Memref sig .tc .vmem S256x256 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)

set_option maxHeartbeats 1000000 in
/-- THE FIRST POINT (the reset is taken). What the body's stores leave in the two outputs' staging memrefs, as
    pieces (last first), with the proof that on whole staging memrefs — the inputs' at their blocks
    `x0`, `x1`, `x2`, the outputs' at anything — the body runs to the continuation holding the
    inputs' as they were and each output's buffer with its pieces written: the zero block first, then
    the zero block read back plus the product. -/
noncomputable def kernelRun0_A (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    Σ' (L3 : List (View.Piece (Elt F) S256x128 .f32)), { L4 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pool_kernel i arg1 harg1 arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- A LATER POINT (the reset is not taken). The same on whole staging memrefs whose two output buffers
    hold the running contents `xo3`, `xo4`: each output ends with one piece, its contents read
    plus the product. -/
noncomputable def kernelRun0_B (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    Σ' (L3 : List (View.Piece (Elt F) S256x128 .f32)), { L4 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__pool_kernel i arg1 harg1 arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the two outputs -/

/-- The first point's pieces for each output tile its block (two whole-block stores), so they cover it. -/
theorem cover0_A_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) (y : S256x128.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S256x128.size (by sl_kernel_rfl) y
theorem cover0_A_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) (y : S256x256.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S256x256.size (by sl_kernel_rfl) y

/-- What the first point leaves in each output's staging buffer: its pieces read back over junk. -/
def out0_A_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) : Vec F S256x128 .f32 :=
  VO0_3.read (Elt F) (VO0_3.writes (Elt F) VO0_3.junk (kernelRun0_A c i arg1 harg1 arg2 harg2 arg3 harg3 arg4 harg4 arg5 harg5 hc0 x0 x1 x2).1)
def out0_A_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) : Vec F S256x256 .f32 :=
  VO0_4.read (Elt F) (VO0_4.writes (Elt F) VO0_4.junk (kernelRun0_A c i arg1 harg1 arg2 harg2 arg3 harg3 arg4 harg4 arg5 harg5 hc0 x0 x1 x2).2.1)

/-- A later point's pieces for each output (one whole-block store) cover its block. -/
theorem cover0_B_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) (y : S256x128.Idx) :
    ∃ pc ∈ (kernelRun0_B c i arg1 harg1 arg2 harg2 arg3 harg3 arg4 harg4 arg5 harg5 hc0 x0 x1 x2 xo3 xo4).1, y ∈ pc.1.set :=
  View.cover_of_tiledL (kernelRun0_B c i arg1 harg1 arg2 harg2 arg3 harg3 arg4 harg4 arg5 harg5 hc0 x0 x1 x2 xo3 xo4).1 S256x128.size (by sl_kernel_rfl) y
theorem cover0_B_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) (y : S256x256.Idx) :
    ∃ pc ∈ (kernelRun0_B c i arg1 harg1 arg2 harg2 arg3 harg3 arg4 harg4 arg5 harg5 hc0 x0 x1 x2 xo3 xo4).2.1, y ∈ pc.1.set :=
  View.cover_of_tiledL (kernelRun0_B c i arg1 harg1 arg2 harg2 arg3 harg3 arg4 harg4 arg5 harg5 hc0 x0 x1 x2 xo3 xo4).2.1 S256x256.size (by sl_kernel_rfl) y

/-- What a later point leaves in each output's staging buffer: its pieces read back over junk. -/
def out0_B_3 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) : Vec F S256x128 .f32 :=
  VO0_3.read (Elt F) (VO0_3.writes (Elt F) VO0_3.junk (kernelRun0_B c i arg1 harg1 arg2 harg2 arg3 harg3 arg4 harg4 arg5 harg5 hc0 x0 x1 x2 xo3 xo4).1)
def out0_B_4 (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) : Vec F S256x256 .f32 :=
  VO0_4.read (Elt F) (VO0_4.writes (Elt F) VO0_4.junk (kernelRun0_B c i arg1 harg1 arg2 harg2 arg3 harg3 arg4 harg4 arg5 harg5 hc0 x0 x1 x2 xo3 xo4).2.1)

/-- The whole-block rectangle's offsets are zero. -/
theorem offsets0_zero : (![0, 0] : Fin 2 → Nat) = fun _ => 0 := funext fun a => by fin_cases a <;> rfl

/-- THE FIRST POINT'S VALUES. The last store covers the block, so the buffer reads as its payload; the
    payload's accumulator operand is the read-back of the zero block just stored; its other
    operands are the input blocks, read whole. -/
theorem out0_A_3_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    out0_A_3 c i arg1 harg1 arg2 harg2 arg3 harg3 arg4 harg4 arg5 harg5 hc0 x0 x1 x2 = k0_pay4 x0 (k0_pay1 (F := F)) x1 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero (S := S256x128) offsets0_zero, View.readCov_unit_zero (S := S256x128) _ offsets0_zero]
  simp only [View.readAt_eq_ld, harg1.read_unread, harg2.read_unread, harg3.read_unread, View.ld_unit_zero (S := S2048x256) offsets0_zero, View.ld_unit_zero (S := S2048x128) offsets0_zero]
theorem out0_A_4_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : cond0_0 i)
    (x0 : Vec F S2048x256 .bf16) (x1 : Vec F S2048x128 .bf16) (x2 : Vec F S2048x256 .bf16) :
    out0_A_4 c i arg1 harg1 arg2 harg2 arg3 harg3 arg4 harg4 arg5 harg5 hc0 x0 x1 x2 = k0_pay5 x0 (k0_pay2 (F := F)) x2 := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S256x256) offsets0_zero, View.readCov_unit_zero (S := S256x256) _ offsets0_zero]
  simp only [View.readAt_eq_ld, harg1.read_unread, harg2.read_unread, harg3.read_unread, View.ld_unit_zero (S := S2048x256) offsets0_zero, View.ld_unit_zero (S := S2048x128) offsets0_zero]

/-- A LATER POINT'S VALUES. The one store covers the block; its payload's accumulator operand is the
    buffer's running contents, read whole. -/
theorem out0_B_3_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    out0_B_3 c i arg1 harg1 arg2 harg2 arg3 harg3 arg4 harg4 arg5 harg5 hc0 x0 x1 x2 xo3 xo4 = k0_pay4 x0 xo3 x1 := by
  unfold out0_B_3
  rw [View.read_writes_eq_canon _ _ _ (cover0_B_3 c i arg1 harg1 arg2 harg2 arg3 harg3 arg4 harg4 arg5 harg5 hc0 x0 x1 x2 xo3 xo4)]
  unfold kernelRun0_B
  dsimp only
  sl_unfold_words
  rw [View.canon_unit_zero offsets0_zero]
  simp only [View.readAt_eq_ld, harg1.read_unread, harg2.read_unread, harg3.read_unread, harg4.read_unread, harg5.read_unread, View.ld_unit_zero (S := S2048x256) offsets0_zero, View.ld_unit_zero (S := S2048x128) offsets0_zero, View.ld_unit_zero (S := S256x128) offsets0_zero, View.ld_unit_zero (S := S256x256) offsets0_zero]
theorem out0_B_4_eq (c : Dev nD) (i : grid0.Coords) (arg1 : Memref sig .tc .vmem S2048x256 .bf16) (harg1 : arg1.IsWhole) (arg2 : Memref sig .tc .vmem S2048x128 .bf16) (harg2 : arg2.IsWhole) (arg3 : Memref sig .tc .vmem S2048x256 .bf16) (harg3 : arg3.IsWhole) (arg4 : Memref sig .tc .vmem S256x128 .f32) (harg4 : arg4.IsWhole) (arg5 : Memref sig .tc .vmem S256x256 .f32) (harg5 : arg5.IsWhole) (hc0 : ¬cond0_0 i)
    (x0 : Vec F S2048x256 .bf16) (x1 : Vec F S2048x128 .bf16) (x2 : Vec F S2048x256 .bf16) (xo3 : Vec F S256x128 .f32) (xo4 : Vec F S256x256 .f32) :
    out0_B_4 c i arg1 harg1 arg2 harg2 arg3 harg3 arg4 harg4 arg5 harg5 hc0 x0 x1 x2 xo3 xo4 = k0_pay5 x0 xo4 x2 := by
  unfold out0_B_4
  rw [View.read_writes_eq_canon _ _ _ (cover0_B_4 c i arg1 harg1 arg2 harg2 arg3 harg3 arg4 harg4 arg5 harg5 hc0 x0 x1 x2 xo3 xo4)]
  unfold kernelRun0_B
  dsimp only
  sl_unfold_words
  rw [View.canon_unit_zero offsets0_zero]
  simp only [View.readAt_eq_ld, harg1.read_unread, harg2.read_unread, harg3.read_unread, harg4.read_unread, harg5.read_unread, View.ld_unit_zero (S := S2048x256) offsets0_zero, View.ld_unit_zero (S := S2048x128) offsets0_zero, View.ld_unit_zero (S := S256x128) offsets0_zero, View.ld_unit_zero (S := S256x256) offsets0_zero]

section Region0Body
variable (V : (c : Dev nD) → (b : Ref sig .tc) → Buf (Elt F) ((c : Thread nD τ).loc b))

/-! ## What the outputs' buffers hold when a later point begins -/

/-- At a point that is not the first, output 3's staging buffer holds what the body left at the point
    before: an output is never fetched, the buffer was not written back between (only the last point
    writes back), the window is live and uncut. -/
theorem before0_3_B (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 6 := lt_of_lt_of_eq t.isLt points0
  rw [Dat.before_out_kept _ 3 rfl t h0 (Bool.eq_false_iff.mpr fun h => by have := (flush0_3 _).mp h; dsimp only at this; omega)
    (fun _ => rfl) (fun _ _ => rfl)]
  dsimp only [dat0]
/-- The same for output 4. -/
theorem before0_4_B (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 6 := lt_of_lt_of_eq t.isLt points0
  rw [Dat.before_out_kept _ 4 rfl t h0 (Bool.eq_false_iff.mpr fun h => by have := (flush0_4 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks; the closed form of the condition says
    whether the point is the first; at a later point each output's buffer holds what the point before
    left; so the case's run applies, and what it leaves reads as the running sums' next step. The
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    dsimp only
    rw [← out0_A_3_eq c (grid0.coords t) (ms0_0 t) (hs0_0 t) (ms0_1 t) (hs0_1 t) (ms0_2 t) (hs0_2 t) (ms0_3 t) (hs0_3 t) (ms0_4 t) (hs0_4 t) ((hcond0_0 t).mpr h0) (rblk0 V c t) (eblk0 V c t) (ablk0 V c t),
      ← out0_A_4_eq c (grid0.coords t) (ms0_0 t) (hs0_0 t) (ms0_1 t) (hs0_1 t) (ms0_2 t) (hs0_2 t) (ms0_3 t) (hs0_3 t) (ms0_4 t) (hs0_4 t) ((hcond0_0 t).mpr h0) (rblk0 V c t) (eblk0 V c t) (ablk0 V c t)]
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (rblk0 V c t) (eblk0 V c t) (ablk0 V c t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0]
    simp only [before0_3_B V c t h0, before0_4_B V c t h0]
    rw [← out0_B_3_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (rblk0 V c t) (eblk0 V c t) (ablk0 V c t) _ (outsAt0 V c (t.val - 1) (Nat.lt_of_le_of_lt (Nat.sub_le _ _) t.isLt)).2,
      ← out0_B_4_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (rblk0 V c t) (eblk0 V c t) (ablk0 V c t) (outsAt0 V c (t.val - 1) (Nat.lt_of_le_of_lt (Nat.sub_le _ _) t.isLt)).1 _]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (rblk0 V c t) (eblk0 V c t) (ablk0 V c t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [sepWindows0, sepWindows0]
  exact sound_body0 V c t

end Region0Body

end Cert.Kernel.Hand

end
-- ==== Proof.KBody1.lean ====
import proofs.«172850_j70214125355087_1_alg».proof.Proof.Gen.Kernel.Skeleton
import proofs.«172850_j70214125355087_1_alg».proof.Proof.Gen.Kernel.Points
import Idealize.ShloMosaic.Lib.Pipeline.FrameBody
import Idealize.ShloMosaic.Lib.Pipeline.Launch
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pallas_call is entered
variable (V : (c : Dev nD) → (b : Ref sig .tc) → Buf (Elt F) ((c : Thread nD τ).loc b))

/-! # The pairwise-loss kernel (grid 12 × 12) at the entry contents V

Point t of the row-major grid is the pair (i, j) = (t / 12, t % 12). The kernel reads the
(i, j) block of the dense adjacency, the i-th and the j-th row block of ONE assignment matrix
(two windows on the same array), and accumulates into the i-th row block of the output the row
sums of the squared residual a - sᵢ sⱼᵀ, the accumulator being zeroed when j = 0. -/

/-- The grid has 144 points. -/
theorem points1 : cfg1.N = 144 := by decide

/-- The four windows conjoined one by one. -/
theorem sepWindows1 {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-! ## The windows' blocks -/

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block (i, j) at point t. -/
abbrev ablk1 (c : Dev nD) (t : Fin cfg1.N) : Vec F S1024x1024 .f32 := iblk1 V c 0 t
/-- The assignment rows of block i (window 1) at point t. -/
abbrev siblk1 (c : Dev nD) (t : Fin cfg1.N) : Vec F S1024x256 .bf16 := iblk1 V c 1 t
/-- The assignment rows of block j (window 2, the same array) at point t. -/
abbrev sjblk1 (c : Dev nD) (t : Fin cfg1.N) : Vec F S1024x256 .bf16 := iblk1 V c 2 t

/-! ## The accumulator after each point -/

/-- What the output's staging buffer holds after the body at point n: when j = n % 12 = 0 the
    accumulator restarts from zero, otherwise it continues from what point n - 1 left (the same
    output block: i has not changed). -/
def outsAt1 (c : Dev nD) : (n : ℕ) → n < cfg1.N → Vec F S1024x128 .f32
  | 0, hn => k1_pay2 (siblk1 V c ⟨0, hn⟩) (sjblk1 V c ⟨0, hn⟩) (ablk1 V c ⟨0, hn⟩) (k1_pay1 (F := F))
  | n + 1, hn =>
    if (n + 1) % 12 = 0 then
      k1_pay2 (siblk1 V c ⟨n + 1, hn⟩) (sjblk1 V c ⟨n + 1, hn⟩) (ablk1 V c ⟨n + 1, hn⟩) (k1_pay1 (F := F))
    else
      k1_pay2 (siblk1 V c ⟨n + 1, hn⟩) (sjblk1 V c ⟨n + 1, hn⟩) (ablk1 V c ⟨n + 1, hn⟩) (outsAt1 c n (Nat.lt_of_succ_lt hn))

/-- At a point with j = 0 the accumulator is the point's term over zero. -/
theorem outsAt1_reset (c : Dev nD) (t : Fin cfg1.N) (h : t.val % 12 = 0) :
    outsAt1 V c t.val t.isLt = k1_pay2 (siblk1 V c t) (sjblk1 V c t) (ablk1 V c t) (k1_pay1 (F := F)) := by
  obtain ⟨n, hn⟩ := t
  cases n with
  | zero => rfl
  | succ n => exact if_pos h

/-- At a point with j ≠ 0 the accumulator is the point's term over what the point before left. -/
theorem outsAt1_step (c : Dev nD) (t : Fin cfg1.N) (h : t.val % 12 ≠ 0) :
    outsAt1 V c t.val t.isLt = k1_pay2 (siblk1 V c t) (sjblk1 V c t) (ablk1 V c t)
      (outsAt1 V c (t.val - 1) (Nat.lt_of_le_of_lt (Nat.sub_le _ _) t.isLt)) := by
  obtain ⟨n, hn⟩ := t
  cases n with
  | zero => exact absurd (Nat.zero_mod _) h
  | succ n => exact if_neg h

/-! ## The proof data -/

/-- The proof data of the kernel's pipeline on core c: the arrays as the kernel finds them; after the
    body at point t each input's buffer at its block and the output's at the accumulator; the invariant
    the scoped buffers no window stages and the random-number register, untouched; nothing owed. The adjacency and the output
    are held whole; the assignment matrix, read through windows 1 and 2, is held by window 1 at the
    left half of the full share and by window 2 at the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨1, _⟩ => fullShare.left
    | ⟨2, _⟩ => fullShare.right
    | _ => fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

/-- The share each window holds its array at. -/
theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-- Each input's current staging buffer holds its block at every point, fetched there or not: unfetched,
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- At a point with j ≠ 0 the output's current staging buffer holds what the body left at the point
    before: the point is not the first, the block (i, 0) was not written back between (it is written
    back only after j = 11), the window is live and uncut. -/
theorem before1_3_B (c : Dev nD) (t : Fin cfg1.N) (h : t.val % 12 ≠ 0) (d) :
    (dat1 V c).before 3 t d = outsAt1 V c (t.val - 1) (Nat.lt_of_le_of_lt (Nat.sub_le _ _) t.isLt) := by
  have hN : t.val < 144 := lt_of_lt_of_eq t.isLt points1
  rw [Dat.before_out_kept _ 3 rfl t (fun h0 => h (by rw [h0]))
    (Bool.eq_false_iff.mpr fun hf => by have := (flush1_3 _).mp hf; dsimp only at this; omega)
    (fun _ => rfl) (fun _ _ => rfl)]
  dsimp only [dat1]

/-! ## The body on any staging memrefs -/

theorem zeroOffsets2 : (![0, 0] : Fin 2 → Nat) = fun _ => 0 := by funext a; fin_cases a <;> rfl

/-- The body's one branch condition, from the grid coordinates: j = 0. -/
abbrev cond1 (i : grid1.Coords) : Prop :=
  (Scalar.cmpi .ne (Scalar.extui (Scalar.cmpi .eq (BitVec.ofNat 32 (i 1).val) 0#32)) 0#32) = 1#1

/-- It holds at the points ≡ 0 (mod 12): decided over the grid. -/
theorem hcond1 : ∀ t : Fin cfg1.N, cond1 (grid1.coords t) ↔ t.val % 12 = 0 :=
  (by decide +kernel : ∀ t : Fin grid1.N, cond1 (grid1.coords t) ↔ t.val % 12 = 0)

set_option maxHeartbeats 1000000 in
/-- j = 0: on whole staging memrefs, the inputs' at contents a, sᵢ, sⱼ and the output's at anything, the body
    zeroes the accumulator and leaves in it the point's term over zero; the inputs stay as they were. -/
theorem sound_kernel1_reset (c : Dev nD) (E : Set ℕ) (i : grid1.Coords)
    (arg2 : Memref sig .tc .vmem S1024x1024 .f32) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x128 .f32) (harg5 : arg5.IsWhole) (hc : cond1 i)
    (a : Vec F S1024x1024 .f32) (si sj : Vec F S1024x256 .bf16) (K : PUnit → sProp 𝕄) :
    iprop(owns (c : Thread nD τ) arg2 fullShare a ∗ owns (c : Thread nD τ) arg3 fullShare si ∗ owns (c : Thread nD τ) arg4 fullShare sj
        ∗ (∃ d, owns (c : Thread nD τ) arg5 fullShare d)
        ∗ (iprop(owns (c : Thread nD τ) arg2 fullShare a ∗ owns (c : Thread nD τ) arg3 fullShare si ∗ owns (c : Thread nD τ) arg4 fullShare sj
            ∗ owns (c : Thread nD τ) arg5 fullShare (k1_pay2 si sj a (k1_pay1 (F := F)))) -∗ K ⟨⟩))
      ⊢ wp frame (wpE (defs₀ (F := F)) Variants.none c none) E (cc1__adjloss_kernel i arg2 harg2 arg3 harg3 arg4 harg4 arg5 harg5) K := by
  simp only [cc1__adjloss_kernel_eq_skeleton]; unfold cc1__adjloss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeroOffsets2 inb_S1024x128_S1024x128_0_0 y⟩)]
  rw [View.canon_cons_unit_zero zeroOffsets2 inb_S1024x128_S1024x128_0_0]
  rw [View.readCov_unit_zero _ zeroOffsets2 inb_S1024x128_S1024x128_0_0]
  simp only [View.readAt_eq_ld]
  rw [View.ld_unit_zero zeroOffsets2 inb_S1024x256_S1024x256_0_0, View.ld_unit_zero zeroOffsets2 inb_S1024x256_S1024x256_0_0,
    View.ld_unit_zero zeroOffsets2 inb_S1024x1024_S1024x1024_0_0]

set_option maxHeartbeats 1000000 in
/-- j ≠ 0: on whole staging memrefs, the inputs' at contents a, sᵢ, sⱼ and the output's at the running
    accumulator xo, the body leaves in the output the point's term over xo; the inputs stay as they were. -/
theorem sound_kernel1_step (c : Dev nD) (E : Set ℕ) (i : grid1.Coords)
    (arg2 : Memref sig .tc .vmem S1024x1024 .f32) (harg2 : arg2.IsWhole)
    (arg3 : Memref sig .tc .vmem S1024x256 .bf16) (harg3 : arg3.IsWhole)
    (arg4 : Memref sig .tc .vmem S1024x256 .bf16) (harg4 : arg4.IsWhole)
    (arg5 : Memref sig .tc .vmem S1024x128 .f32) (harg5 : arg5.IsWhole) (hc : ¬cond1 i)
    (a : Vec F S1024x1024 .f32) (si sj : Vec F S1024x256 .bf16) (xo : Vec F S1024x128 .f32) (K : PUnit → sProp 𝕄) :
    iprop(owns (c : Thread nD τ) arg2 fullShare a ∗ owns (c : Thread nD τ) arg3 fullShare si ∗ owns (c : Thread nD τ) arg4 fullShare sj
        ∗ owns (c : Thread nD τ) arg5 fullShare xo
        ∗ (iprop(owns (c : Thread nD τ) arg2 fullShare a ∗ owns (c : Thread nD τ) arg3 fullShare si ∗ owns (c : Thread nD τ) arg4 fullShare sj
            ∗ owns (c : Thread nD τ) arg5 fullShare (k1_pay2 si sj a xo)) -∗ K ⟨⟩))
      ⊢ wp frame (wpE (defs₀ (F := F)) Variants.none c none) E (cc1__adjloss_kernel i arg2 harg2 arg3 harg3 arg4 harg4 arg5 harg5) K := by
  simp only [cc1__adjloss_kernel_eq_skeleton]; unfold cc1__adjloss_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (fun y => ⟨_, List.mem_cons_self, View.mem_set_unit_zero zeroOffsets2 inb_S1024x128_S1024x128_0_0 y⟩)]
  rw [View.canon_cons_unit_zero zeroOffsets2 inb_S1024x128_S1024x128_0_0]
  simp only [View.readAt_eq_ld]
  rw [View.ld_unit_zero zeroOffsets2 inb_S1024x256_S1024x256_0_0, View.ld_unit_zero zeroOffsets2 inb_S1024x256_S1024x256_0_0,
    View.ld_unit_zero zeroOffsets2 inb_S1024x1024_S1024x1024_0_0, View.ld_unit_zero zeroOffsets2 inb_S1024x128_S1024x128_0_0]

/-! ## The body obligation, at a generic point -/

/-- Each window's current staging memref at point t, as the pipeline passes it to the body. -/
abbrev ms1_0 (t : Fin cfg1.N) : Memref sig .tc .vmem S1024x1024 .f32 := win1_0.stage (cfg1.slots t 0)
abbrev ms1_1 (t : Fin cfg1.N) : Memref sig .tc .vmem S1024x256 .bf16 := win1_1.stage (cfg1.slots t 1)
abbrev ms1_2 (t : Fin cfg1.N) : Memref sig .tc .vmem S1024x256 .bf16 := win1_2.stage (cfg1.slots t 2)
abbrev ms1_3 (t : Fin cfg1.N) : Memref sig .tc .vmem S1024x128 .f32 := win1_3.stage (cfg1.slots t 3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks; when j = 0 the accumulator's buffer may hold
    anything and is restarted, otherwise it holds what the point before left; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 12 = 0
  · rw [outsAt1_reset V c t h0]
    iintro ⟨HΦ, Ho, ⟨%d0, H0⟩, ⟨%d1, H1⟩, ⟨%d2, H2⟩, ⟨%d3, H3⟩⟩
    iapply (sound_kernel1_reset c Set.univ (grid1.coords t) _ _ _ _ _ _ _ _ ((hcond1 t).mpr h0)
      (ablk1 V c t) (siblk1 V c t) (sjblk1 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_step V c t h0]
    simp only [before1_3_B V c t h0]
    iintro ⟨HΦ, Ho, ⟨%d0, H0⟩, ⟨%d1, H1⟩, ⟨%d2, H2⟩, ⟨%d3, H3⟩⟩
    iapply (sound_kernel1_step c Set.univ (grid1.coords t) _ _ _ _ _ _ _ _ (fun h => h0 ((hcond1 t).mp h))
      (ablk1 V c t) (siblk1 V c t) (sjblk1 V c t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation, at every point. -/
theorem body_obligation1 (c : Dev nD) : BodyObligation (dat1 (F := F) V c) (defs₀ (F := F)) Variants.none () Set.univ := fun t => by
  rw [sepWindows1, sepWindows1]
  exact sound_body1 V c t

/-! ## The arrays dealt to the windows, and back

The four windows stand on three buffers: the adjacency, the assignment matrix (windows 1 and 2) and
the output. At entry each buffer is held whole; the assignment matrix's full share is cut into its
left and right halves, one per window, and at exit the halves are put together again. -/

/-- The windows' arrays are whole buffers. -/
theorem arrWhole1 : ∀ w : Fin cfg1.W, (cfg1.win w).arr.IsWhole := fun
  | 0 => Memref.isWhole_whole _ | 1 => Memref.isWhole_whole _ | 2 => Memref.isWhole_whole _ | 3 => Memref.isWhole_whole _
  | ⟨_ + 4, h⟩ => absurd h (Nat.not_lt.2 (Nat.le_add_left _ _))

/-- The distinct buffers behind the windows' arrays, listed: adjacency, assignment matrix, output. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v118) ↦{fullShare} W main_v118)
          ∗ (((c : Thread nD τ).loc main_v99) ↦{fullShare} W main_v99)
          ∗ (((c : Thread nD τ).loc main_v119) ↦{fullShare} W main_v119)) := by
  unfold Pipeline.arrBufs
  rw [BI.bigSep_eq_bigSepL_of_eq [main_v118, main_v99, main_v119] (by decide) (by decide)]; rfl

/-- The proof data's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v118) ↦{fullShare} G 0)
          ∗ (((c : Thread nD τ).loc main_v99) ↦{fullShare.left} G 1)
          ∗ (((c : Thread nD τ).loc main_v99) ↦{fullShare.right} G 2)
          ∗ (((c : Thread nD τ).loc main_v119) ↦{fullShare} G 3)) := by
  unfold Dat.arrays
  rw [bigSep_congr (fun w _ => by rw [(arrWhole1 w).set_eq_univ] :
    ∀ w ∈ (Finset.univ : Finset (Fin cfg1.W)), ((cfg1.win w).arr.view.loc (c : Thread nD τ) ↦[(cfg1.win w).arr.view.set]{(dat1 V c).share w} G w : sProp 𝕄)
      = ((cfg1.win w).arr.view.loc (c : Thread nD τ) ↦{(dat1 V c).share w} G w))]
  rw [sepWindows1]; rfl

/-- ENTRY: the three buffers, each whole at the entry contents, make the four windows' arrays. -/
theorem hsplit1 (c : Dev nD) : Pipeline.arrBufs spec1 c (V c) ⊢ (dat1 V c).arrays ((dat1 V c).arrAt · 0) := by
  rw [arrBufs1_eq, arrays1_eq]
  iintro ⟨HA, HS, HO⟩
  ihave HS' := (pointsTo_share (PosShare.mem_left_op_right fullShare)).1 $$ HS
  icases HS' with ⟨HS1, HS2⟩
  isplitl [HA]; · iexact HA
  isplitl [HS1]; · iexact HS1
  isplitl [HS2]; · iexact HS2
  iexact HO

/-- EXIT: the four windows' arrays at their final contents make the three buffers at any valuation that
    has the output at its final contents and everything else as at entry: the inputs are never written,
    and the two halves of the assignment matrix's share are joined. -/
theorem hjoin1 (c : Dev nD) (V' : (b : Ref sig .tc) → Buf (Elt F) ((c : Thread nD τ).loc b))
    (hout : V' main_v119 = (dat1 V c).arrAt 3 cfg1.N) (hrest : ∀ b, b ≠ main_v119 → V' b = V c b) :
    (dat1 V c).arrays ((dat1 V c).arrAt · cfg1.N) ⊢ Pipeline.arrBufs spec1 c V' := by
  rw [arrBufs1_eq, arrays1_eq]
  rw [(dat1 V c).arrAt_in 0 rfl, (dat1 V c).arrAt_in 1 rfl, (dat1 V c).arrAt_in 2 rfl]
  rw [hout, hrest main_v118 (by decide), hrest main_v99 (by decide)]
  iintro ⟨HA, HS1, HS2, HO⟩
  isplitl [HA]; · iexact HA
  isplitl [HS1 HS2]
  · iapply (pointsTo_share (PosShare.mem_left_op_right fullShare)).2
    isplitl [HS1]; · iexact HS1
    iexact HS2
  iexact HO

end Cert.Kernel.Hand

end
-- ==== Proof.KRegs.lean ====
import proofs.«172850_j70214125355087_1_alg».proof.Proof.RegionsK
import proofs.«172850_j70214125355087_1_alg».proof.Proof.KBody0
import proofs.«172850_j70214125355087_1_alg».proof.Proof.KBody1
import Idealize.ShloMosaic.Lib.Pipeline.Frame
import Idealize.ShloMosaic.Lib.Pipeline.Launch
import Idealize.ShloMosaic.Lib.Pipeline.Regions
import Idealize.ShloMosaic.Lib.Pipeline.RegionsLoop

/-! # The two kernels as segments of the program's run

The program is fifteen items: host stretches, the pooling kernel (item 7), one more host stretch,
the adjacency-loss kernel (item 9), and five closing host stretches. Between items the TensorCore's
unscoped buffers hold a valuation; the host stretches move it by their own semantics, and a kernel
moves it only at its output arrays. This module names what the kernels leave there:

* the pooling kernel leaves in its two output arrays the last running sums over the six row blocks
  (the proof data's array contents after the last grid point), everything else as it was entered;
* the adjacency-loss kernel leaves in its one output array the contents after its 144th point, and
  everything else as entered — in particular the array it reads through two windows.

With those contents fixed, each kernel becomes a segment: entered with every unscoped buffer at the
valuation before it, left with every unscoped buffer at the valuation after it, the core's
generator register and its (empty) debts riding along. For the pooling kernel the five arrays are
five distinct buffers, so they are cut out of the unscoped buffers and put back one by one. For the
adjacency-loss kernel two windows look at the same buffer: the distinct buffers behind the windows
are cut out whole, and dealing that buffer's share between the two windows (and collecting it
again) is the region's own lemma. Everything is generic in the float interpretation `F`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the kernels leave -/

/-- The contents the pooling kernel is entered with, read at the TensorCore's references. -/
abbrev V7r : (c : Dev nD) → (b : Ref sig .tc) → Buf (Elt F) ((c : Thread nD τ).loc b) := fun c b => V7 m c b

/-- The valuation after the pooling kernel: its two output arrays at the last running sums, every
    other buffer as entered. -/
def W8 (c : Dev nD) : Valuation τ sig (Elt F) :=
  Function.update (Function.update (V7 m c) main_v102_0 ((dat0 (V7r m) c).arrAt 3 cfg0.N))
    main_v102_1 ((dat0 (V7r m) c).arrAt 4 cfg0.N)

/-- The unknowns at the pooling kernel's exit only: every reference read off `W8`. -/
def outs8 : Outs (F := F) := fun _ r c => W8 m c (Proc.devRef .tc r)

/-- The contents the adjacency-loss kernel is entered with (they mention the unknowns only at the
    pooling kernel's exit), read at the TensorCore's references. -/
abbrev V9s : (c : Dev nD) → (b : Ref sig .tc) → Buf (Elt F) ((c : Thread nD τ).loc b) := fun c b => V9 m (outs8 m) c b

/-- The valuation after the adjacency-loss kernel: its output array at the contents after the last
    grid point, every other buffer as entered. -/
def W10 (c : Dev nD) : Valuation τ sig (Elt F) :=
  Function.update (V9 m (outs8 m) c) main_v119 ((dat1 (V9s m) c).arrAt 3 cfg1.N)

/-- WHAT THE KERNELS LEAVE: after item 9 every reference read off `W10`, before it off `W8`. -/
def outs : Outs (F := F) := fun J r c => if J = 10 then W10 m c (Proc.devRef .tc r) else W8 m c (Proc.devRef .tc r)

/-- At the pooling kernel's exit the unknowns are `W8`'s. -/
theorem outs_eight (r : Ref sig .tc) (c : Dev nD) : outs m 8 r c = W8 m c (Proc.devRef .tc r) := by
  unfold outs; exact if_neg (by decide)

/-- At the adjacency-loss kernel's exit they are `W10`'s. -/
theorem outs_ten (r : Ref sig .tc) (c : Dev nD) : outs m 10 r c = W10 m c (Proc.devRef .tc r) := by
  unfold outs; exact if_pos rfl

/-- The first output array of the pooling kernel ends at the last running sum. -/
theorem outs_h (c : Dev nD) : outs m 8 main_v102_0 c = (dat0 (V7r m) c).arrAt 3 cfg0.N := by
  rw [outs_eight]; unfold W8
  rw [Function.update_of_ne (StableHlo.devRef_ne_of_ne (by decide)), Function.update_self]

/-- The second output array of the pooling kernel ends at the last running sum. -/
theorem outs_adj (c : Dev nD) : outs m 8 main_v102_1 c = (dat0 (V7r m) c).arrAt 4 cfg0.N := by
  rw [outs_eight]; unfold W8
  rw [Function.update_self]

/-- After the pooling kernel the valuation is `W8`. -/
theorem V8_outs (c : Dev nD) : V8 m (outs m) c = W8 m c := by
  unfold W8; rw [V8, outs_h, outs_adj]

/-- The same with the unknowns cut down to the pooling kernel's exit. -/
theorem V8_outs8 (c : Dev nD) : V8 m (outs8 m) c = W8 m c := by
  have h0 : outs8 m 8 main_v102_0 c = (dat0 (V7r m) c).arrAt 3 cfg0.N := by
    unfold outs8 W8
    rw [Function.update_of_ne (StableHlo.devRef_ne_of_ne (by decide)), Function.update_self]
  have h1 : outs8 m 8 main_v102_1 c = (dat0 (V7r m) c).arrAt 4 cfg0.N := by
    unfold outs8 W8
    rw [Function.update_self]
  unfold W8; rw [V8, h0, h1]

/-- The adjacency-loss kernel's entry contents do not depend on what it leaves itself. -/
theorem V9_outs (c : Dev nD) : V9 m (outs m) c = V9 m (outs8 m) c := by
  rw [V9, V9, V8_outs, V8_outs8]

/-- The contents the adjacency-loss kernel is entered with, read at the TensorCore's references. -/
abbrev V9r : (c : Dev nD) → (b : Ref sig .tc) → Buf (Elt F) ((c : Thread nD τ).loc b) := fun c b => V9 m (outs m) c b

theorem V9r_eq : V9r m = V9s m := by
  funext c b; exact congrFun (V9_outs m c) (Proc.devRef .tc b)

/-- The output array of the adjacency-loss kernel ends at the contents after its last point. -/
theorem outs_loss (c : Dev nD) : outs m 10 main_v119 c = (dat1 (V9r m) c).arrAt 3 cfg1.N := by
  rw [outs_ten, V9r_eq]; unfold W10
  rw [Function.update_self]

/-- The valuations after the kernels, read at the TensorCore's references. -/
abbrev V8r : (c : Dev nD) → (b : Ref sig .tc) → Buf (Elt F) ((c : Thread nD τ).loc b) := fun c b => V8 m (outs m) c b
abbrev V10r : (c : Dev nD) → (b : Ref sig .tc) → Buf (Elt F) ((c : Thread nD τ).loc b) := fun c b => V10 m (outs m) c b

/-! ## The proof data family and what rides along -/

/-- Each kernel's proof data at the contents it is entered with. -/
def pdats : (p : Fin 2) → (c : Dev nD) → Dat τ (Elt F) Unit ℕ (UR sig nD τ) ℕ (cfgs p) c
  | ⟨0, _⟩ => fun c => dat0 (V7r m) c
  | ⟨1, _⟩ => fun c => dat1 (V9r m) c

/-- No core owes another anything: no level is assigned. -/
abbrev L₀ : GSem nD τ sig → Finset Unit := fun _ => ∅
abbrev lv₀ : GSem nD τ sig → Unit → ℕ := fun _ _ => 0

/-- Beside the buffers, through every item: the core's generator register at some state, and its
    debts, which are none. -/
abbrev R (c : Dev nD) : sProp 𝕄 := iprop((∃ r, prngReg c r) ∗ ∃ W, owes (c : Thread nD τ) (0 : CellTallies nD τ sig Unit) W)

/-- The same at each of the three stretches between the kernels. -/
abbrev E₀ : Fin 3 → Dev nD → sProp 𝕄 := fun _ c => R c

/-! ## The pooling kernel's exit valuation against its proof data -/

/-- The exit valuation at the first output array is the unknown there. -/
theorem V8r_h (c : Dev nD) : V8r m c main_v102_0 = outs m 8 main_v102_0 c := by
  show V8 m (outs m) c (Proc.devRef .tc main_v102_0) = _
  rw [V8, Function.update_of_ne (StableHlo.devRef_ne_of_ne (by decide)), Function.update_self]

/-- The exit valuation at the second output array is the unknown there. -/
theorem V8r_adj (c : Dev nD) : V8r m c main_v102_1 = outs m 8 main_v102_1 c := by
  show V8 m (outs m) c (Proc.devRef .tc main_v102_1) = _
  rw [V8, Function.update_self]

/-- Each of the pooling kernel's five arrays holds at the exit valuation what the pipeline leaves:
    the three inputs what they were entered with, the two outputs the last running sums. -/
theorem hF0 (c : Dev nD) (w : Fin cfg0.W) : (dat0 (V7r m) c).arrAt w cfg0.N = V8r m c (Pipeline.arrRef spec0 w) := by
  match w with
  | ⟨0, _⟩ => exact ((dat0 (V7r m) c).arrAt_in 0 rfl _).trans (((A_eq0 (V7r m) c 0)).trans (V8_of m (outs m) c main_v99 (by decide)).symm)
  | ⟨1, _⟩ => exact ((dat0 (V7r m) c).arrAt_in 1 rfl _).trans (((A_eq0 (V7r m) c 1)).trans (V8_of m (outs m) c main_v100 (by decide)).symm)
  | ⟨2, _⟩ => exact ((dat0 (V7r m) c).arrAt_in 2 rfl _).trans (((A_eq0 (V7r m) c 2)).trans (V8_of m (outs m) c main_v101 (by decide)).symm)
  | ⟨3, _⟩ => exact (outs_h m c).symm.trans (V8r_h m c).symm
  | ⟨4, _⟩ => exact (outs_adj m c).symm.trans (V8r_adj m c).symm

/-- Off those five arrays the exit valuation is the entry valuation. -/
theorem hrest0 (c : Dev nD) : ∀ b, b ∉ Finset.univ.image (Pipeline.arrRef spec0) → V8r m c b = V7r m c b := fun b hb =>
  V8_of m (outs m) c b (by
    intro h
    rcases List.mem_cons.mp h with h | h
    · exact hb (Finset.mem_image.mpr ⟨3, Finset.mem_univ _, h.symm⟩)
    · rcases List.mem_cons.mp h with h | h
      · exact hb (Finset.mem_image.mpr ⟨4, Finset.mem_univ _, h.symm⟩)
      · cases h)

/-! ## The adjacency-loss kernel's exit valuation against its proof data -/

/-- The output array holds at the exit valuation what the pipeline leaves. -/
theorem hout1 (c : Dev nD) : V10r m c main_v119 = (dat1 (V9r m) c).arrAt 3 cfg1.N := by
  show V10 m (outs m) c (Proc.devRef .tc main_v119) = _
  rw [V10, Function.update_self, outs_loss]

/-- Off the output array the exit valuation is the entry valuation. -/
theorem hrest1 (c : Dev nD) : ∀ b, b ≠ main_v119 → V10r m c b = V9r m c b := fun b hb =>
  V10_of m (outs m) c b (by
    intro h
    rcases List.mem_cons.mp h with h | h
    · exact hb h
    · cases h)

/-! ## The kernels as segments -/

set_option backward.isDefEq.respectTransparency.types false in
/-- THE POOLING KERNEL over the thread state: entered from every unscoped buffer at the valuation
    before it, left at the valuation after it. Its five arrays are distinct buffers, cut out of the
    unscoped buffers at entry and put back at the exit valuation; the generator register goes into
    the invariant and comes out; nothing is owed; the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (V7r m) c).loose
  hwaits := Pipeline.hwaits_of_owed_zero _ _ _ _ L₀ lv₀ 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V7r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V7r m c) (V8r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ADJACENCY-LOSS KERNEL over the thread state: entered from every unscoped buffer at the
    valuation before it, left at the valuation after it. Two of its windows look at one buffer, so
    the DISTINCT buffers behind its windows are cut out of the unscoped buffers whole; dealing them
    to the four windows at entry, and collecting them at exit with the output array at its final
    contents and every other at its entry contents, is the region's own pair of lemmas. -/
def reg1 : Pipeline.RegionSeg (pcfgs (F := F)) adm (pdats m) () defs₀ Variants.none L₀ lv₀ 1 where
  win := winFacts₀1
  block_pos := block_pos1
  stage_whole := stage_whole1
  K := PEmpty
  osem k := k.elim
  ho := Pipeline.OwnSemFacts.none _
  hbody c := (body_obligation1 (V9r m) c).loose
  hwaits := Pipeline.hwaits_of_owed_zero _ _ _ _ L₀ lv₀ 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V9r m c)
  hentry c := by
    rw [Pipeline.ownSems0_none]
    have hsplit : (unscopedBufs (Ix := Unit) (Name := ℕ) (U := UR sig nD τ) (Lvl := ℕ) c (V9r m c) : sProp 𝕄)
        ⊢ iprop((pdats m 1 c).arrays ((pdats m 1 c).arrAt · 0) ∗ Pipeline.unscopedRest spec1 c (V9r m c)) := by
      rw [Pipeline.unscopedBufs_split₀ cfgs 1 winFacts₀1.arr_unscoped c (V9r m c)]
      exact sep_mono (hsplit1 (V9r m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    -- off the windows' arrays the exit valuation is the entry valuation
    have hrest : (Pipeline.unscopedRest (Ix := Unit) (Name := ℕ) (U := UR sig nD τ) (Lvl := ℕ) spec1 c (V9r m c) : sProp 𝕄)
        = Pipeline.unscopedRest spec1 c (V10r m c) := by
      unfold Pipeline.unscopedRest
      refine bigSep_congr fun b hb => ?_
      rw [hrest1 m c b fun h => (Finset.mem_sdiff.mp hb).2 (Finset.mem_image.mpr ⟨3, Finset.mem_univ _, h.symm⟩)]
    have hjoin : iprop((pdats m 1 c).arrays ((pdats m 1 c).arrAt · cfg1.N) ∗ Pipeline.unscopedRest (Ix := Unit) (Name := ℕ) (U := UR sig nD τ) (Lvl := ℕ) spec1 c (V9r m c))
        ⊢ (unscopedBufs (Ix := Unit) (Name := ℕ) (U := UR sig nD τ) (Lvl := ℕ) c (V10r m c) : sProp 𝕄) := by
      rw [Pipeline.unscopedBufs_split₀ cfgs 1 winFacts₀1.arr_unscoped c (V10r m c), hrest]
      exact sep_mono (hjoin1 (V9r m) c (V10r m c) (hout1 m c) (hrest1 m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The segments against the thread states between the items -/

/-- The pooling kernel is entered from the thread state before it. -/
theorem hpre0 (c : Dev nD) : iprop(StableHlo.held (c : Thread nD τ) (Pipeline.ucRefs τ sig) (V7 m c) ∗ E₀ (F := F) 0 c) ⊢ (reg0 m).pre c := .rfl
/-- It leaves the thread state after it. -/
theorem hpost0 (c : Dev nD) : (reg0 m).post c ⊢ iprop(StableHlo.held (c : Thread nD τ) (Pipeline.ucRefs τ sig) (V8 m (outs m) c) ∗ E₀ (F := F) 1 c) := .rfl
/-- The adjacency-loss kernel is entered from the thread state before it. -/
theorem hpre1 (c : Dev nD) : iprop(StableHlo.held (c : Thread nD τ) (Pipeline.ucRefs τ sig) (V9 m (outs m) c) ∗ E₀ (F := F) 1 c) ⊢ (reg1 m).pre c := .rfl
/-- It leaves the thread state after it. -/
theorem hpost1 (c : Dev nD) : (reg1 m).post c ⊢ iprop(StableHlo.held (c : Thread nD τ) (Pipeline.ucRefs τ sig) (V10 m (outs m) c) ∗ E₀ (F := F) 2 c) := .rfl

end Cert.Kernel.Hand

end
-- ==== Proof.KIValue0.lean ====
/-
  Region 0 (the pooling kernel) read as values, at any float instance.

  The kernel walks the 12288 rows of its three operands in 6 blocks of 2048 rows; its two outputs are whole-array
  blocks whose index never moves, so each is written back once, after the last point, and the array then holds what
  the accumulation left there. Two facts are recorded: an input block at point `t`, read at row `s`, is the operand
  array at row `2048 t + s`; and each output array ends at the accumulation's value after point 5.
-/
import proofs.«172850_j70214125355087_1_alg».proof.Proof.KIBody0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- Region 0's grid has six points. -/
theorem N0_eq : cfg0.N = 6 := by decide

/-- The last point of region 0's grid. -/
def tl0 : Fin cfg0.N := ⟨5, by rw [N0_eq]; decide⟩

/-! ## The input blocks are row bands of the operand arrays -/

/-- Row `s` of the block of `result` at point `t` is row `2048 t + s` of the array. -/
theorem rblk0_apply (c : Dev nD) (t : Fin cfg0.N) (j : S2048x256.Idx) (i : S12288x256.Idx)
    (h0 : (i 0).val = 2048 * t.val + (j 0).val) (h1 : (i 1).val = (j 1).val) :
    rblk0 V c t j = (V c main_v99 : S12288x256.Idx → Elt F .bf16) i := by
  have hi : win0_0.index t 0 = t.val ∧ win0_0.index t 1 = 0 :=
    (by decide +kernel : ∀ t : Fin grid0.N, win0_0.index t 0 = t.val ∧ win0_0.index t 1 = 0) t
  show iblk0 V c 0 t j = _
  unfold iblk0
  rw [View.read_apply]
  show V c main_v99 _ = V c main_v99 i
  congr 1
  funext a
  apply Fin.ext
  match a with
  | ⟨0, _⟩ => show win0_0.index t 0 * 2048 + 1 * (j 0).val = (i 0).val; rw [hi.1, h0]; omega
  | ⟨1, _⟩ => show win0_0.index t 1 * 256 + 1 * (j 1).val = (i 1).val; rw [hi.2, h1]; omega

/-- Row `s` of the block of `embed` at point `t` is row `2048 t + s` of the array. -/
theorem eblk0_apply (c : Dev nD) (t : Fin cfg0.N) (j : S2048x128.Idx) (i : S12288x128.Idx)
    (h0 : (i 0).val = 2048 * t.val + (j 0).val) (h1 : (i 1).val = (j 1).val) :
    eblk0 V c t j = (V c main_v100 : S12288x128.Idx → Elt F .bf16) i := by
  have hi : win0_1.index t 0 = t.val ∧ win0_1.index t 1 = 0 :=
    (by decide +kernel : ∀ t : Fin grid0.N, win0_1.index t 0 = t.val ∧ win0_1.index t 1 = 0) t
  show iblk0 V c 1 t j = _
  unfold iblk0
  rw [View.read_apply]
  show V c main_v100 _ = V c main_v100 i
  congr 1
  funext a
  apply Fin.ext
  match a with
  | ⟨0, _⟩ => show win0_1.index t 0 * 2048 + 1 * (j 0).val = (i 0).val; rw [hi.1, h0]; omega
  | ⟨1, _⟩ => show win0_1.index t 1 * 128 + 1 * (j 1).val = (i 1).val; rw [hi.2, h1]; omega

/-- Row `s` of the block of the aggregated `result` at point `t` is row `2048 t + s` of the array. -/
theorem ablk0_apply (c : Dev nD) (t : Fin cfg0.N) (j : S2048x256.Idx) (i : S12288x256.Idx)
    (h0 : (i 0).val = 2048 * t.val + (j 0).val) (h1 : (i 1).val = (j 1).val) :
    ablk0 V c t j = (V c main_v101 : S12288x256.Idx → Elt F .bf16) i := by
  have hi : win0_2.index t 0 = t.val ∧ win0_2.index t 1 = 0 :=
    (by decide +kernel : ∀ t : Fin grid0.N, win0_2.index t 0 = t.val ∧ win0_2.index t 1 = 0) t
  show iblk0 V c 2 t j = _
  unfold iblk0
  rw [View.read_apply]
  show V c main_v101 _ = V c main_v101 i
  congr 1
  funext a
  apply Fin.ext
  match a with
  | ⟨0, _⟩ => show win0_2.index t 0 * 2048 + 1 * (j 0).val = (i 0).val; rw [hi.1, h0]; omega
  | ⟨1, _⟩ => show win0_2.index t 1 * 256 + 1 * (j 1).val = (i 1).val; rw [hi.2, h1]; omega

/-! ## The output arrays end at the accumulation after the last point -/

/-- What the accumulation leaves for the pooled features after the last point, as contents of that array. -/
abbrev hFinal (c : Dev nD) : Buf (Elt F) ((c : Thread nD τ).loc main_v102_0) := (outsAt0 V c 5 (by rw [N0_eq]; decide)).1
/-- What the accumulation leaves for the pooled adjacency after the last point, as contents of that array. -/
abbrev adjFinal (c : Dev nD) : Buf (Elt F) ((c : Thread nD τ).loc main_v102_1) := (outsAt0 V c 5 (by rw [N0_eq]; decide)).2

/-- The one write-back of the pooled features, at the last point: its block, read at zero offsets, is the array. -/
theorem flushed0_3 (c : Dev nD) (t : Fin cfg0.N) (hf : (cfg0.win 3).flush t = true) :
    (dat0 V c).flushed 3 t = ((cfg0.win 3).blk t).view.read (Elt F) (hFinal V c) := by
  have hN : cfg0.N = 6 := N0_eq
  have h5 : t.val = 5 := by have := (flush0_3 t).mp hf; have := t.isLt; omega
  obtain rfl : t = tl0 := Fin.ext h5
  show (cfg0.win 3).cut (grid0.coords tl0) ((dat0 V c).after 3 tl0) = _
  rw [after0_3]
  have hz' : (fun a => win0_3.index tl0 a * main_v102_0.ty.shape.size a) = fun _ => 0 := funext fun a => by fin_cases a <;> decide
  exact (Memref.read_access_unit_zero (Elt F) main_v102_0 hz' (fun a => by rw [congrFun hz' a]; simp) (hFinal V c)).symm

/-- The one write-back of the pooled adjacency, at the last point. -/
theorem flushed0_4 (c : Dev nD) (t : Fin cfg0.N) (hf : (cfg0.win 4).flush t = true) :
    (dat0 V c).flushed 4 t = ((cfg0.win 4).blk t).view.read (Elt F) (adjFinal V c) := by
  have hN : cfg0.N = 6 := N0_eq
  have h5 : t.val = 5 := by have := (flush0_4 t).mp hf; have := t.isLt; omega
  obtain rfl : t = tl0 := Fin.ext h5
  show (cfg0.win 4).cut (grid0.coords tl0) ((dat0 V c).after 4 tl0) = _
  rw [after0_4]
  have hz' : (fun a => win0_4.index tl0 a * main_v102_1.ty.shape.size a) = fun _ => 0 := funext fun a => by fin_cases a <;> decide
  exact (Memref.read_access_unit_zero (Elt F) main_v102_1 hz' (fun a => by rw [congrFun hz' a]; simp) (adjFinal V c)).symm

/-- The pooled-features array ends holding the accumulation after point 5: that point's block covers the array. -/
theorem final0_3 (c : Dev nD) : (dat0 V c).arrAt 3 cfg0.N = hFinal V c :=
  (dat0 V c).arrAt_eq_of_cover 3 (hFinal V c) (flushed0_3 V c) fun i =>
    ⟨tl0, (flush0_3 tl0).mpr rfl, by
      show i ∈ ((View.whole main_v102_0).slice (win0_3.rect tl0)).set
      rw [View.set_slice_whole, Rect.mem_set_unit]
      intro a
      have h0 : (i 0 : Nat) < 256 := (i 0).isLt
      have h1 : (i 1 : Nat) < 128 := (i 1).isLt
      match a with
      | ⟨0, _⟩ => show win0_3.index tl0 0 * win0_3.size 0 ≤ (i 0 : Nat) ∧ (i 0 : Nat) < win0_3.index tl0 0 * win0_3.size 0 + win0_3.xsize (grid0.coords tl0) 0
                  rw [show win0_3.index tl0 0 * win0_3.size 0 = 0 from by decide +kernel, show win0_3.xsize (grid0.coords tl0) 0 = 256 from by decide +kernel]; omega
      | ⟨1, _⟩ => show win0_3.index tl0 1 * win0_3.size 1 ≤ (i 1 : Nat) ∧ (i 1 : Nat) < win0_3.index tl0 1 * win0_3.size 1 + win0_3.xsize (grid0.coords tl0) 1
                  rw [show win0_3.index tl0 1 * win0_3.size 1 = 0 from by decide +kernel, show win0_3.xsize (grid0.coords tl0) 1 = 128 from by decide +kernel]; omega⟩

/-- The pooled-adjacency array ends holding the accumulation after point 5. -/
theorem final0_4 (c : Dev nD) : (dat0 V c).arrAt 4 cfg0.N = adjFinal V c :=
  (dat0 V c).arrAt_eq_of_cover 4 (adjFinal V c) (flushed0_4 V c) fun i =>
    ⟨tl0, (flush0_4 tl0).mpr rfl, by
      show i ∈ ((View.whole main_v102_1).slice (win0_4.rect tl0)).set
      rw [View.set_slice_whole, Rect.mem_set_unit]
      intro a
      have h0 : (i 0 : Nat) < 256 := (i 0).isLt
      have h1 : (i 1 : Nat) < 256 := (i 1).isLt
      match a with
      | ⟨0, _⟩ => show win0_4.index tl0 0 * win0_4.size 0 ≤ (i 0 : Nat) ∧ (i 0 : Nat) < win0_4.index tl0 0 * win0_4.size 0 + win0_4.xsize (grid0.coords tl0) 0
                  rw [show win0_4.index tl0 0 * win0_4.size 0 = 0 from by decide +kernel, show win0_4.xsize (grid0.coords tl0) 0 = 256 from by decide +kernel]; omega
      | ⟨1, _⟩ => show win0_4.index tl0 1 * win0_4.size 1 ≤ (i 1 : Nat) ∧ (i 1 : Nat) < win0_4.index tl0 1 * win0_4.size 1 + win0_4.xsize (grid0.coords tl0) 1
                  rw [show win0_4.index tl0 1 * win0_4.size 1 = 0 from by decide +kernel, show win0_4.xsize (grid0.coords tl0) 1 = 256 from by decide +kernel]; omega⟩

end Cert.KernelIdeal.Hand

end
-- ==== Proof.Fold0.lean ====
/-
  Region 0 of the kernel walks the 12288 rows of three arrays in 6 blocks of 2048 rows. At every block it adds to two
  running matrices the product of the transposed block of the assignment matrix with the matching block of the embedding
  (resp. of the neighbourhood sums); before the first block the two running matrices are zero. Here this recursion over the
  block number is written down as two functions of the block families, each entry of them is computed as a double sum
  (over the blocks met so far and over the 2048 rows of a block), and, when the blocks are the consecutive row blocks of
  whole arrays, the value after the last block is identified with the whole product "transposed assignment matrix times
  array" of the reference: a sum over 12288 rows cut into 6 × 2048. Everything is exact arithmetic in the extended reals;
  only commutativity and associativity of addition are used, so no finiteness is needed.
-/
import proofs.«172850_j70214125355087_1_alg».proof.Proof.Gen.KernelIdeal.Skeleton
import proofs.«172850_j70214125355087_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.Fold0

open Cert.KernelIdeal Cert.KernelIdeal.Gen Idealize.ShloMosaic Idealize.ShloMosaic.ValueIdx

/-! ## The two running matrices as functions of the block number -/

section Recursion
variable {F : FTy → Type} [FloatOps F]

/-- The pooled-feature accumulator after block n: block 0 is added to the zero matrix, block n + 1 to the
    accumulator after block n. -/
def hAcc (r : ℕ → Vec F S2048x256 .bf16) (e : ℕ → Vec F S2048x128 .bf16) : ℕ → Vec F S256x128 .f32
  | 0 => k0_pay4 (r 0) (k0_pay1 (F := F)) (e 0)
  | n + 1 => k0_pay4 (r (n + 1)) (hAcc r e n) (e (n + 1))

/-- The coarsened-adjacency accumulator after block n, in the same way. -/
def aAcc (r : ℕ → Vec F S2048x256 .bf16) (a : ℕ → Vec F S2048x256 .bf16) : ℕ → Vec F S256x256 .f32
  | 0 => k0_pay5 (r 0) (k0_pay2 (F := F)) (a 0)
  | n + 1 => k0_pay5 (r (n + 1)) (aAcc r a n) (a (n + 1))

end Recursion

/-! ## The kernel's two block products, axis by axis

A block product contracts the second axis of the transposed assignment block (256 × 2048) with the first axis of the
other block (2048 × 128, resp. 2048 × 256). At output entry j and contraction position k the left operand is read at
(j 0, k) and the right operand at (k, j 1). -/

theorem lhsH_0 (j : S256x128.Idx) (k : dot_S256x2048_S2048x128_S256x128_1_0_0_1_n_n.contr.Idx) :
    (dot_S256x2048_S2048x128_S256x128_1_0_0_1_n_n.lhsIdx j k 0 : ℕ) = j 0 := by
  simp [DotDims.lhsIdx, dot_S256x2048_S2048x128_S256x128_1_0_0_1_n_n] <;> rfl
theorem lhsH_1 (j : S256x128.Idx) (k : dot_S256x2048_S2048x128_S256x128_1_0_0_1_n_n.contr.Idx) :
    (dot_S256x2048_S2048x128_S256x128_1_0_0_1_n_n.lhsIdx j k 1 : ℕ) = k ⟨0, by decide⟩ := by
  simp [DotDims.lhsIdx, dot_S256x2048_S2048x128_S256x128_1_0_0_1_n_n] <;> rfl
theorem rhsH_0 (j : S256x128.Idx) (k : dot_S256x2048_S2048x128_S256x128_1_0_0_1_n_n.contr.Idx) :
    (dot_S256x2048_S2048x128_S256x128_1_0_0_1_n_n.rhsIdx j k 0 : ℕ) = k ⟨0, by decide⟩ := by
  simp [DotDims.rhsIdx, dot_S256x2048_S2048x128_S256x128_1_0_0_1_n_n] <;> rfl
theorem rhsH_1 (j : S256x128.Idx) (k : dot_S256x2048_S2048x128_S256x128_1_0_0_1_n_n.contr.Idx) :
    (dot_S256x2048_S2048x128_S256x128_1_0_0_1_n_n.rhsIdx j k 1 : ℕ) = j 1 := by
  simp [DotDims.rhsIdx, dot_S256x2048_S2048x128_S256x128_1_0_0_1_n_n] <;> rfl

theorem lhsA_0 (j : S256x256.Idx) (k : dot_S256x2048_S2048x256_S256x256_1_0_0_1_n_n.contr.Idx) :
    (dot_S256x2048_S2048x256_S256x256_1_0_0_1_n_n.lhsIdx j k 0 : ℕ) = j 0 := by
  simp [DotDims.lhsIdx, dot_S256x2048_S2048x256_S256x256_1_0_0_1_n_n] <;> rfl
theorem lhsA_1 (j : S256x256.Idx) (k : dot_S256x2048_S2048x256_S256x256_1_0_0_1_n_n.contr.Idx) :
    (dot_S256x2048_S2048x256_S256x256_1_0_0_1_n_n.lhsIdx j k 1 : ℕ) = k ⟨0, by decide⟩ := by
  simp [DotDims.lhsIdx, dot_S256x2048_S2048x256_S256x256_1_0_0_1_n_n] <;> rfl
theorem rhsA_0 (j : S256x256.Idx) (k : dot_S256x2048_S2048x256_S256x256_1_0_0_1_n_n.contr.Idx) :
    (dot_S256x2048_S2048x256_S256x256_1_0_0_1_n_n.rhsIdx j k 0 : ℕ) = k ⟨0, by decide⟩ := by
  simp [DotDims.rhsIdx, dot_S256x2048_S2048x256_S256x256_1_0_0_1_n_n] <;> rfl
theorem rhsA_1 (j : S256x256.Idx) (k : dot_S256x2048_S2048x256_S256x256_1_0_0_1_n_n.contr.Idx) :
    (dot_S256x2048_S2048x256_S256x256_1_0_0_1_n_n.rhsIdx j k 1 : ℕ) = j 1 := by
  simp [DotDims.rhsIdx, dot_S256x2048_S2048x256_S256x256_1_0_0_1_n_n] <;> rfl

/-- One step of the pooled-feature accumulation at entry (p, q): the old entry plus the sum over the block's 2048 rows s
    of (assignment of row s to cluster p) × (feature q of row s). The transposed block read at (p, s) is the block at
    (s, p); the product into the zero matrix is the bare sum. -/
theorem step_h (v3 : FVec Ideal S2048x256 .bf16) (v6 : FVec Ideal S256x128 .f32) (v8 : FVec Ideal S2048x128 .bf16)
    (p : Fin 256) (q : Fin 128) :
    k0_pay4 v3 v6 v8 (ix2 p q) = v6 (ix2 p q) + ∑ s : Fin 2048, v3 (ix2 s p) * v8 (ix2 s q) := by
  unfold k0_pay4 k0_pay3
  simp only [matmul]
  rw [addf_apply, shapeCast_self, shapeCast_self, shapeCast_self, Ideal.matmul_constant_zero_apply,
    ← Equiv.sum_comp (contrEquiv1 dot_S256x2048_S2048x128_S256x128_1_0_0_1_n_n 2048 rfl rfl).symm]
  refine congrArg (v6 (ix2 p q) + ·) (Finset.sum_congr rfl fun s _ => ?_)
  have c := contrEquiv1_symm_val dot_S256x2048_S2048x128_S256x128_1_0_0_1_n_n 2048 rfl rfl s
  have hl : dot_S256x2048_S2048x128_S256x128_1_0_0_1_n_n.lhsIdx (ix2 p q)
      ((contrEquiv1 dot_S256x2048_S2048x128_S256x128_1_0_0_1_n_n 2048 rfl rfl).symm s) = ix2 p s := by
    funext ax; apply Fin.ext
    match ax with
    | ⟨0, _⟩ => exact lhsH_0 _ _
    | ⟨1, _⟩ => exact (lhsH_1 _ _).trans c
  have hr : dot_S256x2048_S2048x128_S256x128_1_0_0_1_n_n.rhsIdx (ix2 p q)
      ((contrEquiv1 dot_S256x2048_S2048x128_S256x128_1_0_0_1_n_n 2048 rfl rfl).symm s) = ix2 s q := by
    funext ax; apply Fin.ext
    match ax with
    | ⟨0, _⟩ => exact (rhsH_0 _ _).trans c
    | ⟨1, _⟩ => exact rhsH_1 _ _
  rw [hl, hr, transpose_ix2_apply]

/-- One step of the coarsened-adjacency accumulation at entry (p, q), in the same way. -/
theorem step_a (v3 : FVec Ideal S2048x256 .bf16) (v13 : FVec Ideal S256x256 .f32) (v15 : FVec Ideal S2048x256 .bf16)
    (p : Fin 256) (q : Fin 256) :
    k0_pay5 v3 v13 v15 (ix2 p q) = v13 (ix2 p q) + ∑ s : Fin 2048, v3 (ix2 s p) * v15 (ix2 s q) := by
  unfold k0_pay5 k0_pay3
  simp only [matmul]
  rw [addf_apply, shapeCast_self, shapeCast_self, shapeCast_self, Ideal.matmul_constant_zero_apply,
    ← Equiv.sum_comp (contrEquiv1 dot_S256x2048_S2048x256_S256x256_1_0_0_1_n_n 2048 rfl rfl).symm]
  refine congrArg (v13 (ix2 p q) + ·) (Finset.sum_congr rfl fun s _ => ?_)
  have c := contrEquiv1_symm_val dot_S256x2048_S2048x256_S256x256_1_0_0_1_n_n 2048 rfl rfl s
  have hl : dot_S256x2048_S2048x256_S256x256_1_0_0_1_n_n.lhsIdx (ix2 p q)
      ((contrEquiv1 dot_S256x2048_S2048x256_S256x256_1_0_0_1_n_n 2048 rfl rfl).symm s) = ix2 p s := by
    funext ax; apply Fin.ext
    match ax with
    | ⟨0, _⟩ => exact lhsA_0 _ _
    | ⟨1, _⟩ => exact (lhsA_1 _ _).trans c
  have hr : dot_S256x2048_S2048x256_S256x256_1_0_0_1_n_n.rhsIdx (ix2 p q)
      ((contrEquiv1 dot_S256x2048_S2048x256_S256x256_1_0_0_1_n_n 2048 rfl rfl).symm s) = ix2 s q := by
    funext ax; apply Fin.ext
    match ax with
    | ⟨0, _⟩ => exact (rhsA_0 _ _).trans c
    | ⟨1, _⟩ => exact rhsA_1 _ _
  rw [hl, hr, transpose_ix2_apply]

/-- The zero matrices the accumulators start from read the extended real 0 everywhere. -/
theorem zero_h (j : S256x128.Idx) : (k0_pay1 (F := Ideal)) j = 0 := by
  unfold k0_pay1
  exact Ideal.ofBits_zero_f32
theorem zero_a (j : S256x256.Idx) : (k0_pay2 (F := Ideal)) j = 0 := by
  unfold k0_pay2
  exact Ideal.ofBits_zero_f32

/-! ## Every entry as a double sum -/

/-- Entry (p, q) of the pooled-feature accumulator after block n: the sum, over the blocks 0 … n and the 2048 rows s of a
    block, of (assignment of row s to cluster p) × (feature q of row s). -/
theorem hAcc_apply (r : ℕ → Vec Ideal S2048x256 .bf16) (e : ℕ → Vec Ideal S2048x128 .bf16) (n : ℕ)
    (p : Fin 256) (q : Fin 128) :
    hAcc r e n (ix2 p q) = ∑ k ∈ Finset.range (n + 1), ∑ s : Fin 2048, r k (ix2 s p) * e k (ix2 s q) := by
  induction n with
  | zero =>
    rw [hAcc, step_h, zero_h, zero_add, Finset.sum_range_one]
  | succ n ih =>
    rw [hAcc, step_h, ih, Finset.sum_range_succ _ (n + 1)]

/-- Entry (p, q) of the coarsened-adjacency accumulator after block n, likewise. -/
theorem aAcc_apply (r : ℕ → Vec Ideal S2048x256 .bf16) (a : ℕ → Vec Ideal S2048x256 .bf16) (n : ℕ)
    (p : Fin 256) (q : Fin 256) :
    aAcc r a n (ix2 p q) = ∑ k ∈ Finset.range (n + 1), ∑ s : Fin 2048, r k (ix2 s p) * a k (ix2 s q) := by
  induction n with
  | zero =>
    rw [aAcc, step_a, zero_a, zero_add, Finset.sum_range_one]
  | succ n ih =>
    rw [aAcc, step_a, ih, Finset.sum_range_succ _ (n + 1)]

/-! ## Against the reference's whole products -/

/-! ### A sum over m · b consecutive naturals, block by block -/

/-- The first m · b naturals are m consecutive runs of b: the sum over them is the sum, run by run, over the places
    inside a run. -/
theorem sum_range_blocks {M : Type*} [AddCommMonoid M] (g : ℕ → M) (b m : ℕ) :
    ∑ i ∈ Finset.range (m * b), g i = ∑ k ∈ Finset.range m, ∑ s : Fin b, g (b * k + s) := by
  induction m with
  | zero => simp
  | succ m ih =>
    rw [add_mul, one_mul, Finset.sum_range_add, ih, Finset.sum_range_succ, Nat.mul_comm m b]
    exact congrArg (_ + ·) (Finset.sum_range _)

/-- The same for a family on Fin N with N = m · b, against any doubly indexed family G that agrees with it at
    place b · k + s. -/
theorem sum_fin_blocks {M : Type*} [AddCommMonoid M] (m b N : ℕ) (hN : N = m * b) (f : Fin N → M)
    (G : ℕ → Fin b → M)
    (hG : ∀ (k : ℕ), k < m → ∀ (s : Fin b) (c : Fin N), c.val = b * k + s.val → G k s = f c) :
    ∑ c : Fin N, f c = ∑ k ∈ Finset.range m, ∑ s : Fin b, G k s := by
  subst hN
  have h1 : ∑ c : Fin (m * b), f c = ∑ i ∈ Finset.range (m * b), (fun i => if h : i < m * b then f ⟨i, h⟩ else 0) i := by
    rw [Finset.sum_range]
    exact Finset.sum_congr rfl fun c _ => by rw [dif_pos c.isLt]
  rw [h1, sum_range_blocks]
  refine Finset.sum_congr rfl fun k hk => Finset.sum_congr rfl fun s _ => ?_
  have hk' : k < m := Finset.mem_range.mp hk
  have hlt : b * k + s.val < m * b := by
    have h2 : b * k + s.val < b * (k + 1) := by rw [Nat.mul_succ]; exact Nat.add_lt_add_left s.isLt _
    exact lt_of_lt_of_le h2 (by rw [Nat.mul_comm m b]; exact Nat.mul_le_mul_left b hk')
  rw [dif_pos hlt]
  exact (hG k hk' s ⟨b * k + s.val, hlt⟩ rfl).symm

/-! ### The reference's two whole products, axis by axis -/

theorem lhsRH_0 (j : Cert.ReferenceIdeal.S256x128.Idx)
    (k : Cert.ReferenceIdeal.dot_S256x12288_S12288x128_S256x128_1_0_0_1_n_n.contr.Idx) :
    (Cert.ReferenceIdeal.dot_S256x12288_S12288x128_S256x128_1_0_0_1_n_n.lhsIdx j k 0 : ℕ) = j 0 := by
  simp [DotDims.lhsIdx, Cert.ReferenceIdeal.dot_S256x12288_S12288x128_S256x128_1_0_0_1_n_n] <;> rfl
theorem lhsRH_1 (j : Cert.ReferenceIdeal.S256x128.Idx)
    (k : Cert.ReferenceIdeal.dot_S256x12288_S12288x128_S256x128_1_0_0_1_n_n.contr.Idx) :
    (Cert.ReferenceIdeal.dot_S256x12288_S12288x128_S256x128_1_0_0_1_n_n.lhsIdx j k 1 : ℕ) = k ⟨0, by decide⟩ := by
  simp [DotDims.lhsIdx, Cert.ReferenceIdeal.dot_S256x12288_S12288x128_S256x128_1_0_0_1_n_n] <;> rfl
theorem rhsRH_0 (j : Cert.ReferenceIdeal.S256x128.Idx)
    (k : Cert.ReferenceIdeal.dot_S256x12288_S12288x128_S256x128_1_0_0_1_n_n.contr.Idx) :
    (Cert.ReferenceIdeal.dot_S256x12288_S12288x128_S256x128_1_0_0_1_n_n.rhsIdx j k 0 : ℕ) = k ⟨0, by decide⟩ := by
  simp [DotDims.rhsIdx, Cert.ReferenceIdeal.dot_S256x12288_S12288x128_S256x128_1_0_0_1_n_n] <;> rfl
theorem rhsRH_1 (j : Cert.ReferenceIdeal.S256x128.Idx)
    (k : Cert.ReferenceIdeal.dot_S256x12288_S12288x128_S256x128_1_0_0_1_n_n.contr.Idx) :
    (Cert.ReferenceIdeal.dot_S256x12288_S12288x128_S256x128_1_0_0_1_n_n.rhsIdx j k 1 : ℕ) = j 1 := by
  simp [DotDims.rhsIdx, Cert.ReferenceIdeal.dot_S256x12288_S12288x128_S256x128_1_0_0_1_n_n] <;> rfl

theorem lhsRA_0 (j : Cert.ReferenceIdeal.S256x256.Idx)
    (k : Cert.ReferenceIdeal.dot_S256x12288_S12288x256_S256x256_1_0_0_1_n_n.contr.Idx) :
    (Cert.ReferenceIdeal.dot_S256x12288_S12288x256_S256x256_1_0_0_1_n_n.lhsIdx j k 0 : ℕ) = j 0 := by
  simp [DotDims.lhsIdx, Cert.ReferenceIdeal.dot_S256x12288_S12288x256_S256x256_1_0_0_1_n_n] <;> rfl
theorem lhsRA_1 (j : Cert.ReferenceIdeal.S256x256.Idx)
    (k : Cert.ReferenceIdeal.dot_S256x12288_S12288x256_S256x256_1_0_0_1_n_n.contr.Idx) :
    (Cert.ReferenceIdeal.dot_S256x12288_S12288x256_S256x256_1_0_0_1_n_n.lhsIdx j k 1 : ℕ) = k ⟨0, by decide⟩ := by
  simp [DotDims.lhsIdx, Cert.ReferenceIdeal.dot_S256x12288_S12288x256_S256x256_1_0_0_1_n_n] <;> rfl
theorem rhsRA_0 (j : Cert.ReferenceIdeal.S256x256.Idx)
    (k : Cert.ReferenceIdeal.dot_S256x12288_S12288x256_S256x256_1_0_0_1_n_n.contr.Idx) :
    (Cert.ReferenceIdeal.dot_S256x12288_S12288x256_S256x256_1_0_0_1_n_n.rhsIdx j k 0 : ℕ) = k ⟨0, by decide⟩ := by
  simp [DotDims.rhsIdx, Cert.ReferenceIdeal.dot_S256x12288_S12288x256_S256x256_1_0_0_1_n_n] <;> rfl
theorem rhsRA_1 (j : Cert.ReferenceIdeal.S256x256.Idx)
    (k : Cert.ReferenceIdeal.dot_S256x12288_S12288x256_S256x256_1_0_0_1_n_n.contr.Idx) :
    (Cert.ReferenceIdeal.dot_S256x12288_S12288x256_S256x256_1_0_0_1_n_n.rhsIdx j k 1 : ℕ) = j 1 := by
  simp [DotDims.rhsIdx, Cert.ReferenceIdeal.dot_S256x12288_S12288x256_S256x256_1_0_0_1_n_n] <;> rfl

/-- Entry (p, q) of the reference's Rᵀ · E: the sum over all 12288 rows c of R (c, p) × E (c, q). -/
theorem whole_h (R : FVec Ideal S12288x256 .f32) (E : FVec Ideal S12288x128 .f32)
    (hT : Cert.ReferenceIdeal.S12288x256.Transposes [1, 0] Cert.ReferenceIdeal.S256x12288) (p : Fin 256) (q : Fin 128) :
    Host.dotGeneral (F := Ideal) Cert.ReferenceIdeal.dot_S256x12288_S12288x128_S256x128_1_0_0_1_n_n none
      (transpose Cert.ReferenceIdeal.S256x12288 [1, 0] R hT) E (ix2 p q) = ∑ c : Fin 12288, R (ix2 c p) * E (ix2 c q) := by
  show FloatOps.dotGeneral _ none _ _ _ (ix2 p q) = _
  rw [Ideal.dotGeneral_apply,
    ← Equiv.sum_comp (contrEquiv1 Cert.ReferenceIdeal.dot_S256x12288_S12288x128_S256x128_1_0_0_1_n_n 12288 rfl rfl).symm]
  refine Finset.sum_congr rfl fun c _ => ?_
  have cv := contrEquiv1_symm_val Cert.ReferenceIdeal.dot_S256x12288_S12288x128_S256x128_1_0_0_1_n_n 12288 rfl rfl c
  have hl : Cert.ReferenceIdeal.dot_S256x12288_S12288x128_S256x128_1_0_0_1_n_n.lhsIdx (ix2 p q)
      ((contrEquiv1 Cert.ReferenceIdeal.dot_S256x12288_S12288x128_S256x128_1_0_0_1_n_n 12288 rfl rfl).symm c) = ix2 p c := by
    funext ax; apply Fin.ext
    match ax with
    | ⟨0, _⟩ => exact lhsRH_0 _ _
    | ⟨1, _⟩ => exact (lhsRH_1 _ _).trans cv
  have hr : Cert.ReferenceIdeal.dot_S256x12288_S12288x128_S256x128_1_0_0_1_n_n.rhsIdx (ix2 p q)
      ((contrEquiv1 Cert.ReferenceIdeal.dot_S256x12288_S12288x128_S256x128_1_0_0_1_n_n 12288 rfl rfl).symm c) = ix2 c q := by
    funext ax; apply Fin.ext
    match ax with
    | ⟨0, _⟩ => exact (rhsRH_0 _ _).trans cv
    | ⟨1, _⟩ => exact rhsRH_1 _ _
  rw [hl, hr, transpose_ix2_apply]

/-- Entry (p, q) of the reference's Rᵀ · AR: the sum over all 12288 rows c of R (c, p) × AR (c, q). -/
theorem whole_a (R : FVec Ideal S12288x256 .f32) (AR : FVec Ideal S12288x256 .f32)
    (hT : Cert.ReferenceIdeal.S12288x256.Transposes [1, 0] Cert.ReferenceIdeal.S256x12288) (p : Fin 256) (q : Fin 256) :
    Host.dotGeneral (F := Ideal) Cert.ReferenceIdeal.dot_S256x12288_S12288x256_S256x256_1_0_0_1_n_n none
      (transpose Cert.ReferenceIdeal.S256x12288 [1, 0] R hT) AR (ix2 p q) = ∑ c : Fin 12288, R (ix2 c p) * AR (ix2 c q) := by
  show FloatOps.dotGeneral _ none _ _ _ (ix2 p q) = _
  rw [Ideal.dotGeneral_apply,
    ← Equiv.sum_comp (contrEquiv1 Cert.ReferenceIdeal.dot_S256x12288_S12288x256_S256x256_1_0_0_1_n_n 12288 rfl rfl).symm]
  refine Finset.sum_congr rfl fun c _ => ?_
  have cv := contrEquiv1_symm_val Cert.ReferenceIdeal.dot_S256x12288_S12288x256_S256x256_1_0_0_1_n_n 12288 rfl rfl c
  have hl : Cert.ReferenceIdeal.dot_S256x12288_S12288x256_S256x256_1_0_0_1_n_n.lhsIdx (ix2 p q)
      ((contrEquiv1 Cert.ReferenceIdeal.dot_S256x12288_S12288x256_S256x256_1_0_0_1_n_n 12288 rfl rfl).symm c) = ix2 p c := by
    funext ax; apply Fin.ext
    match ax with
    | ⟨0, _⟩ => exact lhsRA_0 _ _
    | ⟨1, _⟩ => exact (lhsRA_1 _ _).trans cv
  have hr : Cert.ReferenceIdeal.dot_S256x12288_S12288x256_S256x256_1_0_0_1_n_n.rhsIdx (ix2 p q)
      ((contrEquiv1 Cert.ReferenceIdeal.dot_S256x12288_S12288x256_S256x256_1_0_0_1_n_n 12288 rfl rfl).symm c) = ix2 c q := by
    funext ax; apply Fin.ext
    match ax with
    | ⟨0, _⟩ => exact (rhsRA_0 _ _).trans cv
    | ⟨1, _⟩ => exact rhsRA_1 _ _
  rw [hl, hr, transpose_ix2_apply]

/-! ### Six blocks of 2048 rows are the 12288 rows -/

/-- When the blocks are the six consecutive 2048-row blocks of the assignment matrix R and of the embedding E, the
    accumulator after the last block is the whole product Rᵀ · E. -/
theorem pool_h (R : FVec Ideal S12288x256 .f32) (E : FVec Ideal S12288x128 .f32)
    (hT : Cert.ReferenceIdeal.S12288x256.Transposes [1, 0] Cert.ReferenceIdeal.S256x12288)
    (r : ℕ → Vec Ideal S2048x256 .bf16) (e : ℕ → Vec Ideal S2048x128 .bf16)
    (hr : ∀ (k : ℕ) (hk : k < 6) (s : Fin 2048) (p : Fin 256),
      r k (ix2 s p) = R (ix2 (⟨2048 * k + s.val, by omega⟩ : Fin 12288) p))
    (he : ∀ (k : ℕ) (hk : k < 6) (s : Fin 2048) (q : Fin 128),
      e k (ix2 s q) = E (ix2 (⟨2048 * k + s.val, by omega⟩ : Fin 12288) q)) :
    hAcc r e 5 = Host.dotGeneral (F := Ideal) Cert.ReferenceIdeal.dot_S256x12288_S12288x128_S256x128_1_0_0_1_n_n none
      (transpose Cert.ReferenceIdeal.S256x12288 [1, 0] R hT) E := by
  funext j
  obtain ⟨p, q, rfl⟩ : ∃ (p : Fin 256) (q : Fin 128), j = ix2 p q := ⟨j 0, j 1, eq_ix2 j⟩
  rw [hAcc_apply, whole_h]
  refine (sum_fin_blocks 6 2048 12288 (by norm_num) (fun c => R (ix2 c p) * E (ix2 c q))
    (fun k s => r k (ix2 s p) * e k (ix2 s q)) fun k hk s c hc => ?_).symm
  have hc' : c = (⟨2048 * k + s.val, by omega⟩ : Fin 12288) := Fin.ext hc
  show r k (ix2 s p) * e k (ix2 s q) = R (ix2 c p) * E (ix2 c q)
  rw [hr k hk s p, he k hk s q, hc']

/-- The same for the neighbourhood sums AR: the accumulator after the last block is Rᵀ · AR. -/
theorem pool_adj (R : FVec Ideal S12288x256 .f32) (AR : FVec Ideal S12288x256 .f32)
    (hT : Cert.ReferenceIdeal.S12288x256.Transposes [1, 0] Cert.ReferenceIdeal.S256x12288)
    (r : ℕ → Vec Ideal S2048x256 .bf16) (a : ℕ → Vec Ideal S2048x256 .bf16)
    (hr : ∀ (k : ℕ) (hk : k < 6) (s : Fin 2048) (p : Fin 256),
      r k (ix2 s p) = R (ix2 (⟨2048 * k + s.val, by omega⟩ : Fin 12288) p))
    (ha : ∀ (k : ℕ) (hk : k < 6) (s : Fin 2048) (q : Fin 256),
      a k (ix2 s q) = AR (ix2 (⟨2048 * k + s.val, by omega⟩ : Fin 12288) q)) :
    aAcc r a 5 = Host.dotGeneral (F := Ideal) Cert.ReferenceIdeal.dot_S256x12288_S12288x256_S256x256_1_0_0_1_n_n none
      (transpose Cert.ReferenceIdeal.S256x12288 [1, 0] R hT) AR := by
  funext j
  obtain ⟨p, q, rfl⟩ : ∃ (p : Fin 256) (q : Fin 256), j = ix2 p q := ⟨j 0, j 1, eq_ix2 j⟩
  rw [aAcc_apply, whole_a]
  refine (sum_fin_blocks 6 2048 12288 (by norm_num) (fun c => R (ix2 c p) * AR (ix2 c q))
    (fun k s => r k (ix2 s p) * a k (ix2 s q)) fun k hk s c hc => ?_).symm
  have hc' : c = (⟨2048 * k + s.val, by omega⟩ : Fin 12288) := Fin.ext hc
  show r k (ix2 s p) * a k (ix2 s q) = R (ix2 c p) * AR (ix2 c q)
  rw [hr k hk s p, ha k hk s q, hc']

end Cert.KernelIdeal.Fold0

end
-- ==== Proof.KIJoin0.lean ====
/-
  Region 0's two output arrays are the reference's two whole products.

  The accumulation over the six grid points was stated through the kernel's payloads on the blocks the region reads at
  each point. Those blocks, indexed by the point's number, are families of matrices; extended to every natural number
  (beyond the grid the last block is repeated: no value there is ever used) they are exactly the families the
  block-by-block recursion is written over, so the pair of output contents after point n is the pair of running matrices
  after block n. At the exact-arithmetic instance the block at point k read at row s is row 2048 k + s of the operand
  array; hence, after the last point, the pooled features are (assignment matrix)ᵀ · embedding and the pooled adjacency
  is (assignment matrix)ᵀ · (neighbourhood sums): the two products the reference computes.
-/
import proofs.«172850_j70214125355087_1_alg».proof.Proof.KIValue0
import proofs.«172850_j70214125355087_1_alg».proof.Proof.Fold0

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The blocks of the six points as families over the naturals -/

section Families
variable {F : FTy → Type} [FloatOps F]
variable (V : (c : Dev nD) → (b : Ref sig .tc) → Buf (Elt F) ((c : Thread nD τ).loc b))

/-- The assignment matrix's block at point k; past the grid, the last block again. -/
def rfam0 (c : Dev nD) (k : ℕ) : Vec F S2048x256 .bf16 := if h : k < cfg0.N then rblk0 V c ⟨k, h⟩ else rblk0 V c tl0
/-- The embedding's block at point k; past the grid, the last block again. -/
def efam0 (c : Dev nD) (k : ℕ) : Vec F S2048x128 .bf16 := if h : k < cfg0.N then eblk0 V c ⟨k, h⟩ else eblk0 V c tl0
/-- The neighbourhood sums' block at point k; past the grid, the last block again. -/
def afam0 (c : Dev nD) (k : ℕ) : Vec F S2048x256 .bf16 := if h : k < cfg0.N then ablk0 V c ⟨k, h⟩ else ablk0 V c tl0

theorem rfam0_of_lt (c : Dev nD) (k : ℕ) (h : k < cfg0.N) : rfam0 V c k = rblk0 V c ⟨k, h⟩ := dif_pos h
theorem efam0_of_lt (c : Dev nD) (k : ℕ) (h : k < cfg0.N) : efam0 V c k = eblk0 V c ⟨k, h⟩ := dif_pos h
theorem afam0_of_lt (c : Dev nD) (k : ℕ) (h : k < cfg0.N) : afam0 V c k = ablk0 V c ⟨k, h⟩ := dif_pos h

/-- What the two outputs hold after point n is the pair of running matrices after block n of these families: both
    sides start from the zero matrices plus the first products and add one product per point. -/
theorem outsAt0_eq_fold (c : Dev nD) : ∀ (n : ℕ) (hn : n < cfg0.N),
    outsAt0 V c n hn = (Fold0.hAcc (rfam0 V c) (efam0 V c) n, Fold0.aAcc (rfam0 V c) (afam0 V c) n)
  | 0, hn => by
    rw [outsAt0_zero, Fold0.hAcc, Fold0.aAcc, rfam0_of_lt V c 0 hn, efam0_of_lt V c 0 hn, afam0_of_lt V c 0 hn]
  | n + 1, hn => by
    rw [outsAt0_succ, outsAt0_eq_fold c n (Nat.lt_of_succ_lt hn), Fold0.hAcc, Fold0.aAcc,
      rfam0_of_lt V c (n + 1) hn, efam0_of_lt V c (n + 1) hn, afam0_of_lt V c (n + 1) hn]

end Families

/-! ## At exact arithmetic: the two products -/

section AtIdeal
variable (V : (c : Dev nD) → (b : Ref sig .tc) → Buf (Elt Ideal) ((c : Thread nD τ).loc b))

/-- Row s of the assignment matrix's block k is row 2048 k + s of the array the region is entered with. -/
theorem rfam0_apply (c : Dev nD) (k : ℕ) (hk : k < 6) (s : Fin 2048) (p : Fin 256) :
    rfam0 V c k (ix2 s p)
      = (V c main_v99 : S12288x256.Idx → EReal) (ix2 (⟨2048 * k + s.val, by omega⟩ : Fin 12288) p) := by
  rw [rfam0_of_lt V c k (by rw [N0_eq]; exact hk)]
  exact rblk0_apply V c ⟨k, by rw [N0_eq]; exact hk⟩ (ix2 s p) (ix2 (⟨2048 * k + s.val, by omega⟩ : Fin 12288) p) rfl rfl

/-- Row s of the embedding's block k is row 2048 k + s of its array. -/
theorem efam0_apply (c : Dev nD) (k : ℕ) (hk : k < 6) (s : Fin 2048) (q : Fin 128) :
    efam0 V c k (ix2 s q)
      = (V c main_v100 : S12288x128.Idx → EReal) (ix2 (⟨2048 * k + s.val, by omega⟩ : Fin 12288) q) := by
  rw [efam0_of_lt V c k (by rw [N0_eq]; exact hk)]
  exact eblk0_apply V c ⟨k, by rw [N0_eq]; exact hk⟩ (ix2 s q) (ix2 (⟨2048 * k + s.val, by omega⟩ : Fin 12288) q) rfl rfl

/-- Row s of the neighbourhood sums' block k is row 2048 k + s of its array. -/
theorem afam0_apply (c : Dev nD) (k : ℕ) (hk : k < 6) (s : Fin 2048) (q : Fin 256) :
    afam0 V c k (ix2 s q)
      = (V c main_v101 : S12288x256.Idx → EReal) (ix2 (⟨2048 * k + s.val, by omega⟩ : Fin 12288) q) := by
  rw [afam0_of_lt V c k (by rw [N0_eq]; exact hk)]
  exact ablk0_apply V c ⟨k, by rw [N0_eq]; exact hk⟩ (ix2 s q) (ix2 (⟨2048 * k + s.val, by omega⟩ : Fin 12288) q) rfl rfl

/-- The pooled-features array after region 0 is Rᵀ · E, for R and E the contents of the assignment matrix's and the
    embedding's arrays when the region is entered. -/
theorem region0_h (c : Dev nD) (R : FVec Ideal S12288x256 .f32) (E : FVec Ideal S12288x128 .f32)
    (hT : Cert.ReferenceIdeal.S12288x256.Transposes [1, 0] Cert.ReferenceIdeal.S256x12288)
    (hR : (V c main_v99 : S12288x256.Idx → EReal) = R) (hE : (V c main_v100 : S12288x128.Idx → EReal) = E) :
    (dat0 V c).arrAt 3 cfg0.N
      = Host.dotGeneral (F := Ideal) Cert.ReferenceIdeal.dot_S256x12288_S12288x128_S256x128_1_0_0_1_n_n none
          (transpose Cert.ReferenceIdeal.S256x12288 [1, 0] R hT) E := by
  subst hR; subst hE
  rw [final0_3]
  show (outsAt0 V c 5 _).1 = _
  rw [outsAt0_eq_fold V c 5 _]
  exact Fold0.pool_h _ _ hT (rfam0 V c) (efam0 V c) (rfam0_apply V c) (efam0_apply V c)

/-- The pooled-adjacency array after region 0 is Rᵀ · AR, for AR the contents of the neighbourhood sums' array. -/
theorem region0_adj (c : Dev nD) (R : FVec Ideal S12288x256 .f32) (AR : FVec Ideal S12288x256 .f32)
    (hT : Cert.ReferenceIdeal.S12288x256.Transposes [1, 0] Cert.ReferenceIdeal.S256x12288)
    (hR : (V c main_v99 : S12288x256.Idx → EReal) = R) (hAR : (V c main_v101 : S12288x256.Idx → EReal) = AR) :
    (dat0 V c).arrAt 4 cfg0.N
      = Host.dotGeneral (F := Ideal) Cert.ReferenceIdeal.dot_S256x12288_S12288x256_S256x256_1_0_0_1_n_n none
          (transpose Cert.ReferenceIdeal.S256x12288 [1, 0] R hT) AR := by
  subst hR; subst hAR
  rw [final0_4]
  show (outsAt0 V c 5 _).2 = _
  rw [outsAt0_eq_fold V c 5 _]
  exact Fold0.pool_adj _ _ hT (rfam0 V c) (afam0 V c) (rfam0_apply V c) (afam0_apply V c)

end AtIdeal

end Cert.KernelIdeal.Hand

end
-- ==== Proof.KIValue1.lean ====
/-
  Region 1 (the adjacency-loss kernel) read as values, at any float instance.

  The grid is 12 row tiles by 12 column tiles, walked row tile by row tile: point `t` is row tile `t / 12`, column
  tile `t % 12`. Three facts are recorded. The block of the dense adjacency at point `t` is rows `1024 (t / 12) + ·`,
  columns `1024 (t % 12) + ·` of the array; the two windows on the assignment matrix read its rows `1024 (t / 12) + ·`
  and `1024 (t % 12) + ·`. The output block of a row tile stays in place for the tile's twelve points and is written
  back after the twelfth, so rows `1024 i + ·` of the output array end at what the accumulation holds at point
  `12 i + 11`.
-/
import proofs.«172850_j70214125355087_1_alg».proof.Proof.KIBody1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## The windows' block indices over the grid -/

/-- The dense adjacency's window sits at (row tile, column tile). -/
theorem index1_0 : ∀ t : Fin cfg1.N, win1_0.index t (0 : Fin 2) = t.val / 12 ∧ win1_0.index t (1 : Fin 2) = t.val % 12 :=
  (by decide +kernel : ∀ t : Fin grid1.N, win1_0.index t (0 : Fin 2) = t.val / 12 ∧ win1_0.index t (1 : Fin 2) = t.val % 12)
/-- The first window on the assignment matrix sits at the row tile. -/
theorem index1_1 : ∀ t : Fin cfg1.N, win1_1.index t (0 : Fin 2) = t.val / 12 ∧ win1_1.index t (1 : Fin 2) = 0 :=
  (by decide +kernel : ∀ t : Fin grid1.N, win1_1.index t (0 : Fin 2) = t.val / 12 ∧ win1_1.index t (1 : Fin 2) = 0)
/-- The second window on the assignment matrix sits at the column tile. -/
theorem index1_2 : ∀ t : Fin cfg1.N, win1_2.index t (0 : Fin 2) = t.val % 12 ∧ win1_2.index t (1 : Fin 2) = 0 :=
  (by decide +kernel : ∀ t : Fin grid1.N, win1_2.index t (0 : Fin 2) = t.val % 12 ∧ win1_2.index t (1 : Fin 2) = 0)
/-- The output window sits at the row tile. -/
theorem index1_3 : ∀ t : Fin cfg1.N, win1_3.index t (0 : Fin 2) = t.val / 12 ∧ win1_3.index t (1 : Fin 2) = 0 :=
  (by decide +kernel : ∀ t : Fin grid1.N, win1_3.index t (0 : Fin 2) = t.val / 12 ∧ win1_3.index t (1 : Fin 2) = 0)

/-! ## The input blocks are tiles of the operand arrays -/

/-- Entry `(ρ, γ)` of the dense adjacency's block at point `t` is entry `(1024 (t / 12) + ρ, 1024 (t % 12) + γ)` of the array. -/
theorem ablk1_apply (c : Dev nD) (t : Fin cfg1.N) (j : S1024x1024.Idx) (i : S12288x12288.Idx)
    (h0 : (i 0).val = 1024 * (t.val / 12) + (j 0).val) (h1 : (i 1).val = 1024 * (t.val % 12) + (j 1).val) :
    ablk1 V c t j = (V c main_v118 : S12288x12288.Idx → Elt F .f32) i := by
  obtain ⟨e0, e1⟩ := index1_0 t
  show iblk1 V c 0 t j = _
  unfold iblk1
  rw [View.read_apply]
  show V c main_v118 _ = V c main_v118 i
  congr 1
  funext a
  apply Fin.ext
  match a with
  | ⟨0, _⟩ => show win1_0.index t 0 * 1024 + 1 * (j 0).val = (i 0).val; rw [e0, h0]; omega
  | ⟨1, _⟩ => show win1_0.index t 1 * 1024 + 1 * (j 1).val = (i 1).val; rw [e1, h1]; omega

/-- Row `ρ` of the row-side block of the assignment matrix at point `t` is row `1024 (t / 12) + ρ` of the array. -/
theorem siblk1_apply (c : Dev nD) (t : Fin cfg1.N) (j : S1024x256.Idx) (i : S12288x256.Idx)
    (h0 : (i 0).val = 1024 * (t.val / 12) + (j 0).val) (h1 : (i 1).val = (j 1).val) :
    siblk1 V c t j = (V c main_v99 : S12288x256.Idx → Elt F .bf16) i := by
  obtain ⟨e0, e1⟩ := index1_1 t
  show iblk1 V c 1 t j = _
  unfold iblk1
  rw [View.read_apply]
  show V c main_v99 _ = V c main_v99 i
  congr 1
  funext a
  apply Fin.ext
  match a with
  | ⟨0, _⟩ => show win1_1.index t 0 * 1024 + 1 * (j 0).val = (i 0).val; rw [e0, h0]; omega
  | ⟨1, _⟩ => show win1_1.index t 1 * 256 + 1 * (j 1).val = (i 1).val; rw [e1, h1]; omega

/-- Row `γ` of the column-side block of the assignment matrix at point `t` is row `1024 (t % 12) + γ` of the array. -/
theorem sjblk1_apply (c : Dev nD) (t : Fin cfg1.N) (j : S1024x256.Idx) (i : S12288x256.Idx)
    (h0 : (i 0).val = 1024 * (t.val % 12) + (j 0).val) (h1 : (i 1).val = (j 1).val) :
    sjblk1 V c t j = (V c main_v99 : S12288x256.Idx → Elt F .bf16) i := by
  obtain ⟨e0, e1⟩ := index1_2 t
  show iblk1 V c 2 t j = _
  unfold iblk1
  rw [View.read_apply]
  show V c main_v99 _ = V c main_v99 i
  congr 1
  funext a
  apply Fin.ext
  match a with
  | ⟨0, _⟩ => show win1_2.index t 0 * 1024 + 1 * (j 0).val = (i 0).val; rw [e0, h0]; omega
  | ⟨1, _⟩ => show win1_2.index t 1 * 256 + 1 * (j 1).val = (i 1).val; rw [e1, h1]; omega

/-! ## The output array, row tile by row tile -/

/-- The accumulation depends on the point's number only. -/
theorem outsAt1_congr (c : Dev nD) (n n' : ℕ) (h : n = n') (hn : n < cfg1.N) (hn' : n' < cfg1.N) :
    outsAt1 V c n hn = outsAt1 V c n' hn' := by subst h; rfl

/-- What the output array holds in the end: on row `1024 i + ρ`, what the accumulation holds at point `12 i + 11`, the
    last point of row tile `i`, on the block's row `ρ`. -/
def lossRows (c : Dev nD) : Buf (Elt F) ((c : Thread nD τ).loc main_v119) := fun i =>
  outsAt1 V c (12 * ((i 0).val / 1024) + 11)
    (by have h : (i 0).val < 12288 := (i 0).isLt; rw [points1]; omega)
    (ValueIdx.ix2 (⟨(i 0).val % 1024, Nat.mod_lt _ (by decide)⟩ : Fin 1024) (⟨(i 1).val, (i 1).isLt⟩ : Fin 128))

/-- What a point that ends a row tile writes back is that tile's rows of `lossRows`. -/
theorem flushed1_3 (c : Dev nD) (t : Fin cfg1.N) (hf : (cfg1.win 3).flush t = true) :
    (dat1 V c).flushed 3 t = ((cfg1.win 3).blk t).view.read (Elt F) (lossRows V c) := by
  have h11 : t.val % 12 = 11 := (flush1_3 t).mp hf
  obtain ⟨e0, e1⟩ := index1_3 t
  show (cfg1.win 3).cut (grid1.coords t) ((dat1 V c).after 3 t) = _
  rw [after1_3]
  funext j
  rw [View.read_apply]
  show outsAt1 V c t.val t.isLt j = lossRows V c (((cfg1.win 3).blk t).view.emb j)
  have hj0 : (j 0).val < 1024 := (j 0).isLt
  have c0 : ((((cfg1.win 3).blk t).view.emb j) 0).val = win1_3.index t 0 * 1024 + 1 * (j 0).val := rfl
  have c1 : ((((cfg1.win 3).blk t).view.emb j) 1).val = win1_3.index t 1 * 128 + 1 * (j 1).val := rfl
  unfold lossRows
  have hn : 12 * (((((cfg1.win 3).blk t).view.emb j) 0).val / 1024) + 11 = t.val := by rw [c0, e0]; omega
  refine (congrFun (outsAt1_congr V c _ _ hn.symm t.isLt _) j).trans (congrArg _ ?_)
  funext a
  apply Fin.ext
  match a with
  | ⟨0, _⟩ => show (j 0).val = ((((cfg1.win 3).blk t).view.emb j) 0).val % 1024; rw [c0, e0]; omega
  | ⟨1, _⟩ => show (j 1).val = ((((cfg1.win 3).blk t).view.emb j) 1).val; rw [c1, e1]; omega

/-- An index of the output array is in point `t`'s block iff each coordinate is in the block's range on its axis. -/
theorem mem_blk1_3 (t : Fin cfg1.N) (i : S12288x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v119).slice (win1_3.rect t)).set ↔ _
  rw [View.set_slice_whole, Rect.mem_set_unit]
  exact Iff.rfl

/-- The output array ends at `lossRows`: the twelve points that end a row tile write back blocks that tile it. -/
theorem final1_3 (c : Dev nD) : (dat1 V c).arrAt 3 cfg1.N = lossRows V c :=
  (dat1 V c).arrAt_eq_of_cover 3 (lossRows V c) (flushed1_3 V c) fun i => by
    have hi0 : (i 0).val < 12288 := (i 0).isLt
    have hi1 : (i 1).val < 128 := (i 1).isLt
    have hlt : 12 * ((i 0).val / 1024) + 11 < cfg1.N := by rw [points1]; omega
    refine ⟨⟨12 * ((i 0).val / 1024) + 11, hlt⟩, (flush1_3 _).mpr (by show (12 * ((i 0).val / 1024) + 11) % 12 = 11; omega), ?_⟩
    rw [mem_blk1_3]
    obtain ⟨e0, e1⟩ := index1_3 ⟨12 * ((i 0).val / 1024) + 11, hlt⟩
    intro a
    match a with
    | ⟨0, _⟩ => show win1_3.index _ (0 : Fin 2) * 1024 ≤ (i 0).val ∧ (i 0).val < win1_3.index _ (0 : Fin 2) * 1024 + 1024
                rw [e0]; show (12 * ((i 0).val / 1024) + 11) / 12 * 1024 ≤ (i 0).val ∧ (i 0).val < (12 * ((i 0).val / 1024) + 11) / 12 * 1024 + 1024; omega
    | ⟨1, _⟩ => show win1_3.index _ (1 : Fin 2) * 128 ≤ (i 1).val ∧ (i 1).val < win1_3.index _ (1 : Fin 2) * 128 + 128
                rw [e1]; omega

end Cert.KernelIdeal.Hand

end
-- ==== Proof.Fold1.lean ====
import proofs.«172850_j70214125355087_1_alg».proof.Proof.Gen.KernelIdeal.Skeleton
import proofs.«172850_j70214125355087_1_alg».proof.ReferenceIdeal
import proofs.«172850_j70214125355087_1_alg».proof.Proof.Gen.ReferenceIdeal
import proofs.«172850_j70214125355087_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin
import Mathlib.Logic.Equiv.Fin.Basic

/-! # The adjacency loss: row-tile sums of squares against the whole-array sum

The adjacency-loss kernel walks a 12 × 12 grid of 1024 × 1024 tiles of the square array `A`
(12288 × 12288). On tile `(i, j)` it forms the residual `A_ij − R_i · R_jᵀ` (`R` is 12288 × 256, `R_i`
its `i`-th block of 1024 rows), squares it entrywise, sums each of the tile's 1024 rows, and adds that
column of row sums — copied across 128 lanes — into an accumulator that belongs to row tile `i`; the
accumulator is reset to zero when `j = 0`. After the last column tile, lane `l` of row `ρ` of row tile
`i` therefore holds the sum over ALL 12288 columns of the squared residual in row `1024·i + ρ`.

The host then keeps lane 0, sums the 12288 rows, and goes on to a square root and a division. The
reference computes the same squared residual array in one piece and sums all of its entries. This
module proves that the two sums agree on the extended reals, where addition is commutative and
associative with no finiteness side condition. Subtraction and the square are never expanded: they are
the same expression on both sides.

* `sqr`, `rowIx`, `rowLoss`: the square, the row `1024·i + ρ`, and one row's total squared residual
  written tile by tile.
* `lAcc`: the accumulator after column tiles `0..j`, by recursion through the kernel's payloads.
* `k1_pay1_apply`, `k1_pay2_apply`: the payloads at an index.
* `lAcc_apply`: the accumulator at an index as a sum over column tiles.
* `lAcc_tile`: when the blocks are the tiles of `A` and `R`, the accumulator after the twelfth column
  tile is `rowLoss`.
* `loss_sums`: the host's sum of lane 0 equals the reference's sum of all squared residuals. -/

noncomputable section

namespace Cert.KernelIdeal.Fold1

open Cert.KernelIdeal Cert.KernelIdeal.Gen Idealize.ShloMosaic Idealize.ShloMosaic.ValueIdx
open scoped BigOperators

/-- The square of an extended real, kept as a product. -/
def sqr (x : EReal) : EReal := x * x

/-- Row (or column) number `1024·i + ρ` of a 12288-long axis: place `ρ` of tile `i`. -/
abbrev rowIx (i : Fin 12) (ρ : Fin 1024) : Fin 12288 :=
  ⟨1024 * i.val + ρ.val, by have := i.isLt; have := ρ.isLt; omega⟩

/-- The total squared residual of row `r`, its 12288 columns taken tile by tile: the sum over the twelve
    column tiles `j` and the 1024 places `c` of `(A[r, 1024·j + c] − ∑ₖ R[r, k] · R[1024·j + c, k])²`. -/
def rowLoss (A : FVec Ideal S12288x12288 .f32) (R : FVec Ideal S12288x256 .f32) (r : Fin 12288) : EReal :=
  ∑ j : Fin 12, ∑ c : Fin 1024,
    sqr (A (ix2 r (rowIx j c)) - ∑ k : Fin 256, R (ix2 r k) * R (ix2 (rowIx j c) k))

/-- The accumulator of one row tile after column tiles `0..j`: the first tile is added into the zero
    block, each later one into what the tile before left. `si j`, `sj j` and `a j` are the row block,
    the column block and the tile of `A` seen at column step `j`. -/
def lAcc {F : FTy → Type} [FloatOps F] (si sj : ℕ → Vec F S1024x256 .bf16) (a : ℕ → Vec F S1024x1024 .f32) :
    ℕ → Vec F S1024x128 .f32
  | 0 => k1_pay2 (si 0) (sj 0) (a 0) (k1_pay1 (F := F))
  | j + 1 => k1_pay2 (si (j + 1)) (sj (j + 1)) (a (j + 1)) (lAcc si sj a j)

/-- The reset block is zero everywhere. -/
theorem k1_pay1_apply (i : S1024x128.Idx) : (k1_pay1 (F := Ideal)) i = 0 := by
  show Ideal.ofBits .f32 0x00000000#32 = 0
  exact Ideal.ofBits_zero_f32

/-! ## The tile product `R_i · R_jᵀ` at an index

The product contracts the second axis of its left operand with the first axis of its right operand.
At output place `(ρ, c)` and contraction position `k` the left operand is read at `(ρ, k)` and the right
one at `(k, c)`; the four coordinate facts are stated one by one. -/

theorem tileDot_lhs_0 (j : S1024x1024.Idx) (k : dot_S1024x256_S256x1024_S1024x1024_1_0_0_1_n_n.contr.Idx) :
    (dot_S1024x256_S256x1024_S1024x1024_1_0_0_1_n_n.lhsIdx j k 0).val = (j 0).val := by
  simp [DotDims.lhsIdx, dot_S1024x256_S256x1024_S1024x1024_1_0_0_1_n_n] <;> rfl

theorem tileDot_lhs_1 (j : S1024x1024.Idx) (k : dot_S1024x256_S256x1024_S1024x1024_1_0_0_1_n_n.contr.Idx) :
    (dot_S1024x256_S256x1024_S1024x1024_1_0_0_1_n_n.lhsIdx j k 1).val = (k ⟨0, by decide⟩).val :=
  DotDims.lhsIdx_val_of_single (d := dot_S1024x256_S256x1024_S1024x1024_1_0_0_1_n_n) (cl := 1) rfl j k

theorem tileDot_rhs_0 (j : S1024x1024.Idx) (k : dot_S1024x256_S256x1024_S1024x1024_1_0_0_1_n_n.contr.Idx) :
    (dot_S1024x256_S256x1024_S1024x1024_1_0_0_1_n_n.rhsIdx j k 0).val = (k ⟨0, by decide⟩).val :=
  DotDims.rhsIdx_val_of_single (d := dot_S1024x256_S256x1024_S1024x1024_1_0_0_1_n_n) (cr := 0) rfl j k

theorem tileDot_rhs_1 (j : S1024x1024.Idx) (k : dot_S1024x256_S256x1024_S1024x1024_1_0_0_1_n_n.contr.Idx) :
    (dot_S1024x256_S256x1024_S1024x1024_1_0_0_1_n_n.rhsIdx j k 1).val = (j 1).val := by
  simp [DotDims.rhsIdx, dot_S1024x256_S256x1024_S1024x1024_1_0_0_1_n_n] <;> rfl

/-- The product of a row block with the transpose of a column block, into the zero tile, at place
    `(ρ, c)`: the inner product of row `ρ` of the first with row `c` of the second. -/
theorem tileProd_apply (x y : FVec Ideal S1024x256 .bf16) (ρ c : Fin 1024) :
    matmul dot_S1024x256_S256x1024_S1024x1024_1_0_0_1_n_n none x
        (transpose S256x1024 [1, 0] y transposes_S1024x256_p1_0_S256x1024)
        (constant (F := Ideal) S1024x1024 .f32 0x00000000#32) (ix2 ρ c)
      = ∑ k : Fin 256, x (ix2 ρ k) * y (ix2 c k) := by
  refine (Ideal.matmul_constant_zero_apply dot_S1024x256_S256x1024_S1024x1024_1_0_0_1_n_n none x _ (ix2 ρ c)).trans ?_
  rw [← Equiv.sum_comp (contrEquiv1 dot_S1024x256_S256x1024_S1024x1024_1_0_0_1_n_n 256 rfl rfl).symm]
  refine Finset.sum_congr rfl fun k _ => ?_
  have hl : dot_S1024x256_S256x1024_S1024x1024_1_0_0_1_n_n.lhsIdx (ix2 ρ c)
      ((contrEquiv1 dot_S1024x256_S256x1024_S1024x1024_1_0_0_1_n_n 256 rfl rfl).symm k) = ix2 ρ k := by
    funext ax
    match ax with
    | ⟨0, _⟩ => exact Fin.ext (tileDot_lhs_0 _ _)
    | ⟨1, _⟩ => exact Fin.ext ((tileDot_lhs_1 _ _).trans
        (contrEquiv1_symm_val dot_S1024x256_S256x1024_S1024x1024_1_0_0_1_n_n 256 rfl rfl k))
  have hr : dot_S1024x256_S256x1024_S1024x1024_1_0_0_1_n_n.rhsIdx (ix2 ρ c)
      ((contrEquiv1 dot_S1024x256_S256x1024_S1024x1024_1_0_0_1_n_n 256 rfl rfl).symm k) = ix2 k c := by
    funext ax
    match ax with
    | ⟨0, _⟩ => exact Fin.ext ((tileDot_rhs_0 _ _).trans
        (contrEquiv1_symm_val dot_S1024x256_S256x1024_S1024x1024_1_0_0_1_n_n 256 rfl rfl k))
    | ⟨1, _⟩ => exact Fin.ext (tileDot_rhs_1 _ _)
  rw [hl, hr, transpose_ix2_apply]

/-- The sum along the columns of a tile, read at row `ρ`: the sum of that row's 1024 entries. -/
theorem rowSum_apply (src : FVec Ideal S1024x1024 .f32) (hφ : FKind.Formats .f32)
    (hacc : (0x00000000#32 : BitVec 32) = FKind.add.neutral .f32 hφ) (ρ : Fin 1024) :
    multiReduction .add [1] S1024 src 0x00000000#32 reduces_S1024x1024_S1024 hφ hacc (ix1 ρ)
      = ∑ c : Fin 1024, src (ix2 ρ c) := by
  refine (Ideal.multiReduction_add_single src 0x00000000#32 reduces_S1024x1024_S1024 hφ hacc (ix1 ρ)).trans ?_
  refine Finset.sum_congr rfl fun c _ => congrArg src ?_
  funext ax
  match ax with
  | ⟨0, _⟩ => exact Fin.ext rfl
  | ⟨1, _⟩ => exact Fin.ext rfl

/-- A column of 1024 values written as a 1024 × 1 block reads, at `(ρ, 0)`, the column at `ρ`. -/
theorem column_apply {α : Type} (v : S1024.Idx → α) (ρ : Fin 1024) (u : Fin 1) :
    shapeCast S1024x1 v shapeCasts_S1024_S1024x1 (ix2 ρ u) = v (ix1 ρ) :=
  shapeCast_apply v _ _ _ (by
    have hu : u.val = 0 := by omega
    rw [Shape.rowMajor_val_one, Shape.rowMajor_val_two]
    show ρ.val = ρ.val * 1 + u.val
    rw [hu, Nat.mul_one, Nat.add_zero])

/-- A 1024 × 1 block copied across 128 lanes reads, at `(ρ, l)`, the block at `(ρ, 0)`. -/
theorem lanes_apply {α : Type} (v : S1024x1.Idx → α) (ρ : Fin 1024) (l : Fin 128) :
    broadcastTo S1024x128 v broadcasts_S1024x1_S1024x128 (ix2 ρ l) = v (ix2 ρ (0 : Fin 1)) :=
  broadcastTo_apply v _ _ _ fun ax => by
    match ax with
    | ⟨0, _⟩ => rfl
    | ⟨1, _⟩ => rfl

/-- One accumulation step at row `ρ`, lane `l`: what was there, plus the row's sum over the tile's 1024
    columns of the squared residual; the lane plays no part. -/
theorem k1_pay2_apply (v3 v5 : Vec Ideal S1024x256 .bf16) (v9 : Vec Ideal S1024x1024 .f32)
    (v15 : Vec Ideal S1024x128 .f32) (ρ : Fin 1024) (l : Fin 128) :
    k1_pay2 v3 v5 v9 v15 (ix2 ρ l)
      = v15 (ix2 ρ l) + ∑ c : Fin 1024, sqr (v9 (ix2 ρ c) - ∑ k : Fin 256, v3 (ix2 ρ k) * v5 (ix2 c k)) := by
  unfold k1_pay2
  dsimp only
  rw [addf_apply, shapeCast_self]
  refine congrArg (v15 (ix2 ρ l) + ·) ?_
  refine (lanes_apply _ ρ l).trans ?_
  rw [shapeCast_self]
  refine (column_apply _ ρ 0).trans ?_
  refine (rowSum_apply _ _ _ ρ).trans ?_
  refine Finset.sum_congr rfl fun c _ => ?_
  rw [mulf_apply, subf_apply, shapeCast_self, shapeCast_self, shapeCast_self, tileProd_apply]
  rfl

/-- The accumulator after column tiles `0..j`, at row `ρ` and any lane: the sum over those tiles of the
    row's squared residuals. -/
theorem lAcc_apply (si sj : ℕ → Vec Ideal S1024x256 .bf16) (a : ℕ → Vec Ideal S1024x1024 .f32) (j : ℕ)
    (ρ : Fin 1024) (l : Fin 128) :
    lAcc si sj a j (ix2 ρ l)
      = ∑ j' ∈ Finset.range (j + 1), ∑ c : Fin 1024,
          sqr (a j' (ix2 ρ c) - ∑ k : Fin 256, si j' (ix2 ρ k) * sj j' (ix2 c k)) := by
  induction j with
  | zero =>
    show k1_pay2 (si 0) (sj 0) (a 0) (k1_pay1 (F := Ideal)) (ix2 ρ l) = _
    rw [k1_pay2_apply, k1_pay1_apply, zero_add, Finset.sum_range_one]
  | succ j ih =>
    show k1_pay2 (si (j + 1)) (sj (j + 1)) (a (j + 1)) (lAcc si sj a j) (ix2 ρ l) = _
    rw [k1_pay2_apply, ih, Finset.sum_range_succ _ (j + 1)]

/-- When, at every column step `j < 12`, the row block is rows `1024·i ..` of `R`, the column block rows
    `1024·j ..` of `R`, and the tile is tile `(i, j)` of `A`, the accumulator after the twelfth step holds
    row `1024·i + ρ`'s total squared residual in every lane. -/
theorem lAcc_tile (A : FVec Ideal S12288x12288 .f32) (R : FVec Ideal S12288x256 .f32) (i : Fin 12)
    (si sj : ℕ → Vec Ideal S1024x256 .bf16) (a : ℕ → Vec Ideal S1024x1024 .f32)
    (hsi : ∀ (j : ℕ) (hj : j < 12) (ρ : Fin 1024) (k : Fin 256), si j (ix2 ρ k) = R (ix2 (rowIx i ρ) k))
    (hsj : ∀ (j : ℕ) (hj : j < 12) (c : Fin 1024) (k : Fin 256), sj j (ix2 c k) = R (ix2 (rowIx ⟨j, hj⟩ c) k))
    (ha : ∀ (j : ℕ) (hj : j < 12) (ρ c : Fin 1024), a j (ix2 ρ c) = A (ix2 (rowIx i ρ) (rowIx ⟨j, hj⟩ c)))
    (ρ : Fin 1024) (l : Fin 128) :
    lAcc si sj a 11 (ix2 ρ l) = rowLoss A R (rowIx i ρ) := by
  rw [lAcc_apply, show (11 : ℕ) + 1 = 12 from rfl, Finset.sum_range]
  unfold rowLoss
  refine Finset.sum_congr rfl fun j _ => Finset.sum_congr rfl fun c _ => ?_
  have hk : (∑ k : Fin 256, si j.val (ix2 ρ k) * sj j.val (ix2 c k))
      = ∑ k : Fin 256, R (ix2 (rowIx i ρ) k) * R (ix2 (rowIx j c) k) :=
    Finset.sum_congr rfl fun k _ => by rw [hsi j.val j.isLt ρ k, hsj j.val j.isLt c k]
  rw [ha j.val j.isLt ρ c, hk]

/-- A sum over `Fin n`, `n = m·b`, taken block by block: over the `m` blocks and the `b` places of each. -/
theorem sum_fin_blocks {M : Type*} [AddCommMonoid M] (m b n : ℕ) (h : m * b = n) (f : Fin n → M) :
    ∑ r : Fin n, f r
      = ∑ i : Fin m, ∑ ρ : Fin b, f ⟨b * i.val + ρ.val, by
          have := i.isLt; have := ρ.isLt
          calc b * i.val + ρ.val < b * i.val + b := by omega
            _ = b * (i.val + 1) := by ring
            _ ≤ b * m := Nat.mul_le_mul_left b (by omega)
            _ = n := by rw [Nat.mul_comm]; exact h⟩ := by
  subst h
  rw [← Equiv.sum_comp finProdFinEquiv f, Fintype.sum_prod_type]
  refine Finset.sum_congr rfl fun i _ => Finset.sum_congr rfl fun ρ _ => congrArg f (Fin.ext ?_)
  show ρ.val + b * i.val = b * i.val + ρ.val
  exact Nat.add_comm _ _

/-! ## The two ends

The host keeps lane 0 of the kernel's output (a slice to one column, read as a vector of 12288 rows) and
sums it from zero. The reference sums every entry of the squared residual array from zero. -/

/-- A sum over the indices of a vector is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- Lane 0 of the output, as the vector of its 12288 rows. -/
theorem lane0_apply (O : FVec Ideal S12288x128 .f32) (r : Fin 12288) :
    shapeCast S12288 (extractStridedSlice S12288x1 ![0, 0] O slices_S12288x128_S12288x1_0_0)
        shapeCasts_S12288x1_S12288 (ix1 r) = O (ix2 r (0 : Fin 128)) := by
  refine (shapeCast_apply _ _ (ix1 r) (ix2 r (0 : Fin 1)) ?_).trans ?_
  · rw [Shape.rowMajor_val_two, Shape.rowMajor_val_one]
    show r.val * 1 + 0 = r.val
    rw [Nat.mul_one, Nat.add_zero]
  · exact slice2_axis1_apply 0 O _ r (0 : Fin 1) (0 : Fin 128) rfl

/-- The host's sum of lane 0 from zero: the plain sum over the 12288 rows. -/
theorem kernelEnd_apply (O : FVec Ideal S12288x128 .f32) (z : S_.Idx) :
    Host.reduceAdd (F := Ideal)
        (shapeCast S12288 (extractStridedSlice S12288x1 ![0, 0] O slices_S12288x128_S12288x1_0_0) shapeCasts_S12288x1_S12288)
        (constant (F := Ideal) S_ .f32 0x00000000#32) reducesTo_S12288_S_d0 h_S_ z
      = ∑ r : Fin 12288, O (ix2 r (0 : Fin 128)) := by
  unfold Host.reduceAdd
  rw [Ideal.hostReduceAdd_def, Ideal.hostReduceAdd_total reducesTo_S12288_S_d0 (fun b => b.elim0), constant_apply,
    Ideal.ofBits_zero_f32, zero_add, sum_idx1]
  exact Finset.sum_congr rfl fun r _ => lane0_apply O r

/-! The reference's product `R · Rᵀ` at an index, by the same four coordinate facts. -/

theorem refDot_lhs_0 (j : Cert.ReferenceIdeal.S12288x12288.Idx)
    (k : Cert.ReferenceIdeal.dot_S12288x256_S256x12288_S12288x12288_1_0_0_1_n_n.contr.Idx) :
    (Cert.ReferenceIdeal.dot_S12288x256_S256x12288_S12288x12288_1_0_0_1_n_n.lhsIdx j k 0).val = (j 0).val := by
  simp [DotDims.lhsIdx, Cert.ReferenceIdeal.dot_S12288x256_S256x12288_S12288x12288_1_0_0_1_n_n] <;> rfl

theorem refDot_lhs_1 (j : Cert.ReferenceIdeal.S12288x12288.Idx)
    (k : Cert.ReferenceIdeal.dot_S12288x256_S256x12288_S12288x12288_1_0_0_1_n_n.contr.Idx) :
    (Cert.ReferenceIdeal.dot_S12288x256_S256x12288_S12288x12288_1_0_0_1_n_n.lhsIdx j k 1).val = (k ⟨0, by decide⟩).val :=
  DotDims.lhsIdx_val_of_single (d := Cert.ReferenceIdeal.dot_S12288x256_S256x12288_S12288x12288_1_0_0_1_n_n) (cl := 1) rfl j k

theorem refDot_rhs_0 (j : Cert.ReferenceIdeal.S12288x12288.Idx)
    (k : Cert.ReferenceIdeal.dot_S12288x256_S256x12288_S12288x12288_1_0_0_1_n_n.contr.Idx) :
    (Cert.ReferenceIdeal.dot_S12288x256_S256x12288_S12288x12288_1_0_0_1_n_n.rhsIdx j k 0).val = (k ⟨0, by decide⟩).val :=
  DotDims.rhsIdx_val_of_single (d := Cert.ReferenceIdeal.dot_S12288x256_S256x12288_S12288x12288_1_0_0_1_n_n) (cr := 0) rfl j k

theorem refDot_rhs_1 (j : Cert.ReferenceIdeal.S12288x12288.Idx)
    (k : Cert.ReferenceIdeal.dot_S12288x256_S256x12288_S12288x12288_1_0_0_1_n_n.contr.Idx) :
    (Cert.ReferenceIdeal.dot_S12288x256_S256x12288_S12288x12288_1_0_0_1_n_n.rhsIdx j k 1).val = (j 1).val := by
  simp [DotDims.rhsIdx, Cert.ReferenceIdeal.dot_S12288x256_S256x12288_S12288x12288_1_0_0_1_n_n] <;> rfl

/-- The reference's `R · Rᵀ` at `(r, c)`: the inner product of rows `r` and `c` of `R`. -/
theorem refProd_apply (R : FVec Ideal S12288x256 .f32) (r c : Fin 12288) :
    Host.dotGeneral (F := Ideal) Cert.ReferenceIdeal.dot_S12288x256_S256x12288_S12288x12288_1_0_0_1_n_n none R
        (transpose Cert.ReferenceIdeal.S256x12288 [1, 0] R Cert.ReferenceIdeal.Gen.transposes_S12288x256_S256x12288_1_0)
        (ix2 r c)
      = ∑ k : Fin 256, R (ix2 r k) * R (ix2 c k) := by
  refine (Ideal.dotGeneral_apply Cert.ReferenceIdeal.dot_S12288x256_S256x12288_S12288x12288_1_0_0_1_n_n none .single R _ (ix2 r c)).trans ?_
  rw [← Equiv.sum_comp (contrEquiv1 Cert.ReferenceIdeal.dot_S12288x256_S256x12288_S12288x12288_1_0_0_1_n_n 256 rfl rfl).symm]
  refine Finset.sum_congr rfl fun k _ => ?_
  have hl : Cert.ReferenceIdeal.dot_S12288x256_S256x12288_S12288x12288_1_0_0_1_n_n.lhsIdx (ix2 r c)
      ((contrEquiv1 Cert.ReferenceIdeal.dot_S12288x256_S256x12288_S12288x12288_1_0_0_1_n_n 256 rfl rfl).symm k) = ix2 r k := by
    funext ax
    match ax with
    | ⟨0, _⟩ => exact Fin.ext (refDot_lhs_0 _ _)
    | ⟨1, _⟩ => exact Fin.ext ((refDot_lhs_1 _ _).trans
        (contrEquiv1_symm_val Cert.ReferenceIdeal.dot_S12288x256_S256x12288_S12288x12288_1_0_0_1_n_n 256 rfl rfl k))
  have hr : Cert.ReferenceIdeal.dot_S12288x256_S256x12288_S12288x12288_1_0_0_1_n_n.rhsIdx (ix2 r c)
      ((contrEquiv1 Cert.ReferenceIdeal.dot_S12288x256_S256x12288_S12288x12288_1_0_0_1_n_n 256 rfl rfl).symm k) = ix2 k c := by
    funext ax
    match ax with
    | ⟨0, _⟩ => exact Fin.ext ((refDot_rhs_0 _ _).trans
        (contrEquiv1_symm_val Cert.ReferenceIdeal.dot_S12288x256_S256x12288_S12288x12288_1_0_0_1_n_n 256 rfl rfl k))
    | ⟨1, _⟩ => exact Fin.ext (refDot_rhs_1 _ _)
  rw [hl, hr, transpose_ix2_apply]

/-- The reference's sum from zero of every squared residual: the double sum over rows and columns. -/
theorem refEnd_apply (A : FVec Ideal S12288x12288 .f32) (R : FVec Ideal S12288x256 .f32) (z : S_.Idx) :
    Host.reduceAdd (F := Ideal)
        (mulf
          (subf A (Host.dotGeneral (F := Ideal) Cert.ReferenceIdeal.dot_S12288x256_S256x12288_S12288x12288_1_0_0_1_n_n none R
            (transpose Cert.ReferenceIdeal.S256x12288 [1, 0] R Cert.ReferenceIdeal.Gen.transposes_S12288x256_S256x12288_1_0)))
          (subf A (Host.dotGeneral (F := Ideal) Cert.ReferenceIdeal.dot_S12288x256_S256x12288_S12288x12288_1_0_0_1_n_n none R
            (transpose Cert.ReferenceIdeal.S256x12288 [1, 0] R Cert.ReferenceIdeal.Gen.transposes_S12288x256_S256x12288_1_0))))
        (constant (F := Ideal) S_ .f32 0x00000000#32) Cert.ReferenceIdeal.Gen.reducesTo_S12288x12288_S_d0_1 h_S_ z
      = ∑ r : Fin 12288, ∑ c : Fin 12288, sqr (A (ix2 r c) - ∑ k : Fin 256, R (ix2 r k) * R (ix2 c k)) := by
  unfold Host.reduceAdd
  rw [Ideal.hostReduceAdd_def,
    Ideal.hostReduceAdd_total Cert.ReferenceIdeal.Gen.reducesTo_S12288x12288_S_d0_1 (fun b => b.elim0), constant_apply,
    Ideal.ofBits_zero_f32, zero_add, sum_idx2]
  refine Finset.sum_congr rfl fun r _ => Finset.sum_congr rfl fun c _ => ?_
  rw [mulf_apply, subf_apply, refProd_apply]
  rfl

/-- The host's sum over the rows of lane 0 of the kernel's output is the reference's sum of every squared
    residual, when each row of the output holds that row's total squared residual in every lane. -/
theorem loss_sums (A : FVec Ideal S12288x12288 .f32) (R : FVec Ideal S12288x256 .f32) (O : FVec Ideal S12288x128 .f32)
    (hO : ∀ (i : Fin 12) (ρ : Fin 1024) (l : Fin 128), O (ix2 (rowIx i ρ) l) = rowLoss A R (rowIx i ρ)) :
    Host.reduceAdd (F := Ideal)
        (shapeCast S12288 (extractStridedSlice S12288x1 ![0, 0] O slices_S12288x128_S12288x1_0_0) shapeCasts_S12288x1_S12288)
        (constant (F := Ideal) S_ .f32 0x00000000#32) reducesTo_S12288_S_d0 h_S_
      = Host.reduceAdd (F := Ideal)
          (mulf
            (subf A (Host.dotGeneral (F := Ideal) Cert.ReferenceIdeal.dot_S12288x256_S256x12288_S12288x12288_1_0_0_1_n_n none R
              (transpose Cert.ReferenceIdeal.S256x12288 [1, 0] R Cert.ReferenceIdeal.Gen.transposes_S12288x256_S256x12288_1_0)))
            (subf A (Host.dotGeneral (F := Ideal) Cert.ReferenceIdeal.dot_S12288x256_S256x12288_S12288x12288_1_0_0_1_n_n none R
              (transpose Cert.ReferenceIdeal.S256x12288 [1, 0] R Cert.ReferenceIdeal.Gen.transposes_S12288x256_S256x12288_1_0))))
          (constant (F := Ideal) S_ .f32 0x00000000#32) Cert.ReferenceIdeal.Gen.reducesTo_S12288x12288_S_d0_1 h_S_ := by
  funext z
  rw [kernelEnd_apply, refEnd_apply,
    sum_fin_blocks 12 1024 12288 (by norm_num) (fun r => O (ix2 r (0 : Fin 128))),
    sum_fin_blocks 12 1024 12288 (by norm_num)
      (fun r => ∑ c : Fin 12288, sqr (A (ix2 r c) - ∑ k : Fin 256, R (ix2 r k) * R (ix2 c k)))]
  refine Finset.sum_congr rfl fun i _ => Finset.sum_congr rfl fun ρ _ => ?_
  show O (ix2 (rowIx i ρ) (0 : Fin 128))
    = ∑ c : Fin 12288, sqr (A (ix2 (rowIx i ρ) c) - ∑ k : Fin 256, R (ix2 (rowIx i ρ) k) * R (ix2 c k))
  rw [hO i ρ 0]
  unfold rowLoss
  exact (sum_fin_blocks 12 1024 12288 (by norm_num)
    (fun c => sqr (A (ix2 (rowIx i ρ) c) - ∑ k : Fin 256, R (ix2 (rowIx i ρ) k) * R (ix2 c k)))).symm

end Cert.KernelIdeal.Fold1

end
-- ==== Proof.KIJoin1.lean ====
import proofs.«172850_j70214125355087_1_alg».proof.Proof.KIValue1
import proofs.«172850_j70214125355087_1_alg».proof.Proof.Fold1

/-! # The adjacency-loss kernel's output array through the host's tail

The grid's point `12·i + j` is column step `j` of row tile `i`. What the output's staging buffer holds
after that point was defined by recursion on the point's number, restarting from zero whenever `j = 0`.
Inside one row tile that recursion is the plain recursion on the column step: it starts from zero at
step 0 and adds one tile's term at each later step. So after the twelfth step the buffer holds, on row
`ρ` and in every lane, the total squared residual of row `1024·i + ρ` of the array — the blocks the
kernel sees at step `j` being rows `1024·i + ·` and `1024·j + ·` of the assignment matrix and tile
`(i, j)` of the dense adjacency. The output array ends at those buffers, row tile by row tile; summing
its lane 0 over the rows is therefore the reference's sum of every squared residual.

* `tilePoint`, `tileSi`, `tileSj`, `tileA`: the point of row tile `i` at column step `j`, and the three
  blocks the kernel reads there (at any float instance).
* `outsAt1_eq_lAcc`: within row tile `i`, the buffer after step `j` is the column-step recursion.
* `region1_rows`: each row of the final output array holds that row's total squared residual.
* `region1_loss`: the host's sum of lane 0 of the output array is the reference's sum of squares. -/

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fold1

/-- The grid point of row tile `i` at column step `j`: number `12·i + j`. Steps are taken modulo twelve so
    that the point is defined for every natural `j`; only the first twelve are ever used. -/
def tilePoint (i : Fin 12) (j : ℕ) : Fin cfg1.N :=
  ⟨12 * i.val + j % 12, by
    rw [points1]; have := i.isLt; have := Nat.mod_lt j (by decide : 0 < 12); omega⟩

/-- For a step below twelve the point's number is `12·i + j`. -/
theorem tilePoint_val (i : Fin 12) (j : ℕ) (hj : j < 12) : (tilePoint i j).val = 12 * i.val + j := by
  show 12 * i.val + j % 12 = 12 * i.val + j
  rw [Nat.mod_eq_of_lt hj]

section AnyInstance

variable {F : FTy → Type} [FloatOps F]
variable (V : (c : Dev nD) → (b : Ref sig .tc) → Buf (Elt F) ((c : Thread nD τ).loc b))

/-- The row-side block of the assignment matrix seen at column step `j` of row tile `i`. -/
def tileSi (c : Dev nD) (i : Fin 12) (j : ℕ) : Vec F S1024x256 .bf16 := siblk1 V c (tilePoint i j)
/-- The column-side block of the assignment matrix seen at column step `j` of row tile `i`. -/
def tileSj (c : Dev nD) (i : Fin 12) (j : ℕ) : Vec F S1024x256 .bf16 := sjblk1 V c (tilePoint i j)
/-- The tile of the dense adjacency seen at column step `j` of row tile `i`. -/
def tileA (c : Dev nD) (i : Fin 12) (j : ℕ) : Vec F S1024x1024 .f32 := ablk1 V c (tilePoint i j)

/-- Within row tile `i` the accumulation over the grid's points is the recursion on the column step: at
    step 0 the point's number is a multiple of twelve, so the accumulator restarts from zero; at a later
    step it is not, so the accumulator continues from the point before, which is the step before. -/
theorem outsAt1_eq_lAcc (c : Dev nD) (i : Fin 12) (j : ℕ) (hj : j < 12) (hn : 12 * i.val + j < cfg1.N) :
    outsAt1 V c (12 * i.val + j) hn = lAcc (tileSi V c i) (tileSj V c i) (tileA V c i) j := by
  induction j with
  | zero =>
    have hv : (tilePoint i 0).val = 12 * i.val + 0 := tilePoint_val i 0 hj
    have hm : (tilePoint i 0).val % 12 = 0 := by rw [hv]; omega
    exact (outsAt1_congr V c _ _ hv.symm hn (tilePoint i 0).isLt).trans (outsAt1_reset V c (tilePoint i 0) hm)
  | succ j ih =>
    have hj' : j < 12 := by omega
    have hn' : 12 * i.val + j < cfg1.N := by omega
    have hv : (tilePoint i (j + 1)).val = 12 * i.val + (j + 1) := tilePoint_val i (j + 1) hj
    have hm : (tilePoint i (j + 1)).val % 12 ≠ 0 := by rw [hv]; omega
    refine (outsAt1_congr V c _ _ hv.symm hn (tilePoint i (j + 1)).isLt).trans ?_
    refine (outsAt1_step V c (tilePoint i (j + 1)) hm).trans ?_
    show k1_pay2 (tileSi V c i (j + 1)) (tileSj V c i (j + 1)) (tileA V c i (j + 1)) _
      = k1_pay2 (tileSi V c i (j + 1)) (tileSj V c i (j + 1)) (tileA V c i (j + 1))
          (lAcc (tileSi V c i) (tileSj V c i) (tileA V c i) j)
    refine congrArg (k1_pay2 (tileSi V c i (j + 1)) (tileSj V c i (j + 1)) (tileA V c i (j + 1))) ?_
    exact (outsAt1_congr V c _ _ (by rw [hv]; omega) _ hn').trans (ih hj' hn')

end AnyInstance

section AtIdeal

variable (V : (c : Dev nD) → (b : Ref sig .tc) → Buf (Elt Ideal) ((c : Thread nD τ).loc b))

/-- Row `1024·i + ρ` of the output array, in every lane, ends at that row's total squared residual,
    `A` being the dense adjacency and `R` the assignment matrix the kernel was entered with. -/
theorem region1_rows (c : Dev nD) (A : FVec Ideal S12288x12288 .f32) (R : FVec Ideal S12288x256 .f32)
    (hA : (V c main_v118 : S12288x12288.Idx → EReal) = A) (hR : (V c main_v99 : S12288x256.Idx → EReal) = R)
    (i : Fin 12) (ρ : Fin 1024) (l : Fin 128) :
    ((dat1 V c).arrAt 3 cfg1.N : FVec Ideal S12288x128 .f32) (ix2 (rowIx i ρ) l) = rowLoss A R (rowIx i ρ) := by
  rw [final1_3]
  have hi := i.isLt
  have hn : 12 * i.val + 11 < cfg1.N := by rw [points1]; omega
  have h1 : lossRows V c (ix2 (rowIx i ρ) l) = outsAt1 V c (12 * i.val + 11) hn (ix2 ρ l) := by
    unfold lossRows
    have hρ := ρ.isLt
    have e : 12 * (((ix2 (rowIx i ρ) l) 0).val / 1024) + 11 = 12 * i.val + 11 := by
      show 12 * ((1024 * i.val + ρ.val) / 1024) + 11 = 12 * i.val + 11
      omega
    refine (congrFun (outsAt1_congr V c _ _ e _ hn) _).trans (congrArg _ ?_)
    funext a
    apply Fin.ext
    match a with
    | ⟨0, _⟩ => show (1024 * i.val + ρ.val) % 1024 = ρ.val; omega
    | ⟨1, _⟩ => rfl
  rw [h1, outsAt1_eq_lAcc V c i 11 (by decide) hn]
  refine lAcc_tile A R i _ _ _ ?_ ?_ ?_ ρ l
  · intro j hj ρ' k
    exact (siblk1_apply V c (tilePoint i j) (ix2 ρ' k) (ix2 (rowIx i ρ') k)
      (by show 1024 * i.val + ρ'.val = 1024 * ((12 * i.val + j % 12) / 12) + ρ'.val; omega) rfl).trans
      (congrFun hR _)
  · intro j hj c' k
    exact (sjblk1_apply V c (tilePoint i j) (ix2 c' k) (ix2 (rowIx ⟨j, hj⟩ c') k)
      (by show 1024 * j + c'.val = 1024 * ((12 * i.val + j % 12) % 12) + c'.val; omega) rfl).trans
      (congrFun hR _)
  · intro j hj ρ' c'
    exact (ablk1_apply V c (tilePoint i j) (ix2 ρ' c') (ix2 (rowIx i ρ') (rowIx ⟨j, hj⟩ c'))
      (by show 1024 * i.val + ρ'.val = 1024 * ((12 * i.val + j % 12) / 12) + ρ'.val; omega)
      (by show 1024 * j + c'.val = 1024 * ((12 * i.val + j % 12) % 12) + c'.val; omega)).trans
      (congrFun hA _)

/-- The host's sum from zero of lane 0 of the output array over its 12288 rows is the reference's sum
    from zero of every squared residual `(A − R·Rᵀ)²`. -/
theorem region1_loss (c : Dev nD) (A : FVec Ideal S12288x12288 .f32) (R : FVec Ideal S12288x256 .f32)
    (hA : (V c main_v118 : S12288x12288.Idx → EReal) = A) (hR : (V c main_v99 : S12288x256.Idx → EReal) = R) :
    Host.reduceAdd (F := Ideal)
        (shapeCast S12288
          (extractStridedSlice S12288x1 ![0, 0] ((dat1 V c).arrAt 3 cfg1.N : FVec Ideal S12288x128 .f32)
            slices_S12288x128_S12288x1_0_0)
          shapeCasts_S12288x1_S12288)
        (constant (F := Ideal) S_ .f32 0x00000000#32) reducesTo_S12288_S_d0 h_S_
      = Host.reduceAdd (F := Ideal)
          (mulf
            (subf A (Host.dotGeneral (F := Ideal) Cert.ReferenceIdeal.dot_S12288x256_S256x12288_S12288x12288_1_0_0_1_n_n none R
              (transpose Cert.ReferenceIdeal.S256x12288 [1, 0] R Cert.ReferenceIdeal.Gen.transposes_S12288x256_S256x12288_1_0)))
            (subf A (Host.dotGeneral (F := Ideal) Cert.ReferenceIdeal.dot_S12288x256_S256x12288_S12288x12288_1_0_0_1_n_n none R
              (transpose Cert.ReferenceIdeal.S256x12288 [1, 0] R Cert.ReferenceIdeal.Gen.transposes_S12288x256_S256x12288_1_0))))
          (constant (F := Ideal) S_ .f32 0x00000000#32) Cert.ReferenceIdeal.Gen.reducesTo_S12288x12288_S_d0_1 h_S_ :=
  loss_sums A R _ fun i ρ l => region1_rows V c A R hA hR i ρ l

end AtIdeal

end Cert.KernelIdeal.Hand

end
-- ==== Proof.RefRun.lean ====
import proofs.«172850_j70214125355087_1_alg».proof.Proof.Gen.ReferenceIdeal
import Idealize.ShloMosaic.Lib.StableHlo.Run
import Idealize.ShloMosaic.Lib.Pipeline.Regions

/-! # The reference program's run

The reference @main is a straight line of host tensor operations: 177 statements, six of them calls of
module-local functions (two row norms, a floor division that itself calls a select, a Frobenius norm, two
selects). A call executes the callee's body on the caller's buffers, so with every call unfolded the program
is ONE list of 207 operations, each writing a buffer of its own. This module writes that list down, proves
@main equal to the sequence of its operations, and reads the run back: every execution terminates and leaves
each buffer at the left-to-right fold of the operations' results over the launch contents. The last
operations of three results (the pooled features, the pooled adjacency, the link loss) are then stated as
equations between the final contents of the buffers involved. -/

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Folds and chains over a concatenation -/

section General

variable {nD : Nat} {τ : Topo} {sig : RefSig} {Val : EltTy → Type} {Λ : Labels}

/-- The fold over a concatenation is the fold over the second list from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer that neither of two lists changes is not changed by their concatenation. -/
theorem keeps_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A chain of operation sequences is the sequence of their concatenation. -/
theorem chain_seqs : ∀ ls : List (List (HloOp τ sig Val)),
    (Pipeline.chain (ls.map fun l => (seq l : Prog (TpuEff nD τ sig Val Λ .tc) PUnit))) = seq ls.flatten
  | [] => rfl
  | l :: ls => by
    rw [List.map_cons, Pipeline.chain_cons, List.flatten_cons, seq_append, chain_seqs ls]

end General

variable {F : FTy → Type} [FloatOps F]

/-! ## The operations, piece by piece

@main is printed in three windows of statements. Each window is cut at its calls, and @main's own operations
once more before each of the three transposes of the assignment matrix: a piece is either a run of @main's
own operations or one call's operations (the callee's body over the call's arguments and the call's own
buffers, a nested call's operation in place). With each piece goes the list of the buffers it writes. -/

/-- A run of @main's own operations (window 0; operations 0 … 33). -/
abbrev piece0 : List (HloOp τ sig (Elt F)) :=
  [ unary main_arg1 main_v0 ((extractStridedSlice S1x196608 ![0, 0] · slices_S2x196608_S1x196608_0_0) : (⟨S2x196608, .i32⟩ : BufTy).Contents (Elt F) → (⟨S1x196608, .i32⟩ : BufTy).Contents (Elt F)),
    reshape main_v0 main_v1 rfl shapeCasts_S1x196608_S196608,
    unary main_arg1 main_v2 ((extractStridedSlice S1x196608 ![1, 0] · slices_S2x196608_S1x196608_1_0) : (⟨S2x196608, .i32⟩ : BufTy).Contents (Elt F) → (⟨S1x196608, .i32⟩ : BufTy).Contents (Elt F)),
    reshape main_v2 main_v3 rfl shapeCasts_S1x196608_S196608,
    nullary main_c (constantI S_ 32 0#32),
    unary main_c main_v4 (broadcastInDim S196608 ![] bcast_S_S196608 : (⟨S_, .i32⟩ : BufTy).Contents (Elt F) → (⟨S196608, .i32⟩ : BufTy).Contents (Elt F)),
    binary main_v1 main_v4 main_v5 (cmpi .slt : (⟨S196608, .i32⟩ : BufTy).Contents (Elt F) → (⟨S196608, .i32⟩ : BufTy).Contents (Elt F) → (⟨S196608, .i1⟩ : BufTy).Contents (Elt F)),
    nullary main_c_0 (constantI S_ 32 12288#32),
    unary main_c_0 main_v6 (broadcastInDim S196608 ![] bcast_S_S196608 : (⟨S_, .i32⟩ : BufTy).Contents (Elt F) → (⟨S196608, .i32⟩ : BufTy).Contents (Elt F)),
    binary main_v1 main_v6 main_v7 (addi : (⟨S196608, .i32⟩ : BufTy).Contents (Elt F) → (⟨S196608, .i32⟩ : BufTy).Contents (Elt F) → (⟨S196608, .i32⟩ : BufTy).Contents (Elt F)),
    ternary main_v5 main_v7 main_v1 main_v8 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v8 main_v9 (broadcastInDim S196608x1 ![0] bcast_S196608_S196608x1_0 : (⟨S196608, .i32⟩ : BufTy).Contents (Elt F) → (⟨S196608x1, .i32⟩ : BufTy).Contents (Elt F)),
    binary main_arg0 main_v9 main_v10 ((fun x i => Host.gather gather_S12288x128_S196608x1_S196608x128_1_0_n_n_0_1_1128 x i) : (⟨S12288x128, .f32⟩ : BufTy).Contents (Elt F) → (⟨S196608x1, .i32⟩ : BufTy).Contents (Elt F) → (⟨S196608x128, .f32⟩ : BufTy).Contents (Elt F)),
    nullary main_cst (constant S_ .f32 0x00000000#32),
    unary main_cst main_v11 (broadcastInDim S12288x128 ![] bcast_S_S12288x128 : (⟨S_, .f32⟩ : BufTy).Contents (Elt F) → (⟨S12288x128, .f32⟩ : BufTy).Contents (Elt F)),
    unary main_v3 main_v12 (broadcastInDim S196608x1 ![0] bcast_S196608_S196608x1_0 : (⟨S196608, .i32⟩ : BufTy).Contents (Elt F) → (⟨S196608x1, .i32⟩ : BufTy).Contents (Elt F)),
    ternary main_v11 main_v12 main_v10 main_v13 ((fun x i u => Host.scatterAdd scatter_S12288x128_S196608x1_S196608x128_1_0_0_1 x i u) : (⟨S12288x128, .f32⟩ : BufTy).Contents (Elt F) → (⟨S196608x1, .i32⟩ : BufTy).Contents (Elt F) → (⟨S196608x128, .f32⟩ : BufTy).Contents (Elt F) → (⟨S12288x128, .f32⟩ : BufTy).Contents (Elt F)),
    nullary main_cst_1 (constant S_ .f32 0x3F800000#32),
    unary main_cst_1 main_v14 (broadcastInDim S196608 ![] bcast_S_S196608 : (⟨S_, .f32⟩ : BufTy).Contents (Elt F) → (⟨S196608, .f32⟩ : BufTy).Contents (Elt F)),
    nullary main_cst_2 (constant S_ .f32 0x00000000#32),
    unary main_cst_2 main_v15 (broadcastInDim S12288 ![] bcast_S_S12288 : (⟨S_, .f32⟩ : BufTy).Contents (Elt F) → (⟨S12288, .f32⟩ : BufTy).Contents (Elt F)),
    unary main_v3 main_v16 (broadcastInDim S196608x1 ![0] bcast_S196608_S196608x1_0 : (⟨S196608, .i32⟩ : BufTy).Contents (Elt F) → (⟨S196608x1, .i32⟩ : BufTy).Contents (Elt F)),
    ternary main_v15 main_v16 main_v14 main_v17 ((fun x i u => Host.scatterAdd scatter_S12288_S196608x1_S196608_n_0_0_1 x i u) : (⟨S12288, .f32⟩ : BufTy).Contents (Elt F) → (⟨S196608x1, .i32⟩ : BufTy).Contents (Elt F) → (⟨S196608, .f32⟩ : BufTy).Contents (Elt F) → (⟨S12288, .f32⟩ : BufTy).Contents (Elt F)),
    nullary main_cst_3 (constant S_ .f32 0x3F800000#32),
    unary main_cst_3 main_v18 (broadcastInDim S12288 ![] bcast_S_S12288 : (⟨S_, .f32⟩ : BufTy).Contents (Elt F) → (⟨S12288, .f32⟩ : BufTy).Contents (Elt F)),
    binary main_v17 main_v18 main_v19 (maximumf : (⟨S12288, .f32⟩ : BufTy).Contents (Elt F) → (⟨S12288, .f32⟩ : BufTy).Contents (Elt F) → (⟨S12288, .f32⟩ : BufTy).Contents (Elt F)),
    unary main_v19 main_v20 (broadcastInDim S12288x1 ![0] bcast_S12288_S12288x1_0 : (⟨S12288, .f32⟩ : BufTy).Contents (Elt F) → (⟨S12288x1, .f32⟩ : BufTy).Contents (Elt F)),
    unary main_v20 main_v21 (broadcastInDim S12288x128 ![0, 1] bcast_S12288x1_S12288x128_0_1 : (⟨S12288x1, .f32⟩ : BufTy).Contents (Elt F) → (⟨S12288x128, .f32⟩ : BufTy).Contents (Elt F)),
    binary main_v13 main_v21 main_v22 (Host.divf : (⟨S12288x128, .f32⟩ : BufTy).Contents (Elt F) → (⟨S12288x128, .f32⟩ : BufTy).Contents (Elt F) → (⟨S12288x128, .f32⟩ : BufTy).Contents (Elt F)),
    binary main_arg0 main_v22 main_v23 ((fun a b => concatenate S12288x256 1 [⟨S12288x128, a⟩, ⟨S12288x128, b⟩] concatenates_S12288x128_S12288x128_S12288x256_d1) : (⟨S12288x128, .f32⟩ : BufTy).Contents (Elt F) → (⟨S12288x128, .f32⟩ : BufTy).Contents (Elt F) → (⟨S12288x256, .f32⟩ : BufTy).Contents (Elt F)),
    binary main_v23 main_arg3 main_v24 ((fun l r => Host.dotGeneral dot_S12288x256_S256x128_S12288x128_1_0_0_1_n_n none l r) : (⟨S12288x256, .f32⟩ : BufTy).Contents (Elt F) → (⟨S256x128, .f32⟩ : BufTy).Contents (Elt F) → (⟨S12288x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S12288x128 ![0, 1] bcast_S1x128_S12288x128_0_1 : (⟨S1x128, .f32⟩ : BufTy).Contents (Elt F) → (⟨S12288x128, .f32⟩ : BufTy).Contents (Elt F)),
    binary main_v24 main_v26 main_v27 (addf : (⟨S12288x128, .f32⟩ : BufTy).Contents (Elt F) → (⟨S12288x128, .f32⟩ : BufTy).Contents (Elt F) → (⟨S12288x128, .f32⟩ : BufTy).Contents (Elt F)) ]

/-- The buffers `piece0` writes, one per operation. -/
abbrev piece0_W : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27]

/-- The call `fn_norm.body (.of main_v27) main_call0` (window 0; operations 34 … 38): its body on the call's buffers. -/
abbrev piece1 : List (HloOp τ sig (Elt F)) :=
  [ TRef.binary (.of main_v27 : TRef sig ⟨S12288x128, .f32⟩) (.of main_v27 : TRef sig ⟨S12288x128, .f32⟩) main_call0.v0 mulf,
    TRef.nullary main_call0.cst (constant S_ .f32 0x00000000#32),
    TRef.binary main_call0.v0 main_call0.cst main_call0.v1 (fun x v => Host.reduceAdd x v reducesTo_S12288x128_S12288_d1 h_S_),
    TRef.unary main_call0.v1 main_call0.v2 (broadcastInDim S12288x1 ![0] bcast_S12288_S12288x1_0),
    TRef.unary main_call0.v2 main_call0.v3 Host.sqrt ]

/-- The buffers `piece1` writes, one per operation. -/
abbrev piece1_W : List (Ref sig .tc) :=
  [main_call0.v0.ref, main_call0.cst.ref, main_call0.v1.ref, main_call0.v2.ref, main_call0.v3.ref]

/-- A run of @main's own operations (window 0; operations 39 … 63). -/
abbrev piece2 : List (HloOp τ sig (Elt F)) :=
  [ nullary main_cst_4 (constant S_ .f32 0x2B8CBCCC#32),
    unary main_cst_4 main_v29 (broadcastInDim S12288x1 ![] bcast_S_S12288x1 : (⟨S_, .f32⟩ : BufTy).Contents (Elt F) → (⟨S12288x1, .f32⟩ : BufTy).Contents (Elt F)),
    binary main_v28 main_v29 main_v30 (maximumf : (⟨S12288x1, .f32⟩ : BufTy).Contents (Elt F) → (⟨S12288x1, .f32⟩ : BufTy).Contents (Elt F) → (⟨S12288x1, .f32⟩ : BufTy).Contents (Elt F)),
    unary main_v30 main_v31 (broadcastInDim S12288x128 ![0, 1] bcast_S12288x1_S12288x128_0_1 : (⟨S12288x1, .f32⟩ : BufTy).Contents (Elt F) → (⟨S12288x128, .f32⟩ : BufTy).Contents (Elt F)),
    binary main_v27 main_v31 main_v32 (Host.divf : (⟨S12288x128, .f32⟩ : BufTy).Contents (Elt F) → (⟨S12288x128, .f32⟩ : BufTy).Contents (Elt F) → (⟨S12288x128, .f32⟩ : BufTy).Contents (Elt F)),
    nullary main_c_5 (constantI S_ 32 0#32),
    unary main_c_5 main_v33 (broadcastInDim S196608 ![] bcast_S_S196608 : (⟨S_, .i32⟩ : BufTy).Contents (Elt F) → (⟨S196608, .i32⟩ : BufTy).Contents (Elt F)),
    binary main_v1 main_v33 main_v34 (cmpi .slt : (⟨S196608, .i32⟩ : BufTy).Contents (Elt F) → (⟨S196608, .i32⟩ : BufTy).Contents (Elt F) → (⟨S196608, .i1⟩ : BufTy).Contents (Elt F)),
    nullary main_c_6 (constantI S_ 32 12288#32),
    unary main_c_6 main_v35 (broadcastInDim S196608 ![] bcast_S_S196608 : (⟨S_, .i32⟩ : BufTy).Contents (Elt F) → (⟨S196608, .i32⟩ : BufTy).Contents (Elt F)),
    binary main_v1 main_v35 main_v36 (addi : (⟨S196608, .i32⟩ : BufTy).Contents (Elt F) → (⟨S196608, .i32⟩ : BufTy).Contents (Elt F) → (⟨S196608, .i32⟩ : BufTy).Contents (Elt F)),
    ternary main_v34 main_v36 main_v1 main_v37 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v37 main_v38 (broadcastInDim S196608x1 ![0] bcast_S196608_S196608x1_0 : (⟨S196608, .i32⟩ : BufTy).Contents (Elt F) → (⟨S196608x1, .i32⟩ : BufTy).Contents (Elt F)),
    binary main_arg0 main_v38 main_v39 ((fun x i => Host.gather gather_S12288x128_S196608x1_S196608x128_1_0_n_n_0_1_1128 x i) : (⟨S12288x128, .f32⟩ : BufTy).Contents (Elt F) → (⟨S196608x1, .i32⟩ : BufTy).Contents (Elt F) → (⟨S196608x128, .f32⟩ : BufTy).Contents (Elt F)),
    nullary main_cst_7 (constant S_ .f32 0x00000000#32),
    unary main_cst_7 main_v40 (broadcastInDim S12288x128 ![] bcast_S_S12288x128 : (⟨S_, .f32⟩ : BufTy).Contents (Elt F) → (⟨S12288x128, .f32⟩ : BufTy).Contents (Elt F)),
    unary main_v3 main_v41 (broadcastInDim S196608x1 ![0] bcast_S196608_S196608x1_0 : (⟨S196608, .i32⟩ : BufTy).Contents (Elt F) → (⟨S196608x1, .i32⟩ : BufTy).Contents (Elt F)),
    ternary main_v40 main_v41 main_v39 main_v42 ((fun x i u => Host.scatterAdd scatter_S12288x128_S196608x1_S196608x128_1_0_0_1 x i u) : (⟨S12288x128, .f32⟩ : BufTy).Contents (Elt F) → (⟨S196608x1, .i32⟩ : BufTy).Contents (Elt F) → (⟨S196608x128, .f32⟩ : BufTy).Contents (Elt F) → (⟨S12288x128, .f32⟩ : BufTy).Contents (Elt F)),
    nullary main_cst_8 (constant S_ .f32 0x3F800000#32),
    unary main_cst_8 main_v43 (broadcastInDim S196608 ![] bcast_S_S196608 : (⟨S_, .f32⟩ : BufTy).Contents (Elt F) → (⟨S196608, .f32⟩ : BufTy).Contents (Elt F)),
    nullary main_cst_9 (constant S_ .f32 0x00000000#32),
    unary main_cst_9 main_v44 (broadcastInDim S12288 ![] bcast_S_S12288 : (⟨S_, .f32⟩ : BufTy).Contents (Elt F) → (⟨S12288, .f32⟩ : BufTy).Contents (Elt F)),
    unary main_v3 main_v45 (broadcastInDim S196608x1 ![0] bcast_S196608_S196608x1_0 : (⟨S196608, .i32⟩ : BufTy).Contents (Elt F) → (⟨S196608x1, .i32⟩ : BufTy).Contents (Elt F)),
    ternary main_v44 main_v45 main_v43 main_v46 ((fun x i u => Host.scatterAdd scatter_S12288_S196608x1_S196608_n_0_0_1 x i u) : (⟨S12288, .f32⟩ : BufTy).Contents (Elt F) → (⟨S196608x1, .i32⟩ : BufTy).Contents (Elt F) → (⟨S196608, .f32⟩ : BufTy).Contents (Elt F) → (⟨S12288, .f32⟩ : BufTy).Contents (Elt F)),
    nullary main_cst_10 (constant S_ .f32 0x3F800000#32) ]

/-- The buffers `piece2` writes, one per operation. -/
abbrev piece2_W : List (Ref sig .tc) :=
  [main_cst_4, main_v29, main_v30, main_v31, main_v32, main_c_5, main_v33, main_v34, main_c_6, main_v35, main_v36, main_v37, main_v38, main_v39, main_cst_7, main_v40, main_v41, main_v42, main_cst_8, main_v43, main_cst_9, main_v44, main_v45, main_v46, main_cst_10]

/-- A run of @main's own operations (window 1; operations 64 … 73). -/
abbrev piece3 : List (HloOp τ sig (Elt F)) :=
  [ unary main_cst_10 main_v47 (broadcastInDim S12288 ![] bcast_S_S12288 : (⟨S_, .f32⟩ : BufTy).Contents (Elt F) → (⟨S12288, .f32⟩ : BufTy).Contents (Elt F)),
    binary main_v46 main_v47 main_v48 (maximumf : (⟨S12288, .f32⟩ : BufTy).Contents (Elt F) → (⟨S12288, .f32⟩ : BufTy).Contents (Elt F) → (⟨S12288, .f32⟩ : BufTy).Contents (Elt F)),
    unary main_v48 main_v49 (broadcastInDim S12288x1 ![0] bcast_S12288_S12288x1_0 : (⟨S12288, .f32⟩ : BufTy).Contents (Elt F) → (⟨S12288x1, .f32⟩ : BufTy).Contents (Elt F)),
    unary main_v49 main_v50 (broadcastInDim S12288x128 ![0, 1] bcast_S12288x1_S12288x128_0_1 : (⟨S12288x1, .f32⟩ : BufTy).Contents (Elt F) → (⟨S12288x128, .f32⟩ : BufTy).Contents (Elt F)),
    binary main_v42 main_v50 main_v51 (Host.divf : (⟨S12288x128, .f32⟩ : BufTy).Contents (Elt F) → (⟨S12288x128, .f32⟩ : BufTy).Contents (Elt F) → (⟨S12288x128, .f32⟩ : BufTy).Contents (Elt F)),
    binary main_arg0 main_v51 main_v52 ((fun a b => concatenate S12288x256 1 [⟨S12288x128, a⟩, ⟨S12288x128, b⟩] concatenates_S12288x128_S12288x128_S12288x256_d1) : (⟨S12288x128, .f32⟩ : BufTy).Contents (Elt F) → (⟨S12288x128, .f32⟩ : BufTy).Contents (Elt F) → (⟨S12288x256, .f32⟩ : BufTy).Contents (Elt F)),
    binary main_v52 main_arg5 main_v53 ((fun l r => Host.dotGeneral dot_S12288x256_S256x256_S12288x256_1_0_0_1_n_n none l r) : (⟨S12288x256, .f32⟩ : BufTy).Contents (Elt F) → (⟨S256x256, .f32⟩ : BufTy).Contents (Elt F) → (⟨S12288x256, .f32⟩ : BufTy).Contents (Elt F)),
    unary main_arg6 main_v54 (broadcastInDim S1x256 ![1] bcast_S256_S1x256_1 : (⟨S256, .f32⟩ : BufTy).Contents (Elt F) → (⟨S1x256, .f32⟩ : BufTy).Contents (Elt F)),
    unary main_v54 main_v55 (broadcastInDim S12288x256 ![0, 1] bcast_S1x256_S12288x256_0_1 : (⟨S1x256, .f32⟩ : BufTy).Contents (Elt F) → (⟨S12288x256, .f32⟩ : BufTy).Contents (Elt F)),
    binary main_v53 main_v55 main_v56 (addf : (⟨S12288x256, .f32⟩ : BufTy).Contents (Elt F) → (⟨S12288x256, .f32⟩ : BufTy).Contents (Elt F) → (⟨S12288x256, .f32⟩ : BufTy).Contents (Elt F)) ]

/-- The buffers `piece3` writes, one per operation. -/
abbrev piece3_W : List (Ref sig .tc) :=
  [main_v47, main_v48, main_v49, main_v50, main_v51, main_v52, main_v53, main_v54, main_v55, main_v56]

/-- The call `fn_norm_0.body (.of main_v56) main_call1` (window 1; operations 74 … 78): its body on the call's buffers. -/
abbrev piece4 : List (HloOp τ sig (Elt F)) :=
  [ TRef.binary (.of main_v56 : TRef sig ⟨S12288x256, .f32⟩) (.of main_v56 : TRef sig ⟨S12288x256, .f32⟩) main_call1.v0 mulf,
    TRef.nullary main_call1.cst (constant S_ .f32 0x00000000#32),
    TRef.binary main_call1.v0 main_call1.cst main_call1.v1 (fun x v => Host.reduceAdd x v reducesTo_S12288x256_S12288_d1 h_S_),
    TRef.unary main_call1.v1 main_call1.v2 (broadcastInDim S12288x1 ![0] bcast_S12288_S12288x1_0),
    TRef.unary main_call1.v2 main_call1.v3 Host.sqrt ]

/-- The buffers `piece4` writes, one per operation. -/
abbrev piece4_W : List (Ref sig .tc) :=
  [main_call1.v0.ref, main_call1.cst.ref, main_call1.v1.ref, main_call1.v2.ref, main_call1.v3.ref]

/-- A run of @main's own operations (window 1; operations 79 … 85). -/
abbrev piece5 : List (HloOp τ sig (Elt F)) :=
  [ nullary main_cst_11 (constant S_ .f32 0x2B8CBCCC#32),
    unary main_cst_11 main_v58 (broadcastInDim S12288x1 ![] bcast_S_S12288x1 : (⟨S_, .f32⟩ : BufTy).Contents (Elt F) → (⟨S12288x1, .f32⟩ : BufTy).Contents (Elt F)),
    binary main_v57 main_v58 main_v59 (maximumf : (⟨S12288x1, .f32⟩ : BufTy).Contents (Elt F) → (⟨S12288x1, .f32⟩ : BufTy).Contents (Elt F) → (⟨S12288x1, .f32⟩ : BufTy).Contents (Elt F)),
    unary main_v59 main_v60 (broadcastInDim S12288x256 ![0, 1] bcast_S12288x1_S12288x256_0_1 : (⟨S12288x1, .f32⟩ : BufTy).Contents (Elt F) → (⟨S12288x256, .f32⟩ : BufTy).Contents (Elt F)),
    binary main_v56 main_v60 main_v61 (Host.divf : (⟨S12288x256, .f32⟩ : BufTy).Contents (Elt F) → (⟨S12288x256, .f32⟩ : BufTy).Contents (Elt F) → (⟨S12288x256, .f32⟩ : BufTy).Contents (Elt F)),
    nullary main_v62 (iotaInDim S256 32 0),
    nullary main_c_12 (constantI S_ 32 32#32) ]

/-- The buffers `piece5` writes, one per operation. -/
abbrev piece5_W : List (Ref sig .tc) :=
  [main_cst_11, main_v58, main_v59, main_v60, main_v61, main_v62, main_c_12]

/-- The call `fn_floor_divide.body (.of main_v62) (.of main_c_12) main_call2` (window 1; operations 86 … 102): its body on the call's buffers. -/
abbrev piece6 : List (HloOp τ sig (Elt F)) :=
  [ TRef.unary (.of main_c_12 : TRef sig ⟨S_, .i32⟩) main_call2.v0 id,
    TRef.unary main_call2.v0 main_call2.v1 (broadcastInDim S256 ![] bcast_S_S256),
    TRef.binary (.of main_v62 : TRef sig ⟨S256, .i32⟩) main_call2.v1 main_call2.v2 Host.divsi,
    TRef.unary (.of main_v62 : TRef sig ⟨S256, .i32⟩) main_call2.v3 signi,
    TRef.unary main_call2.v0 main_call2.v4 signi,
    TRef.unary main_call2.v4 main_call2.v5 (broadcastInDim S256 ![] bcast_S_S256),
    TRef.binary main_call2.v3 main_call2.v5 main_call2.v6 (cmpi .ne),
    TRef.unary main_call2.v0 main_call2.v7 (broadcastInDim S256 ![] bcast_S_S256),
    TRef.binary (.of main_v62 : TRef sig ⟨S256, .i32⟩) main_call2.v7 main_call2.v8 Host.remsi,
    TRef.nullary main_call2.c (constantI S_ 32 0#32),
    TRef.unary main_call2.c main_call2.v9 (broadcastInDim S256 ![] bcast_S_S256),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S256 ![] bcast_S_S256),
    TRef.binary main_call2.v2 main_call2.v12 main_call2.v13 subi,
    TRef.ternary main_call2.v11 main_call2.v13 main_call2.v2 main_call2.call0.v0 select ]

/-- The buffers `piece6` writes, one per operation. -/
abbrev piece6_W : List (Ref sig .tc) :=
  [main_call2.v0.ref, main_call2.v1.ref, main_call2.v2.ref, main_call2.v3.ref, main_call2.v4.ref, main_call2.v5.ref, main_call2.v6.ref, main_call2.v7.ref, main_call2.v8.ref, main_call2.c.ref, main_call2.v9.ref, main_call2.v10.ref, main_call2.v11.ref, main_call2.c_0.ref, main_call2.v12.ref, main_call2.v13.ref, main_call2.call0.v0.ref]

/-- A run of @main's own operations (window 1; operations 103 … 132). -/
abbrev piece7 : List (HloOp τ sig (Elt F)) :=
  [ unary main_arg2 main_v64 (broadcastInDim S12288x1 ![0] bcast_S12288_S12288x1_0 : (⟨S12288, .i32⟩ : BufTy).Contents (Elt F) → (⟨S12288x1, .i32⟩ : BufTy).Contents (Elt F)),
    unary main_v63 main_v65 (broadcastInDim S1x256 ![1] bcast_S256_S1x256_1 : (⟨S256, .i32⟩ : BufTy).Contents (Elt F) → (⟨S1x256, .i32⟩ : BufTy).Contents (Elt F)),
    unary main_v64 main_v66 (broadcastInDim S12288x256 ![0, 1] bcast_S12288x1_S12288x256_0_1 : (⟨S12288x1, .i32⟩ : BufTy).Contents (Elt F) → (⟨S12288x256, .i32⟩ : BufTy).Contents (Elt F)),
    unary main_v65 main_v67 (broadcastInDim S12288x256 ![0, 1] bcast_S1x256_S12288x256_0_1 : (⟨S1x256, .i32⟩ : BufTy).Contents (Elt F) → (⟨S12288x256, .i32⟩ : BufTy).Contents (Elt F)),
    binary main_v66 main_v67 main_v68 (cmpi .eq : (⟨S12288x256, .i32⟩ : BufTy).Contents (Elt F) → (⟨S12288x256, .i32⟩ : BufTy).Contents (Elt F) → (⟨S12288x256, .i1⟩ : BufTy).Contents (Elt F)),
    unary main_v68 main_v69 (uitofp .f32 : (⟨S12288x256, .i1⟩ : BufTy).Contents (Elt F) → (⟨S12288x256, .f32⟩ : BufTy).Contents (Elt F)),
    binary main_v61 main_v69 main_v70 (mulf : (⟨S12288x256, .f32⟩ : BufTy).Contents (Elt F) → (⟨S12288x256, .f32⟩ : BufTy).Contents (Elt F) → (⟨S12288x256, .f32⟩ : BufTy).Contents (Elt F)),
    nullary main_cst_13 (constant S_ .f32 0xFF800000#32),
    binary main_v70 main_cst_13 main_v71 ((fun x v => Host.reduce FloatOps.maximumf x v reducesTo_S12288x256_S12288_d1 h_S_) : (⟨S12288x256, .f32⟩ : BufTy).Contents (Elt F) → (⟨S_, .f32⟩ : BufTy).Contents (Elt F) → (⟨S12288, .f32⟩ : BufTy).Contents (Elt F)),
    nullary main_cst_14 (constant S_ .f32 0xFF800000#32),
    unary main_cst_14 main_v72 (broadcastInDim S12288 ![] bcast_S_S12288 : (⟨S_, .f32⟩ : BufTy).Contents (Elt F) → (⟨S12288, .f32⟩ : BufTy).Contents (Elt F)),
    binary main_v72 main_v71 main_v73 (maximumf : (⟨S12288, .f32⟩ : BufTy).Contents (Elt F) → (⟨S12288, .f32⟩ : BufTy).Contents (Elt F) → (⟨S12288, .f32⟩ : BufTy).Contents (Elt F)),
    unary main_v73 main_v74 (broadcastInDim S12288x1 ![0] bcast_S12288_S12288x1_0 : (⟨S12288, .f32⟩ : BufTy).Contents (Elt F) → (⟨S12288x1, .f32⟩ : BufTy).Contents (Elt F)),
    unary main_v74 main_v75 (broadcastInDim S12288x256 ![0, 1] bcast_S12288x1_S12288x256_0_1 : (⟨S12288x1, .f32⟩ : BufTy).Contents (Elt F) → (⟨S12288x256, .f32⟩ : BufTy).Contents (Elt F)),
    binary main_v70 main_v75 main_v76 (subf : (⟨S12288x256, .f32⟩ : BufTy).Contents (Elt F) → (⟨S12288x256, .f32⟩ : BufTy).Contents (Elt F) → (⟨S12288x256, .f32⟩ : BufTy).Contents (Elt F)),
    unary main_v76 main_v77 (Host.exp : (⟨S12288x256, .f32⟩ : BufTy).Contents (Elt F) → (⟨S12288x256, .f32⟩ : BufTy).Contents (Elt F)),
    nullary main_cst_15 (constant S_ .f32 0x00000000#32),
    binary main_v77 main_cst_15 main_v78 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v78 main_v79 (broadcastInDim S12288x1 ![0] bcast_S12288_S12288x1_0 : (⟨S12288, .f32⟩ : BufTy).Contents (Elt F) → (⟨S12288x1, .f32⟩ : BufTy).Contents (Elt F)),
    unary main_v79 main_v80 (broadcastInDim S12288x256 ![0, 1] bcast_S12288x1_S12288x256_0_1 : (⟨S12288x1, .f32⟩ : BufTy).Contents (Elt F) → (⟨S12288x256, .f32⟩ : BufTy).Contents (Elt F)),
    binary main_v77 main_v80 main_v81 (Host.divf : (⟨S12288x256, .f32⟩ : BufTy).Contents (Elt F) → (⟨S12288x256, .f32⟩ : BufTy).Contents (Elt F) → (⟨S12288x256, .f32⟩ : BufTy).Contents (Elt F)),
    binary main_v81 main_v69 main_v82 (mulf : (⟨S12288x256, .f32⟩ : BufTy).Contents (Elt F) → (⟨S12288x256, .f32⟩ : BufTy).Contents (Elt F) → (⟨S12288x256, .f32⟩ : BufTy).Contents (Elt F)),
    nullary main_cst_16 (constant S_ .f32 0x00000000#32),
    binary main_v82 main_cst_16 main_v83 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v83 main_v84 (broadcastInDim S12288x1 ![0] bcast_S12288_S12288x1_0 : (⟨S12288, .f32⟩ : BufTy).Contents (Elt F) → (⟨S12288x1, .f32⟩ : BufTy).Contents (Elt F)),
    nullary main_cst_17 (constant S_ .f32 0x29E12E13#32),
    unary main_cst_17 main_v85 (broadcastInDim S12288x1 ![] bcast_S_S12288x1 : (⟨S_, .f32⟩ : BufTy).Contents (Elt F) → (⟨S12288x1, .f32⟩ : BufTy).Contents (Elt F)),
    binary main_v84 main_v85 main_v86 (addf : (⟨S12288x1, .f32⟩ : BufTy).Contents (Elt F) → (⟨S12288x1, .f32⟩ : BufTy).Contents (Elt F) → (⟨S12288x1, .f32⟩ : BufTy).Contents (Elt F)),
    unary main_v86 main_v87 (broadcastInDim S12288x256 ![0, 1] bcast_S12288x1_S12288x256_0_1 : (⟨S12288x1, .f32⟩ : BufTy).Contents (Elt F) → (⟨S12288x256, .f32⟩ : BufTy).Contents (Elt F)),
    binary main_v82 main_v87 main_v88 (Host.divf : (⟨S12288x256, .f32⟩ : BufTy).Contents (Elt F) → (⟨S12288x256, .f32⟩ : BufTy).Contents (Elt F) → (⟨S12288x256, .f32⟩ : BufTy).Contents (Elt F)) ]

/-- The buffers `piece7` writes, one per operation. -/
abbrev piece7_W : List (Ref sig .tc) :=
  [main_v64, main_v65, main_v66, main_v67, main_v68, main_v69, main_v70, main_cst_13, main_v71, main_cst_14, main_v72, main_v73, main_v74, main_v75, main_v76, main_v77, main_cst_15, main_v78, main_v79, main_v80, main_v81, main_v82, main_cst_16, main_v83, main_v84, main_cst_17, main_v85, main_v86, main_v87, main_v88]

/-- A run of @main's own operations (window 1; operations 133 … 143). -/
abbrev piece8 : List (HloOp τ sig (Elt F)) :=
  [ unary main_v88 main_v89 ((transpose S256x12288 [1, 0] · transposes_S12288x256_S256x12288_1_0) : (⟨S12288x256, .f32⟩ : BufTy).Contents (Elt F) → (⟨S256x12288, .f32⟩ : BufTy).Contents (Elt F)),
    binary main_v89 main_v32 main_v90 ((fun l r => Host.dotGeneral dot_S256x12288_S12288x128_S256x128_1_0_0_1_n_n none l r) : (⟨S256x12288, .f32⟩ : BufTy).Contents (Elt F) → (⟨S12288x128, .f32⟩ : BufTy).Contents (Elt F) → (⟨S256x128, .f32⟩ : BufTy).Contents (Elt F)),
    nullary main_c_18 (constantI S_ 32 0#32),
    unary main_c_18 main_v91 (broadcastInDim S196608 ![] bcast_S_S196608 : (⟨S_, .i32⟩ : BufTy).Contents (Elt F) → (⟨S196608, .i32⟩ : BufTy).Contents (Elt F)),
    binary main_v3 main_v91 main_v92 (cmpi .slt : (⟨S196608, .i32⟩ : BufTy).Contents (Elt F) → (⟨S196608, .i32⟩ : BufTy).Contents (Elt F) → (⟨S196608, .i1⟩ : BufTy).Contents (Elt F)),
    nullary main_c_19 (constantI S_ 32 12288#32),
    unary main_c_19 main_v93 (broadcastInDim S196608 ![] bcast_S_S196608 : (⟨S_, .i32⟩ : BufTy).Contents (Elt F) → (⟨S196608, .i32⟩ : BufTy).Contents (Elt F)),
    binary main_v3 main_v93 main_v94 (addi : (⟨S196608, .i32⟩ : BufTy).Contents (Elt F) → (⟨S196608, .i32⟩ : BufTy).Contents (Elt F) → (⟨S196608, .i32⟩ : BufTy).Contents (Elt F)),
    ternary main_v92 main_v94 main_v3 main_v95 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v95 main_v96 (broadcastInDim S196608x1 ![0] bcast_S196608_S196608x1_0 : (⟨S196608, .i32⟩ : BufTy).Contents (Elt F) → (⟨S196608x1, .i32⟩ : BufTy).Contents (Elt F)),
    binary main_v88 main_v96 main_v97 ((fun x i => Host.gather gather_S12288x256_S196608x1_S196608x256_1_0_n_n_0_1_1256 x i) : (⟨S12288x256, .f32⟩ : BufTy).Contents (Elt F) → (⟨S196608x1, .i32⟩ : BufTy).Contents (Elt F) → (⟨S196608x256, .f32⟩ : BufTy).Contents (Elt F)) ]

/-- The buffers `piece8` writes, one per operation. -/
abbrev piece8_W : List (Ref sig .tc) :=
  [main_v89, main_v90, main_c_18, main_v91, main_v92, main_c_19, main_v93, main_v94, main_v95, main_v96, main_v97]

/-- A run of @main's own operations (window 2; operations 144 … 147). -/
abbrev piece9 : List (HloOp τ sig (Elt F)) :=
  [ nullary main_cst_20 (constant S_ .f32 0x00000000#32),
    unary main_cst_20 main_v98 (broadcastInDim S12288x256 ![] bcast_S_S12288x256 : (⟨S_, .f32⟩ : BufTy).Contents (Elt F) → (⟨S12288x256, .f32⟩ : BufTy).Contents (Elt F)),
    unary main_v1 main_v99 (broadcastInDim S196608x1 ![0] bcast_S196608_S196608x1_0 : (⟨S196608, .i32⟩ : BufTy).Contents (Elt F) → (⟨S196608x1, .i32⟩ : BufTy).Contents (Elt F)),
    ternary main_v98 main_v99 main_v97 main_v100 ((fun x i u => Host.scatterAdd scatter_S12288x256_S196608x1_S196608x256_1_0_0_1 x i u) : (⟨S12288x256, .f32⟩ : BufTy).Contents (Elt F) → (⟨S196608x1, .i32⟩ : BufTy).Contents (Elt F) → (⟨S196608x256, .f32⟩ : BufTy).Contents (Elt F) → (⟨S12288x256, .f32⟩ : BufTy).Contents (Elt F)) ]

/-- The buffers `piece9` writes, one per operation. -/
abbrev piece9_W : List (Ref sig .tc) :=
  [main_cst_20, main_v98, main_v99, main_v100]

/-- A run of @main's own operations (window 2; operations 148 … 171). -/
abbrev piece10 : List (HloOp τ sig (Elt F)) :=
  [ unary main_v88 main_v101 ((transpose S256x12288 [1, 0] · transposes_S12288x256_S256x12288_1_0) : (⟨S12288x256, .f32⟩ : BufTy).Contents (Elt F) → (⟨S256x12288, .f32⟩ : BufTy).Contents (Elt F)),
    binary main_v101 main_v100 main_v102 ((fun l r => Host.dotGeneral dot_S256x12288_S12288x256_S256x256_1_0_0_1_n_n none l r) : (⟨S256x12288, .f32⟩ : BufTy).Contents (Elt F) → (⟨S12288x256, .f32⟩ : BufTy).Contents (Elt F) → (⟨S256x256, .f32⟩ : BufTy).Contents (Elt F)),
    nullary main_cst_21 (constant S_ .f32 0x00000000#32),
    unary main_cst_21 main_v103 (broadcastInDim S12288x12288 ![] bcast_S_S12288x12288 : (⟨S_, .f32⟩ : BufTy).Contents (Elt F) → (⟨S12288x12288, .f32⟩ : BufTy).Contents (Elt F)),
    nullary main_c_22 (constantI S_ 32 0#32),
    unary main_c_22 main_v104 (broadcastInDim S196608 ![] bcast_S_S196608 : (⟨S_, .i32⟩ : BufTy).Contents (Elt F) → (⟨S196608, .i32⟩ : BufTy).Contents (Elt F)),
    binary main_v1 main_v104 main_v105 (cmpi .slt : (⟨S196608, .i32⟩ : BufTy).Contents (Elt F) → (⟨S196608, .i32⟩ : BufTy).Contents (Elt F) → (⟨S196608, .i1⟩ : BufTy).Contents (Elt F)),
    nullary main_c_23 (constantI S_ 32 12288#32),
    unary main_c_23 main_v106 (broadcastInDim S196608 ![] bcast_S_S196608 : (⟨S_, .i32⟩ : BufTy).Contents (Elt F) → (⟨S196608, .i32⟩ : BufTy).Contents (Elt F)),
    binary main_v1 main_v106 main_v107 (addi : (⟨S196608, .i32⟩ : BufTy).Contents (Elt F) → (⟨S196608, .i32⟩ : BufTy).Contents (Elt F) → (⟨S196608, .i32⟩ : BufTy).Contents (Elt F)),
    ternary main_v105 main_v107 main_v1 main_v108 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    nullary main_c_24 (constantI S_ 32 0#32),
    unary main_c_24 main_v109 (broadcastInDim S196608 ![] bcast_S_S196608 : (⟨S_, .i32⟩ : BufTy).Contents (Elt F) → (⟨S196608, .i32⟩ : BufTy).Contents (Elt F)),
    binary main_v3 main_v109 main_v110 (cmpi .slt : (⟨S196608, .i32⟩ : BufTy).Contents (Elt F) → (⟨S196608, .i32⟩ : BufTy).Contents (Elt F) → (⟨S196608, .i1⟩ : BufTy).Contents (Elt F)),
    nullary main_c_25 (constantI S_ 32 12288#32),
    unary main_c_25 main_v111 (broadcastInDim S196608 ![] bcast_S_S196608 : (⟨S_, .i32⟩ : BufTy).Contents (Elt F) → (⟨S196608, .i32⟩ : BufTy).Contents (Elt F)),
    binary main_v3 main_v111 main_v112 (addi : (⟨S196608, .i32⟩ : BufTy).Contents (Elt F) → (⟨S196608, .i32⟩ : BufTy).Contents (Elt F) → (⟨S196608, .i32⟩ : BufTy).Contents (Elt F)),
    ternary main_v110 main_v112 main_v3 main_v113 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v108 main_v114 (broadcastInDim S196608x1 ![0] bcast_S196608_S196608x1_0 : (⟨S196608, .i32⟩ : BufTy).Contents (Elt F) → (⟨S196608x1, .i32⟩ : BufTy).Contents (Elt F)),
    unary main_v113 main_v115 (broadcastInDim S196608x1 ![0] bcast_S196608_S196608x1_0 : (⟨S196608, .i32⟩ : BufTy).Contents (Elt F) → (⟨S196608x1, .i32⟩ : BufTy).Contents (Elt F)),
    binary main_v114 main_v115 main_v116 ((fun a b => concatenate S196608x2 1 [⟨S196608x1, a⟩, ⟨S196608x1, b⟩] concatenates_S196608x1_S196608x1_S196608x2_d1) : (⟨S196608x1, .i32⟩ : BufTy).Contents (Elt F) → (⟨S196608x1, .i32⟩ : BufTy).Contents (Elt F) → (⟨S196608x2, .i32⟩ : BufTy).Contents (Elt F)),
    nullary main_cst_26 (constant S_ .f32 0x3F800000#32),
    unary main_cst_26 main_v117 (broadcastInDim S196608 ![] bcast_S_S196608 : (⟨S_, .f32⟩ : BufTy).Contents (Elt F) → (⟨S196608, .f32⟩ : BufTy).Contents (Elt F)),
    ternary main_v103 main_v116 main_v117 main_v118 ((fun x i u => Host.scatterAdd scatter_S12288x12288_S196608x2_S196608_n_01_01_1 x i u) : (⟨S12288x12288, .f32⟩ : BufTy).Contents (Elt F) → (⟨S196608x2, .i32⟩ : BufTy).Contents (Elt F) → (⟨S196608, .f32⟩ : BufTy).Contents (Elt F) → (⟨S12288x12288, .f32⟩ : BufTy).Contents (Elt F)) ]

/-- The buffers `piece10` writes, one per operation. -/
abbrev piece10_W : List (Ref sig .tc) :=
  [main_v101, main_v102, main_cst_21, main_v103, main_c_22, main_v104, main_v105, main_c_23, main_v106, main_v107, main_v108, main_c_24, main_v109, main_v110, main_c_25, main_v111, main_v112, main_v113, main_v114, main_v115, main_v116, main_cst_26, main_v117, main_v118]

/-- A run of @main's own operations (window 2; operations 172 … 174). -/
abbrev piece11 : List (HloOp τ sig (Elt F)) :=
  [ unary main_v88 main_v119 ((transpose S256x12288 [1, 0] · transposes_S12288x256_S256x12288_1_0) : (⟨S12288x256, .f32⟩ : BufTy).Contents (Elt F) → (⟨S256x12288, .f32⟩ : BufTy).Contents (Elt F)),
    binary main_v88 main_v119 main_v120 ((fun l r => Host.dotGeneral dot_S12288x256_S256x12288_S12288x12288_1_0_0_1_n_n none l r) : (⟨S12288x256, .f32⟩ : BufTy).Contents (Elt F) → (⟨S256x12288, .f32⟩ : BufTy).Contents (Elt F) → (⟨S12288x12288, .f32⟩ : BufTy).Contents (Elt F)),
    binary main_v118 main_v120 main_v121 (subf : (⟨S12288x12288, .f32⟩ : BufTy).Contents (Elt F) → (⟨S12288x12288, .f32⟩ : BufTy).Contents (Elt F) → (⟨S12288x12288, .f32⟩ : BufTy).Contents (Elt F)) ]

/-- The buffers `piece11` writes, one per operation. -/
abbrev piece11_W : List (Ref sig .tc) :=
  [main_v119, main_v120, main_v121]

/-- The call `fn_norm_1.body (.of main_v121) main_call3` (window 2; operations 175 … 178): its body on the call's buffers. -/
abbrev piece12 : List (HloOp τ sig (Elt F)) :=
  [ TRef.binary (.of main_v121 : TRef sig ⟨S12288x12288, .f32⟩) (.of main_v121 : TRef sig ⟨S12288x12288, .f32⟩) main_call3.v0 mulf,
    TRef.nullary main_call3.cst (constant S_ .f32 0x00000000#32),
    TRef.binary main_call3.v0 main_call3.cst main_call3.v1 (fun x v => Host.reduceAdd x v reducesTo_S12288x12288_S_d0_1 h_S_),
    TRef.unary main_call3.v1 main_call3.v2 Host.sqrt ]

/-- The buffers `piece12` writes, one per operation. -/
abbrev piece12_W : List (Ref sig .tc) :=
  [main_call3.v0.ref, main_call3.cst.ref, main_call3.v1.ref, main_call3.v2.ref]

/-- A run of @main's own operations (window 2; operations 179 … 192). -/
abbrev piece13 : List (HloOp τ sig (Elt F)) :=
  [ nullary main_cst_27 (constant S_ .f32 0x4D100000#32),
    binary main_v122 main_cst_27 main_v123 (Host.divf : (⟨S_, .f32⟩ : BufTy).Contents (Elt F) → (⟨S_, .f32⟩ : BufTy).Contents (Elt F) → (⟨S_, .f32⟩ : BufTy).Contents (Elt F)),
    nullary main_cst_28 (constant S_ .f32 0x00000000#32),
    binary main_v69 main_cst_28 main_v124 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v124 main_v125 (broadcastInDim S12288x1 ![0] bcast_S12288_S12288x1_0 : (⟨S12288, .f32⟩ : BufTy).Contents (Elt F) → (⟨S12288x1, .f32⟩ : BufTy).Contents (Elt F)),
    unary main_v125 main_v126 (broadcastInDim S12288x256 ![0, 1] bcast_S12288x1_S12288x256_0_1 : (⟨S12288x1, .f32⟩ : BufTy).Contents (Elt F) → (⟨S12288x256, .f32⟩ : BufTy).Contents (Elt F)),
    binary main_v69 main_v126 main_v127 (Host.divf : (⟨S12288x256, .f32⟩ : BufTy).Contents (Elt F) → (⟨S12288x256, .f32⟩ : BufTy).Contents (Elt F) → (⟨S12288x256, .f32⟩ : BufTy).Contents (Elt F)),
    nullary main_cst_29 (constant S_ .f32 0x00000000#32),
    unary main_cst_29 main_v128 (broadcastInDim S12288x256 ![] bcast_S_S12288x256 : (⟨S_, .f32⟩ : BufTy).Contents (Elt F) → (⟨S12288x256, .f32⟩ : BufTy).Contents (Elt F)),
    binary main_v127 main_v128 main_v129 (cmpf .ogt : (⟨S12288x256, .f32⟩ : BufTy).Contents (Elt F) → (⟨S12288x256, .f32⟩ : BufTy).Contents (Elt F) → (⟨S12288x256, .i1⟩ : BufTy).Contents (Elt F)),
    nullary main_cst_30 (constant S_ .f32 0x00000000#32),
    unary main_cst_30 main_v130 (broadcastInDim S12288x256 ![] bcast_S_S12288x256 : (⟨S_, .f32⟩ : BufTy).Contents (Elt F) → (⟨S12288x256, .f32⟩ : BufTy).Contents (Elt F)),
    binary main_v127 main_v130 main_v131 (cmpf .ogt : (⟨S12288x256, .f32⟩ : BufTy).Contents (Elt F) → (⟨S12288x256, .f32⟩ : BufTy).Contents (Elt F) → (⟨S12288x256, .i1⟩ : BufTy).Contents (Elt F)),
    nullary main_cst_31 (constant S_ .f32 0x3F800000#32) ]

/-- The buffers `piece13` writes, one per operation. -/
abbrev piece13_W : List (Ref sig .tc) :=
  [main_cst_27, main_v123, main_cst_28, main_v124, main_v125, main_v126, main_v127, main_cst_29, main_v128, main_v129, main_cst_30, main_v130, main_v131, main_cst_31]

/-- The call `fn_where_2.body (.of main_v131) (.of main_v127) (.of main_cst_31) main_call4` (window 2; operations 193 … 195): its body on the call's buffers. -/
abbrev piece14 : List (HloOp τ sig (Elt F)) :=
  [ TRef.unary (.of main_cst_31 : TRef sig ⟨S_, .f32⟩) main_call4.v0 id,
    TRef.unary main_call4.v0 main_call4.v1 (broadcastInDim S12288x256 ![] bcast_S_S12288x256),
    TRef.ternary (.of main_v131 : TRef sig ⟨S12288x256, .i1⟩) (.of main_v127 : TRef sig ⟨S12288x256, .f32⟩) main_call4.v1 main_call4.v2 select ]

/-- The buffers `piece14` writes, one per operation. -/
abbrev piece14_W : List (Ref sig .tc) :=
  [main_call4.v0.ref, main_call4.v1.ref, main_call4.v2.ref]

/-- A run of @main's own operations (window 2; operations 196 … 198). -/
abbrev piece15 : List (HloOp τ sig (Elt F)) :=
  [ unary main_v132 main_v133 (Host.log : (⟨S12288x256, .f32⟩ : BufTy).Contents (Elt F) → (⟨S12288x256, .f32⟩ : BufTy).Contents (Elt F)),
    binary main_v127 main_v133 main_v134 (mulf : (⟨S12288x256, .f32⟩ : BufTy).Contents (Elt F) → (⟨S12288x256, .f32⟩ : BufTy).Contents (Elt F) → (⟨S12288x256, .f32⟩ : BufTy).Contents (Elt F)),
    nullary main_cst_32 (constant S_ .f32 0x00000000#32) ]

/-- The buffers `piece15` writes, one per operation. -/
abbrev piece15_W : List (Ref sig .tc) :=
  [main_v133, main_v134, main_cst_32]

/-- The call `fn_where_2.body (.of main_v129) (.of main_v134) (.of main_cst_32) main_call5` (window 2; operations 199 … 201): its body on the call's buffers. -/
abbrev piece16 : List (HloOp τ sig (Elt F)) :=
  [ TRef.unary (.of main_cst_32 : TRef sig ⟨S_, .f32⟩) main_call5.v0 id,
    TRef.unary main_call5.v0 main_call5.v1 (broadcastInDim S12288x256 ![] bcast_S_S12288x256),
    TRef.ternary (.of main_v129 : TRef sig ⟨S12288x256, .i1⟩) (.of main_v134 : TRef sig ⟨S12288x256, .f32⟩) main_call5.v1 main_call5.v2 select ]

/-- The buffers `piece16` writes, one per operation. -/
abbrev piece16_W : List (Ref sig .tc) :=
  [main_call5.v0.ref, main_call5.v1.ref, main_call5.v2.ref]

/-- A run of @main's own operations (window 2; operations 202 … 206). -/
abbrev piece17 : List (HloOp τ sig (Elt F)) :=
  [ nullary main_cst_33 (constant S_ .f32 0x00000000#32),
    binary main_v135 main_cst_33 main_v136 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v136 main_v137 (Host.negf : (⟨S12288, .f32⟩ : BufTy).Contents (Elt F) → (⟨S12288, .f32⟩ : BufTy).Contents (Elt F)),
    nullary main_cst_34 (constant S_ .f32 0x00000000#32),
    binary main_v137 main_cst_34 main_v138 ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) ]

/-- The buffers `piece17` writes, one per operation. -/
abbrev piece17_W : List (Ref sig .tc) :=
  [main_cst_33, main_v136, main_v137, main_cst_34, main_v138]

/-! ## The whole line -/

/-- All 207 operations of @main in program order, every call unfolded. -/
abbrev ops : List (HloOp τ sig (Elt F)) :=
  [ unary main_arg1 main_v0 ((extractStridedSlice S1x196608 ![0, 0] · slices_S2x196608_S1x196608_0_0) : (⟨S2x196608, .i32⟩ : BufTy).Contents (Elt F) → (⟨S1x196608, .i32⟩ : BufTy).Contents (Elt F)),
    reshape main_v0 main_v1 rfl shapeCasts_S1x196608_S196608,
    unary main_arg1 main_v2 ((extractStridedSlice S1x196608 ![1, 0] · slices_S2x196608_S1x196608_1_0) : (⟨S2x196608, .i32⟩ : BufTy).Contents (Elt F) → (⟨S1x196608, .i32⟩ : BufTy).Contents (Elt F)),
    reshape main_v2 main_v3 rfl shapeCasts_S1x196608_S196608,
    nullary main_c (constantI S_ 32 0#32),
    unary main_c main_v4 (broadcastInDim S196608 ![] bcast_S_S196608 : (⟨S_, .i32⟩ : BufTy).Contents (Elt F) → (⟨S196608, .i32⟩ : BufTy).Contents (Elt F)),
    binary main_v1 main_v4 main_v5 (cmpi .slt : (⟨S196608, .i32⟩ : BufTy).Contents (Elt F) → (⟨S196608, .i32⟩ : BufTy).Contents (Elt F) → (⟨S196608, .i1⟩ : BufTy).Contents (Elt F)),
    nullary main_c_0 (constantI S_ 32 12288#32),
    unary main_c_0 main_v6 (broadcastInDim S196608 ![] bcast_S_S196608 : (⟨S_, .i32⟩ : BufTy).Contents (Elt F) → (⟨S196608, .i32⟩ : BufTy).Contents (Elt F)),
    binary main_v1 main_v6 main_v7 (addi : (⟨S196608, .i32⟩ : BufTy).Contents (Elt F) → (⟨S196608, .i32⟩ : BufTy).Contents (Elt F) → (⟨S196608, .i32⟩ : BufTy).Contents (Elt F)),
    ternary main_v5 main_v7 main_v1 main_v8 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v8 main_v9 (broadcastInDim S196608x1 ![0] bcast_S196608_S196608x1_0 : (⟨S196608, .i32⟩ : BufTy).Contents (Elt F) → (⟨S196608x1, .i32⟩ : BufTy).Contents (Elt F)),
    binary main_arg0 main_v9 main_v10 ((fun x i => Host.gather gather_S12288x128_S196608x1_S196608x128_1_0_n_n_0_1_1128 x i) : (⟨S12288x128, .f32⟩ : BufTy).Contents (Elt F) → (⟨S196608x1, .i32⟩ : BufTy).Contents (Elt F) → (⟨S196608x128, .f32⟩ : BufTy).Contents (Elt F)),
    nullary main_cst (constant S_ .f32 0x00000000#32),
    unary main_cst main_v11 (broadcastInDim S12288x128 ![] bcast_S_S12288x128 : (⟨S_, .f32⟩ : BufTy).Contents (Elt F) → (⟨S12288x128, .f32⟩ : BufTy).Contents (Elt F)),
    unary main_v3 main_v12 (broadcastInDim S196608x1 ![0] bcast_S196608_S196608x1_0 : (⟨S196608, .i32⟩ : BufTy).Contents (Elt F) → (⟨S196608x1, .i32⟩ : BufTy).Contents (Elt F)),
    ternary main_v11 main_v12 main_v10 main_v13 ((fun x i u => Host.scatterAdd scatter_S12288x128_S196608x1_S196608x128_1_0_0_1 x i u) : (⟨S12288x128, .f32⟩ : BufTy).Contents (Elt F) → (⟨S196608x1, .i32⟩ : BufTy).Contents (Elt F) → (⟨S196608x128, .f32⟩ : BufTy).Contents (Elt F) → (⟨S12288x128, .f32⟩ : BufTy).Contents (Elt F)),
    nullary main_cst_1 (constant S_ .f32 0x3F800000#32),
    unary main_cst_1 main_v14 (broadcastInDim S196608 ![] bcast_S_S196608 : (⟨S_, .f32⟩ : BufTy).Contents (Elt F) → (⟨S196608, .f32⟩ : BufTy).Contents (Elt F)),
    nullary main_cst_2 (constant S_ .f32 0x00000000#32),
    unary main_cst_2 main_v15 (broadcastInDim S12288 ![] bcast_S_S12288 : (⟨S_, .f32⟩ : BufTy).Contents (Elt F) → (⟨S12288, .f32⟩ : BufTy).Contents (Elt F)),
    unary main_v3 main_v16 (broadcastInDim S196608x1 ![0] bcast_S196608_S196608x1_0 : (⟨S196608, .i32⟩ : BufTy).Contents (Elt F) → (⟨S196608x1, .i32⟩ : BufTy).Contents (Elt F)),
    ternary main_v15 main_v16 main_v14 main_v17 ((fun x i u => Host.scatterAdd scatter_S12288_S196608x1_S196608_n_0_0_1 x i u) : (⟨S12288, .f32⟩ : BufTy).Contents (Elt F) → (⟨S196608x1, .i32⟩ : BufTy).Contents (Elt F) → (⟨S196608, .f32⟩ : BufTy).Contents (Elt F) → (⟨S12288, .f32⟩ : BufTy).Contents (Elt F)),
    nullary main_cst_3 (constant S_ .f32 0x3F800000#32),
    unary main_cst_3 main_v18 (broadcastInDim S12288 ![] bcast_S_S12288 : (⟨S_, .f32⟩ : BufTy).Contents (Elt F) → (⟨S12288, .f32⟩ : BufTy).Contents (Elt F)),
    binary main_v17 main_v18 main_v19 (maximumf : (⟨S12288, .f32⟩ : BufTy).Contents (Elt F) → (⟨S12288, .f32⟩ : BufTy).Contents (Elt F) → (⟨S12288, .f32⟩ : BufTy).Contents (Elt F)),
    unary main_v19 main_v20 (broadcastInDim S12288x1 ![0] bcast_S12288_S12288x1_0 : (⟨S12288, .f32⟩ : BufTy).Contents (Elt F) → (⟨S12288x1, .f32⟩ : BufTy).Contents (Elt F)),
    unary main_v20 main_v21 (broadcastInDim S12288x128 ![0, 1] bcast_S12288x1_S12288x128_0_1 : (⟨S12288x1, .f32⟩ : BufTy).Contents (Elt F) → (⟨S12288x128, .f32⟩ : BufTy).Contents (Elt F)),
    binary main_v13 main_v21 main_v22 (Host.divf : (⟨S12288x128, .f32⟩ : BufTy).Contents (Elt F) → (⟨S12288x128, .f32⟩ : BufTy).Contents (Elt F) → (⟨S12288x128, .f32⟩ : BufTy).Contents (Elt F)),
    binary main_arg0 main_v22 main_v23 ((fun a b => concatenate S12288x256 1 [⟨S12288x128, a⟩, ⟨S12288x128, b⟩] concatenates_S12288x128_S12288x128_S12288x256_d1) : (⟨S12288x128, .f32⟩ : BufTy).Contents (Elt F) → (⟨S12288x128, .f32⟩ : BufTy).Contents (Elt F) → (⟨S12288x256, .f32⟩ : BufTy).Contents (Elt F)),
    binary main_v23 main_arg3 main_v24 ((fun l r => Host.dotGeneral dot_S12288x256_S256x128_S12288x128_1_0_0_1_n_n none l r) : (⟨S12288x256, .f32⟩ : BufTy).Contents (Elt F) → (⟨S256x128, .f32⟩ : BufTy).Contents (Elt F) → (⟨S12288x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S12288x128 ![0, 1] bcast_S1x128_S12288x128_0_1 : (⟨S1x128, .f32⟩ : BufTy).Contents (Elt F) → (⟨S12288x128, .f32⟩ : BufTy).Contents (Elt F)),
    binary main_v24 main_v26 main_v27 (addf : (⟨S12288x128, .f32⟩ : BufTy).Contents (Elt F) → (⟨S12288x128, .f32⟩ : BufTy).Contents (Elt F) → (⟨S12288x128, .f32⟩ : BufTy).Contents (Elt F)),
    TRef.binary (.of main_v27 : TRef sig ⟨S12288x128, .f32⟩) (.of main_v27 : TRef sig ⟨S12288x128, .f32⟩) main_call0.v0 mulf,
    TRef.nullary main_call0.cst (constant S_ .f32 0x00000000#32),
    TRef.binary main_call0.v0 main_call0.cst main_call0.v1 (fun x v => Host.reduceAdd x v reducesTo_S12288x128_S12288_d1 h_S_),
    TRef.unary main_call0.v1 main_call0.v2 (broadcastInDim S12288x1 ![0] bcast_S12288_S12288x1_0),
    TRef.unary main_call0.v2 main_call0.v3 Host.sqrt,
    nullary main_cst_4 (constant S_ .f32 0x2B8CBCCC#32),
    unary main_cst_4 main_v29 (broadcastInDim S12288x1 ![] bcast_S_S12288x1 : (⟨S_, .f32⟩ : BufTy).Contents (Elt F) → (⟨S12288x1, .f32⟩ : BufTy).Contents (Elt F)),
    binary main_v28 main_v29 main_v30 (maximumf : (⟨S12288x1, .f32⟩ : BufTy).Contents (Elt F) → (⟨S12288x1, .f32⟩ : BufTy).Contents (Elt F) → (⟨S12288x1, .f32⟩ : BufTy).Contents (Elt F)),
    unary main_v30 main_v31 (broadcastInDim S12288x128 ![0, 1] bcast_S12288x1_S12288x128_0_1 : (⟨S12288x1, .f32⟩ : BufTy).Contents (Elt F) → (⟨S12288x128, .f32⟩ : BufTy).Contents (Elt F)),
    binary main_v27 main_v31 main_v32 (Host.divf : (⟨S12288x128, .f32⟩ : BufTy).Contents (Elt F) → (⟨S12288x128, .f32⟩ : BufTy).Contents (Elt F) → (⟨S12288x128, .f32⟩ : BufTy).Contents (Elt F)),
    nullary main_c_5 (constantI S_ 32 0#32),
    unary main_c_5 main_v33 (broadcastInDim S196608 ![] bcast_S_S196608 : (⟨S_, .i32⟩ : BufTy).Contents (Elt F) → (⟨S196608, .i32⟩ : BufTy).Contents (Elt F)),
    binary main_v1 main_v33 main_v34 (cmpi .slt : (⟨S196608, .i32⟩ : BufTy).Contents (Elt F) → (⟨S196608, .i32⟩ : BufTy).Contents (Elt F) → (⟨S196608, .i1⟩ : BufTy).Contents (Elt F)),
    nullary main_c_6 (constantI S_ 32 12288#32),
    unary main_c_6 main_v35 (broadcastInDim S196608 ![] bcast_S_S196608 : (⟨S_, .i32⟩ : BufTy).Contents (Elt F) → (⟨S196608, .i32⟩ : BufTy).Contents (Elt F)),
    binary main_v1 main_v35 main_v36 (addi : (⟨S196608, .i32⟩ : BufTy).Contents (Elt F) → (⟨S196608, .i32⟩ : BufTy).Contents (Elt F) → (⟨S196608, .i32⟩ : BufTy).Contents (Elt F)),
    ternary main_v34 main_v36 main_v1 main_v37 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v37 main_v38 (broadcastInDim S196608x1 ![0] bcast_S196608_S196608x1_0 : (⟨S196608, .i32⟩ : BufTy).Contents (Elt F) → (⟨S196608x1, .i32⟩ : BufTy).Contents (Elt F)),
    binary main_arg0 main_v38 main_v39 ((fun x i => Host.gather gather_S12288x128_S196608x1_S196608x128_1_0_n_n_0_1_1128 x i) : (⟨S12288x128, .f32⟩ : BufTy).Contents (Elt F) → (⟨S196608x1, .i32⟩ : BufTy).Contents (Elt F) → (⟨S196608x128, .f32⟩ : BufTy).Contents (Elt F)),
    nullary main_cst_7 (constant S_ .f32 0x00000000#32),
    unary main_cst_7 main_v40 (broadcastInDim S12288x128 ![] bcast_S_S12288x128 : (⟨S_, .f32⟩ : BufTy).Contents (Elt F) → (⟨S12288x128, .f32⟩ : BufTy).Contents (Elt F)),
    unary main_v3 main_v41 (broadcastInDim S196608x1 ![0] bcast_S196608_S196608x1_0 : (⟨S196608, .i32⟩ : BufTy).Contents (Elt F) → (⟨S196608x1, .i32⟩ : BufTy).Contents (Elt F)),
    ternary main_v40 main_v41 main_v39 main_v42 ((fun x i u => Host.scatterAdd scatter_S12288x128_S196608x1_S196608x128_1_0_0_1 x i u) : (⟨S12288x128, .f32⟩ : BufTy).Contents (Elt F) → (⟨S196608x1, .i32⟩ : BufTy).Contents (Elt F) → (⟨S196608x128, .f32⟩ : BufTy).Contents (Elt F) → (⟨S12288x128, .f32⟩ : BufTy).Contents (Elt F)),
    nullary main_cst_8 (constant S_ .f32 0x3F800000#32),
    unary main_cst_8 main_v43 (broadcastInDim S196608 ![] bcast_S_S196608 : (⟨S_, .f32⟩ : BufTy).Contents (Elt F) → (⟨S196608, .f32⟩ : BufTy).Contents (Elt F)),
    nullary main_cst_9 (constant S_ .f32 0x00000000#32),
    unary main_cst_9 main_v44 (broadcastInDim S12288 ![] bcast_S_S12288 : (⟨S_, .f32⟩ : BufTy).Contents (Elt F) → (⟨S12288, .f32⟩ : BufTy).Contents (Elt F)),
    unary main_v3 main_v45 (broadcastInDim S196608x1 ![0] bcast_S196608_S196608x1_0 : (⟨S196608, .i32⟩ : BufTy).Contents (Elt F) → (⟨S196608x1, .i32⟩ : BufTy).Contents (Elt F)),
    ternary main_v44 main_v45 main_v43 main_v46 ((fun x i u => Host.scatterAdd scatter_S12288_S196608x1_S196608_n_0_0_1 x i u) : (⟨S12288, .f32⟩ : BufTy).Contents (Elt F) → (⟨S196608x1, .i32⟩ : BufTy).Contents (Elt F) → (⟨S196608, .f32⟩ : BufTy).Contents (Elt F) → (⟨S12288, .f32⟩ : BufTy).Contents (Elt F)),
    nullary main_cst_10 (constant S_ .f32 0x3F800000#32),
    unary main_cst_10 main_v47 (broadcastInDim S12288 ![] bcast_S_S12288 : (⟨S_, .f32⟩ : BufTy).Contents (Elt F) → (⟨S12288, .f32⟩ : BufTy).Contents (Elt F)),
    binary main_v46 main_v47 main_v48 (maximumf : (⟨S12288, .f32⟩ : BufTy).Contents (Elt F) → (⟨S12288, .f32⟩ : BufTy).Contents (Elt F) → (⟨S12288, .f32⟩ : BufTy).Contents (Elt F)),
    unary main_v48 main_v49 (broadcastInDim S12288x1 ![0] bcast_S12288_S12288x1_0 : (⟨S12288, .f32⟩ : BufTy).Contents (Elt F) → (⟨S12288x1, .f32⟩ : BufTy).Contents (Elt F)),
    unary main_v49 main_v50 (broadcastInDim S12288x128 ![0, 1] bcast_S12288x1_S12288x128_0_1 : (⟨S12288x1, .f32⟩ : BufTy).Contents (Elt F) → (⟨S12288x128, .f32⟩ : BufTy).Contents (Elt F)),
    binary main_v42 main_v50 main_v51 (Host.divf : (⟨S12288x128, .f32⟩ : BufTy).Contents (Elt F) → (⟨S12288x128, .f32⟩ : BufTy).Contents (Elt F) → (⟨S12288x128, .f32⟩ : BufTy).Contents (Elt F)),
    binary main_arg0 main_v51 main_v52 ((fun a b => concatenate S12288x256 1 [⟨S12288x128, a⟩, ⟨S12288x128, b⟩] concatenates_S12288x128_S12288x128_S12288x256_d1) : (⟨S12288x128, .f32⟩ : BufTy).Contents (Elt F) → (⟨S12288x128, .f32⟩ : BufTy).Contents (Elt F) → (⟨S12288x256, .f32⟩ : BufTy).Contents (Elt F)),
    binary main_v52 main_arg5 main_v53 ((fun l r => Host.dotGeneral dot_S12288x256_S256x256_S12288x256_1_0_0_1_n_n none l r) : (⟨S12288x256, .f32⟩ : BufTy).Contents (Elt F) → (⟨S256x256, .f32⟩ : BufTy).Contents (Elt F) → (⟨S12288x256, .f32⟩ : BufTy).Contents (Elt F)),
    unary main_arg6 main_v54 (broadcastInDim S1x256 ![1] bcast_S256_S1x256_1 : (⟨S256, .f32⟩ : BufTy).Contents (Elt F) → (⟨S1x256, .f32⟩ : BufTy).Contents (Elt F)),
    unary main_v54 main_v55 (broadcastInDim S12288x256 ![0, 1] bcast_S1x256_S12288x256_0_1 : (⟨S1x256, .f32⟩ : BufTy).Contents (Elt F) → (⟨S12288x256, .f32⟩ : BufTy).Contents (Elt F)),
    binary main_v53 main_v55 main_v56 (addf : (⟨S12288x256, .f32⟩ : BufTy).Contents (Elt F) → (⟨S12288x256, .f32⟩ : BufTy).Contents (Elt F) → (⟨S12288x256, .f32⟩ : BufTy).Contents (Elt F)),
    TRef.binary (.of main_v56 : TRef sig ⟨S12288x256, .f32⟩) (.of main_v56 : TRef sig ⟨S12288x256, .f32⟩) main_call1.v0 mulf,
    TRef.nullary main_call1.cst (constant S_ .f32 0x00000000#32),
    TRef.binary main_call1.v0 main_call1.cst main_call1.v1 (fun x v => Host.reduceAdd x v reducesTo_S12288x256_S12288_d1 h_S_),
    TRef.unary main_call1.v1 main_call1.v2 (broadcastInDim S12288x1 ![0] bcast_S12288_S12288x1_0),
    TRef.unary main_call1.v2 main_call1.v3 Host.sqrt,
    nullary main_cst_11 (constant S_ .f32 0x2B8CBCCC#32),
    unary main_cst_11 main_v58 (broadcastInDim S12288x1 ![] bcast_S_S12288x1 : (⟨S_, .f32⟩ : BufTy).Contents (Elt F) → (⟨S12288x1, .f32⟩ : BufTy).Contents (Elt F)),
    binary main_v57 main_v58 main_v59 (maximumf : (⟨S12288x1, .f32⟩ : BufTy).Contents (Elt F) → (⟨S12288x1, .f32⟩ : BufTy).Contents (Elt F) → (⟨S12288x1, .f32⟩ : BufTy).Contents (Elt F)),
    unary main_v59 main_v60 (broadcastInDim S12288x256 ![0, 1] bcast_S12288x1_S12288x256_0_1 : (⟨S12288x1, .f32⟩ : BufTy).Contents (Elt F) → (⟨S12288x256, .f32⟩ : BufTy).Contents (Elt F)),
    binary main_v56 main_v60 main_v61 (Host.divf : (⟨S12288x256, .f32⟩ : BufTy).Contents (Elt F) → (⟨S12288x256, .f32⟩ : BufTy).Contents (Elt F) → (⟨S12288x256, .f32⟩ : BufTy).Contents (Elt F)),
    nullary main_v62 (iotaInDim S256 32 0),
    nullary main_c_12 (constantI S_ 32 32#32),
    TRef.unary (.of main_c_12 : TRef sig ⟨S_, .i32⟩) main_call2.v0 id,
    TRef.unary main_call2.v0 main_call2.v1 (broadcastInDim S256 ![] bcast_S_S256),
    TRef.binary (.of main_v62 : TRef sig ⟨S256, .i32⟩) main_call2.v1 main_call2.v2 Host.divsi,
    TRef.unary (.of main_v62 : TRef sig ⟨S256, .i32⟩) main_call2.v3 signi,
    TRef.unary main_call2.v0 main_call2.v4 signi,
    TRef.unary main_call2.v4 main_call2.v5 (broadcastInDim S256 ![] bcast_S_S256),
    TRef.binary main_call2.v3 main_call2.v5 main_call2.v6 (cmpi .ne),
    TRef.unary main_call2.v0 main_call2.v7 (broadcastInDim S256 ![] bcast_S_S256),
    TRef.binary (.of main_v62 : TRef sig ⟨S256, .i32⟩) main_call2.v7 main_call2.v8 Host.remsi,
    TRef.nullary main_call2.c (constantI S_ 32 0#32),
    TRef.unary main_call2.c main_call2.v9 (broadcastInDim S256 ![] bcast_S_S256),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S256 ![] bcast_S_S256),
    TRef.binary main_call2.v2 main_call2.v12 main_call2.v13 subi,
    TRef.ternary main_call2.v11 main_call2.v13 main_call2.v2 main_call2.call0.v0 select,
    unary main_arg2 main_v64 (broadcastInDim S12288x1 ![0] bcast_S12288_S12288x1_0 : (⟨S12288, .i32⟩ : BufTy).Contents (Elt F) → (⟨S12288x1, .i32⟩ : BufTy).Contents (Elt F)),
    unary main_v63 main_v65 (broadcastInDim S1x256 ![1] bcast_S256_S1x256_1 : (⟨S256, .i32⟩ : BufTy).Contents (Elt F) → (⟨S1x256, .i32⟩ : BufTy).Contents (Elt F)),
    unary main_v64 main_v66 (broadcastInDim S12288x256 ![0, 1] bcast_S12288x1_S12288x256_0_1 : (⟨S12288x1, .i32⟩ : BufTy).Contents (Elt F) → (⟨S12288x256, .i32⟩ : BufTy).Contents (Elt F)),
    unary main_v65 main_v67 (broadcastInDim S12288x256 ![0, 1] bcast_S1x256_S12288x256_0_1 : (⟨S1x256, .i32⟩ : BufTy).Contents (Elt F) → (⟨S12288x256, .i32⟩ : BufTy).Contents (Elt F)),
    binary main_v66 main_v67 main_v68 (cmpi .eq : (⟨S12288x256, .i32⟩ : BufTy).Contents (Elt F) → (⟨S12288x256, .i32⟩ : BufTy).Contents (Elt F) → (⟨S12288x256, .i1⟩ : BufTy).Contents (Elt F)),
    unary main_v68 main_v69 (uitofp .f32 : (⟨S12288x256, .i1⟩ : BufTy).Contents (Elt F) → (⟨S12288x256, .f32⟩ : BufTy).Contents (Elt F)),
    binary main_v61 main_v69 main_v70 (mulf : (⟨S12288x256, .f32⟩ : BufTy).Contents (Elt F) → (⟨S12288x256, .f32⟩ : BufTy).Contents (Elt F) → (⟨S12288x256, .f32⟩ : BufTy).Contents (Elt F)),
    nullary main_cst_13 (constant S_ .f32 0xFF800000#32),
    binary main_v70 main_cst_13 main_v71 ((fun x v => Host.reduce FloatOps.maximumf x v reducesTo_S12288x256_S12288_d1 h_S_) : (⟨S12288x256, .f32⟩ : BufTy).Contents (Elt F) → (⟨S_, .f32⟩ : BufTy).Contents (Elt F) → (⟨S12288, .f32⟩ : BufTy).Contents (Elt F)),
    nullary main_cst_14 (constant S_ .f32 0xFF800000#32),
    unary main_cst_14 main_v72 (broadcastInDim S12288 ![] bcast_S_S12288 : (⟨S_, .f32⟩ : BufTy).Contents (Elt F) → (⟨S12288, .f32⟩ : BufTy).Contents (Elt F)),
    binary main_v72 main_v71 main_v73 (maximumf : (⟨S12288, .f32⟩ : BufTy).Contents (Elt F) → (⟨S12288, .f32⟩ : BufTy).Contents (Elt F) → (⟨S12288, .f32⟩ : BufTy).Contents (Elt F)),
    unary main_v73 main_v74 (broadcastInDim S12288x1 ![0] bcast_S12288_S12288x1_0 : (⟨S12288, .f32⟩ : BufTy).Contents (Elt F) → (⟨S12288x1, .f32⟩ : BufTy).Contents (Elt F)),
    unary main_v74 main_v75 (broadcastInDim S12288x256 ![0, 1] bcast_S12288x1_S12288x256_0_1 : (⟨S12288x1, .f32⟩ : BufTy).Contents (Elt F) → (⟨S12288x256, .f32⟩ : BufTy).Contents (Elt F)),
    binary main_v70 main_v75 main_v76 (subf : (⟨S12288x256, .f32⟩ : BufTy).Contents (Elt F) → (⟨S12288x256, .f32⟩ : BufTy).Contents (Elt F) → (⟨S12288x256, .f32⟩ : BufTy).Contents (Elt F)),
    unary main_v76 main_v77 (Host.exp : (⟨S12288x256, .f32⟩ : BufTy).Contents (Elt F) → (⟨S12288x256, .f32⟩ : BufTy).Contents (Elt F)),
    nullary main_cst_15 (constant S_ .f32 0x00000000#32),
    binary main_v77 main_cst_15 main_v78 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v78 main_v79 (broadcastInDim S12288x1 ![0] bcast_S12288_S12288x1_0 : (⟨S12288, .f32⟩ : BufTy).Contents (Elt F) → (⟨S12288x1, .f32⟩ : BufTy).Contents (Elt F)),
    unary main_v79 main_v80 (broadcastInDim S12288x256 ![0, 1] bcast_S12288x1_S12288x256_0_1 : (⟨S12288x1, .f32⟩ : BufTy).Contents (Elt F) → (⟨S12288x256, .f32⟩ : BufTy).Contents (Elt F)),
    binary main_v77 main_v80 main_v81 (Host.divf : (⟨S12288x256, .f32⟩ : BufTy).Contents (Elt F) → (⟨S12288x256, .f32⟩ : BufTy).Contents (Elt F) → (⟨S12288x256, .f32⟩ : BufTy).Contents (Elt F)),
    binary main_v81 main_v69 main_v82 (mulf : (⟨S12288x256, .f32⟩ : BufTy).Contents (Elt F) → (⟨S12288x256, .f32⟩ : BufTy).Contents (Elt F) → (⟨S12288x256, .f32⟩ : BufTy).Contents (Elt F)),
    nullary main_cst_16 (constant S_ .f32 0x00000000#32),
    binary main_v82 main_cst_16 main_v83 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v83 main_v84 (broadcastInDim S12288x1 ![0] bcast_S12288_S12288x1_0 : (⟨S12288, .f32⟩ : BufTy).Contents (Elt F) → (⟨S12288x1, .f32⟩ : BufTy).Contents (Elt F)),
    nullary main_cst_17 (constant S_ .f32 0x29E12E13#32),
    unary main_cst_17 main_v85 (broadcastInDim S12288x1 ![] bcast_S_S12288x1 : (⟨S_, .f32⟩ : BufTy).Contents (Elt F) → (⟨S12288x1, .f32⟩ : BufTy).Contents (Elt F)),
    binary main_v84 main_v85 main_v86 (addf : (⟨S12288x1, .f32⟩ : BufTy).Contents (Elt F) → (⟨S12288x1, .f32⟩ : BufTy).Contents (Elt F) → (⟨S12288x1, .f32⟩ : BufTy).Contents (Elt F)),
    unary main_v86 main_v87 (broadcastInDim S12288x256 ![0, 1] bcast_S12288x1_S12288x256_0_1 : (⟨S12288x1, .f32⟩ : BufTy).Contents (Elt F) → (⟨S12288x256, .f32⟩ : BufTy).Contents (Elt F)),
    binary main_v82 main_v87 main_v88 (Host.divf : (⟨S12288x256, .f32⟩ : BufTy).Contents (Elt F) → (⟨S12288x256, .f32⟩ : BufTy).Contents (Elt F) → (⟨S12288x256, .f32⟩ : BufTy).Contents (Elt F)),
    unary main_v88 main_v89 ((transpose S256x12288 [1, 0] · transposes_S12288x256_S256x12288_1_0) : (⟨S12288x256, .f32⟩ : BufTy).Contents (Elt F) → (⟨S256x12288, .f32⟩ : BufTy).Contents (Elt F)),
    binary main_v89 main_v32 main_v90 ((fun l r => Host.dotGeneral dot_S256x12288_S12288x128_S256x128_1_0_0_1_n_n none l r) : (⟨S256x12288, .f32⟩ : BufTy).Contents (Elt F) → (⟨S12288x128, .f32⟩ : BufTy).Contents (Elt F) → (⟨S256x128, .f32⟩ : BufTy).Contents (Elt F)),
    nullary main_c_18 (constantI S_ 32 0#32),
    unary main_c_18 main_v91 (broadcastInDim S196608 ![] bcast_S_S196608 : (⟨S_, .i32⟩ : BufTy).Contents (Elt F) → (⟨S196608, .i32⟩ : BufTy).Contents (Elt F)),
    binary main_v3 main_v91 main_v92 (cmpi .slt : (⟨S196608, .i32⟩ : BufTy).Contents (Elt F) → (⟨S196608, .i32⟩ : BufTy).Contents (Elt F) → (⟨S196608, .i1⟩ : BufTy).Contents (Elt F)),
    nullary main_c_19 (constantI S_ 32 12288#32),
    unary main_c_19 main_v93 (broadcastInDim S196608 ![] bcast_S_S196608 : (⟨S_, .i32⟩ : BufTy).Contents (Elt F) → (⟨S196608, .i32⟩ : BufTy).Contents (Elt F)),
    binary main_v3 main_v93 main_v94 (addi : (⟨S196608, .i32⟩ : BufTy).Contents (Elt F) → (⟨S196608, .i32⟩ : BufTy).Contents (Elt F) → (⟨S196608, .i32⟩ : BufTy).Contents (Elt F)),
    ternary main_v92 main_v94 main_v3 main_v95 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v95 main_v96 (broadcastInDim S196608x1 ![0] bcast_S196608_S196608x1_0 : (⟨S196608, .i32⟩ : BufTy).Contents (Elt F) → (⟨S196608x1, .i32⟩ : BufTy).Contents (Elt F)),
    binary main_v88 main_v96 main_v97 ((fun x i => Host.gather gather_S12288x256_S196608x1_S196608x256_1_0_n_n_0_1_1256 x i) : (⟨S12288x256, .f32⟩ : BufTy).Contents (Elt F) → (⟨S196608x1, .i32⟩ : BufTy).Contents (Elt F) → (⟨S196608x256, .f32⟩ : BufTy).Contents (Elt F)),
    nullary main_cst_20 (constant S_ .f32 0x00000000#32),
    unary main_cst_20 main_v98 (broadcastInDim S12288x256 ![] bcast_S_S12288x256 : (⟨S_, .f32⟩ : BufTy).Contents (Elt F) → (⟨S12288x256, .f32⟩ : BufTy).Contents (Elt F)),
    unary main_v1 main_v99 (broadcastInDim S196608x1 ![0] bcast_S196608_S196608x1_0 : (⟨S196608, .i32⟩ : BufTy).Contents (Elt F) → (⟨S196608x1, .i32⟩ : BufTy).Contents (Elt F)),
    ternary main_v98 main_v99 main_v97 main_v100 ((fun x i u => Host.scatterAdd scatter_S12288x256_S196608x1_S196608x256_1_0_0_1 x i u) : (⟨S12288x256, .f32⟩ : BufTy).Contents (Elt F) → (⟨S196608x1, .i32⟩ : BufTy).Contents (Elt F) → (⟨S196608x256, .f32⟩ : BufTy).Contents (Elt F) → (⟨S12288x256, .f32⟩ : BufTy).Contents (Elt F)),
    unary main_v88 main_v101 ((transpose S256x12288 [1, 0] · transposes_S12288x256_S256x12288_1_0) : (⟨S12288x256, .f32⟩ : BufTy).Contents (Elt F) → (⟨S256x12288, .f32⟩ : BufTy).Contents (Elt F)),
    binary main_v101 main_v100 main_v102 ((fun l r => Host.dotGeneral dot_S256x12288_S12288x256_S256x256_1_0_0_1_n_n none l r) : (⟨S256x12288, .f32⟩ : BufTy).Contents (Elt F) → (⟨S12288x256, .f32⟩ : BufTy).Contents (Elt F) → (⟨S256x256, .f32⟩ : BufTy).Contents (Elt F)),
    nullary main_cst_21 (constant S_ .f32 0x00000000#32),
    unary main_cst_21 main_v103 (broadcastInDim S12288x12288 ![] bcast_S_S12288x12288 : (⟨S_, .f32⟩ : BufTy).Contents (Elt F) → (⟨S12288x12288, .f32⟩ : BufTy).Contents (Elt F)),
    nullary main_c_22 (constantI S_ 32 0#32),
    unary main_c_22 main_v104 (broadcastInDim S196608 ![] bcast_S_S196608 : (⟨S_, .i32⟩ : BufTy).Contents (Elt F) → (⟨S196608, .i32⟩ : BufTy).Contents (Elt F)),
    binary main_v1 main_v104 main_v105 (cmpi .slt : (⟨S196608, .i32⟩ : BufTy).Contents (Elt F) → (⟨S196608, .i32⟩ : BufTy).Contents (Elt F) → (⟨S196608, .i1⟩ : BufTy).Contents (Elt F)),
    nullary main_c_23 (constantI S_ 32 12288#32),
    unary main_c_23 main_v106 (broadcastInDim S196608 ![] bcast_S_S196608 : (⟨S_, .i32⟩ : BufTy).Contents (Elt F) → (⟨S196608, .i32⟩ : BufTy).Contents (Elt F)),
    binary main_v1 main_v106 main_v107 (addi : (⟨S196608, .i32⟩ : BufTy).Contents (Elt F) → (⟨S196608, .i32⟩ : BufTy).Contents (Elt F) → (⟨S196608, .i32⟩ : BufTy).Contents (Elt F)),
    ternary main_v105 main_v107 main_v1 main_v108 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    nullary main_c_24 (constantI S_ 32 0#32),
    unary main_c_24 main_v109 (broadcastInDim S196608 ![] bcast_S_S196608 : (⟨S_, .i32⟩ : BufTy).Contents (Elt F) → (⟨S196608, .i32⟩ : BufTy).Contents (Elt F)),
    binary main_v3 main_v109 main_v110 (cmpi .slt : (⟨S196608, .i32⟩ : BufTy).Contents (Elt F) → (⟨S196608, .i32⟩ : BufTy).Contents (Elt F) → (⟨S196608, .i1⟩ : BufTy).Contents (Elt F)),
    nullary main_c_25 (constantI S_ 32 12288#32),
    unary main_c_25 main_v111 (broadcastInDim S196608 ![] bcast_S_S196608 : (⟨S_, .i32⟩ : BufTy).Contents (Elt F) → (⟨S196608, .i32⟩ : BufTy).Contents (Elt F)),
    binary main_v3 main_v111 main_v112 (addi : (⟨S196608, .i32⟩ : BufTy).Contents (Elt F) → (⟨S196608, .i32⟩ : BufTy).Contents (Elt F) → (⟨S196608, .i32⟩ : BufTy).Contents (Elt F)),
    ternary main_v110 main_v112 main_v3 main_v113 (select : (⟨S196608, .i1⟩ : BufTy).Contents (Elt F) → (⟨S196608, .i32⟩ : BufTy).Contents (Elt F) → (⟨S196608, .i32⟩ : BufTy).Contents (Elt F) → (⟨S196608, .i32⟩ : BufTy).Contents (Elt F)),
    unary main_v108 main_v114 (broadcastInDim S196608x1 ![0] bcast_S196608_S196608x1_0 : (⟨S196608, .i32⟩ : BufTy).Contents (Elt F) → (⟨S196608x1, .i32⟩ : BufTy).Contents (Elt F)),
    unary main_v113 main_v115 (broadcastInDim S196608x1 ![0] bcast_S196608_S196608x1_0 : (⟨S196608, .i32⟩ : BufTy).Contents (Elt F) → (⟨S196608x1, .i32⟩ : BufTy).Contents (Elt F)),
    binary main_v114 main_v115 main_v116 ((fun a b => concatenate S196608x2 1 [⟨S196608x1, a⟩, ⟨S196608x1, b⟩] concatenates_S196608x1_S196608x1_S196608x2_d1) : (⟨S196608x1, .i32⟩ : BufTy).Contents (Elt F) → (⟨S196608x1, .i32⟩ : BufTy).Contents (Elt F) → (⟨S196608x2, .i32⟩ : BufTy).Contents (Elt F)),
    nullary main_cst_26 (constant S_ .f32 0x3F800000#32),
    unary main_cst_26 main_v117 (broadcastInDim S196608 ![] bcast_S_S196608 : (⟨S_, .f32⟩ : BufTy).Contents (Elt F) → (⟨S196608, .f32⟩ : BufTy).Contents (Elt F)),
    ternary main_v103 main_v116 main_v117 main_v118 ((fun x i u => Host.scatterAdd scatter_S12288x12288_S196608x2_S196608_n_01_01_1 x i u) : (⟨S12288x12288, .f32⟩ : BufTy).Contents (Elt F) → (⟨S196608x2, .i32⟩ : BufTy).Contents (Elt F) → (⟨S196608, .f32⟩ : BufTy).Contents (Elt F) → (⟨S12288x12288, .f32⟩ : BufTy).Contents (Elt F)),
    unary main_v88 main_v119 ((transpose S256x12288 [1, 0] · transposes_S12288x256_S256x12288_1_0) : (⟨S12288x256, .f32⟩ : BufTy).Contents (Elt F) → (⟨S256x12288, .f32⟩ : BufTy).Contents (Elt F)),
    binary main_v88 main_v119 main_v120 ((fun l r => Host.dotGeneral dot_S12288x256_S256x12288_S12288x12288_1_0_0_1_n_n none l r) : (⟨S12288x256, .f32⟩ : BufTy).Contents (Elt F) → (⟨S256x12288, .f32⟩ : BufTy).Contents (Elt F) → (⟨S12288x12288, .f32⟩ : BufTy).Contents (Elt F)),
    binary main_v118 main_v120 main_v121 (subf : (⟨S12288x12288, .f32⟩ : BufTy).Contents (Elt F) → (⟨S12288x12288, .f32⟩ : BufTy).Contents (Elt F) → (⟨S12288x12288, .f32⟩ : BufTy).Contents (Elt F)),
    TRef.binary (.of main_v121 : TRef sig ⟨S12288x12288, .f32⟩) (.of main_v121 : TRef sig ⟨S12288x12288, .f32⟩) main_call3.v0 mulf,
    TRef.nullary main_call3.cst (constant S_ .f32 0x00000000#32),
    TRef.binary main_call3.v0 main_call3.cst main_call3.v1 (fun x v => Host.reduceAdd x v reducesTo_S12288x12288_S_d0_1 h_S_),
    TRef.unary main_call3.v1 main_call3.v2 Host.sqrt,
    nullary main_cst_27 (constant S_ .f32 0x4D100000#32),
    binary main_v122 main_cst_27 main_v123 (Host.divf : (⟨S_, .f32⟩ : BufTy).Contents (Elt F) → (⟨S_, .f32⟩ : BufTy).Contents (Elt F) → (⟨S_, .f32⟩ : BufTy).Contents (Elt F)),
    nullary main_cst_28 (constant S_ .f32 0x00000000#32),
    binary main_v69 main_cst_28 main_v124 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v124 main_v125 (broadcastInDim S12288x1 ![0] bcast_S12288_S12288x1_0 : (⟨S12288, .f32⟩ : BufTy).Contents (Elt F) → (⟨S12288x1, .f32⟩ : BufTy).Contents (Elt F)),
    unary main_v125 main_v126 (broadcastInDim S12288x256 ![0, 1] bcast_S12288x1_S12288x256_0_1 : (⟨S12288x1, .f32⟩ : BufTy).Contents (Elt F) → (⟨S12288x256, .f32⟩ : BufTy).Contents (Elt F)),
    binary main_v69 main_v126 main_v127 (Host.divf : (⟨S12288x256, .f32⟩ : BufTy).Contents (Elt F) → (⟨S12288x256, .f32⟩ : BufTy).Contents (Elt F) → (⟨S12288x256, .f32⟩ : BufTy).Contents (Elt F)),
    nullary main_cst_29 (constant S_ .f32 0x00000000#32),
    unary main_cst_29 main_v128 (broadcastInDim S12288x256 ![] bcast_S_S12288x256 : (⟨S_, .f32⟩ : BufTy).Contents (Elt F) → (⟨S12288x256, .f32⟩ : BufTy).Contents (Elt F)),
    binary main_v127 main_v128 main_v129 (cmpf .ogt : (⟨S12288x256, .f32⟩ : BufTy).Contents (Elt F) → (⟨S12288x256, .f32⟩ : BufTy).Contents (Elt F) → (⟨S12288x256, .i1⟩ : BufTy).Contents (Elt F)),
    nullary main_cst_30 (constant S_ .f32 0x00000000#32),
    unary main_cst_30 main_v130 (broadcastInDim S12288x256 ![] bcast_S_S12288x256 : (⟨S_, .f32⟩ : BufTy).Contents (Elt F) → (⟨S12288x256, .f32⟩ : BufTy).Contents (Elt F)),
    binary main_v127 main_v130 main_v131 (cmpf .ogt : (⟨S12288x256, .f32⟩ : BufTy).Contents (Elt F) → (⟨S12288x256, .f32⟩ : BufTy).Contents (Elt F) → (⟨S12288x256, .i1⟩ : BufTy).Contents (Elt F)),
    nullary main_cst_31 (constant S_ .f32 0x3F800000#32),
    TRef.unary (.of main_cst_31 : TRef sig ⟨S_, .f32⟩) main_call4.v0 id,
    TRef.unary main_call4.v0 main_call4.v1 (broadcastInDim S12288x256 ![] bcast_S_S12288x256),
    TRef.ternary (.of main_v131 : TRef sig ⟨S12288x256, .i1⟩) (.of main_v127 : TRef sig ⟨S12288x256, .f32⟩) main_call4.v1 main_call4.v2 select,
    unary main_v132 main_v133 (Host.log : (⟨S12288x256, .f32⟩ : BufTy).Contents (Elt F) → (⟨S12288x256, .f32⟩ : BufTy).Contents (Elt F)),
    binary main_v127 main_v133 main_v134 (mulf : (⟨S12288x256, .f32⟩ : BufTy).Contents (Elt F) → (⟨S12288x256, .f32⟩ : BufTy).Contents (Elt F) → (⟨S12288x256, .f32⟩ : BufTy).Contents (Elt F)),
    nullary main_cst_32 (constant S_ .f32 0x00000000#32),
    TRef.unary (.of main_cst_32 : TRef sig ⟨S_, .f32⟩) main_call5.v0 id,
    TRef.unary main_call5.v0 main_call5.v1 (broadcastInDim S12288x256 ![] bcast_S_S12288x256),
    TRef.ternary (.of main_v129 : TRef sig ⟨S12288x256, .i1⟩) (.of main_v134 : TRef sig ⟨S12288x256, .f32⟩) main_call5.v1 main_call5.v2 select,
    nullary main_cst_33 (constant S_ .f32 0x00000000#32),
    binary main_v135 main_cst_33 main_v136 ((fun x v => Host.reduceAdd x v reducesTo_S12288x256_S12288_d1 h_S_) : (⟨S12288x256, .f32⟩ : BufTy).Contents (Elt F) → (⟨S_, .f32⟩ : BufTy).Contents (Elt F) → (⟨S12288, .f32⟩ : BufTy).Contents (Elt F)),
    unary main_v136 main_v137 (Host.negf : (⟨S12288, .f32⟩ : BufTy).Contents (Elt F) → (⟨S12288, .f32⟩ : BufTy).Contents (Elt F)),
    nullary main_cst_34 (constant S_ .f32 0x00000000#32),
    binary main_v137 main_cst_34 main_v138 ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) ]

/-- The line is the pieces laid end to end. -/
theorem ops_pieces : (ops : List (HloOp τ sig (Elt F))) = piece0 ++ (piece1 ++ (piece2 ++ (piece3 ++ (piece4 ++ (piece5 ++ (piece6 ++ (piece7 ++ (piece8 ++ (piece9 ++ (piece10 ++ (piece11 ++ (piece12 ++ (piece13 ++ (piece14 ++ (piece15 ++ (piece16 ++ (piece17))))))))))))))))) := rfl

/-- The same, as one flattened list of lists. -/
theorem ops_flatten : (ops : List (HloOp τ sig (Elt F))) = List.flatten [piece0, piece1, piece2, piece3, piece4, piece5, piece6, piece7, piece8, piece9, piece10, piece11, piece12, piece13, piece14, piece15, piece16, piece17] := rfl

/-! ## @main is the line

Each window is the chain of its pieces (the first two windows end in their last piece, the third in the
return): unfolding the statements and the callees' bodies on one side and the lists on the other leaves the
same steps in the same order. The three windows in order are the chain of all pieces, and a chain of
sequences is the sequence of the concatenation. -/

theorem part0_eq (c : Dev nD) : main_part0 (F := F) c = (Pipeline.chainK
    [seq piece0, seq piece1] (seq piece2) : Prog (TpuEff nD τ sig (Elt F) (Pipeline.Sig Λ₀ (Fin 0) fun p => (pcfgs (F := F) p).Adm) .tc) PUnit) := by
  chain_rfl

theorem part1_eq (c : Dev nD) : main_part1 (F := F) c = (Pipeline.chainK
    [seq piece3, seq piece4, seq piece5, seq piece6, seq piece7] (seq piece8) : Prog (TpuEff nD τ sig (Elt F) (Pipeline.Sig Λ₀ (Fin 0) fun p => (pcfgs (F := F) p).Adm) .tc) PUnit) := by
  chain_rfl

theorem part2_eq (c : Dev nD) : main_part2 (F := F) c = (Pipeline.chain
    [seq piece9, seq piece10, seq piece11, seq piece12, seq piece13, seq piece14, seq piece15, seq piece16, seq piece17] : Prog (TpuEff nD τ sig (Elt F) (Pipeline.Sig Λ₀ (Fin 0) fun p => (pcfgs (F := F) p).Adm) .tc) PUnit) := by
  chain_rfl

/-- @main is the sequence of its 207 operations. -/
theorem main_eq (c : Dev nD) : main (F := F) c = seq ops := by
  show (main_part0 (F := F) c >>= fun _ => main_part1 (F := F) c >>= fun _ => main_part2 (F := F) c) = _
  rewrite [part2_eq, part1_eq, Pipeline.chainK_bind_chain, part0_eq, Pipeline.chainK_bind_chain, ops_flatten]
  exact chain_seqs [piece0, piece1, piece2, piece3, piece4, piece5, piece6, piece7, piece8, piece9, piece10, piece11, piece12, piece13, piece14, piece15, piece16, piece17]

/-! ## The run -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub .., binary_bufs_sub .., unary_bufs_sub ..,
    unary_bufs_sub .., binary_bufs_sub .., binary_bufs_sub .., nullary_bufs_sub .., binary_bufs_sub .., unary_bufs_sub .., unary_bufs_sub .., nullary_bufs_sub ..,
    unary_bufs_sub .., binary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub .., binary_bufs_sub .., unary_bufs_sub ..,
    unary_bufs_sub .., binary_bufs_sub .., binary_bufs_sub .., nullary_bufs_sub .., binary_bufs_sub .., unary_bufs_sub .., unary_bufs_sub .., nullary_bufs_sub ..,
    unary_bufs_sub .., binary_bufs_sub .., unary_bufs_sub .., binary_bufs_sub .., nullary_bufs_sub .., nullary_bufs_sub .., unary_bufs_sub .., unary_bufs_sub ..,
    binary_bufs_sub .., unary_bufs_sub .., unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub .., ternary_bufs_sub .., unary_bufs_sub ..,
    unary_bufs_sub .., unary_bufs_sub .., unary_bufs_sub .., binary_bufs_sub .., unary_bufs_sub .., binary_bufs_sub .., nullary_bufs_sub .., binary_bufs_sub ..,
    nullary_bufs_sub .., unary_bufs_sub .., binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub .., nullary_bufs_sub .., unary_bufs_sub ..,
    nullary_bufs_sub .., unary_bufs_sub .., binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub .., unary_bufs_sub .., unary_bufs_sub ..,
    binary_bufs_sub .., nullary_bufs_sub .., unary_bufs_sub .., ternary_bufs_sub .., unary_bufs_sub .., binary_bufs_sub .., binary_bufs_sub .., binary_bufs_sub ..,
    nullary_bufs_sub .., binary_bufs_sub .., unary_bufs_sub .., nullary_bufs_sub .., binary_bufs_sub .., nullary_bufs_sub .., binary_bufs_sub .., unary_bufs_sub ..,
    unary_bufs_sub .., binary_bufs_sub .., nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., binary_bufs_sub .., nullary_bufs_sub .., unary_bufs_sub ..,
    unary_bufs_sub .., ternary_bufs_sub .., nullary_bufs_sub .., binary_bufs_sub .., unary_bufs_sub .., nullary_bufs_sub .., binary_bufs_sub ..⟩

set_option maxRecDepth 8192 in
/-- Every operation determines the contents of what it writes. -/
theorem ops_fresh : ∀ op ∈ (ops : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl⟩

/-- The contents of device `c`'s buffers after @main, from launch memory `m`: the fold of the operations'
    results, in order, over the launch contents. -/
abbrev WR (m : (ℓ : Loc nD τ sig) → Buf (Elt F) ℓ) (c : Dev nD) : Valuation τ sig (Elt F) :=
  after ops (launchContents m c)

/-- From any memory with zero counters, every weakly fair execution of @main terminates, and in every final
    state each TensorCore buffer holds the fold's value. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = WR m c (Proc.devRef .tc b) :=
  run_seq scopedRefs_eq scopedSems_eq defs main (fun _ => ops) main_eq (fun _ => ops_sub) m ρ (fun _ => ops_fresh)

/-! ## What a piece leaves alone

Each operation writes exactly its result buffer, so a piece changes no buffer outside its list of written
buffers. -/

/-- One operation's written buffer is in the piece's list. -/
local macro "writes_step" : tactic =>
  `(tactic| (simp only [nullary_writes, unary_writes, binary_writes, ternary_writes, reshape_writes,
      Finset.singleton_subset_iff, List.mem_toFinset]; exact List.mem_map_of_mem (by decide)))

set_option maxRecDepth 8192 in
theorem piece0_writes : (piece0 : List (HloOp τ sig (Elt F))).Forall fun op =>
    op.writes ⊆ (piece0_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step, by writes_step, by writes_step,
    by writes_step, by writes_step⟩

theorem keep0 (r : Ref sig .tc) (h : r ∉ piece0_W) (V : Valuation τ sig (Elt F)) :
    after piece0 V (Proc.devRef .tc r) = V (Proc.devRef .tc r) :=
  after_of_writes_sub piece0 V piece0_writes h

set_option maxRecDepth 8192 in
theorem piece1_writes : (piece1 : List (HloOp τ sig (Elt F))).Forall fun op =>
    op.writes ⊆ (piece1_W.map (Proc.devRef (τ := τ) .tc)).toFinset := by
  simp only [List.Forall]
  exact ⟨by writes_step, by writes_step, by writes_step, by writes_step, by writes_step⟩

theorem keep1 (r : Ref sig .tc) (h : r ∉ piece1_W) (V : Valuation τ sig (Elt F)) :
    after piece1 V (Proc.devRef .tc r) = V (Proc.devRef .tc r) :=
  after_of_writes_sub piece1 V piece1_writes h

set_option maxRecDepth 8192 in
theorem piece2_writes : (piece2 : List (HloOp τ sig (Elt F))).Forall fun op =>
    op.writes ⊆ (piece2_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step, by writes_step, by writes_step,
    by writes_step⟩

theorem keep2 (r : Ref sig .tc) (h : r ∉ piece2_W) (V : Valuation τ sig (Elt F)) :
    after piece2 V (Proc.devRef .tc r) = V (Proc.devRef .tc r) :=
  after_of_writes_sub piece2 V piece2_writes h

set_option maxRecDepth 8192 in
theorem piece3_writes : (piece3 : List (HloOp τ sig (Elt F))).Forall fun op =>
    op.writes ⊆ (piece3_W.map (Proc.devRef (τ := τ) .tc)).toFinset := by
  simp only [List.Forall]
  exact ⟨by writes_step, by writes_step, by writes_step, by writes_step, by writes_step, by writes_step, by writes_step, by writes_step,
    by writes_step, by writes_step⟩

theorem keep3 (r : Ref sig .tc) (h : r ∉ piece3_W) (V : Valuation τ sig (Elt F)) :
    after piece3 V (Proc.devRef .tc r) = V (Proc.devRef .tc r) :=
  after_of_writes_sub piece3 V piece3_writes h

set_option maxRecDepth 8192 in
theorem piece4_writes : (piece4 : List (HloOp τ sig (Elt F))).Forall fun op =>
    op.writes ⊆ (piece4_W.map (Proc.devRef (τ := τ) .tc)).toFinset := by
  simp only [List.Forall]
  exact ⟨by writes_step, by writes_step, by writes_step, by writes_step, by writes_step⟩

theorem keep4 (r : Ref sig .tc) (h : r ∉ piece4_W) (V : Valuation τ sig (Elt F)) :
    after piece4 V (Proc.devRef .tc r) = V (Proc.devRef .tc r) :=
  after_of_writes_sub piece4 V piece4_writes h

set_option maxRecDepth 8192 in
theorem piece5_writes : (piece5 : List (HloOp τ sig (Elt F))).Forall fun op =>
    op.writes ⊆ (piece5_W.map (Proc.devRef (τ := τ) .tc)).toFinset := by
  simp only [List.Forall]
  exact ⟨by writes_step, by writes_step, by writes_step, by writes_step, by writes_step, by writes_step, by writes_step⟩

theorem keep5 (r : Ref sig .tc) (h : r ∉ piece5_W) (V : Valuation τ sig (Elt F)) :
    after piece5 V (Proc.devRef .tc r) = V (Proc.devRef .tc r) :=
  after_of_writes_sub piece5 V piece5_writes h

set_option maxRecDepth 8192 in
theorem piece6_writes : (piece6 : List (HloOp τ sig (Elt F))).Forall fun op =>
    op.writes ⊆ (piece6_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step, by writes_step, by writes_step,
    by writes_step⟩

theorem keep6 (r : Ref sig .tc) (h : r ∉ piece6_W) (V : Valuation τ sig (Elt F)) :
    after piece6 V (Proc.devRef .tc r) = V (Proc.devRef .tc r) :=
  after_of_writes_sub piece6 V piece6_writes h

set_option maxRecDepth 8192 in
theorem piece7_writes : (piece7 : List (HloOp τ sig (Elt F))).Forall fun op =>
    op.writes ⊆ (piece7_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step⟩

theorem keep7 (r : Ref sig .tc) (h : r ∉ piece7_W) (V : Valuation τ sig (Elt F)) :
    after piece7 V (Proc.devRef .tc r) = V (Proc.devRef .tc r) :=
  after_of_writes_sub piece7 V piece7_writes h

set_option maxRecDepth 8192 in
theorem piece8_writes : (piece8 : List (HloOp τ sig (Elt F))).Forall fun op =>
    op.writes ⊆ (piece8_W.map (Proc.devRef (τ := τ) .tc)).toFinset := by
  simp only [List.Forall]
  exact ⟨by writes_step, by writes_step, by writes_step, by writes_step, by writes_step, by writes_step, by writes_step, by writes_step,
    by writes_step, by writes_step, by writes_step⟩

theorem keep8 (r : Ref sig .tc) (h : r ∉ piece8_W) (V : Valuation τ sig (Elt F)) :
    after piece8 V (Proc.devRef .tc r) = V (Proc.devRef .tc r) :=
  after_of_writes_sub piece8 V piece8_writes h

set_option maxRecDepth 8192 in
theorem piece9_writes : (piece9 : List (HloOp τ sig (Elt F))).Forall fun op =>
    op.writes ⊆ (piece9_W.map (Proc.devRef (τ := τ) .tc)).toFinset := by
  simp only [List.Forall]
  exact ⟨by writes_step, by writes_step, by writes_step, by writes_step⟩

theorem keep9 (r : Ref sig .tc) (h : r ∉ piece9_W) (V : Valuation τ sig (Elt F)) :
    after piece9 V (Proc.devRef .tc r) = V (Proc.devRef .tc r) :=
  after_of_writes_sub piece9 V piece9_writes h

set_option maxRecDepth 8192 in
theorem piece10_writes : (piece10 : List (HloOp τ sig (Elt F))).Forall fun op =>
    op.writes ⊆ (piece10_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step, by writes_step, by writes_step,
    by writes_step, by writes_step, by writes_step, by writes_step, by writes_step, by writes_step, by writes_step, by writes_step⟩

theorem keep10 (r : Ref sig .tc) (h : r ∉ piece10_W) (V : Valuation τ sig (Elt F)) :
    after piece10 V (Proc.devRef .tc r) = V (Proc.devRef .tc r) :=
  after_of_writes_sub piece10 V piece10_writes h

set_option maxRecDepth 8192 in
theorem piece11_writes : (piece11 : List (HloOp τ sig (Elt F))).Forall fun op =>
    op.writes ⊆ (piece11_W.map (Proc.devRef (τ := τ) .tc)).toFinset := by
  simp only [List.Forall]
  exact ⟨by writes_step, by writes_step, by writes_step⟩

theorem keep11 (r : Ref sig .tc) (h : r ∉ piece11_W) (V : Valuation τ sig (Elt F)) :
    after piece11 V (Proc.devRef .tc r) = V (Proc.devRef .tc r) :=
  after_of_writes_sub piece11 V piece11_writes h

set_option maxRecDepth 8192 in
theorem piece12_writes : (piece12 : List (HloOp τ sig (Elt F))).Forall fun op =>
    op.writes ⊆ (piece12_W.map (Proc.devRef (τ := τ) .tc)).toFinset := by
  simp only [List.Forall]
  exact ⟨by writes_step, by writes_step, by writes_step, by writes_step⟩

theorem keep12 (r : Ref sig .tc) (h : r ∉ piece12_W) (V : Valuation τ sig (Elt F)) :
    after piece12 V (Proc.devRef .tc r) = V (Proc.devRef .tc r) :=
  after_of_writes_sub piece12 V piece12_writes h

set_option maxRecDepth 8192 in
theorem piece13_writes : (piece13 : List (HloOp τ sig (Elt F))).Forall fun op =>
    op.writes ⊆ (piece13_W.map (Proc.devRef (τ := τ) .tc)).toFinset := by
  simp only [List.Forall]
  exact ⟨by writes_step, by writes_step, by writes_step, by writes_step, by writes_step, by writes_step, by writes_step, by writes_step,
    by writes_step, by writes_step, by writes_step, by writes_step, by writes_step, by writes_step⟩

theorem keep13 (r : Ref sig .tc) (h : r ∉ piece13_W) (V : Valuation τ sig (Elt F)) :
    after piece13 V (Proc.devRef .tc r) = V (Proc.devRef .tc r) :=
  after_of_writes_sub piece13 V piece13_writes h

set_option maxRecDepth 8192 in
theorem piece14_writes : (piece14 : List (HloOp τ sig (Elt F))).Forall fun op =>
    op.writes ⊆ (piece14_W.map (Proc.devRef (τ := τ) .tc)).toFinset := by
  simp only [List.Forall]
  exact ⟨by writes_step, by writes_step, by writes_step⟩

theorem keep14 (r : Ref sig .tc) (h : r ∉ piece14_W) (V : Valuation τ sig (Elt F)) :
    after piece14 V (Proc.devRef .tc r) = V (Proc.devRef .tc r) :=
  after_of_writes_sub piece14 V piece14_writes h

set_option maxRecDepth 8192 in
theorem piece15_writes : (piece15 : List (HloOp τ sig (Elt F))).Forall fun op =>
    op.writes ⊆ (piece15_W.map (Proc.devRef (τ := τ) .tc)).toFinset := by
  simp only [List.Forall]
  exact ⟨by writes_step, by writes_step, by writes_step⟩

theorem keep15 (r : Ref sig .tc) (h : r ∉ piece15_W) (V : Valuation τ sig (Elt F)) :
    after piece15 V (Proc.devRef .tc r) = V (Proc.devRef .tc r) :=
  after_of_writes_sub piece15 V piece15_writes h

set_option maxRecDepth 8192 in
theorem piece16_writes : (piece16 : List (HloOp τ sig (Elt F))).Forall fun op =>
    op.writes ⊆ (piece16_W.map (Proc.devRef (τ := τ) .tc)).toFinset := by
  simp only [List.Forall]
  exact ⟨by writes_step, by writes_step, by writes_step⟩

theorem keep16 (r : Ref sig .tc) (h : r ∉ piece16_W) (V : Valuation τ sig (Elt F)) :
    after piece16 V (Proc.devRef .tc r) = V (Proc.devRef .tc r) :=
  after_of_writes_sub piece16 V piece16_writes h

set_option maxRecDepth 8192 in
theorem piece17_writes : (piece17 : List (HloOp τ sig (Elt F))).Forall fun op =>
    op.writes ⊆ (piece17_W.map (Proc.devRef (τ := τ) .tc)).toFinset := by
  simp only [List.Forall]
  exact ⟨by writes_step, by writes_step, by writes_step, by writes_step, by writes_step⟩

theorem keep17 (r : Ref sig .tc) (h : r ∉ piece17_W) (V : Valuation τ sig (Elt F)) :
    after piece17 V (Proc.devRef .tc r) = V (Proc.devRef .tc r) :=
  after_of_writes_sub piece17 V piece17_writes h

/-! ## The arguments are not written -/

theorem WR_arg0 (m : (ℓ : Loc nD τ sig) → Buf (Elt F) ℓ) (c : Dev nD) :
    WR m c (main_arg0 : DevRef τ sig) = m ((c.tc : Thread nD τ).loc main_arg0) := by
  show after ops (launchContents m c) _ = _
  rw [ops_pieces]
  exact (keeps_append (keep0 main_arg0 (by decide)) (keeps_append (keep1 main_arg0 (by decide)) (keeps_append (keep2 main_arg0 (by decide)) (keeps_append (keep3 main_arg0 (by decide)) (keeps_append (keep4 main_arg0 (by decide)) (keeps_append (keep5 main_arg0 (by decide)) (keeps_append (keep6 main_arg0 (by decide)) (keeps_append (keep7 main_arg0 (by decide)) (keeps_append (keep8 main_arg0 (by decide)) (keeps_append (keep9 main_arg0 (by decide)) (keeps_append (keep10 main_arg0 (by decide)) (keeps_append (keep11 main_arg0 (by decide)) (keeps_append (keep12 main_arg0 (by decide)) (keeps_append (keep13 main_arg0 (by decide)) (keeps_append (keep14 main_arg0 (by decide)) (keeps_append (keep15 main_arg0 (by decide)) (keeps_append (keep16 main_arg0 (by decide)) (keep17 main_arg0 (by decide))))))))))))))))))) (launchContents m c)

theorem WR_arg1 (m : (ℓ : Loc nD τ sig) → Buf (Elt F) ℓ) (c : Dev nD) :
    WR m c (main_arg1 : DevRef τ sig) = m ((c.tc : Thread nD τ).loc main_arg1) := by
  show after ops (launchContents m c) _ = _
  rw [ops_pieces]
  exact (keeps_append (keep0 main_arg1 (by decide)) (keeps_append (keep1 main_arg1 (by decide)) (keeps_append (keep2 main_arg1 (by decide)) (keeps_append (keep3 main_arg1 (by decide)) (keeps_append (keep4 main_arg1 (by decide)) (keeps_append (keep5 main_arg1 (by decide)) (keeps_append (keep6 main_arg1 (by decide)) (keeps_append (keep7 main_arg1 (by decide)) (keeps_append (keep8 main_arg1 (by decide)) (keeps_append (keep9 main_arg1 (by decide)) (keeps_append (keep10 main_arg1 (by decide)) (keeps_append (keep11 main_arg1 (by decide)) (keeps_append (keep12 main_arg1 (by decide)) (keeps_append (keep13 main_arg1 (by decide)) (keeps_append (keep14 main_arg1 (by decide)) (keeps_append (keep15 main_arg1 (by decide)) (keeps_append (keep16 main_arg1 (by decide)) (keep17 main_arg1 (by decide))))))))))))))))))) (launchContents m c)

theorem WR_arg2 (m : (ℓ : Loc nD τ sig) → Buf (Elt F) ℓ) (c : Dev nD) :
    WR m c (main_arg2 : DevRef τ sig) = m ((c.tc : Thread nD τ).loc main_arg2) := by
  show after ops (launchContents m c) _ = _
  rw [ops_pieces]
  exact (keeps_append (keep0 main_arg2 (by decide)) (keeps_append (keep1 main_arg2 (by decide)) (keeps_append (keep2 main_arg2 (by decide)) (keeps_append (keep3 main_arg2 (by decide)) (keeps_append (keep4 main_arg2 (by decide)) (keeps_append (keep5 main_arg2 (by decide)) (keeps_append (keep6 main_arg2 (by decide)) (keeps_append (keep7 main_arg2 (by decide)) (keeps_append (keep8 main_arg2 (by decide)) (keeps_append (keep9 main_arg2 (by decide)) (keeps_append (keep10 main_arg2 (by decide)) (keeps_append (keep11 main_arg2 (by decide)) (keeps_append (keep12 main_arg2 (by decide)) (keeps_append (keep13 main_arg2 (by decide)) (keeps_append (keep14 main_arg2 (by decide)) (keeps_append (keep15 main_arg2 (by decide)) (keeps_append (keep16 main_arg2 (by decide)) (keep17 main_arg2 (by decide))))))))))))))))))) (launchContents m c)

theorem WR_arg3 (m : (ℓ : Loc nD τ sig) → Buf (Elt F) ℓ) (c : Dev nD) :
    WR m c (main_arg3 : DevRef τ sig) = m ((c.tc : Thread nD τ).loc main_arg3) := by
  show after ops (launchContents m c) _ = _
  rw [ops_pieces]
  exact (keeps_append (keep0 main_arg3 (by decide)) (keeps_append (keep1 main_arg3 (by decide)) (keeps_append (keep2 main_arg3 (by decide)) (keeps_append (keep3 main_arg3 (by decide)) (keeps_append (keep4 main_arg3 (by decide)) (keeps_append (keep5 main_arg3 (by decide)) (keeps_append (keep6 main_arg3 (by decide)) (keeps_append (keep7 main_arg3 (by decide)) (keeps_append (keep8 main_arg3 (by decide)) (keeps_append (keep9 main_arg3 (by decide)) (keeps_append (keep10 main_arg3 (by decide)) (keeps_append (keep11 main_arg3 (by decide)) (keeps_append (keep12 main_arg3 (by decide)) (keeps_append (keep13 main_arg3 (by decide)) (keeps_append (keep14 main_arg3 (by decide)) (keeps_append (keep15 main_arg3 (by decide)) (keeps_append (keep16 main_arg3 (by decide)) (keep17 main_arg3 (by decide))))))))))))))))))) (launchContents m c)

theorem WR_arg4 (m : (ℓ : Loc nD τ sig) → Buf (Elt F) ℓ) (c : Dev nD) :
    WR m c (main_arg4 : DevRef τ sig) = m ((c.tc : Thread nD τ).loc main_arg4) := by
  show after ops (launchContents m c) _ = _
  rw [ops_pieces]
  exact (keeps_append (keep0 main_arg4 (by decide)) (keeps_append (keep1 main_arg4 (by decide)) (keeps_append (keep2 main_arg4 (by decide)) (keeps_append (keep3 main_arg4 (by decide)) (keeps_append (keep4 main_arg4 (by decide)) (keeps_append (keep5 main_arg4 (by decide)) (keeps_append (keep6 main_arg4 (by decide)) (keeps_append (keep7 main_arg4 (by decide)) (keeps_append (keep8 main_arg4 (by decide)) (keeps_append (keep9 main_arg4 (by decide)) (keeps_append (keep10 main_arg4 (by decide)) (keeps_append (keep11 main_arg4 (by decide)) (keeps_append (keep12 main_arg4 (by decide)) (keeps_append (keep13 main_arg4 (by decide)) (keeps_append (keep14 main_arg4 (by decide)) (keeps_append (keep15 main_arg4 (by decide)) (keeps_append (keep16 main_arg4 (by decide)) (keep17 main_arg4 (by decide))))))))))))))))))) (launchContents m c)

theorem WR_arg5 (m : (ℓ : Loc nD τ sig) → Buf (Elt F) ℓ) (c : Dev nD) :
    WR m c (main_arg5 : DevRef τ sig) = m ((c.tc : Thread nD τ).loc main_arg5) := by
  show after ops (launchContents m c) _ = _
  rw [ops_pieces]
  exact (keeps_append (keep0 main_arg5 (by decide)) (keeps_append (keep1 main_arg5 (by decide)) (keeps_append (keep2 main_arg5 (by decide)) (keeps_append (keep3 main_arg5 (by decide)) (keeps_append (keep4 main_arg5 (by decide)) (keeps_append (keep5 main_arg5 (by decide)) (keeps_append (keep6 main_arg5 (by decide)) (keeps_append (keep7 main_arg5 (by decide)) (keeps_append (keep8 main_arg5 (by decide)) (keeps_append (keep9 main_arg5 (by decide)) (keeps_append (keep10 main_arg5 (by decide)) (keeps_append (keep11 main_arg5 (by decide)) (keeps_append (keep12 main_arg5 (by decide)) (keeps_append (keep13 main_arg5 (by decide)) (keeps_append (keep14 main_arg5 (by decide)) (keeps_append (keep15 main_arg5 (by decide)) (keeps_append (keep16 main_arg5 (by decide)) (keep17 main_arg5 (by decide))))))))))))))))))) (launchContents m c)

theorem WR_arg6 (m : (ℓ : Loc nD τ sig) → Buf (Elt F) ℓ) (c : Dev nD) :
    WR m c (main_arg6 : DevRef τ sig) = m ((c.tc : Thread nD τ).loc main_arg6) := by
  show after ops (launchContents m c) _ = _
  rw [ops_pieces]
  exact (keeps_append (keep0 main_arg6 (by decide)) (keeps_append (keep1 main_arg6 (by decide)) (keeps_append (keep2 main_arg6 (by decide)) (keeps_append (keep3 main_arg6 (by decide)) (keeps_append (keep4 main_arg6 (by decide)) (keeps_append (keep5 main_arg6 (by decide)) (keeps_append (keep6 main_arg6 (by decide)) (keeps_append (keep7 main_arg6 (by decide)) (keeps_append (keep8 main_arg6 (by decide)) (keeps_append (keep9 main_arg6 (by decide)) (keeps_append (keep10 main_arg6 (by decide)) (keeps_append (keep11 main_arg6 (by decide)) (keeps_append (keep12 main_arg6 (by decide)) (keeps_append (keep13 main_arg6 (by decide)) (keeps_append (keep14 main_arg6 (by decide)) (keeps_append (keep15 main_arg6 (by decide)) (keeps_append (keep16 main_arg6 (by decide)) (keep17 main_arg6 (by decide))))))))))))))))))) (launchContents m c)

/-! ## The last operations of three results

Every buffer is written once, so the final contents of a result are its operation's function of the FINAL
contents of its operands. Each equation cuts the line just before the operations in question: up to the cut
the fold is some contents `W`; after the cut an operand written earlier keeps `W`'s value, and the result
is computed from `W` by the few operations that follow. -/

theorem WR_cut8 (m : (ℓ : Loc nD τ sig) → Buf (Elt F) ℓ) (c : Dev nD) :
    WR m c = after (piece8 ++ (piece9 ++ (piece10 ++ (piece11 ++ (piece12 ++ (piece13 ++ (piece14 ++ (piece15 ++ (piece16 ++ (piece17))))))))))
      (after (piece0 ++ (piece1 ++ (piece2 ++ (piece3 ++ (piece4 ++ (piece5 ++ (piece6 ++ (piece7)))))))) (launchContents m c)) := by
  show after ops _ = _
  rw [show (ops : List (HloOp τ sig (Elt F))) = (piece0 ++ (piece1 ++ (piece2 ++ (piece3 ++ (piece4 ++ (piece5 ++ (piece6 ++ (piece7))))))))
      ++ (piece8 ++ (piece9 ++ (piece10 ++ (piece11 ++ (piece12 ++ (piece13 ++ (piece14 ++ (piece15 ++ (piece16 ++ (piece17)))))))))) from rfl, after_append]

theorem WR_cut10 (m : (ℓ : Loc nD τ sig) → Buf (Elt F) ℓ) (c : Dev nD) :
    WR m c = after (piece10 ++ (piece11 ++ (piece12 ++ (piece13 ++ (piece14 ++ (piece15 ++ (piece16 ++ (piece17))))))))
      (after (piece0 ++ (piece1 ++ (piece2 ++ (piece3 ++ (piece4 ++ (piece5 ++ (piece6 ++ (piece7 ++ (piece8 ++ (piece9)))))))))) (launchContents m c)) := by
  show after ops _ = _
  rw [show (ops : List (HloOp τ sig (Elt F))) = (piece0 ++ (piece1 ++ (piece2 ++ (piece3 ++ (piece4 ++ (piece5 ++ (piece6 ++ (piece7 ++ (piece8 ++ (piece9))))))))))
      ++ (piece10 ++ (piece11 ++ (piece12 ++ (piece13 ++ (piece14 ++ (piece15 ++ (piece16 ++ (piece17)))))))) from rfl, after_append]

theorem WR_cut11 (m : (ℓ : Loc nD τ sig) → Buf (Elt F) ℓ) (c : Dev nD) :
    WR m c = after (piece11 ++ (piece12 ++ (piece13 ++ (piece14 ++ (piece15 ++ (piece16 ++ (piece17)))))))
      (after (piece0 ++ (piece1 ++ (piece2 ++ (piece3 ++ (piece4 ++ (piece5 ++ (piece6 ++ (piece7 ++ (piece8 ++ (piece9 ++ (piece10))))))))))) (launchContents m c)) := by
  show after ops _ = _
  rw [show (ops : List (HloOp τ sig (Elt F))) = (piece0 ++ (piece1 ++ (piece2 ++ (piece3 ++ (piece4 ++ (piece5 ++ (piece6 ++ (piece7 ++ (piece8 ++ (piece9 ++ (piece10)))))))))))
      ++ (piece11 ++ (piece12 ++ (piece13 ++ (piece14 ++ (piece15 ++ (piece16 ++ (piece17))))))) from rfl, after_append]

set_option maxRecDepth 8192 in
/-- The pooled features: the transposed assignment matrix times the embedded nodes. -/
theorem WR_v90 (m : (ℓ : Loc nD τ sig) → Buf (Elt F) ℓ) (c : Dev nD) :
    WR m c (main_v90 : DevRef τ sig)
      = Host.dotGeneral dot_S256x12288_S12288x128_S256x128_1_0_0_1_n_n none
          (transpose S256x12288 [1, 0] (WR m c (main_v88 : DevRef τ sig)) transposes_S12288x256_S256x12288_1_0)
          (WR m c (main_v32 : DevRef τ sig)) := by
  rw [WR_cut8]
  generalize after (piece0 ++ (piece1 ++ (piece2 ++ (piece3 ++ (piece4 ++ (piece5 ++ (piece6 ++ (piece7)))))))) (launchContents m c) = W
  have h88 : after (piece8 ++ (piece9 ++ (piece10 ++ (piece11 ++ (piece12 ++ (piece13 ++ (piece14 ++ (piece15 ++ (piece16 ++ (piece17)))))))))) W (main_v88 : DevRef τ sig) = W (main_v88 : DevRef τ sig) :=
    (keeps_append (keep8 main_v88 (by decide)) (keeps_append (keep9 main_v88 (by decide)) (keeps_append (keep10 main_v88 (by decide)) (keeps_append (keep11 main_v88 (by decide)) (keeps_append (keep12 main_v88 (by decide)) (keeps_append (keep13 main_v88 (by decide)) (keeps_append (keep14 main_v88 (by decide)) (keeps_append (keep15 main_v88 (by decide)) (keeps_append (keep16 main_v88 (by decide)) (keep17 main_v88 (by decide))))))))))) W
  have h32 : after (piece8 ++ (piece9 ++ (piece10 ++ (piece11 ++ (piece12 ++ (piece13 ++ (piece14 ++ (piece15 ++ (piece16 ++ (piece17)))))))))) W (main_v32 : DevRef τ sig) = W (main_v32 : DevRef τ sig) :=
    (keeps_append (keep8 main_v32 (by decide)) (keeps_append (keep9 main_v32 (by decide)) (keeps_append (keep10 main_v32 (by decide)) (keeps_append (keep11 main_v32 (by decide)) (keeps_append (keep12 main_v32 (by decide)) (keeps_append (keep13 main_v32 (by decide)) (keeps_append (keep14 main_v32 (by decide)) (keeps_append (keep15 main_v32 (by decide)) (keeps_append (keep16 main_v32 (by decide)) (keep17 main_v32 (by decide))))))))))) W
  have h90 : after (piece8 ++ (piece9 ++ (piece10 ++ (piece11 ++ (piece12 ++ (piece13 ++ (piece14 ++ (piece15 ++ (piece16 ++ (piece17)))))))))) W (main_v90 : DevRef τ sig)
      = Host.dotGeneral dot_S256x12288_S12288x128_S256x128_1_0_0_1_n_n none
          (transpose S256x12288 [1, 0] (W (main_v88 : DevRef τ sig)) transposes_S12288x256_S256x12288_1_0)
          (W (main_v32 : DevRef τ sig)) := by
    rw [after_append, (keeps_append (keep9 main_v90 (by decide)) (keeps_append (keep10 main_v90 (by decide)) (keeps_append (keep11 main_v90 (by decide)) (keeps_append (keep12 main_v90 (by decide)) (keeps_append (keep13 main_v90 (by decide)) (keeps_append (keep14 main_v90 (by decide)) (keeps_append (keep15 main_v90 (by decide)) (keeps_append (keep16 main_v90 (by decide)) (keep17 main_v90 (by decide)))))))))) (after piece8 W)]
    simp only [piece8]
    after_results
  rw [h88, h32, h90]

set_option maxRecDepth 8192 in
/-- The pooled adjacency: the transposed assignment matrix times the aggregated assignments. -/
theorem WR_v102 (m : (ℓ : Loc nD τ sig) → Buf (Elt F) ℓ) (c : Dev nD) :
    WR m c (main_v102 : DevRef τ sig)
      = Host.dotGeneral dot_S256x12288_S12288x256_S256x256_1_0_0_1_n_n none
          (transpose S256x12288 [1, 0] (WR m c (main_v88 : DevRef τ sig)) transposes_S12288x256_S256x12288_1_0)
          (WR m c (main_v100 : DevRef τ sig)) := by
  rw [WR_cut10]
  generalize after (piece0 ++ (piece1 ++ (piece2 ++ (piece3 ++ (piece4 ++ (piece5 ++ (piece6 ++ (piece7 ++ (piece8 ++ (piece9)))))))))) (launchContents m c) = W
  have h88 : after (piece10 ++ (piece11 ++ (piece12 ++ (piece13 ++ (piece14 ++ (piece15 ++ (piece16 ++ (piece17)))))))) W (main_v88 : DevRef τ sig) = W (main_v88 : DevRef τ sig) :=
    (keeps_append (keep10 main_v88 (by decide)) (keeps_append (keep11 main_v88 (by decide)) (keeps_append (keep12 main_v88 (by decide)) (keeps_append (keep13 main_v88 (by decide)) (keeps_append (keep14 main_v88 (by decide)) (keeps_append (keep15 main_v88 (by decide)) (keeps_append (keep16 main_v88 (by decide)) (keep17 main_v88 (by decide))))))))) W
  have h100 : after (piece10 ++ (piece11 ++ (piece12 ++ (piece13 ++ (piece14 ++ (piece15 ++ (piece16 ++ (piece17)))))))) W (main_v100 : DevRef τ sig) = W (main_v100 : DevRef τ sig) :=
    (keeps_append (keep10 main_v100 (by decide)) (keeps_append (keep11 main_v100 (by decide)) (keeps_append (keep12 main_v100 (by decide)) (keeps_append (keep13 main_v100 (by decide)) (keeps_append (keep14 main_v100 (by decide)) (keeps_append (keep15 main_v100 (by decide)) (keeps_append (keep16 main_v100 (by decide)) (keep17 main_v100 (by decide))))))))) W
  have h102 : after (piece10 ++ (piece11 ++ (piece12 ++ (piece13 ++ (piece14 ++ (piece15 ++ (piece16 ++ (piece17)))))))) W (main_v102 : DevRef τ sig)
      = Host.dotGeneral dot_S256x12288_S12288x256_S256x256_1_0_0_1_n_n none
          (transpose S256x12288 [1, 0] (W (main_v88 : DevRef τ sig)) transposes_S12288x256_S256x12288_1_0)
          (W (main_v100 : DevRef τ sig)) := by
    rw [after_append, (keeps_append (keep11 main_v102 (by decide)) (keeps_append (keep12 main_v102 (by decide)) (keeps_append (keep13 main_v102 (by decide)) (keeps_append (keep14 main_v102 (by decide)) (keeps_append (keep15 main_v102 (by decide)) (keeps_append (keep16 main_v102 (by decide)) (keep17 main_v102 (by decide)))))))) (after piece10 W)]
    simp only [piece10]
    after_results
  rw [h88, h100, h102]

/-- The dense adjacency minus the assignments' Gram matrix. -/
abbrev residual (m : (ℓ : Loc nD τ sig) → Buf (Elt F) ℓ) (c : Dev nD) : S12288x12288.Idx → Elt F .f32 :=
  subf (WR m c (main_v118 : DevRef τ sig))
    (Host.dotGeneral dot_S12288x256_S256x12288_S12288x12288_1_0_0_1_n_n none (WR m c (main_v88 : DevRef τ sig))
      (transpose S256x12288 [1, 0] (WR m c (main_v88 : DevRef τ sig)) transposes_S12288x256_S256x12288_1_0))

set_option maxRecDepth 8192 in
/-- The link loss: the Frobenius norm of the residual over the number of entries. -/
theorem WR_v123 (m : (ℓ : Loc nD τ sig) → Buf (Elt F) ℓ) (c : Dev nD) :
    WR m c (main_v123 : DevRef τ sig)
      = Host.divf (Host.sqrt (Host.reduceAdd (mulf (residual m c) (residual m c)) (constant S_ .f32 0x00000000#32)
            reducesTo_S12288x12288_S_d0_1 h_S_)) (constant S_ .f32 0x4D100000#32) := by
  unfold residual
  rw [WR_cut11]
  generalize after (piece0 ++ (piece1 ++ (piece2 ++ (piece3 ++ (piece4 ++ (piece5 ++ (piece6 ++ (piece7 ++ (piece8 ++ (piece9 ++ (piece10))))))))))) (launchContents m c) = W
  have h88 : after (piece11 ++ (piece12 ++ (piece13 ++ (piece14 ++ (piece15 ++ (piece16 ++ (piece17))))))) W (main_v88 : DevRef τ sig) = W (main_v88 : DevRef τ sig) :=
    (keeps_append (keep11 main_v88 (by decide)) (keeps_append (keep12 main_v88 (by decide)) (keeps_append (keep13 main_v88 (by decide)) (keeps_append (keep14 main_v88 (by decide)) (keeps_append (keep15 main_v88 (by decide)) (keeps_append (keep16 main_v88 (by decide)) (keep17 main_v88 (by decide)))))))) W
  have h118 : after (piece11 ++ (piece12 ++ (piece13 ++ (piece14 ++ (piece15 ++ (piece16 ++ (piece17))))))) W (main_v118 : DevRef τ sig) = W (main_v118 : DevRef τ sig) :=
    (keeps_append (keep11 main_v118 (by decide)) (keeps_append (keep12 main_v118 (by decide)) (keeps_append (keep13 main_v118 (by decide)) (keeps_append (keep14 main_v118 (by decide)) (keeps_append (keep15 main_v118 (by decide)) (keeps_append (keep16 main_v118 (by decide)) (keep17 main_v118 (by decide)))))))) W
  have h123 : after (piece11 ++ (piece12 ++ (piece13 ++ (piece14 ++ (piece15 ++ (piece16 ++ (piece17))))))) W (main_v123 : DevRef τ sig)
      = Host.divf (Host.sqrt (Host.reduceAdd
          (mulf (subf (W (main_v118 : DevRef τ sig)) (Host.dotGeneral dot_S12288x256_S256x12288_S12288x12288_1_0_0_1_n_n none (W (main_v88 : DevRef τ sig))
              (transpose S256x12288 [1, 0] (W (main_v88 : DevRef τ sig)) transposes_S12288x256_S256x12288_1_0)))
            (subf (W (main_v118 : DevRef τ sig)) (Host.dotGeneral dot_S12288x256_S256x12288_S12288x12288_1_0_0_1_n_n none (W (main_v88 : DevRef τ sig))
              (transpose S256x12288 [1, 0] (W (main_v88 : DevRef τ sig)) transposes_S12288x256_S256x12288_1_0))))
          (constant S_ .f32 0x00000000#32) reducesTo_S12288x12288_S_d0_1 h_S_)) (constant S_ .f32 0x4D100000#32) := by
    rw [after_append, after_append, after_append, (keeps_append (keep14 main_v123 (by decide)) (keeps_append (keep15 main_v123 (by decide)) (keeps_append (keep16 main_v123 (by decide)) (keep17 main_v123 (by decide))))) (after piece13 (after piece12 (after piece11 W)))]
    simp only [piece11, piece12, piece13]
    after_results
    -- what is left differs by transports along the typed references' type equations, each the identity
    rfl
  rw [h88, h118, h123]

end Cert.ReferenceIdeal.Hand

end
-- ==== Proof.HostEq.lean ====
/-
  The host sides of the two programs agree.

  The kernel program and the reference apply the same host operations to the same arguments up to
  the point where the kernel program hands three arrays to its first kernel region, and again in the
  entropy tail. Here each buffer the kernel regions read, and each result they do not write, is
  identified: first inside the kernel program (what no later item touches, what a conversion leaves
  over the extended reals, the few operations after the second region), then across the two
  programs, buffer by buffer, given that the two launch memories agree on the seven arguments.
-/
import proofs.«172850_j70214125355087_1_alg».proof.Proof.RegionsKI
import proofs.«172850_j70214125355087_1_alg».proof.Proof.RefRun
import Idealize.ShloMosaic.Lib.StableHlo.Run
import Idealize.ShloMosaic.Lib.ValueIdx
import Idealize.ShloMosaic.PureOps.Ideal

set_option maxRecDepth 8192

noncomputable section

namespace Cert.Bridge

open Idealize.ShloMosaic Idealize.ShloMosaic.TcCoe
open Idealize.SL.Sem
open Cert.KernelIdeal Cert.KernelIdeal.Gen

/-! ## Tools for evaluating a fold of host operations -/

/-- The concatenation of two vectors along an axis, the two pieces as separate arguments. -/
def concatPair {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenation of a two-element list is the concatenation of its two pieces. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concatPair t a s₁ s₂ x y h := rfl

/-- Evaluates a fold of host operations at a buffer: each operation's result at its own buffer is its function of
    the operands' contents, at any other buffer what was there; a two-piece concatenation is restated over its
    pieces so that the pieces' contents are evaluated in turn. -/
macro "host_results" : tactic =>
  `(tactic| simp (disch := decide) only [StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne', concatenate_pair])

/-! ## Inside the kernel program: buffers no later item writes -/

section Kept

variable {F : FTy → Type} [FloatOps F]
variable (m : (ℓ : Loc nD τ sig) → Buf (Elt F) ℓ) (outs : Outs (F := F))

/-- The second output of the first kernel region reaches the end as that region left it. -/
theorem adj_kept (c : Dev nD) : V15 m outs c main_v102_1 = outs 8 main_v102_1 c :=
  (V15_of m outs c main_v102_1 (by decide)).trans <|
  (V14_of m outs c main_v102_1 (by decide)).trans <|
  (V13_of m outs c main_v102_1 (by decide)).trans <|
  (V12_of m outs c main_v102_1 (by decide)).trans <|
  (V11_of m outs c main_v102_1 (by decide)).trans <|
  (V10_of m outs c main_v102_1 (by decide)).trans <|
  (V9_of m outs c main_v102_1 (by decide)).trans <| by
    simp only [V8, Function.update_self]

/-- The first output of the first kernel region reaches the end as that region left it. -/
theorem pooled_kept (c : Dev nD) : V15 m outs c main_v102_0 = outs 8 main_v102_0 c :=
  (V15_of m outs c main_v102_0 (by decide)).trans <|
  (V14_of m outs c main_v102_0 (by decide)).trans <|
  (V13_of m outs c main_v102_0 (by decide)).trans <|
  (V12_of m outs c main_v102_0 (by decide)).trans <|
  (V11_of m outs c main_v102_0 (by decide)).trans <|
  (V10_of m outs c main_v102_0 (by decide)).trans <|
  (V9_of m outs c main_v102_0 (by decide)).trans <| by
    simp only [V8]
    rw [Function.update_of_ne (StableHlo.devRef_ne_of_ne (by decide) : (Proc.devRef .tc main_v102_0 : DevRef τ sig) ≠ Proc.devRef .tc main_v102_1), Function.update_self]

/-- The converted assignment matrix is still what the host left when the second region starts. -/
theorem result_bf16_kept (c : Dev nD) : V9 m outs c main_v99 = V7 m c main_v99 :=
  (V9_of m outs c main_v99 (by decide)).trans <|
  (V8_of m outs c main_v99 (by decide))

/-- After the second kernel region its output array holds what that region left. -/
theorem rowloss_kept (c : Dev nD) : V10 m outs c main_v119 = outs 10 main_v119 c := by
  simp only [V10, Function.update_self]

/-- The assignment mask the entropy tail reads is the one the host computed before the first region. -/
theorem mask_kept (c : Dev nD) : V10 m outs c main_v69 = V7 m c main_v69 :=
  (V10_of m outs c main_v69 (by decide)).trans <|
  (V9_of m outs c main_v69 (by decide)).trans <|
  (V8_of m outs c main_v69 (by decide))

/-- The source endpoints of the edges, as the host unpacked them at the start, when the dense adjacency is built. -/
theorem src_kept (c : Dev nD) : V8 m outs c main_v1 = V1 m c main_v1 :=
  (V8_of m outs c main_v1 (by decide)).trans <|
  (V7_of m c main_v1 (by decide)).trans <|
  (V6_of m c main_v1 (by decide)).trans <|
  (V5_of m c main_v1 (by decide)).trans <|
  (V4_of m c main_v1 (by decide)).trans <|
  (V3_of m c main_v1 (by decide)).trans <|
  (V2_of m c main_v1 (by decide))

/-- The target endpoints of the edges, likewise. -/
theorem dst_kept (c : Dev nD) : V8 m outs c main_v3 = V1 m c main_v3 :=
  (V8_of m outs c main_v3 (by decide)).trans <|
  (V7_of m c main_v3 (by decide)).trans <|
  (V6_of m c main_v3 (by decide)).trans <|
  (V5_of m c main_v3 (by decide)).trans <|
  (V4_of m c main_v3 (by decide)).trans <|
  (V3_of m c main_v3 (by decide)).trans <|
  (V2_of m c main_v3 (by decide))

end Kept

/-! ## Inside the kernel program: the conversions before the first region

Each of the first region's three inputs is a conversion to bfloat16 of a float32 buffer; over the extended
reals a conversion changes nothing. -/

section Converted

variable {F : FTy → Type} [FloatOps F]
variable (m : (ℓ : Loc nD τ sig) → Buf (Elt F) ℓ)

/-- The first region's assignment input is the host's assignment matrix, converted. -/
theorem result_bf16_conv (c : Dev nD) :
    (V7 m c main_v99 : (⟨S12288x256, .bf16⟩ : BufTy).Contents (Elt F))
      = truncf .bf16 (V7 m c main_v88 : (⟨S12288x256, .f32⟩ : BufTy).Contents (Elt F)) bitsLt_bf16_f32 := by
  show StableHlo.after hostOps0_6 (V6 m c) (Proc.devRef .tc main_v99)
    = truncf .bf16 (StableHlo.after hostOps0_6 (V6 m c) (Proc.devRef .tc main_v88)) bitsLt_bf16_f32
  generalize V6 m c = W
  dsimp only [hostOps0_6]
  after_results_simp

/-- The first region's embedding input is the host's normalized embedding, converted. -/
theorem embed_bf16_conv (c : Dev nD) :
    (V7 m c main_v100 : (⟨S12288x128, .bf16⟩ : BufTy).Contents (Elt F))
      = truncf .bf16 (V7 m c main_v32 : (⟨S12288x128, .f32⟩ : BufTy).Contents (Elt F)) bitsLt_bf16_f32 := by
  show StableHlo.after hostOps0_6 (V6 m c) (Proc.devRef .tc main_v100)
    = truncf .bf16 (StableHlo.after hostOps0_6 (V6 m c) (Proc.devRef .tc main_v32)) bitsLt_bf16_f32
  generalize V6 m c = W
  dsimp only [hostOps0_6]
  after_results_simp

/-- The first region's third input is the host's scattered neighbour sum, converted. -/
theorem ar_bf16_conv (c : Dev nD) :
    (V7 m c main_v101 : (⟨S12288x256, .bf16⟩ : BufTy).Contents (Elt F))
      = truncf .bf16 (V7 m c main_v98 : (⟨S12288x256, .f32⟩ : BufTy).Contents (Elt F)) bitsLt_bf16_f32 := by
  show StableHlo.after hostOps0_6 (V6 m c) (Proc.devRef .tc main_v101)
    = truncf .bf16 (StableHlo.after hostOps0_6 (V6 m c) (Proc.devRef .tc main_v98)) bitsLt_bf16_f32
  generalize V6 m c = W
  dsimp only [hostOps0_6]
  after_results_simp

end Converted

section ConvertedIdeal

/-- Over the extended reals a conversion to a narrower format leaves every element as it was. -/
theorem truncf_ideal_id {s : Shape} {φ ψ : FTy} (x : FVec Ideal s φ) (h : ψ.bits < φ.bits) :
    (truncf ψ x h : s.Idx → EReal) = (x : s.Idx → EReal) := rfl

variable (m : (ℓ : Loc nD τ sig) → Buf (Elt Ideal) ℓ)

/-- Over the extended reals the converted assignment matrix is the assignment matrix. -/
theorem result_bf16_eq (c : Dev nD) :
    (V7 m c main_v99 : S12288x256.Idx → EReal) = (V7 m c main_v88 : S12288x256.Idx → EReal) :=
  (result_bf16_conv m c).trans (truncf_ideal_id _ _)

/-- Over the extended reals the converted embedding is the embedding. -/
theorem embed_bf16_eq (c : Dev nD) :
    (V7 m c main_v100 : S12288x128.Idx → EReal) = (V7 m c main_v32 : S12288x128.Idx → EReal) :=
  (embed_bf16_conv m c).trans (truncf_ideal_id _ _)

/-- Over the extended reals the converted neighbour sum is the neighbour sum. -/
theorem ar_bf16_eq (c : Dev nD) :
    (V7 m c main_v101 : S12288x256.Idx → EReal) = (V7 m c main_v98 : S12288x256.Idx → EReal) :=
  (ar_bf16_conv m c).trans (truncf_ideal_id _ _)

end ConvertedIdeal

/-! ## Inside the kernel program: the loss after the second region

The second region leaves, in every column of row `r`, the row's sum of squared residuals; the host takes column
0, sums the rows, takes the square root and divides by the number of entries. -/

section Tail

variable {F : FTy → Type} [FloatOps F]
variable (m : (ℓ : Loc nD τ sig) → Buf (Elt F) ℓ) (outs : Outs (F := F))

/-- The link loss the program returns, as the host's operations on what the second region left. -/
theorem linkloss_tail (c : Dev nD) :
    (V15 m outs c main_v124 : (⟨S_, .f32⟩ : BufTy).Contents (Elt F))
      = Host.divf (Host.sqrt (Host.reduceAdd
          (shapeCast S12288 (extractStridedSlice S12288x1 ![0, 0]
            (outs 10 main_v119 c : (⟨S12288x128, .f32⟩ : BufTy).Contents (Elt F)) slices_S12288x128_S12288x1_0_0)
            shapeCasts_S12288x1_S12288)
          (constant S_ .f32 0x00000000#32) reducesTo_S12288_S_d0 h_S_))
          (constant S_ .f32 0x4D100000#32) := by
  have e : V15 m outs c main_v124 = V11 m outs c main_v124 :=
    (V15_of m outs c main_v124 (by decide)).trans <|
    (V14_of m outs c main_v124 (by decide)).trans <|
    (V13_of m outs c main_v124 (by decide)).trans <|
    (V12_of m outs c main_v124 (by decide))
  rw [e, ← rowloss_kept m outs c]
  show StableHlo.after hostOps2 (V10 m outs c) (Proc.devRef .tc main_v124) = _
  generalize V10 m outs c = W
  dsimp only [hostOps2]
  after_results_simp
  rfl

end Tail

/-! ## Across the two programs

Both programs compute the normalized embedding, the assignment matrix, the scattered neighbour sum, the dense
adjacency and the entropy of the assignment by the same operations on the same arguments; so from launch memories
that agree on the arguments the buffers agree. Stated for any float values: nothing here opens an operation. -/

section Cross

open Cert.ReferenceIdeal.Hand (WR ops)

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)

/-- The two launch memories hold the same seven arguments on every device. -/
abbrev ArgsAgree : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable (outs : Outs (F := F)) (hagree : ArgsAgree m m')
include hagree

set_option maxHeartbeats 8000000 in
/-- The normalized embedding is the same array in both programs. -/
theorem embed_agree (c : Dev Cert.KernelIdeal.nD) :
    (V7 m c Cert.KernelIdeal.main_v32 : (⟨Cert.KernelIdeal.S12288x128, .f32⟩ : BufTy).Contents (Elt F))
      = (WR m' c Cert.ReferenceIdeal.main_v32 : (⟨Cert.KernelIdeal.S12288x128, .f32⟩ : BufTy).Contents (Elt F)) := by
  obtain ⟨h0, h1, h2, h3, h4, h5, h6⟩ := hagree c
  have e0 : m' (c, Proc.devRef .tc Cert.ReferenceIdeal.main_arg0) = m (c, Proc.devRef .tc Cert.KernelIdeal.main_arg0) := h0
  have e1 : m' (c, Proc.devRef .tc Cert.ReferenceIdeal.main_arg1) = m (c, Proc.devRef .tc Cert.KernelIdeal.main_arg1) := h1
  have e2 : m' (c, Proc.devRef .tc Cert.ReferenceIdeal.main_arg2) = m (c, Proc.devRef .tc Cert.KernelIdeal.main_arg2) := h2
  have e3 : m' (c, Proc.devRef .tc Cert.ReferenceIdeal.main_arg3) = m (c, Proc.devRef .tc Cert.KernelIdeal.main_arg3) := h3
  have e4 : m' (c, Proc.devRef .tc Cert.ReferenceIdeal.main_arg4) = m (c, Proc.devRef .tc Cert.KernelIdeal.main_arg4) := h4
  have e5 : m' (c, Proc.devRef .tc Cert.ReferenceIdeal.main_arg5) = m (c, Proc.devRef .tc Cert.KernelIdeal.main_arg5) := h5
  have e6 : m' (c, Proc.devRef .tc Cert.ReferenceIdeal.main_arg6) = m (c, Proc.devRef .tc Cert.KernelIdeal.main_arg6) := h6
  have eK : V7 m c Cert.KernelIdeal.main_v32 = V3 m c Cert.KernelIdeal.main_v32 :=
    (V7_of m c Cert.KernelIdeal.main_v32 (by decide)).trans <|
    (V6_of m c Cert.KernelIdeal.main_v32 (by decide)).trans <|
    (V5_of m c Cert.KernelIdeal.main_v32 (by decide)).trans <|
    (V4_of m c Cert.KernelIdeal.main_v32 (by decide))
  rw [eK]
  dsimp only [V3, V2, V1, V0, hostOps0, hostOps0_1, hostOps0_2, WR, ops, StableHlo.launchContents]
  host_results
  simp only [e0, e1, e3, e4]
  try simp only [StableHlo.TRef.ofBuf, StableHlo.TRef.toBuf, cast_eq]
  rfl

set_option maxHeartbeats 8000000 in
/-- The assignment matrix is the same array in both programs. -/
theorem assign_agree (c : Dev Cert.KernelIdeal.nD) :
    (V7 m c Cert.KernelIdeal.main_v88 : (⟨Cert.KernelIdeal.S12288x256, .f32⟩ : BufTy).Contents (Elt F))
      = (WR m' c Cert.ReferenceIdeal.main_v88 : (⟨Cert.KernelIdeal.S12288x256, .f32⟩ : BufTy).Contents (Elt F)) := by
  obtain ⟨h0, h1, h2, h3, h4, h5, h6⟩ := hagree c
  have e0 : m' (c, Proc.devRef .tc Cert.ReferenceIdeal.main_arg0) = m (c, Proc.devRef .tc Cert.KernelIdeal.main_arg0) := h0
  have e1 : m' (c, Proc.devRef .tc Cert.ReferenceIdeal.main_arg1) = m (c, Proc.devRef .tc Cert.KernelIdeal.main_arg1) := h1
  have e2 : m' (c, Proc.devRef .tc Cert.ReferenceIdeal.main_arg2) = m (c, Proc.devRef .tc Cert.KernelIdeal.main_arg2) := h2
  have e3 : m' (c, Proc.devRef .tc Cert.ReferenceIdeal.main_arg3) = m (c, Proc.devRef .tc Cert.KernelIdeal.main_arg3) := h3
  have e4 : m' (c, Proc.devRef .tc Cert.ReferenceIdeal.main_arg4) = m (c, Proc.devRef .tc Cert.KernelIdeal.main_arg4) := h4
  have e5 : m' (c, Proc.devRef .tc Cert.ReferenceIdeal.main_arg5) = m (c, Proc.devRef .tc Cert.KernelIdeal.main_arg5) := h5
  have e6 : m' (c, Proc.devRef .tc Cert.ReferenceIdeal.main_arg6) = m (c, Proc.devRef .tc Cert.KernelIdeal.main_arg6) := h6
  dsimp only [V7, V6, V5, V4, V3, V2, V1, V0, hostOps0, hostOps0_1, hostOps0_2, hostOps0_3, hostOps0_4, hostOps0_5, hostOps0_6, WR, ops, StableHlo.launchContents]
  host_results
  simp only [e0, e1, e2, e5, e6]
  try simp only [StableHlo.TRef.ofBuf, StableHlo.TRef.toBuf, cast_eq]
  rfl

set_option maxHeartbeats 8000000 in
/-- The scattered sum of the neighbours' assignment rows is the same array in both programs. -/
theorem neighbour_sum_agree (c : Dev Cert.KernelIdeal.nD) :
    (V7 m c Cert.KernelIdeal.main_v98 : (⟨Cert.KernelIdeal.S12288x256, .f32⟩ : BufTy).Contents (Elt F))
      = (WR m' c Cert.ReferenceIdeal.main_v100 : (⟨Cert.KernelIdeal.S12288x256, .f32⟩ : BufTy).Contents (Elt F)) := by
  obtain ⟨h0, h1, h2, h3, h4, h5, h6⟩ := hagree c
  have e0 : m' (c, Proc.devRef .tc Cert.ReferenceIdeal.main_arg0) = m (c, Proc.devRef .tc Cert.KernelIdeal.main_arg0) := h0
  have e1 : m' (c, Proc.devRef .tc Cert.ReferenceIdeal.main_arg1) = m (c, Proc.devRef .tc Cert.KernelIdeal.main_arg1) := h1
  have e2 : m' (c, Proc.devRef .tc Cert.ReferenceIdeal.main_arg2) = m (c, Proc.devRef .tc Cert.KernelIdeal.main_arg2) := h2
  have e3 : m' (c, Proc.devRef .tc Cert.ReferenceIdeal.main_arg3) = m (c, Proc.devRef .tc Cert.KernelIdeal.main_arg3) := h3
  have e4 : m' (c, Proc.devRef .tc Cert.ReferenceIdeal.main_arg4) = m (c, Proc.devRef .tc Cert.KernelIdeal.main_arg4) := h4
  have e5 : m' (c, Proc.devRef .tc Cert.ReferenceIdeal.main_arg5) = m (c, Proc.devRef .tc Cert.KernelIdeal.main_arg5) := h5
  have e6 : m' (c, Proc.devRef .tc Cert.ReferenceIdeal.main_arg6) = m (c, Proc.devRef .tc Cert.KernelIdeal.main_arg6) := h6
  dsimp only [V7, V6, V5, V4, V3, V2, V1, V0, hostOps0, hostOps0_1, hostOps0_2, hostOps0_3, hostOps0_4, hostOps0_5, hostOps0_6, WR, ops, StableHlo.launchContents]
  host_results
  simp only [e0, e1, e2, e5, e6]
  try simp only [StableHlo.TRef.ofBuf, StableHlo.TRef.toBuf, cast_eq]
  rfl

end Cross

/-! ## Over the extended reals: the first region's inputs are the reference's arrays

A conversion to bfloat16 is the identity over the extended reals, so each converted input of the kernel regions is
the array the reference computes. -/

section CrossIdeal

open Cert.ReferenceIdeal.Hand (WR)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (outs : Outs (F := Ideal)) (hagree : ArgsAgree m m')
include hagree

/-- The assignment matrix the first region reads is the reference's assignment matrix. -/
theorem result_bf16_agree (c : Dev Cert.KernelIdeal.nD) :
    (V7 m c Cert.KernelIdeal.main_v99 : Cert.KernelIdeal.S12288x256.Idx → EReal) = (WR m' c Cert.ReferenceIdeal.main_v88 : Cert.KernelIdeal.S12288x256.Idx → EReal) := by
  have h1 := result_bf16_eq m c
  have h2 := assign_agree m m' hagree c
  exact h1.trans h2

/-- The embedding the first region reads is the reference's normalized embedding. -/
theorem embed_bf16_agree (c : Dev Cert.KernelIdeal.nD) :
    (V7 m c Cert.KernelIdeal.main_v100 : Cert.KernelIdeal.S12288x128.Idx → EReal) = (WR m' c Cert.ReferenceIdeal.main_v32 : Cert.KernelIdeal.S12288x128.Idx → EReal) := by
  have h1 := embed_bf16_eq m c
  have h2 := embed_agree m m' hagree c
  exact h1.trans h2

/-- The neighbour sum the first region reads is the reference's scattered neighbour sum. -/
theorem ar_bf16_agree (c : Dev Cert.KernelIdeal.nD) :
    (V7 m c Cert.KernelIdeal.main_v101 : Cert.KernelIdeal.S12288x256.Idx → EReal) = (WR m' c Cert.ReferenceIdeal.main_v100 : Cert.KernelIdeal.S12288x256.Idx → EReal) := by
  have h1 := ar_bf16_eq m c
  have h2 := neighbour_sum_agree m m' hagree c
  exact h1.trans h2

/-- The assignment matrix the second region reads, through both of its windows, is the reference's. -/
theorem result_bf16_agree9 (c : Dev Cert.KernelIdeal.nD) :
    (V9 m outs c Cert.KernelIdeal.main_v99 : Cert.KernelIdeal.S12288x256.Idx → EReal) = (WR m' c Cert.ReferenceIdeal.main_v88 : Cert.KernelIdeal.S12288x256.Idx → EReal) := by
  have h1 := result_bf16_kept m outs c
  have h2 := result_bf16_agree m m' hagree c
  exact h1.trans h2

end CrossIdeal

end Cert.Bridge
-- ==== Proof.HostEq2.lean ====
/-
  Two host-side results are the same in the two programs.

  The kernel program and the reference apply the same host operations to the same arguments wherever no kernel region
  intervenes. Two buffers are followed here. The dense adjacency matrix that the second kernel region reads is built by
  scattering ones at the edges' endpoints, and the endpoints are the two rows of the edge list: it depends on the edge
  list alone. The entropy result is a function of the block mask (node i against cluster column j: one where the node's
  graph owns the column), and the mask depends on the graph labels alone. For each, the kernel program's stretch of host
  operations and the reference's matching piece are evaluated from any two valuations that agree on what the stretch
  reads, and give the same contents; the buffers in between are carried unchanged through the stretches that do not
  write them, on the kernel side across what the two kernel regions may change. No arithmetic is opened: the two sides
  are the same functions of the same arguments.
-/
import proofs.«172850_j70214125355087_1_alg».proof.Proof.HostEq

set_option maxRecDepth 8192

noncomputable section

namespace Cert.Bridge

open Idealize.ShloMosaic Idealize.ShloMosaic.TcCoe Idealize.SL.Sem

/-! ## The same host operations in the two programs, stretch by stretch

Both programs apply the same host operations, the kernel program's stretches under its own buffer names and the
reference's pieces under theirs. For a stretch and the piece that matches it, started from any two valuations that
agree on the buffers the operations read, the result buffer ends with the same contents: both folds are evaluated to the
operations' functions of the buffers read, where the two texts coincide. -/

section Stretches
variable {F : FTy → Type} [FloatOps F]
variable (VK : Valuation Cert.KernelIdeal.τ Cert.KernelIdeal.sig (Elt F)) (VR : Valuation Cert.ReferenceIdeal.τ Cert.ReferenceIdeal.sig (Elt F))

/-- The edges' source indices: the first row of the edge list, as a vector. -/
theorem seg_src
    (h : (VK (Cert.KernelIdeal.main_arg1 : DevRef Cert.KernelIdeal.τ Cert.KernelIdeal.sig) : Cert.KernelIdeal.S2x196608.Idx → Elt F .i32) = VR (Cert.ReferenceIdeal.main_arg1 : DevRef Cert.ReferenceIdeal.τ Cert.ReferenceIdeal.sig)) :
    (StableHlo.after Cert.KernelIdeal.Gen.hostOps0 VK (Cert.KernelIdeal.main_v1 : DevRef Cert.KernelIdeal.τ Cert.KernelIdeal.sig) : Cert.KernelIdeal.S196608.Idx → Elt F .i32)
      = StableHlo.after Cert.ReferenceIdeal.Hand.piece0 VR (Cert.ReferenceIdeal.main_v1 : DevRef Cert.ReferenceIdeal.τ Cert.ReferenceIdeal.sig) := by
  dsimp only [Cert.KernelIdeal.Gen.hostOps0, Cert.ReferenceIdeal.Hand.piece0]
  host_results
  rw [h]
  rfl

/-- The edges' destination indices: the second row of the edge list, as a vector. -/
theorem seg_dst
    (h : (VK (Cert.KernelIdeal.main_arg1 : DevRef Cert.KernelIdeal.τ Cert.KernelIdeal.sig) : Cert.KernelIdeal.S2x196608.Idx → Elt F .i32) = VR (Cert.ReferenceIdeal.main_arg1 : DevRef Cert.ReferenceIdeal.τ Cert.ReferenceIdeal.sig)) :
    (StableHlo.after Cert.KernelIdeal.Gen.hostOps0 VK (Cert.KernelIdeal.main_v3 : DevRef Cert.KernelIdeal.τ Cert.KernelIdeal.sig) : Cert.KernelIdeal.S196608.Idx → Elt F .i32)
      = StableHlo.after Cert.ReferenceIdeal.Hand.piece0 VR (Cert.ReferenceIdeal.main_v3 : DevRef Cert.ReferenceIdeal.τ Cert.ReferenceIdeal.sig) := by
  dsimp only [Cert.KernelIdeal.Gen.hostOps0, Cert.ReferenceIdeal.Hand.piece0]
  host_results
  rw [h]
  rfl

/-- The dense adjacency: ones scattered at the (wrapped) source and destination indices into a zero matrix. -/
theorem seg_dense
    (h1 : (VK (Cert.KernelIdeal.main_v1 : DevRef Cert.KernelIdeal.τ Cert.KernelIdeal.sig) : Cert.KernelIdeal.S196608.Idx → Elt F .i32) = VR (Cert.ReferenceIdeal.main_v1 : DevRef Cert.ReferenceIdeal.τ Cert.ReferenceIdeal.sig))
    (h3 : (VK (Cert.KernelIdeal.main_v3 : DevRef Cert.KernelIdeal.τ Cert.KernelIdeal.sig) : Cert.KernelIdeal.S196608.Idx → Elt F .i32) = VR (Cert.ReferenceIdeal.main_v3 : DevRef Cert.ReferenceIdeal.τ Cert.ReferenceIdeal.sig)) :
    (StableHlo.after Cert.KernelIdeal.Gen.hostOps1 VK (Cert.KernelIdeal.main_v118 : DevRef Cert.KernelIdeal.τ Cert.KernelIdeal.sig) : Cert.KernelIdeal.S12288x12288.Idx → Elt F .f32)
      = StableHlo.after Cert.ReferenceIdeal.Hand.piece10 VR (Cert.ReferenceIdeal.main_v118 : DevRef Cert.ReferenceIdeal.τ Cert.ReferenceIdeal.sig) := by
  dsimp only [Cert.KernelIdeal.Gen.hostOps1, Cert.ReferenceIdeal.Hand.piece10]
  host_results
  rw [h1, h3]
  rfl

/-- The block mask: node i against cluster column j, one where the node's graph is the column's graph (the column index
    floor-divided by the clusters per graph), as a float. -/
theorem seg_mask
    (h : (VK (Cert.KernelIdeal.main_arg2 : DevRef Cert.KernelIdeal.τ Cert.KernelIdeal.sig) : Cert.KernelIdeal.S12288.Idx → Elt F .i32) = VR (Cert.ReferenceIdeal.main_arg2 : DevRef Cert.ReferenceIdeal.τ Cert.ReferenceIdeal.sig)) :
    (StableHlo.after Cert.KernelIdeal.Gen.hostOps0_6 (StableHlo.after Cert.KernelIdeal.Gen.hostOps0_5 (StableHlo.after Cert.KernelIdeal.Gen.hostOps0_4 VK)) (Cert.KernelIdeal.main_v69 : DevRef Cert.KernelIdeal.τ Cert.KernelIdeal.sig)
        : Cert.KernelIdeal.S12288x256.Idx → Elt F .f32)
      = StableHlo.after Cert.ReferenceIdeal.Hand.piece7 (StableHlo.after Cert.ReferenceIdeal.Hand.piece6 (StableHlo.after Cert.ReferenceIdeal.Hand.piece5 VR)) (Cert.ReferenceIdeal.main_v69 : DevRef Cert.ReferenceIdeal.τ Cert.ReferenceIdeal.sig) := by
  dsimp only [Cert.KernelIdeal.Gen.hostOps0_6, Cert.KernelIdeal.Gen.hostOps0_5, Cert.KernelIdeal.Gen.hostOps0_4, Cert.ReferenceIdeal.Hand.piece7, Cert.ReferenceIdeal.Hand.piece6, Cert.ReferenceIdeal.Hand.piece5]
  host_results
  rw [h]

/-- The entropy of the uniform distribution over each node's block, summed over the nodes: a function of the mask. -/
theorem seg_entropy
    (h : (VK (Cert.KernelIdeal.main_v69 : DevRef Cert.KernelIdeal.τ Cert.KernelIdeal.sig) : Cert.KernelIdeal.S12288x256.Idx → Elt F .f32) = VR (Cert.ReferenceIdeal.main_v69 : DevRef Cert.ReferenceIdeal.τ Cert.ReferenceIdeal.sig)) :
    (StableHlo.after Cert.KernelIdeal.Gen.hostOps2_4 (StableHlo.after Cert.KernelIdeal.Gen.hostOps2_3 (StableHlo.after Cert.KernelIdeal.Gen.hostOps2_2
        (StableHlo.after Cert.KernelIdeal.Gen.hostOps2_1 (StableHlo.after Cert.KernelIdeal.Gen.hostOps2 VK)))) (Cert.KernelIdeal.main_v139 : DevRef Cert.KernelIdeal.τ Cert.KernelIdeal.sig)
        : Cert.KernelIdeal.S_.Idx → Elt F .f32)
      = StableHlo.after Cert.ReferenceIdeal.Hand.piece17 (StableHlo.after Cert.ReferenceIdeal.Hand.piece16 (StableHlo.after Cert.ReferenceIdeal.Hand.piece15
        (StableHlo.after Cert.ReferenceIdeal.Hand.piece14 (StableHlo.after Cert.ReferenceIdeal.Hand.piece13 VR)))) (Cert.ReferenceIdeal.main_v138 : DevRef Cert.ReferenceIdeal.τ Cert.ReferenceIdeal.sig) := by
  dsimp only [Cert.KernelIdeal.Gen.hostOps2_4, Cert.KernelIdeal.Gen.hostOps2_3, Cert.KernelIdeal.Gen.hostOps2_2, Cert.KernelIdeal.Gen.hostOps2_1, Cert.KernelIdeal.Gen.hostOps2,
    Cert.ReferenceIdeal.Hand.piece17, Cert.ReferenceIdeal.Hand.piece16, Cert.ReferenceIdeal.Hand.piece15, Cert.ReferenceIdeal.Hand.piece14, Cert.ReferenceIdeal.Hand.piece13]
  host_results
  rw [h]

end Stretches

/-! ## The reference's run, piece after piece -/

section Cross
variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)

/-- The reference's final contents as the eighteen pieces' folds applied one after the other to the launch contents. -/
theorem WR_nest (c : Dev Cert.ReferenceIdeal.nD) :
    Cert.ReferenceIdeal.Hand.WR m' c
      = StableHlo.after Cert.ReferenceIdeal.Hand.piece17 (StableHlo.after Cert.ReferenceIdeal.Hand.piece16 (StableHlo.after Cert.ReferenceIdeal.Hand.piece15 (StableHlo.after Cert.ReferenceIdeal.Hand.piece14 (StableHlo.after Cert.ReferenceIdeal.Hand.piece13 (StableHlo.after Cert.ReferenceIdeal.Hand.piece12 (StableHlo.after Cert.ReferenceIdeal.Hand.piece11 (StableHlo.after Cert.ReferenceIdeal.Hand.piece10 (StableHlo.after Cert.ReferenceIdeal.Hand.piece9 (StableHlo.after Cert.ReferenceIdeal.Hand.piece8 (StableHlo.after Cert.ReferenceIdeal.Hand.piece7 (StableHlo.after Cert.ReferenceIdeal.Hand.piece6 (StableHlo.after Cert.ReferenceIdeal.Hand.piece5 (StableHlo.after Cert.ReferenceIdeal.Hand.piece4 (StableHlo.after Cert.ReferenceIdeal.Hand.piece3 (StableHlo.after Cert.ReferenceIdeal.Hand.piece2 (StableHlo.after Cert.ReferenceIdeal.Hand.piece1 (StableHlo.after Cert.ReferenceIdeal.Hand.piece0 (StableHlo.launchContents m' c)))))))))))))))))) := by
  show StableHlo.after Cert.ReferenceIdeal.Hand.ops _ = _
  rw [Cert.ReferenceIdeal.Hand.ops_pieces]
  simp only [Cert.ReferenceIdeal.Hand.after_append]

/-! ## The dense adjacency and the entropy are the same in both programs -/

variable (outs : Cert.KernelIdeal.Gen.Outs (F := F))

/-- The dense adjacency the second kernel region reads is the reference's: both scatter ones at the edges' endpoints,
    read off the same edge list. -/
theorem dense_agree (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V9 m outs c Cert.KernelIdeal.main_v118 : Cert.KernelIdeal.S12288x12288.Idx → Elt F .f32)
      = (Cert.ReferenceIdeal.Hand.WR m' c (Cert.ReferenceIdeal.main_v118 : DevRef Cert.ReferenceIdeal.τ Cert.ReferenceIdeal.sig) : Cert.KernelIdeal.S12288x12288.Idx → Elt F .f32) := by
  have e1 : (Cert.KernelIdeal.Gen.V0 m c (Cert.KernelIdeal.main_arg1 : DevRef Cert.KernelIdeal.τ Cert.KernelIdeal.sig) : Cert.KernelIdeal.S2x196608.Idx → Elt F .i32)
      = StableHlo.launchContents m' c (Cert.ReferenceIdeal.main_arg1 : DevRef Cert.ReferenceIdeal.τ Cert.ReferenceIdeal.sig) := h1.symm
  rw [WR_nest]
  rw [Cert.ReferenceIdeal.Hand.keep17 Cert.ReferenceIdeal.main_v118 (by decide), Cert.ReferenceIdeal.Hand.keep16 Cert.ReferenceIdeal.main_v118 (by decide), Cert.ReferenceIdeal.Hand.keep15 Cert.ReferenceIdeal.main_v118 (by decide), Cert.ReferenceIdeal.Hand.keep14 Cert.ReferenceIdeal.main_v118 (by decide), Cert.ReferenceIdeal.Hand.keep13 Cert.ReferenceIdeal.main_v118 (by decide), Cert.ReferenceIdeal.Hand.keep12 Cert.ReferenceIdeal.main_v118 (by decide), Cert.ReferenceIdeal.Hand.keep11 Cert.ReferenceIdeal.main_v118 (by decide)]
  show StableHlo.after Cert.KernelIdeal.Gen.hostOps1 (Cert.KernelIdeal.Gen.V8 m outs c) _ = _
  refine seg_dense _ _ ?_ ?_
  · rw [Cert.ReferenceIdeal.Hand.keep9 Cert.ReferenceIdeal.main_v1 (by decide), Cert.ReferenceIdeal.Hand.keep8 Cert.ReferenceIdeal.main_v1 (by decide), Cert.ReferenceIdeal.Hand.keep7 Cert.ReferenceIdeal.main_v1 (by decide), Cert.ReferenceIdeal.Hand.keep6 Cert.ReferenceIdeal.main_v1 (by decide), Cert.ReferenceIdeal.Hand.keep5 Cert.ReferenceIdeal.main_v1 (by decide), Cert.ReferenceIdeal.Hand.keep4 Cert.ReferenceIdeal.main_v1 (by decide), Cert.ReferenceIdeal.Hand.keep3 Cert.ReferenceIdeal.main_v1 (by decide), Cert.ReferenceIdeal.Hand.keep2 Cert.ReferenceIdeal.main_v1 (by decide), Cert.ReferenceIdeal.Hand.keep1 Cert.ReferenceIdeal.main_v1 (by decide)]
    exact (src_kept m outs c).trans (seg_src _ _ e1)
  · rw [Cert.ReferenceIdeal.Hand.keep9 Cert.ReferenceIdeal.main_v3 (by decide), Cert.ReferenceIdeal.Hand.keep8 Cert.ReferenceIdeal.main_v3 (by decide), Cert.ReferenceIdeal.Hand.keep7 Cert.ReferenceIdeal.main_v3 (by decide), Cert.ReferenceIdeal.Hand.keep6 Cert.ReferenceIdeal.main_v3 (by decide), Cert.ReferenceIdeal.Hand.keep5 Cert.ReferenceIdeal.main_v3 (by decide), Cert.ReferenceIdeal.Hand.keep4 Cert.ReferenceIdeal.main_v3 (by decide), Cert.ReferenceIdeal.Hand.keep3 Cert.ReferenceIdeal.main_v3 (by decide), Cert.ReferenceIdeal.Hand.keep2 Cert.ReferenceIdeal.main_v3 (by decide), Cert.ReferenceIdeal.Hand.keep1 Cert.ReferenceIdeal.main_v3 (by decide)]
    exact (dst_kept m outs c).trans (seg_dst _ _ e1)

/-- The entropy result is the same in both programs: both compute it from the block mask, itself computed from the same
    graph labels. -/
theorem entropy_agree (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.V15 m outs c Cert.KernelIdeal.main_v139 : Cert.KernelIdeal.S_.Idx → Elt F .f32)
      = (Cert.ReferenceIdeal.Hand.WR m' c (Cert.ReferenceIdeal.main_v138 : DevRef Cert.ReferenceIdeal.τ Cert.ReferenceIdeal.sig) : Cert.KernelIdeal.S_.Idx → Elt F .f32) := by
  have e2 : (Cert.KernelIdeal.Gen.V4 m c (Cert.KernelIdeal.main_arg2 : DevRef Cert.KernelIdeal.τ Cert.KernelIdeal.sig) : Cert.KernelIdeal.S12288.Idx → Elt F .i32)
      = StableHlo.after Cert.ReferenceIdeal.Hand.piece4 (StableHlo.after Cert.ReferenceIdeal.Hand.piece3 (StableHlo.after Cert.ReferenceIdeal.Hand.piece2 (StableHlo.after Cert.ReferenceIdeal.Hand.piece1 (StableHlo.after Cert.ReferenceIdeal.Hand.piece0 (StableHlo.launchContents m' c))))) (Cert.ReferenceIdeal.main_arg2 : DevRef Cert.ReferenceIdeal.τ Cert.ReferenceIdeal.sig) := by
    rw [Cert.ReferenceIdeal.Hand.keep4 Cert.ReferenceIdeal.main_arg2 (by decide), Cert.ReferenceIdeal.Hand.keep3 Cert.ReferenceIdeal.main_arg2 (by decide), Cert.ReferenceIdeal.Hand.keep2 Cert.ReferenceIdeal.main_arg2 (by decide), Cert.ReferenceIdeal.Hand.keep1 Cert.ReferenceIdeal.main_arg2 (by decide), Cert.ReferenceIdeal.Hand.keep0 Cert.ReferenceIdeal.main_arg2 (by decide)]
    exact ((Cert.KernelIdeal.Gen.V4_of m c Cert.KernelIdeal.main_arg2 (by decide)).trans <| (Cert.KernelIdeal.Gen.V3_of m c Cert.KernelIdeal.main_arg2 (by decide)).trans <|
      (Cert.KernelIdeal.Gen.V2_of m c Cert.KernelIdeal.main_arg2 (by decide)).trans (Cert.KernelIdeal.Gen.V1_of m c Cert.KernelIdeal.main_arg2 (by decide))).trans h2.symm
  rw [WR_nest]
  show StableHlo.after Cert.KernelIdeal.Gen.hostOps2_4 (StableHlo.after Cert.KernelIdeal.Gen.hostOps2_3 (StableHlo.after Cert.KernelIdeal.Gen.hostOps2_2
    (StableHlo.after Cert.KernelIdeal.Gen.hostOps2_1 (StableHlo.after Cert.KernelIdeal.Gen.hostOps2 (Cert.KernelIdeal.Gen.V10 m outs c))))) _ = _
  refine seg_entropy _ _ ?_
  rw [Cert.ReferenceIdeal.Hand.keep12 Cert.ReferenceIdeal.main_v69 (by decide), Cert.ReferenceIdeal.Hand.keep11 Cert.ReferenceIdeal.main_v69 (by decide), Cert.ReferenceIdeal.Hand.keep10 Cert.ReferenceIdeal.main_v69 (by decide), Cert.ReferenceIdeal.Hand.keep9 Cert.ReferenceIdeal.main_v69 (by decide), Cert.ReferenceIdeal.Hand.keep8 Cert.ReferenceIdeal.main_v69 (by decide)]
  exact (mask_kept m outs c).trans (seg_mask _ _ e2)

/-- The two equalities from the agreement of the two launch memories on the seven arguments. -/
theorem dense_agree_of_args (hagree : ArgsAgree m m') (c : Dev Cert.KernelIdeal.nD) :
    (Cert.KernelIdeal.Gen.V9 m outs c Cert.KernelIdeal.main_v118 : Cert.KernelIdeal.S12288x12288.Idx → Elt F .f32)
      = (Cert.ReferenceIdeal.Hand.WR m' c (Cert.ReferenceIdeal.main_v118 : DevRef Cert.ReferenceIdeal.τ Cert.ReferenceIdeal.sig) : Cert.KernelIdeal.S12288x12288.Idx → Elt F .f32) :=
  dense_agree m m' outs c (hagree c).2.1

theorem entropy_agree_of_args (hagree : ArgsAgree m m') (c : Dev Cert.KernelIdeal.nD) :
    (Cert.KernelIdeal.Gen.V15 m outs c Cert.KernelIdeal.main_v139 : Cert.KernelIdeal.S_.Idx → Elt F .f32)
      = (Cert.ReferenceIdeal.Hand.WR m' c (Cert.ReferenceIdeal.main_v138 : DevRef Cert.ReferenceIdeal.τ Cert.ReferenceIdeal.sig) : Cert.KernelIdeal.S_.Idx → Elt F .f32) :=
  entropy_agree m m' outs c (hagree c).2.2.1

end Cross

end Cert.Bridge

end
-- ==== Proof.Bridge.lean ====
/-
  The kernel program and the reference compute the same four results.

  Both programs read the same seven arguments. The reference is host operations only; the kernel
  program replaces two stretches of them by kernels: the first pools the embedded nodes and the
  aggregated assignments by the transposed assignment matrix (two matrix products accumulated over
  six row blocks), the second sums the squared residual of the dense adjacency against the
  assignments' Gram matrix tile by tile (144 tiles) into per-row totals, which the host then sums.
  At the ideal instance (floats are extended reals, every operation exact, format changes the
  identity) each kernel's output array is the reference's corresponding term of the arrays the kernel
  was entered with; those arrays are the reference's own intermediate values, because up to the
  kernels the two programs apply the same host operations to the same arguments; and the entropy
  result never passes through a kernel. Hence the four results are equal, buffer by buffer.
-/
import proofs.«172850_j70214125355087_1_alg».proof.Defs
import proofs.«172850_j70214125355087_1_alg».proof.Proof.Gen.Kernel
import proofs.«172850_j70214125355087_1_alg».proof.Proof.Gen.KernelIdeal
import proofs.«172850_j70214125355087_1_alg».proof.Proof.Gen.ReferenceIdeal
import proofs.«172850_j70214125355087_1_alg».proof.Proof.Gen.Pre_finite_inputs
import proofs.«172850_j70214125355087_1_alg».proof.Proof.KIRun
import proofs.«172850_j70214125355087_1_alg».proof.Proof.KRun
import proofs.«172850_j70214125355087_1_alg».proof.Proof.KIJoin0
import proofs.«172850_j70214125355087_1_alg».proof.Proof.KIJoin1
import proofs.«172850_j70214125355087_1_alg».proof.Proof.HostEq
import proofs.«172850_j70214125355087_1_alg».proof.Proof.HostEq2
import proofs.«172850_j70214125355087_1_alg».proof.Proof.RefRun

set_option maxRecDepth 16384

noncomputable section

namespace Cert.Bridge

open Idealize.ShloMosaic Idealize.ShloMosaic.TcCoe Idealize.SL.Sem
open Cert.KernelIdeal Cert.KernelIdeal.Gen
open Cert.KernelIdeal.Hand (outs outs_h outs_adj outs_loss V7r V9r run_all mem_uc region0_h region0_adj region1_loss)
open Cert.ReferenceIdeal.Hand (WR WR_v90 WR_v102 WR_v123)

/-! ## The four results

What each kernel is entered with is, at the ideal instance, an intermediate value of the reference: the
assignment matrix, the embedded nodes, the aggregated assignments and the dense adjacency are computed by the
same host operations from the same arguments in both programs, and the host's conversions of the first three
to a narrower format are the identity on extended reals. -/

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ArgsAgree m m') (c : Dev Cert.KernelIdeal.nD)
include hagree

/-- The pooled adjacency: Sᵀ · (A S), accumulated by the first kernel, is the reference's product. -/
theorem adj_result : V15 m (outs m) c main_v102_1 = WR m' c Cert.ReferenceIdeal.main_v102 :=
  (adj_kept m (outs m) c).trans <| (outs_adj m c).trans <|
    (region0_adj (V7r m) c (WR m' c Cert.ReferenceIdeal.main_v88) (WR m' c Cert.ReferenceIdeal.main_v100)
      Cert.ReferenceIdeal.Gen.transposes_S12288x256_S256x12288_1_0
      (result_bf16_agree m m' hagree c) (ar_bf16_agree m m' hagree c)).trans
    (WR_v102 (F := Ideal) m' c).symm

/-- The pooled features: Sᵀ · Z, accumulated by the first kernel, is the reference's product. -/
theorem pooled_result : V15 m (outs m) c main_v102_0 = WR m' c Cert.ReferenceIdeal.main_v90 :=
  (pooled_kept m (outs m) c).trans <| (outs_h m c).trans <|
    (region0_h (V7r m) c (WR m' c Cert.ReferenceIdeal.main_v88) (WR m' c Cert.ReferenceIdeal.main_v32)
      Cert.ReferenceIdeal.Gen.transposes_S12288x256_S256x12288_1_0
      (result_bf16_agree m m' hagree c) (embed_bf16_agree m m' hagree c)).trans
    (WR_v90 (F := Ideal) m' c).symm

/-- The link loss: the host's sum of the second kernel's per-row totals is the reference's sum of every
    squared residual; the square root and the division by the number of entries are the same on both sides. -/
theorem linkloss_result : V15 m (outs m) c main_v124 = WR m' c Cert.ReferenceIdeal.main_v123 := by
  refine (linkloss_tail m (outs m) c).trans ?_
  rw [outs_loss m c,
    region1_loss (V9r m) c (WR m' c Cert.ReferenceIdeal.main_v118) (WR m' c Cert.ReferenceIdeal.main_v88)
      (dense_agree_of_args m m' (outs m) hagree c) (result_bf16_agree9 m m' (outs m) hagree c)]
  exact (WR_v123 (F := Ideal) m' c).symm

/-- The entropy term passes through no kernel: host operations alike on both sides. -/
theorem entropy_result : V15 m (outs m) c main_v139 = WR m' c Cert.ReferenceIdeal.main_v138 :=
  entropy_agree_of_args m m' (outs m) hagree c

end Results

/-! ## The claims -/

theorem frame_k : Cert.frame_Kernel := fun m ρ _ => Cert.Kernel.Hand.frame m ρ

theorem frame_ki : Cert.frame_KernelIdeal := fun m ρ _ => Cert.KernelIdeal.Hand.frame m ρ

/-- The reference writes every buffer once and never an argument: each argument ends as launched. -/
theorem frame_ri : Cert.frame_ReferenceIdeal := fun m ρ _ =>
  (θ_run Cert.ReferenceIdeal.defs _ _).mono (fun r h c =>
    ⟨(h c _).trans (Cert.ReferenceIdeal.Hand.WR_arg0 m c), (h c _).trans (Cert.ReferenceIdeal.Hand.WR_arg1 m c),
     (h c _).trans (Cert.ReferenceIdeal.Hand.WR_arg2 m c), (h c _).trans (Cert.ReferenceIdeal.Hand.WR_arg3 m c),
     (h c _).trans (Cert.ReferenceIdeal.Hand.WR_arg4 m c), (h c _).trans (Cert.ReferenceIdeal.Hand.WR_arg5 m c),
     (h c _).trans (Cert.ReferenceIdeal.Hand.WR_arg6 m c)⟩) (Cert.ReferenceIdeal.Hand.run (F := Ideal) m ρ)

/-- The idealization rewrote no operation. -/
theorem preserves : Cert.preserves_Kernel_KernelIdeal := trivial

/-- At the ideal instance both programs run; the kernel program ends with its four result buffers at the
    reference's four results (the witnesses), and each program with its arguments as launched. -/
theorem algebraic : Cert.algebraic_KernelIdeal_ReferenceIdeal := by
  intro m ρ m' ρ' _ hagree
  refine ⟨fun c => WR m' c Cert.ReferenceIdeal.main_v102, fun c => WR m' c Cert.ReferenceIdeal.main_v90,
    fun c => WR m' c Cert.ReferenceIdeal.main_v123, fun c => WR m' c Cert.ReferenceIdeal.main_v138, ?_, ?_⟩
  · refine (θ_run Cert.KernelIdeal.defs _ _).mono (fun r h c => ?_) (run_all (F := Ideal) m ρ)
    exact ⟨(h c _ (mem_uc main_v102_1 (by decide))).trans (adj_result m m' hagree c),
      (h c _ (mem_uc main_v102_0 (by decide))).trans (pooled_result m m' hagree c),
      (h c _ (mem_uc main_v124 (by decide))).trans (linkloss_result m m' hagree c),
      (h c _ (mem_uc main_v139 (by decide))).trans (entropy_result m m' hagree c),
      (h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c)⟩
  · refine (θ_run Cert.ReferenceIdeal.defs _ _).mono (fun r h c => ?_) (Cert.ReferenceIdeal.Hand.run (F := Ideal) m' ρ')
    exact ⟨h c _, h c _, h c _, h c _,
      (h c _).trans (Cert.ReferenceIdeal.Hand.WR_arg0 m' c), (h c _).trans (Cert.ReferenceIdeal.Hand.WR_arg1 m' c),
      (h c _).trans (Cert.ReferenceIdeal.Hand.WR_arg2 m' c), (h c _).trans (Cert.ReferenceIdeal.Hand.WR_arg3 m' c),
      (h c _).trans (Cert.ReferenceIdeal.Hand.WR_arg4 m' c), (h c _).trans (Cert.ReferenceIdeal.Hand.WR_arg5 m' c),
      (h c _).trans (Cert.ReferenceIdeal.Hand.WR_arg6 m' c)⟩

end Cert.Bridge

end
-- ==== Proof.lean ====
/- Node pooling with a dense adjacency loss. The kernel program and the reference both run from any memory and leave
   their seven arguments as launched; read over the extended reals, with every operation exact, they end with
   the same pooled adjacency, pooled features, link loss and entropy term — the first kernel's two accumulated
   matrix products and the second kernel's tiled sum of squared residuals being the reference's own terms
   (Proof/Bridge.lean). The idealization rewrote no operation. -/
import proofs.«172850_j70214125355087_1_alg».proof.Defs
import proofs.«172850_j70214125355087_1_alg».proof.Proof.Gen.Kernel
import proofs.«172850_j70214125355087_1_alg».proof.Proof.Gen.KernelIdeal
import proofs.«172850_j70214125355087_1_alg».proof.Proof.Gen.ReferenceIdeal
import proofs.«172850_j70214125355087_1_alg».proof.Proof.Gen.Pre_finite_inputs
import proofs.«172850_j70214125355087_1_alg».proof.Proof.Bridge

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, Cert.Bridge.preserves, Cert.Bridge.algebraic⟩

end Cert.Proof

end
